-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x64x2 : Shape := ⟨3, ![1024, 64, 2]⟩
abbrev S1024x64x64 : Shape := ⟨3, ![1024, 64, 64]⟩
abbrev S1024x512x256 : Shape := ⟨3, ![1024, 512, 256]⟩
abbrev S256x256 : Shape := ⟨2, ![256, 256]⟩
abbrev S256 : Shape := ⟨1, ![256]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x64x2 : S_.BroadcastsInDim S1024x64x2 (![] : Fin 0 → Fin S1024x64x2.rank)
  reducesTo_S1024x64x2_S_d0_1_2 : S1024x64x2.ReducesTo [0, 1, 2] S_
  bcast_S_S1024x64x64 : S_.BroadcastsInDim S1024x64x64 (![] : Fin 0 → Fin S1024x64x64.rank)
  reducesTo_S1024x64x64_S_d0_1_2 : S1024x64x64.ReducesTo [0, 1, 2] S_
  bcast_S_S1024x512x256 : S_.BroadcastsInDim S1024x512x256 (![] : Fin 0 → Fin S1024x512x256.rank)
  reducesTo_S1024x512x256_S_d0_1_2 : S1024x512x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v47 : IVec S_ 1) (main_v49 : IVec S1024x64 1) (main_c_19 : IVec S_ 1) : IVec S_ 1 :=
  let main_v50 : IVec S_ 1 := (fun x v => Host.reduce IntOp.andi x v reducesTo_S1024x64_S_d0_1 h_S_) main_v49 main_c_19
  let main_v51 : IVec S_ 1 := andi main_v47 main_v50
  main_v51

def fn_part2 {F : FTy → Type} [FloatOps F] (main_arg6 : IVec S1024x64 32) (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S1024x64 32 := broadcastInDim S1024x64 ![] bcast_S_S1024x64 main_c_16
  let main_v45 : IVec S1024x64 1 := cmpi .sge main_arg6 main_v44
  let main_c_17 : IVec S_ 1 := constantI S_ 1 1#1
  let main_v46 : IVec S_ 1 := (fun x v => Host.reduce IntOp.andi x v reducesTo_S1024x64_S_d0_1 h_S_) main_v45 main_c_17
  let main_v47 : IVec S_ 1 := andi main_v43 main_v46
  let main_c_18 : IVec S_ 32 := constantI S_ 32 512#32
  let main_v48 : IVec S1024x64 32 := broadcastInDim S1024x64 ![] bcast_S_S1024x64 main_c_18
  let main_v49 : IVec S1024x64 1 := cmpi .slt main_arg6 main_v48
  let main_c_19 : IVec S_ 1 := constantI S_ 1 1#1
  fn_part3 (F := F) main_v47 main_v49 main_c_19

def fn_part1 {F : FTy → Type} [FloatOps F] (main_arg4 : FVec F S1024x64x64 .f32) (main_arg5 : FVec F S1024x64 .f32) (main_arg6 : IVec S1024x64 32) (main_arg7 : FVec F S1024x512x256 .f32) (main_arg8 : FVec F S256x256 .f32) (main_arg9 : FVec F S256 .f32) (main_v13 : IVec S_ 1) (main_v16 : IVec S1024x64x64 1) : IVec S_ 1 :=
  let main_c_5 : IVec S_ 1 := constantI S_ 1 1#1
  let main_v17 : IVec S_ 1 := (fun x v => Host.reduce IntOp.andi x v reducesTo_S1024x64x64_S_d0_1_2 h_S_) main_v16 main_c_5
  let main_v18 : IVec S_ 1 := andi main_v13 main_v17
  let main_v19 : FVec F S1024x64x64 .f32 := Host.absf main_arg4
  let main_cst_6 : FVec F S_ .f32 := constant S_ .f32 0x7F800000#32
  let main_v20 : FVec F S1024x64x64 .f32 := broadcastInDim S1024x64x64 ![] bcast_S_S1024x64x64 main_cst_6
  let main_v21 : IVec S1024x64x64 1 := cmpf .olt main_v19 main_v20
  let main_c_7 : IVec S_ 1 := constantI S_ 1 1#1
  let main_v22 : IVec S_ 1 := (fun x v => Host.reduce IntOp.andi x v reducesTo_S1024x64x64_S_d0_1_2 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S1024x512x256 .f32 := Host.absf main_arg7
  let main_cst_10 : FVec F S_ .f32 := constant S_ .f32 0x7F800000#32
  let main_v30 : FVec F S1024x512x256 .f32 := broadcastInDim S1024x512x256 ![] bcast_S_S1024x512x256 main_cst_10
  let main_v31 : IVec S1024x512x256 1 := cmpf .olt main_v29 main_v30
  let main_c_11 : IVec S_ 1 := constantI S_ 1 1#1
  let main_v32 : IVec S_ 1 := (fun x v => Host.reduce IntOp.andi x v reducesTo_S1024x512x256_S_d0_1_2 h_S_) main_v31 main_c_11
  let main_v33 : IVec S_ 1 := andi main_v28 main_v32
  fn_part2 (F := F) main_arg6 main_arg8 main_arg9 main_v33

def fn {F : FTy → Type} [FloatOps F] (main_arg0 : FVec F S1024x64 .f32) (main_arg1 : FVec F S1024x64x2 .f32) (main_arg2 : FVec F S1024x64x64 .f32) (main_arg3 : FVec F S1024x64x64 .f32) (main_arg4 : FVec F S1024x64x64 .f32) (main_arg5 : FVec F S1024x64 .f32) (main_arg6 : IVec S1024x64 32) (main_arg7 : FVec F S1024x512x256 .f32) (main_arg8 : FVec F S256x256 .f32) (main_arg9 : FVec F S256 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x64x2 .f32 := Host.absf main_arg1
  let main_cst_0 : FVec F S_ .f32 := constant S_ .f32 0x7F800000#32
  let main_v5 : FVec F S1024x64x2 .f32 := broadcastInDim S1024x64x2 ![] bcast_S_S1024x64x2 main_cst_0
  let main_v6 : IVec S1024x64x2 1 := cmpf .olt main_v4 main_v5
  let main_c_1 : IVec S_ 1 := constantI S_ 1 1#1
  let main_v7 : IVec S_ 1 := (fun x v => Host.reduce IntOp.andi x v reducesTo_S1024x64x2_S_d0_1_2 h_S_) main_v6 main_c_1
  let main_v8 : IVec S_ 1 := andi main_v3 main_v7
  let main_v9 : FVec F S1024x64x64 .f32 := Host.absf main_arg2
  let main_cst_2 : FVec F S_ .f32 := constant S_ .f32 0x7F800000#32
  let main_v10 : FVec F S1024x64x64 .f32 := broadcastInDim S1024x64x64 ![] bcast_S_S1024x64x64 main_cst_2
  let main_v11 : IVec S1024x64x64 1 := cmpf .olt main_v9 main_v10
  let main_c_3 : IVec S_ 1 := constantI S_ 1 1#1
  let main_v12 : IVec S_ 1 := (fun x v => Host.reduce IntOp.andi x v reducesTo_S1024x64x64_S_d0_1_2 h_S_) main_v11 main_c_3
  let main_v13 : IVec S_ 1 := andi main_v8 main_v12
  let main_v14 : FVec F S1024x64x64 .f32 := Host.absf main_arg3
  let main_cst_4 : FVec F S_ .f32 := constant S_ .f32 0x7F800000#32
  let main_v15 : FVec F S1024x64x64 .f32 := broadcastInDim S1024x64x64 ![] bcast_S_S1024x64x64 main_cst_4
  let main_v16 : IVec S1024x64x64 1 := cmpf .olt main_v14 main_v15
  fn_part1 (F := F) main_arg4 main_arg5 main_arg6 main_arg7 main_arg8 main_arg9 main_v13 main_v16
-- ==== Kernel.lean ====
abbrev S1024x64 : Shape := ⟨2, ![1024, 64]⟩
abbrev S1024x64x2 : Shape := ⟨3, ![1024, 64, 2]⟩
abbrev S1024x64x64 : Shape := ⟨3, ![1024, 64, 64]⟩
abbrev S1024x512x256 : Shape := ⟨3, ![1024, 512, 256]⟩
abbrev S256x256 : Shape := ⟨2, ![256, 256]⟩
abbrev S256 : Shape := ⟨1, ![256]⟩
abbrev S65536 : Shape := ⟨1, ![65536]⟩
abbrev S1024x256 : Shape := ⟨2, ![1024, 256]⟩
abbrev S16x256 : Shape := ⟨2, ![16, 256]⟩
abbrev S64 : Shape := ⟨1, ![64]⟩
abbrev S1 : Shape := ⟨1, ![1]⟩
abbrev S_ : Shape := ⟨0, ![]⟩
abbrev S1x256 : Shape := ⟨2, ![1, 256]⟩
abbrev S1x512x256 : Shape := ⟨3, ![1, 512, 256]⟩
abbrev S512x256 : Shape := ⟨2, ![512, 256]⟩
abbrev S16x64x256 : Shape := ⟨3, ![16, 64, 256]⟩
abbrev S1024x128 : Shape := ⟨2, ![1024, 128]⟩
abbrev S1024x4096 : Shape := ⟨2, ![1024, 4096]⟩
abbrev S1024x12800 : Shape := ⟨2, ![1024, 12800]⟩

abbrev nBuf : Space → Nat
  | .hbm => 16
  | .vmem => 5
  | .smem => 1
  | _ => 0

abbrev bufTy : (tb : Table) → Fin (tcTables nBuf tb) → BufTy
  | .hbm, ⟨0, _⟩ => ⟨S1024x64, .f32⟩
  | .hbm, ⟨1, _⟩ => ⟨S1024x64x2, .f32⟩
  | .hbm, ⟨2, _⟩ => ⟨S1024x64x64, .f32⟩
  | .hbm, ⟨3, _⟩ => ⟨S1024x64x64, .f32⟩
  | .hbm, ⟨4, _⟩ => ⟨S1024x64x64, .f32⟩
  | .hbm, ⟨5, _⟩ => ⟨S1024x64, .f32⟩
  | .hbm, ⟨6, _⟩ => ⟨S1024x64, .i32⟩
  | .hbm, ⟨7, _⟩ => ⟨S1024x512x256, .f32⟩
  | .hbm, ⟨8, _⟩ => ⟨S256x256, .f32⟩
  | .hbm, ⟨9, _⟩ => ⟨S256, .f32⟩
  | .hbm, ⟨10, _⟩ => ⟨S1024x256, .f32⟩
  | .hbm, ⟨11, _⟩ => ⟨S1024x128, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S1024x12800, .f32⟩
  | .local _ .vmem, ⟨0, _⟩ => ⟨S256x256, .f32⟩
  | .local _ .vmem, ⟨1, _⟩ => ⟨S256, .f32⟩
  | .local _ .vmem, ⟨2, _⟩ => ⟨S16x256, .f32⟩
  | .local _ .vmem, ⟨3, _⟩ => ⟨S16x256, .f32⟩
  | .local _ .vmem, ⟨4, _⟩ => ⟨S1024x256, .f32⟩
  | .local _ .smem, ⟨0, _⟩ => ⟨S65536, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let c64_i32_141 : BitVec 32 := 64#32
  let v65 : BitVec 32 := Scalar.muli v0 c64_i32_141
  let c0_i32_133 : BitVec 32 := 0#32
  let c0_i32 : BitVec 32 := 0#32
  let c1_i32 : BitVec 32 := 1#32
  let arg8 : BitVec 32 := Scf.iv c0_i32 c1_i32 k0_t1
  let v46 : BitVec 32 := Scalar.addi c0_i32_133 arg8
  let v66 : BitVec 32 := Scalar.addi v65 v46
  let v67 : Index := Scalar.indexCast v66
  ![v67.toNat]
def k0_off2 (k0_t1 : Fin k0_t1_loop.trips) : Fin 1 → Nat :=
  let c0_i32 : BitVec 32 := 0#32
  let c1_i32 : BitVec 32 := 1#32
  let arg8 : BitVec 32 := Scf.iv c0_i32 c1_i32 k0_t1
  ![arg8.toNat]
def k0_off3 (k0_t1 : Fin k0_t1_loop.trips) : Fin 2 → Nat :=
  let c0_i32_133 : BitVec 32 := 0#32
  let c0_i32 : BitVec 32 := 0#32
  let c1_i32 : BitVec 32 := 1#32
  let arg8 : BitVec 32 := Scf.iv c0_i32 c1_i32 k0_t1
  let v46 : BitVec 32 := Scalar.addi c0_i32_133 arg8
  let c0_i32_142 : BitVec 32 := 0#32
  ![v46.toNat, 0]
def k0_off4 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let c0_i32_133 : BitVec 32 := 0#32
  let c0_i32 : BitVec 32 := 0#32
  let c1_i32 : BitVec 32 := 1#32
  let arg8 : BitVec 32 := Scf.iv c0_i32 c1_i32 k0_t1
  let v46 : BitVec 32 := Scalar.addi c0_i32_133 arg8
  let c0_i32_135 : BitVec 32 := 0#32
  let v48 : BitVec 1 := Scalar.cmpi .sgt v46 c0_i32_135
  let v49 : BitVec 32 := Scalar.extui v48
  let c0_i32_136 : BitVec 32 := 0#32
  let v50 : BitVec 1 := Scalar.cmpi .slt v46 c0_i32_136
  let v51 : BitVec 32 := Scalar.extui v50
  let v52 : BitVec 32 := Scalar.subi v49 v51
  let c64_i32_134 : BitVec 32 := 64#32
  let c0_i32_137 : BitVec 32 := 0#32
  let v53 : BitVec 1 := Scalar.cmpi .sgt c64_i32_134 c0_i32_137
  let v54 : BitVec 32 := Scalar.extui v53
  let c0_i32_138 : BitVec 32 := 0#32
  let v55 : BitVec 1 := Scalar.cmpi .slt c64_i32_134 c0_i32_138
  let v56 : BitVec 32 := Scalar.extui v55
  let v57 : BitVec 32 := Scalar.subi v54 v56
  let v58 : BitVec 1 := Scalar.cmpi .ne v52 v57
  let v59 : BitVec 32 := Scalar.remsi v46 c64_i32_134
  let c0_i32_139 : BitVec 32 := 0#32
  let v60 : BitVec 1 := Scalar.cmpi .ne v59 c0_i32_139
  let v61 : BitVec 1 := Scalar.andi v58 v60
  let v47 : BitVec 32 := Scalar.divsi v46 c64_i32_134
  let c1_i32_140 : BitVec 32 := 1#32
  let v62 : BitVec 32 := Scalar.subi v47 c1_i32_140
  let v63 : BitVec 32 := Scalar.select v61 v62 v47
  let v64 : BitVec 32 := Scalar.addi v0 v63
  let c0_i32_143 : BitVec 32 := 0#32
  let c0_i32_144 : BitVec 32 := 0#32
  ![v64.toNat, 0, 0]
def k0_off5 (v68 : BitVec 32) : Fin 2 → Nat :=
  let c0_i32_145 : BitVec 32 := 0#32
  ![v68.toNat, 0]

def k0_chk1 (v68 : BitVec 32) : Prop :=
  (∀ a, (k0_off5 v68) a + S1x256.size a ≤ S512x256.size a)
instance k0_chk1.dec : ∀ (v68 : BitVec 32), Decidable (k0_chk1 v68) := fun v68 => decidable_of_iff' _ (Iff.of_eq (k0_chk1.eq_1 v68))
theorem k0_off5_inb : ∀ (v68 : BitVec 32) (k0_hw1 : k0_chk1 v68), ∀ a, (k0_off5 v68) a + S1x256.size a ≤ S512x256.size a := fun v68 k0_hw1 => k0_hw1

@[reducible] def k0_t2_loop : Scf.Loop 32 :=
  let c0_i32_1 : BitVec 32 := 0#32
  let c64_i32_2 : BitVec 32 := 64#32
  let v2 : BitVec 32 := Scalar.addi c0_i32_1 c64_i32_2
  let c1_i32_3 : BitVec 32 := 1#32
  ⟨c0_i32_1, v2, c1_i32_3⟩
def k0_off6 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let c64_i32_141 : BitVec 32 := 64#32
  let v65 : BitVec 32 := Scalar.muli v0 c64_i32_141
  let c0_i32_133 : BitVec 32 := 0#32
  let c0_i32_1 : BitVec 32 := 0#32
  let c1_i32_3 : BitVec 32 := 1#32
  let arg8 : BitVec 32 := Scf.iv c0_i32_1 c1_i32_3 k0_t2
  let v46 : BitVec 32 := Scalar.addi c0_i32_133 arg8
  let v66 : BitVec 32 := Scalar.addi v65 v46
  let v67 : Index := Scalar.indexCast v66
  ![v67.toNat]
def k0_off7 (k0_t2 : Fin k0_t2_loop.trips) : Fin 1 → Nat :=
  let c0_i32_1 : BitVec 32 := 0#32
  let c1_i32_3 : BitVec 32 := 1#32
  let arg8 : BitVec 32 := Scf.iv c0_i32_1 c1_i32_3 k0_t2
  ![arg8.toNat]
def k0_off8 (k0_t2 : Fin k0_t2_loop.trips) : Fin 2 → Nat :=
  let c0_i32_133 : BitVec 32 := 0#32
  let c0_i32_1 : BitVec 32 := 0#32
  let c1_i32_3 : BitVec 32 := 1#32
  let arg8 : BitVec 32 := Scf.iv c0_i32_1 c1_i32_3 k0_t2
  let v46 : BitVec 32 := Scalar.addi c0_i32_133 arg8
  let c0_i32_142 : BitVec 32 := 0#32
  ![v46.toNat, 0]
def k0_off9 (i : grid0.Coords) (k0_t2 : Fin k0_t2_loop.trips) : Fin 3 → Nat :=
  let arg0 : BitVec 32 := BitVec.ofNat 32 (i 0).val
  let c16_i32 : BitVec 32 := 16#32
  let v0 : BitVec 32 := Scalar.muli arg0 c16_i32
  let c0_i32_133 : BitVec 32 := 0#32
  let c0_i32_1 : BitVec 32 := 0#32
  let c1_i32_3 : BitVec 32 := 1#32
  let arg8 : BitVec 32 := Scf.iv c0_i32_1 c1_i32_3 k0_t2
  let v46 : BitVec 32 := Scalar.addi c0_i32_133 arg8
  let c0_i32_135 : BitVec 32 := 0#32
  let v48 : BitVec 1 := Scalar.cmpi .sgt v46 c0_i32_135
  let v49 : BitVec 32 := Scalar.extui v48
  let c0_i32_136 : BitVec 32 := 0#32
  let v50 : BitVec 1 := Scalar.cmpi .slt v46 c0_i32_136
  let v51 : BitVec 32 := Scalar.extui v50
  let v52 : BitVec 32 := Scalar.subi v49 v51
  let c64_i32_134 : BitVec 32 := 64#32
  let c0_i32_137 : BitVec 32 := 0#32
  let v53 : BitVec 1 := Scalar.cmpi .sgt c64_i32_134 c0_i32_137
  let v54 : BitVec 32 := Scalar.extui v53
  let c0_i32_138 : BitVec 32 := 0#32
  let v55 : BitVec 1 := Scalar.cmpi .slt c64_i32_134 c0_i32_138
  let v56 : BitVec 32 := Scalar.extui v55
  let v57 : BitVec 32 := Scalar.subi v54 v56
  let v58 : BitVec 1 := Scalar.cmpi .ne v52 v57
  let v59 : BitVec 32 := Scalar.remsi v46 c64_i32_134
  let c0_i32_139 : BitVec 32 := 0#32
  let v60 : BitVec 1 := Scalar.cmpi .ne v59 c0_i32_139
  let v61 : BitVec 1 := Scalar.andi v58 v60
  let v47 : BitVec 32 := Scalar.divsi v46 c64_i32_134
  let c1_i32_140 : BitVec 32 := 1#32
  let v62 : BitVec 32 := Scalar.subi v47 c1_i32_140
  let v63 : BitVec 32 := Scalar.select v61 v62 v47
  let v64 : BitVec 32 := Scalar.addi v0 v63
  let c0_i32_143 : BitVec 32 := 0#32
  let c0_i32_144 : BitVec 32 := 0#32
  ![v64.toNat, 0, 0]
def k0_off10 (v68 : BitVec 32) : Fin 2 → Nat :=
  let c0_i32_145 : BitVec 32 := 0#32
  ![v68.toNat, 0]

def k0_chk2 (v68 : BitVec 32) : Prop :=
  (∀ a, (k0_off10 v68) a + S1x256.size a ≤ S512x256.size a)
instance k0_chk2.dec : ∀ (v68 : BitVec 32), Decidable (k0_chk2 v68) := fun v68 => decidable_of_iff' _ (Iff.of_eq (k0_chk2.eq_1 v68))
theorem k0_off10_inb : ∀ (v68 : BitVec 32) (k0_hw2 : k0_chk2 v68), ∀ a, (k0_off10 v68) a + S1x256.size a ≤ S512x256.size a := fun v68 k0_hw2 => k0_hw2

@[reducible] def k0_t3_loop : Scf.Loop 32 :=
  let c0_i32_5 : BitVec 32 := 0#32
  let c64_i32_6 : BitVec 32 := 64#32
  let v3 : BitVec 32 := Scalar.addi c0_i32_5 c64_i32_6
  let c1_i32_7 : BitVec 32 := 1#32
  ⟨c0_i32_5, v3, c1_i32_7⟩
def k0_off11 (i : grid0.Coords) (k0_t3 : Fin k0_t3_loop.trips) : Fin 1 → Nat :=
  let arg0 : BitVec 32 := BitVec.ofNat 32 (i 0).val
  let c16_i32 : BitVec 32 := 16#32
  let v0 : BitVec 32 := Scalar.muli arg0 c16_i32
  let c64_i32_141 : BitVec 32 := 64#32
  let v65 : BitVec 32 := Scalar.muli v0 c64_i32_141
  let c64_i32_133 : BitVec 32 := 64#32
  let c0_i32_5 : BitVec 32 := 0#32
  let c1_i32_7 : BitVec 32 := 1#32
  let arg8 : BitVec 32 := Scf.iv c0_i32_5 c1_i32_7 k0_t3
  let v46 : BitVec 32 := Scalar.addi c64_i32_133 arg8
  let v66 : BitVec 32 := Scalar.addi v65 v46
  let v67 : Index := Scalar.indexCast v66
  ![v67.toNat]
def k0_off12 (k0_t3 : Fin k0_t3_loop.trips) : Fin 1 → Nat :=
  let c0_i32_5 : BitVec 32 := 0#32
  let c1_i32_7 : BitVec 32 := 1#32
  let arg8 : BitVec 32 := Scf.iv c0_i32_5 c1_i32_7 k0_t3
  ![arg8.toNat]
def k0_off13 (k0_t3 : Fin k0_t3_loop.trips) : Fin 2 → Nat :=
  let c64_i32_133 : BitVec 32 := 64#32
  let c0_i32_5 : BitVec 32 := 0#32
  let c1_i32_7 : BitVec 32 := 1#32
  let arg8 : BitVec 32 := Scf.iv c0_i32_5 c1_i32_7 k0_t3
  let v46 : BitVec 32 := Scalar.addi c64_i32_133 arg8
  let c0_i32_142 : BitVec 32 := 0#32
  ![v46.toNat, 0]
def k0_off14 (i : grid0.Coords) (k0_t3 : Fin k0_t3_loop.trips) : Fin 3 → Nat :=
  let arg0 : BitVec 32 := BitVec.ofNat 32 (i 0).val
  let c16_i32 : BitVec 32 := 16#32
  let v0 : BitVec 32 := Scalar.muli arg0 c16_i32
  let c64_i32_133 : BitVec 32 := 64#32
  let c0_i32_5 : BitVec 32 := 0#32
  let c1_i32_7 : BitVec 32 := 1#32
  let arg8 : BitVec 32 := Scf.iv c0_i32_5 c1_i32_7 k0_t3
  let v46 : BitVec 32 := Scalar.addi c64_i32_133 arg8
  let c0_i32_135 : BitVec 32 := 0#32
  let v48 : BitVec 1 := Scalar.cmpi .sgt v46 c0_i32_135
  let v49 : BitVec 32 := Scalar.extui v48
  let c0_i32_136 : BitVec 32 := 0#32
  let v50 : BitVec 1 := Scalar.cmpi .slt v46 c0_i32_136
  let v51 : BitVec 32 := Scalar.extui v50
  let v52 : BitVec 32 := Scalar.subi v49 v51
  let c64_i32_134 : BitVec 32 := 64#32
  let c0_i32_137 : BitVec 32 := 0#32
  let v53 : BitVec 1 := Scalar.cmpi .sgt c64_i32_134 c0_i32_137
  let v54 : BitVec 32 := Scalar.extui v53
  let c0_i32_138 : BitVec 32 := 0#32
  let v55 : BitVec 1 := Scalar.cmpi .slt c64_i32_134 c0_i32_138
  let v56 : BitVec 32 := Scalar.extui v55
  let v57 : BitVec 32 := Scalar.subi v54 v56
  let v58 : BitVec 1 := Scalar.cmpi .ne v52 v57
  let v59 : BitVec 32 := Scalar.remsi v46 c64_i32_134
  let c0_i32_139 : BitVec 32 := 0#32
  let v60 : BitVec 1 := Scalar.cmpi .ne v59 c0_i32_139
  let v61 : BitVec 1 := Scalar.andi v58 v60
  let v47 : BitVec 32 := Scalar.divsi v46 c64_i32_134
  let c1_i32_140 : BitVec 32 := 1#32
  let v62 : BitVec 32 := Scalar.subi v47 c1_i32_140
  let v63 : BitVec 32 := Scalar.select v61 v62 v47
  let v64 : BitVec 32 := Scalar.addi v0 v63
  let c0_i32_143 : BitVec 32 := 0#32
  let c0_i32_144 : BitVec 32 := 0#32
  ![v64.toNat, 0, 0]
def k0_off15 (v68 : BitVec 32) : Fin 2 → Nat :=
  let c0_i32_145 : BitVec 32 := 0#32
  ![v68.toNat, 0]

def k0_chk3 (v68 : BitVec 32) : Prop :=
  (∀ a, (k0_off15 v68) a + S1x256.size a ≤ S512x256.size a)
instance k0_chk3.dec : ∀ (v68 : BitVec 32), Decidable (k0_chk3 v68) := fun v68 => decidable_of_iff' _ (Iff.of_eq (k0_chk3.eq_1 v68))
theorem k0_off15_inb : ∀ (v68 : BitVec 32) (k0_hw3 : k0_chk3 v68), ∀ a, (k0_off15 v68) a + S1x256.size a ≤ S512x256.size a := fun v68 k0_hw3 => k0_hw3

@[reducible] def k0_t4_loop : Scf.Loop 32 :=
  let c0_i32_9 : BitVec 32 := 0#32
  let c64_i32_10 : BitVec 32 := 64#32
  let v4 : BitVec 32 := Scalar.addi c0_i32_9 c64_i32_10
  let c1_i32_11 : BitVec 32 := 1#32
  ⟨c0_i32_9, v4, c1_i32_11⟩
def k0_off16 (i : grid0.Coords) (k0_t4 : Fin k0_t4_loop.trips) : Fin 1 → Nat :=
  let arg0 : BitVec 32 := BitVec.ofNat 32 (i 0).val
  let c16_i32 : BitVec 32 := 16#32
  let v0 : BitVec 32 := Scalar.muli arg0 c16_i32
  let c64_i32_141 : BitVec 32 := 64#32
  let v65 : BitVec 32 := Scalar.muli v0 c64_i32_141
  let c64_i32_133 : BitVec 32 := 64#32
  let c0_i32_9 : BitVec 32 := 0#32
  let c1_i32_11 : BitVec 32 := 1#32
  let arg8 : BitVec 32 := Scf.iv c0_i32_9 c1_i32_11 k0_t4
  let v46 : BitVec 32 := Scalar.addi c64_i32_133 arg8
  let v66 : BitVec 32 := Scalar.addi v65 v46
  let v67 : Index := Scalar.indexCast v66
  ![v67.toNat]
def k0_off17 (k0_t4 : Fin k0_t4_loop.trips) : Fin 1 → Nat :=
  let c0_i32_9 : BitVec 32 := 0#32
  let c1_i32_11 : BitVec 32 := 1#32
  let arg8 : BitVec 32 := Scf.iv c0_i32_9 c1_i32_11 k0_t4
  ![arg8.toNat]
def k0_off18 (k0_t4 : Fin k0_t4_loop.trips) : Fin 2 → Nat :=
  let c64_i32_133 : BitVec 32 := 64#32
  let c0_i32_9 : BitVec 32 := 0#32
  let c1_i32_11 : BitVec 32 := 1#32
  let arg8 : BitVec 32 := Scf.iv c0_i32_9 c1_i32_11 k0_t4
  let v46 : BitVec 32 := Scalar.addi c64_i32_133 arg8
  let c0_i32_142 : BitVec 32 := 0#32
  ![v46.toNat, 0]
def k0_off19 (i : grid0.Coords) (k0_t4 : Fin k0_t4_loop.trips) : Fin 3 → Nat :=
  let arg0 : BitVec 32 := BitVec.ofNat 32 (i 0).val
  let c16_i32 : BitVec 32 := 16#32
  let v0 : BitVec 32 := Scalar.muli arg0 c16_i32
  let c64_i32_133 : BitVec 32 := 64#32
  let c0_i32_9 : BitVec 32 := 0#32
  let c1_i32_11 : BitVec 32 := 1#32
  let arg8 : BitVec 32 := Scf.iv c0_i32_9 c1_i32_11 k0_t4
  let v46 : BitVec 32 := Scalar.addi c64_i32_133 arg8
  let c0_i32_135 : BitVec 32 := 0#32
  let v48 : BitVec 1 := Scalar.cmpi .sgt v46 c0_i32_135
  let v49 : BitVec 32 := Scalar.extui v48
  let c0_i32_136 : BitVec 32 := 0#32
  let v50 : BitVec 1 := Scalar.cmpi .slt v46 c0_i32_136
  let v51 : BitVec 32 := Scalar.extui v50
  let v52 : BitVec 32 := Scalar.subi v49 v51
  let c64_i32_134 : BitVec 32 := 64#32
  let c0_i32_137 : BitVec 32 := 0#32
  let v53 : BitVec 1 := Scalar.cmpi .sgt c64_i32_134 c0_i32_137
  let v54 : BitVec 32 := Scalar.extui v53
  let c0_i32_138 : BitVec 32 := 0#32
  let v55 : BitVec 1 := Scalar.cmpi .slt c64_i32_134 c0_i32_138
  let v56 : BitVec 32 := Scalar.extui v55
  let v57 : BitVec 32 := Scalar.subi v54 v56
  let v58 : BitVec 1 := Scalar.cmpi .ne v52 v57
  let v59 : BitVec 32 := Scalar.remsi v46 c64_i32_134
  let c0_i32_139 : BitVec 32 := 0#32
  let v60 : BitVec 1 := Scalar.cmpi .ne v59 c0_i32_139
  let v61 : BitVec 1 := Scalar.andi v58 v60
  let v47 : BitVec 32 := Scalar.divsi v46 c64_i32_134
  let c1_i32_140 : BitVec 32 := 1#32
  let v62 : BitVec 32 := Scalar.subi v47 c1_i32_140
  let v63 : BitVec 32 := Scalar.select v61 v62 v47
  let v64 : BitVec 32 := Scalar.addi v0 v63
  let c0_i32_143 : BitVec 32 := 0#32
  let c0_i32_144 : BitVec 32 := 0#32
  ![v64.toNat, 0, 0]
def k0_off20 (v68 : BitVec 32) : Fin 2 → Nat :=
  let c0_i32_145 : BitVec 32 := 0#32
  ![v68.toNat, 0]

def k0_chk4 (v68 : BitVec 32) : Prop :=
  (∀ a, (k0_off20 v68) a + S1x256.size a ≤ S512x256.size a)
instance k0_chk4.dec : ∀ (v68 : BitVec 32), Decidable (k0_chk4 v68) := fun v68 => decidable_of_iff' _ (Iff.of_eq (k0_chk4.eq_1 v68))
theorem k0_off20_inb : ∀ (v68 : BitVec 32) (k0_hw4 : k0_chk4 v68), ∀ a, (k0_off20 v68) a + S1x256.size a ≤ S512x256.size a := fun v68 k0_hw4 => k0_hw4

@[reducible] def k0_t5_loop : Scf.Loop 32 :=
  let c0_i32_13 : BitVec 32 := 0#32
  let c64_i32_14 : BitVec 32 := 64#32
  let v5 : BitVec 32 := Scalar.addi c0_i32_13 c64_i32_14
  let c1_i32_15 : BitVec 32 := 1#32
  ⟨c0_i32_13, v5, c1_i32_15⟩
def k0_off21 (i : grid0.Coords) (k0_t5 : Fin k0_t5_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c128_i32 : BitVec 32 := 128#32
  let c0_i32_13 : BitVec 32 := 0#32
  let c1_i32_15 : BitVec 32 := 1#32
  let arg8 : BitVec 32 := Scf.iv c0_i32_13 c1_i32_15 k0_t5
  let v46 : BitVec 32 := Scalar.addi c128_i32 arg8
  let v66 : BitVec 32 := Scalar.addi v65 v46
  let v67 : Index := Scalar.indexCast v66
  ![v67.toNat]
def k0_off22 (k0_t5 : Fin k0_t5_loop.trips) : Fin 1 → Nat :=
  let c0_i32_13 : BitVec 32 := 0#32
  let c1_i32_15 : BitVec 32 := 1#32
  let arg8 : BitVec 32 := Scf.iv c0_i32_13 c1_i32_15 k0_t5
  ![arg8.toNat]
def k0_off23 (k0_t5 : Fin k0_t5_loop.trips) : Fin 2 → Nat :=
  let c128_i32 : BitVec 32 := 128#32
  let c0_i32_13 : BitVec 32 := 0#32
  let c1_i32_15 : BitVec 32 := 1#32
  let arg8 : BitVec 32 := Scf.iv c0_i32_13 c1_i32_15 k0_t5
  let v46 : BitVec 32 := Scalar.addi c128_i32 arg8
  let c0_i32_141 : BitVec 32 := 0#32
  ![v46.toNat, 0]
def k0_off24 (i : grid0.Coords) (k0_t5 : Fin k0_t5_loop.trips) : Fin 3 → Nat :=
  let arg0 : BitVec 32 := BitVec.ofNat 32 (i 0).val
  let c16_i32 : BitVec 32 := 16#32
  let v0 : BitVec 32 := Scalar.muli arg0 c16_i32
  let c128_i32 : BitVec 32 := 128#32
  let c0_i32_13 : BitVec 32 := 0#32
  let c1_i32_15 : BitVec 32 := 1#32
  let arg8 : BitVec 32 := Scf.iv c0_i32_13 c1_i32_15 k0_t5
  let v46 : BitVec 32 := Scalar.addi c128_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off25 (v68 : BitVec 32) : Fin 2 → Nat :=
  let c0_i32_144 : BitVec 32 := 0#32
  ![v68.toNat, 0]

def k0_chk5 (v68 : BitVec 32) : Prop :=
  (∀ a, (k0_off25 v68) a + S1x256.size a ≤ S512x256.size a)
instance k0_chk5.dec : ∀ (v68 : BitVec 32), Decidable (k0_chk5 v68) := fun v68 => decidable_of_iff' _ (Iff.of_eq (k0_chk5.eq_1 v68))
theorem k0_off25_inb : ∀ (v68 : BitVec 32) (k0_hw5 : k0_chk5 v68), ∀ a, (k0_off25 v68) a + S1x256.size a ≤ S512x256.size a := fun v68 k0_hw5 => k0_hw5

@[reducible] def k0_t6_loop : Scf.Loop 32 :=
  let c0_i32_17 : BitVec 32 := 0#32
  let c64_i32_18 : BitVec 32 := 64#32
  let v6 : BitVec 32 := Scalar.addi c0_i32_17 c64_i32_18
  let c1_i32_19 : BitVec 32 := 1#32
  ⟨c0_i32_17, v6, c1_i32_19⟩
def k0_off26 (i : grid0.Coords) (k0_t6 : Fin k0_t6_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c128_i32 : BitVec 32 := 128#32
  let c0_i32_17 : BitVec 32 := 0#32
  let c1_i32_19 : BitVec 32 := 1#32
  let arg8 : BitVec 32 := Scf.iv c0_i32_17 c1_i32_19 k0_t6
  let v46 : BitVec 32 := Scalar.addi c128_i32 arg8
  let v66 : BitVec 32 := Scalar.addi v65 v46
  let v67 : Index := Scalar.indexCast v66
  ![v67.toNat]
def k0_off27 (k0_t6 : Fin k0_t6_loop.trips) : Fin 1 → Nat :=
  let c0_i32_17 : BitVec 32 := 0#32
  let c1_i32_19 : BitVec 32 := 1#32
  let arg8 : BitVec 32 := Scf.iv c0_i32_17 c1_i32_19 k0_t6
  ![arg8.toNat]
def k0_off28 (k0_t6 : Fin k0_t6_loop.trips) : Fin 2 → Nat :=
  let c128_i32 : BitVec 32 := 128#32
  let c0_i32_17 : BitVec 32 := 0#32
  let c1_i32_19 : BitVec 32 := 1#32
  let arg8 : BitVec 32 := Scf.iv c0_i32_17 c1_i32_19 k0_t6
  let v46 : BitVec 32 := Scalar.addi c128_i32 arg8
  let c0_i32_141 : BitVec 32 := 0#32
  ![v46.toNat, 0]
def k0_off29 (i : grid0.Coords) (k0_t6 : Fin k0_t6_loop.trips) : Fin 3 → Nat :=
  let arg0 : BitVec 32 := BitVec.ofNat 32 (i 0).val
  let c16_i32 : BitVec 32 := 16#32
  let v0 : BitVec 32 := Scalar.muli arg0 c16_i32
  let c128_i32 : BitVec 32 := 128#32
  let c0_i32_17 : BitVec 32 := 0#32
  let c1_i32_19 : BitVec 32 := 1#32
  let arg8 : BitVec 32 := Scf.iv c0_i32_17 c1_i32_19 k0_t6
  let v46 : BitVec 32 := Scalar.addi c128_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off30 (v68 : BitVec 32) : Fin 2 → Nat :=
  let c0_i32_144 : BitVec 32 := 0#32
  ![v68.toNat, 0]

def k0_chk6 (v68 : BitVec 32) : Prop :=
  (∀ a, (k0_off30 v68) a + S1x256.size a ≤ S512x256.size a)
instance k0_chk6.dec : ∀ (v68 : BitVec 32), Decidable (k0_chk6 v68) := fun v68 => decidable_of_iff' _ (Iff.of_eq (k0_chk6.eq_1 v68))
theorem k0_off30_inb : ∀ (v68 : BitVec 32) (k0_hw6 : k0_chk6 v68), ∀ a, (k0_off30 v68) a + S1x256.size a ≤ S512x256.size a := fun v68 k0_hw6 => k0_hw6

@[reducible] def k0_t7_loop : Scf.Loop 32 :=
  let c0_i32_21 : BitVec 32 := 0#32
  let c64_i32_22 : BitVec 32 := 64#32
  let v7 : BitVec 32 := Scalar.addi c0_i32_21 c64_i32_22
  let c1_i32_23 : BitVec 32 := 1#32
  ⟨c0_i32_21, v7, c1_i32_23⟩
def k0_off31 (i : grid0.Coords) (k0_t7 : Fin k0_t7_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c192_i32 : BitVec 32 := 192#32
  let c0_i32_21 : BitVec 32 := 0#32
  let c1_i32_23 : BitVec 32 := 1#32
  let arg8 : BitVec 32 := Scf.iv c0_i32_21 c1_i32_23 k0_t7
  let v46 : BitVec 32 := Scalar.addi c192_i32 arg8
  let v66 : BitVec 32 := Scalar.addi v65 v46
  let v67 : Index := Scalar.indexCast v66
  ![v67.toNat]
def k0_off32 (k0_t7 : Fin k0_t7_loop.trips) : Fin 1 → Nat :=
  let c0_i32_21 : BitVec 32 := 0#32
  let c1_i32_23 : BitVec 32 := 1#32
  let arg8 : BitVec 32 := Scf.iv c0_i32_21 c1_i32_23 k0_t7
  ![arg8.toNat]
def k0_off33 (k0_t7 : Fin k0_t7_loop.trips) : Fin 2 → Nat :=
  let c192_i32 : BitVec 32 := 192#32
  let c0_i32_21 : BitVec 32 := 0#32
  let c1_i32_23 : BitVec 32 := 1#32
  let arg8 : BitVec 32 := Scf.iv c0_i32_21 c1_i32_23 k0_t7
  let v46 : BitVec 32 := Scalar.addi c192_i32 arg8
  let c0_i32_141 : BitVec 32 := 0#32
  ![v46.toNat, 0]
def k0_off34 (i : grid0.Coords) (k0_t7 : Fin k0_t7_loop.trips) : Fin 3 → Nat :=
  let arg0 : BitVec 32 := BitVec.ofNat 32 (i 0).val
  let c16_i32 : BitVec 32 := 16#32
  let v0 : BitVec 32 := Scalar.muli arg0 c16_i32
  let c192_i32 : BitVec 32 := 192#32
  let c0_i32_21 : BitVec 32 := 0#32
  let c1_i32_23 : BitVec 32 := 1#32
  let arg8 : BitVec 32 := Scf.iv c0_i32_21 c1_i32_23 k0_t7
  let v46 : BitVec 32 := Scalar.addi c192_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off35 (v68 : BitVec 32) : Fin 2 → Nat :=
  let c0_i32_144 : BitVec 32 := 0#32
  ![v68.toNat, 0]

def k0_chk7 (v68 : BitVec 32) : Prop :=
  (∀ a, (k0_off35 v68) a + S1x256.size a ≤ S512x256.size a)
instance k0_chk7.dec : ∀ (v68 : BitVec 32), Decidable (k0_chk7 v68) := fun v68 => decidable_of_iff' _ (Iff.of_eq (k0_chk7.eq_1 v68))
theorem k0_off35_inb : ∀ (v68 : BitVec 32) (k0_hw7 : k0_chk7 v68), ∀ a, (k0_off35 v68) a + S1x256.size a ≤ S512x256.size a := fun v68 k0_hw7 => k0_hw7

@[reducible] def k0_t8_loop : Scf.Loop 32 :=
  let c0_i32_25 : BitVec 32 := 0#32
  let c64_i32_26 : BitVec 32 := 64#32
  let v8 : BitVec 32 := Scalar.addi c0_i32_25 c64_i32_26
  let c1_i32_27 : BitVec 32 := 1#32
  ⟨c0_i32_25, v8, c1_i32_27⟩
def k0_off36 (i : grid0.Coords) (k0_t8 : Fin k0_t8_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c192_i32 : BitVec 32 := 192#32
  let c0_i32_25 : BitVec 32 := 0#32
  let c1_i32_27 : BitVec 32 := 1#32
  let arg8 : BitVec 32 := Scf.iv c0_i32_25 c1_i32_27 k0_t8
  let v46 : BitVec 32 := Scalar.addi c192_i32 arg8
  let v66 : BitVec 32 := Scalar.addi v65 v46
  let v67 : Index := Scalar.indexCast v66
  ![v67.toNat]
def k0_off37 (k0_t8 : Fin k0_t8_loop.trips) : Fin 1 → Nat :=
  let c0_i32_25 : BitVec 32 := 0#32
  let c1_i32_27 : BitVec 32 := 1#32
  let arg8 : BitVec 32 := Scf.iv c0_i32_25 c1_i32_27 k0_t8
  ![arg8.toNat]
def k0_off38 (k0_t8 : Fin k0_t8_loop.trips) : Fin 2 → Nat :=
  let c192_i32 : BitVec 32 := 192#32
  let c0_i32_25 : BitVec 32 := 0#32
  let c1_i32_27 : BitVec 32 := 1#32
  let arg8 : BitVec 32 := Scf.iv c0_i32_25 c1_i32_27 k0_t8
  let v46 : BitVec 32 := Scalar.addi c192_i32 arg8
  let c0_i32_141 : BitVec 32 := 0#32
  ![v46.toNat, 0]
def k0_off39 (i : grid0.Coords) (k0_t8 : Fin k0_t8_loop.trips) : Fin 3 → Nat :=
  let arg0 : BitVec 32 := BitVec.ofNat 32 (i 0).val
  let c16_i32 : BitVec 32 := 16#32
  let v0 : BitVec 32 := Scalar.muli arg0 c16_i32
  let c192_i32 : BitVec 32 := 192#32
  let c0_i32_25 : BitVec 32 := 0#32
  let c1_i32_27 : BitVec 32 := 1#32
  let arg8 : BitVec 32 := Scf.iv c0_i32_25 c1_i32_27 k0_t8
  let v46 : BitVec 32 := Scalar.addi c192_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off40 (v68 : BitVec 32) : Fin 2 → Nat :=
  let c0_i32_144 : BitVec 32 := 0#32
  ![v68.toNat, 0]

def k0_chk8 (v68 : BitVec 32) : Prop :=
  (∀ a, (k0_off40 v68) a + S1x256.size a ≤ S512x256.size a)
instance k0_chk8.dec : ∀ (v68 : BitVec 32), Decidable (k0_chk8 v68) := fun v68 => decidable_of_iff' _ (Iff.of_eq (k0_chk8.eq_1 v68))
theorem k0_off40_inb : ∀ (v68 : BitVec 32) (k0_hw8 : k0_chk8 v68), ∀ a, (k0_off40 v68) a + S1x256.size a ≤ S512x256.size a := fun v68 k0_hw8 => k0_hw8

@[reducible] def k0_t9_loop : Scf.Loop 32 :=
  let c0_i32_29 : BitVec 32 := 0#32
  let c64_i32_30 : BitVec 32 := 64#32
  let v9 : BitVec 32 := Scalar.addi c0_i32_29 c64_i32_30
  let c1_i32_31 : BitVec 32 := 1#32
  ⟨c0_i32_29, v9, c1_i32_31⟩
def k0_off41 (i : grid0.Coords) (k0_t9 : Fin k0_t9_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c256_i32 : BitVec 32 := 256#32
  let c0_i32_29 : BitVec 32 := 0#32
  let c1_i32_31 : BitVec 32 := 1#32
  let arg8 : BitVec 32 := Scf.iv c0_i32_29 c1_i32_31 k0_t9
  let v46 : BitVec 32 := Scalar.addi c256_i32 arg8
  let v66 : BitVec 32 := Scalar.addi v65 v46
  let v67 : Index := Scalar.indexCast v66
  ![v67.toNat]
def k0_off42 (k0_t9 : Fin k0_t9_loop.trips) : Fin 1 → Nat :=
  let c0_i32_29 : BitVec 32 := 0#32
  let c1_i32_31 : BitVec 32 := 1#32
  let arg8 : BitVec 32 := Scf.iv c0_i32_29 c1_i32_31 k0_t9
  ![arg8.toNat]
def k0_off43 (k0_t9 : Fin k0_t9_loop.trips) : Fin 2 → Nat :=
  let c256_i32 : BitVec 32 := 256#32
  let c0_i32_29 : BitVec 32 := 0#32
  let c1_i32_31 : BitVec 32 := 1#32
  let arg8 : BitVec 32 := Scf.iv c0_i32_29 c1_i32_31 k0_t9
  let v46 : BitVec 32 := Scalar.addi c256_i32 arg8
  let c0_i32_141 : BitVec 32 := 0#32
  ![v46.toNat, 0]
def k0_off44 (i : grid0.Coords) (k0_t9 : Fin k0_t9_loop.trips) : Fin 3 → Nat :=
  let arg0 : BitVec 32 := BitVec.ofNat 32 (i 0).val
  let c16_i32 : BitVec 32 := 16#32
  let v0 : BitVec 32 := Scalar.muli arg0 c16_i32
  let c256_i32 : BitVec 32 := 256#32
  let c0_i32_29 : BitVec 32 := 0#32
  let c1_i32_31 : BitVec 32 := 1#32
  let arg8 : BitVec 32 := Scf.iv c0_i32_29 c1_i32_31 k0_t9
  let v46 : BitVec 32 := Scalar.addi c256_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off45 (v68 : BitVec 32) : Fin 2 → Nat :=
  let c0_i32_144 : BitVec 32 := 0#32
  ![v68.toNat, 0]

def k0_chk9 (v68 : BitVec 32) : Prop :=
  (∀ a, (k0_off45 v68) a + S1x256.size a ≤ S512x256.size a)
instance k0_chk9.dec : ∀ (v68 : BitVec 32), Decidable (k0_chk9 v68) := fun v68 => decidable_of_iff' _ (Iff.of_eq (k0_chk9.eq_1 v68))
theorem k0_off45_inb : ∀ (v68 : BitVec 32) (k0_hw9 : k0_chk9 v68), ∀ a, (k0_off45 v68) a + S1x256.size a ≤ S512x256.size a := fun v68 k0_hw9 => k0_hw9

@[reducible] def k0_t10_loop : Scf.Loop 32 :=
  let c0_i32_33 : BitVec 32 := 0#32
  let c64_i32_34 : BitVec 32 := 64#32
  let v10 : BitVec 32 := Scalar.addi c0_i32_33 c64_i32_34
  let c1_i32_35 : BitVec 32 := 1#32
  ⟨c0_i32_33, v10, c1_i32_35⟩
def k0_off46 (i : grid0.Coords) (k0_t10 : Fin k0_t10_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c256_i32 : BitVec 32 := 256#32
  let c0_i32_33 : BitVec 32 := 0#32
  let c1_i32_35 : BitVec 32 := 1#32
  let arg8 : BitVec 32 := Scf.iv c0_i32_33 c1_i32_35 k0_t10
  let v46 : BitVec 32 := Scalar.addi c256_i32 arg8
  let v66 : BitVec 32 := Scalar.addi v65 v46
  let v67 : Index := Scalar.indexCast v66
  ![v67.toNat]
def k0_off47 (k0_t10 : Fin k0_t10_loop.trips) : Fin 1 → Nat :=
  let c0_i32_33 : BitVec 32 := 0#32
  let c1_i32_35 : BitVec 32 := 1#32
  let arg8 : BitVec 32 := Scf.iv c0_i32_33 c1_i32_35 k0_t10
  ![arg8.toNat]
def k0_off48 (k0_t10 : Fin k0_t10_loop.trips) : Fin 2 → Nat :=
  let c256_i32 : BitVec 32 := 256#32
  let c0_i32_33 : BitVec 32 := 0#32
  let c1_i32_35 : BitVec 32 := 1#32
  let arg8 : BitVec 32 := Scf.iv c0_i32_33 c1_i32_35 k0_t10
  let v46 : BitVec 32 := Scalar.addi c256_i32 arg8
  let c0_i32_141 : BitVec 32 := 0#32
  ![v46.toNat, 0]
def k0_off49 (i : grid0.Coords) (k0_t10 : Fin k0_t10_loop.trips) : Fin 3 → Nat :=
  let arg0 : BitVec 32 := BitVec.ofNat 32 (i 0).val
  let c16_i32 : BitVec 32 := 16#32
  let v0 : BitVec 32 := Scalar.muli arg0 c16_i32
  let c256_i32 : BitVec 32 := 256#32
  let c0_i32_33 : BitVec 32 := 0#32
  let c1_i32_35 : BitVec 32 := 1#32
  let arg8 : BitVec 32 := Scf.iv c0_i32_33 c1_i32_35 k0_t10
  let v46 : BitVec 32 := Scalar.addi c256_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off50 (v68 : BitVec 32) : Fin 2 → Nat :=
  let c0_i32_144 : BitVec 32 := 0#32
  ![v68.toNat, 0]

def k0_chk10 (v68 : BitVec 32) : Prop :=
  (∀ a, (k0_off50 v68) a + S1x256.size a ≤ S512x256.size a)
instance k0_chk10.dec : ∀ (v68 : BitVec 32), Decidable (k0_chk10 v68) := fun v68 => decidable_of_iff' _ (Iff.of_eq (k0_chk10.eq_1 v68))
theorem k0_off50_inb : ∀ (v68 : BitVec 32) (k0_hw10 : k0_chk10 v68), ∀ a, (k0_off50 v68) a + S1x256.size a ≤ S512x256.size a := fun v68 k0_hw10 => k0_hw10

@[reducible] def k0_t11_loop : Scf.Loop 32 :=
  let c0_i32_37 : BitVec 32 := 0#32
  let c64_i32_38 : BitVec 32 := 64#32
  let v11 : BitVec 32 := Scalar.addi c0_i32_37 c64_i32_38
  let c1_i32_39 : BitVec 32 := 1#32
  ⟨c0_i32_37, v11, c1_i32_39⟩
def k0_off51 (i : grid0.Coords) (k0_t11 : Fin k0_t11_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c320_i32 : BitVec 32 := 320#32
  let c0_i32_37 : BitVec 32 := 0#32
  let c1_i32_39 : BitVec 32 := 1#32
  let arg8 : BitVec 32 := Scf.iv c0_i32_37 c1_i32_39 k0_t11
  let v46 : BitVec 32 := Scalar.addi c320_i32 arg8
  let v66 : BitVec 32 := Scalar.addi v65 v46
  let v67 : Index := Scalar.indexCast v66
  ![v67.toNat]
def k0_off52 (k0_t11 : Fin k0_t11_loop.trips) : Fin 1 → Nat :=
  let c0_i32_37 : BitVec 32 := 0#32
  let c1_i32_39 : BitVec 32 := 1#32
  let arg8 : BitVec 32 := Scf.iv c0_i32_37 c1_i32_39 k0_t11
  ![arg8.toNat]
def k0_off53 (k0_t11 : Fin k0_t11_loop.trips) : Fin 2 → Nat :=
  let c320_i32 : BitVec 32 := 320#32
  let c0_i32_37 : BitVec 32 := 0#32
  let c1_i32_39 : BitVec 32 := 1#32
  let arg8 : BitVec 32 := Scf.iv c0_i32_37 c1_i32_39 k0_t11
  let v46 : BitVec 32 := Scalar.addi c320_i32 arg8
  let c0_i32_141 : BitVec 32 := 0#32
  ![v46.toNat, 0]
def k0_off54 (i : grid0.Coords) (k0_t11 : Fin k0_t11_loop.trips) : Fin 3 → Nat :=
  let arg0 : BitVec 32 := BitVec.ofNat 32 (i 0).val
  let c16_i32 : BitVec 32 := 16#32
  let v0 : BitVec 32 := Scalar.muli arg0 c16_i32
  let c320_i32 : BitVec 32 := 320#32
  let c0_i32_37 : BitVec 32 := 0#32
  let c1_i32_39 : BitVec 32 := 1#32
  let arg8 : BitVec 32 := Scf.iv c0_i32_37 c1_i32_39 k0_t11
  let v46 : BitVec 32 := Scalar.addi c320_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off55 (v68 : BitVec 32) : Fin 2 → Nat :=
  let c0_i32_144 : BitVec 32 := 0#32
  ![v68.toNat, 0]

def k0_chk11 (v68 : BitVec 32) : Prop :=
  (∀ a, (k0_off55 v68) a + S1x256.size a ≤ S512x256.size a)
instance k0_chk11.dec : ∀ (v68 : BitVec 32), Decidable (k0_chk11 v68) := fun v68 => decidable_of_iff' _ (Iff.of_eq (k0_chk11.eq_1 v68))
theorem k0_off55_inb : ∀ (v68 : BitVec 32) (k0_hw11 : k0_chk11 v68), ∀ a, (k0_off55 v68) a + S1x256.size a ≤ S512x256.size a := fun v68 k0_hw11 => k0_hw11

@[reducible] def k0_t12_loop : Scf.Loop 32 :=
  let c0_i32_41 : BitVec 32 := 0#32
  let c64_i32_42 : BitVec 32 := 64#32
  let v12 : BitVec 32 := Scalar.addi c0_i32_41 c64_i32_42
  let c1_i32_43 : BitVec 32 := 1#32
  ⟨c0_i32_41, v12, c1_i32_43⟩
def k0_off56 (i : grid0.Coords) (k0_t12 : Fin k0_t12_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c320_i32 : BitVec 32 := 320#32
  let c0_i32_41 : BitVec 32 := 0#32
  let c1_i32_43 : BitVec 32 := 1#32
  let arg8 : BitVec 32 := Scf.iv c0_i32_41 c1_i32_43 k0_t12
  let v46 : BitVec 32 := Scalar.addi c320_i32 arg8
  let v66 : BitVec 32 := Scalar.addi v65 v46
  let v67 : Index := Scalar.indexCast v66
  ![v67.toNat]
def k0_off57 (k0_t12 : Fin k0_t12_loop.trips) : Fin 1 → Nat :=
  let c0_i32_41 : BitVec 32 := 0#32
  let c1_i32_43 : BitVec 32 := 1#32
  let arg8 : BitVec 32 := Scf.iv c0_i32_41 c1_i32_43 k0_t12
  ![arg8.toNat]
def k0_off58 (k0_t12 : Fin k0_t12_loop.trips) : Fin 2 → Nat :=
  let c320_i32 : BitVec 32 := 320#32
  let c0_i32_41 : BitVec 32 := 0#32
  let c1_i32_43 : BitVec 32 := 1#32
  let arg8 : BitVec 32 := Scf.iv c0_i32_41 c1_i32_43 k0_t12
  let v46 : BitVec 32 := Scalar.addi c320_i32 arg8
  let c0_i32_141 : BitVec 32 := 0#32
  ![v46.toNat, 0]
def k0_off59 (i : grid0.Coords) (k0_t12 : Fin k0_t12_loop.trips) : Fin 3 → Nat :=
  let arg0 : BitVec 32 := BitVec.ofNat 32 (i 0).val
  let c16_i32 : BitVec 32 := 16#32
  let v0 : BitVec 32 := Scalar.muli arg0 c16_i32
  let c320_i32 : BitVec 32 := 320#32
  let c0_i32_41 : BitVec 32 := 0#32
  let c1_i32_43 : BitVec 32 := 1#32
  let arg8 : BitVec 32 := Scf.iv c0_i32_41 c1_i32_43 k0_t12
  let v46 : BitVec 32 := Scalar.addi c320_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off60 (v68 : BitVec 32) : Fin 2 → Nat :=
  let c0_i32_144 : BitVec 32 := 0#32
  ![v68.toNat, 0]

def k0_chk12 (v68 : BitVec 32) : Prop :=
  (∀ a, (k0_off60 v68) a + S1x256.size a ≤ S512x256.size a)
instance k0_chk12.dec : ∀ (v68 : BitVec 32), Decidable (k0_chk12 v68) := fun v68 => decidable_of_iff' _ (Iff.of_eq (k0_chk12.eq_1 v68))
theorem k0_off60_inb : ∀ (v68 : BitVec 32) (k0_hw12 : k0_chk12 v68), ∀ a, (k0_off60 v68) a + S1x256.size a ≤ S512x256.size a := fun v68 k0_hw12 => k0_hw12

@[reducible] def k0_t13_loop : Scf.Loop 32 :=
  let c0_i32_45 : BitVec 32 := 0#32
  let c64_i32_46 : BitVec 32 := 64#32
  let v13 : BitVec 32 := Scalar.addi c0_i32_45 c64_i32_46
  let c1_i32_47 : BitVec 32 := 1#32
  ⟨c0_i32_45, v13, c1_i32_47⟩
def k0_off61 (i : grid0.Coords) (k0_t13 : Fin k0_t13_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c384_i32 : BitVec 32 := 384#32
  let c0_i32_45 : BitVec 32 := 0#32
  let c1_i32_47 : BitVec 32 := 1#32
  let arg8 : BitVec 32 := Scf.iv c0_i32_45 c1_i32_47 k0_t13
  let v46 : BitVec 32 := Scalar.addi c384_i32 arg8
  let v66 : BitVec 32 := Scalar.addi v65 v46
  let v67 : Index := Scalar.indexCast v66
  ![v67.toNat]
def k0_off62 (k0_t13 : Fin k0_t13_loop.trips) : Fin 1 → Nat :=
  let c0_i32_45 : BitVec 32 := 0#32
  let c1_i32_47 : BitVec 32 := 1#32
  let arg8 : BitVec 32 := Scf.iv c0_i32_45 c1_i32_47 k0_t13
  ![arg8.toNat]
def k0_off63 (k0_t13 : Fin k0_t13_loop.trips) : Fin 2 → Nat :=
  let c384_i32 : BitVec 32 := 384#32
  let c0_i32_45 : BitVec 32 := 0#32
  let c1_i32_47 : BitVec 32 := 1#32
  let arg8 : BitVec 32 := Scf.iv c0_i32_45 c1_i32_47 k0_t13
  let v46 : BitVec 32 := Scalar.addi c384_i32 arg8
  let c0_i32_141 : BitVec 32 := 0#32
  ![v46.toNat, 0]
def k0_off64 (i : grid0.Coords) (k0_t13 : Fin k0_t13_loop.trips) : Fin 3 → Nat :=
  let arg0 : BitVec 32 := BitVec.ofNat 32 (i 0).val
  let c16_i32 : BitVec 32 := 16#32
  let v0 : BitVec 32 := Scalar.muli arg0 c16_i32
  let c384_i32 : BitVec 32 := 384#32
  let c0_i32_45 : BitVec 32 := 0#32
  let c1_i32_47 : BitVec 32 := 1#32
  let arg8 : BitVec 32 := Scf.iv c0_i32_45 c1_i32_47 k0_t13
  let v46 : BitVec 32 := Scalar.addi c384_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off65 (v68 : BitVec 32) : Fin 2 → Nat :=
  let c0_i32_144 : BitVec 32 := 0#32
  ![v68.toNat, 0]

def k0_chk13 (v68 : BitVec 32) : Prop :=
  (∀ a, (k0_off65 v68) a + S1x256.size a ≤ S512x256.size a)
instance k0_chk13.dec : ∀ (v68 : BitVec 32), Decidable (k0_chk13 v68) := fun v68 => decidable_of_iff' _ (Iff.of_eq (k0_chk13.eq_1 v68))
theorem k0_off65_inb : ∀ (v68 : BitVec 32) (k0_hw13 : k0_chk13 v68), ∀ a, (k0_off65 v68) a + S1x256.size a ≤ S512x256.size a := fun v68 k0_hw13 => k0_hw13

@[reducible] def k0_t14_loop : Scf.Loop 32 :=
  let c0_i32_49 : BitVec 32 := 0#32
  let c64_i32_50 : BitVec 32 := 64#32
  let v14 : BitVec 32 := Scalar.addi c0_i32_49 c64_i32_50
  let c1_i32_51 : BitVec 32 := 1#32
  ⟨c0_i32_49, v14, c1_i32_51⟩
def k0_off66 (i : grid0.Coords) (k0_t14 : Fin k0_t14_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c384_i32 : BitVec 32 := 384#32
  let c0_i32_49 : BitVec 32 := 0#32
  let c1_i32_51 : BitVec 32 := 1#32
  let arg8 : BitVec 32 := Scf.iv c0_i32_49 c1_i32_51 k0_t14
  let v46 : BitVec 32 := Scalar.addi c384_i32 arg8
  let v66 : BitVec 32 := Scalar.addi v65 v46
  let v67 : Index := Scalar.indexCast v66
  ![v67.toNat]
def k0_off67 (k0_t14 : Fin k0_t14_loop.trips) : Fin 1 → Nat :=
  let c0_i32_49 : BitVec 32 := 0#32
  let c1_i32_51 : BitVec 32 := 1#32
  let arg8 : BitVec 32 := Scf.iv c0_i32_49 c1_i32_51 k0_t14
  ![arg8.toNat]
def k0_off68 (k0_t14 : Fin k0_t14_loop.trips) : Fin 2 → Nat :=
  let c384_i32 : BitVec 32 := 384#32
  let c0_i32_49 : BitVec 32 := 0#32
  let c1_i32_51 : BitVec 32 := 1#32
  let arg8 : BitVec 32 := Scf.iv c0_i32_49 c1_i32_51 k0_t14
  let v46 : BitVec 32 := Scalar.addi c384_i32 arg8
  let c0_i32_141 : BitVec 32 := 0#32
  ![v46.toNat, 0]
def k0_off69 (i : grid0.Coords) (k0_t14 : Fin k0_t14_loop.trips) : Fin 3 → Nat :=
  let arg0 : BitVec 32 := BitVec.ofNat 32 (i 0).val
  let c16_i32 : BitVec 32 := 16#32
  let v0 : BitVec 32 := Scalar.muli arg0 c16_i32
  let c384_i32 : BitVec 32 := 384#32
  let c0_i32_49 : BitVec 32 := 0#32
  let c1_i32_51 : BitVec 32 := 1#32
  let arg8 : BitVec 32 := Scf.iv c0_i32_49 c1_i32_51 k0_t14
  let v46 : BitVec 32 := Scalar.addi c384_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off70 (v68 : BitVec 32) : Fin 2 → Nat :=
  let c0_i32_144 : BitVec 32 := 0#32
  ![v68.toNat, 0]

def k0_chk14 (v68 : BitVec 32) : Prop :=
  (∀ a, (k0_off70 v68) a + S1x256.size a ≤ S512x256.size a)
instance k0_chk14.dec : ∀ (v68 : BitVec 32), Decidable (k0_chk14 v68) := fun v68 => decidable_of_iff' _ (Iff.of_eq (k0_chk14.eq_1 v68))
theorem k0_off70_inb : ∀ (v68 : BitVec 32) (k0_hw14 : k0_chk14 v68), ∀ a, (k0_off70 v68) a + S1x256.size a ≤ S512x256.size a := fun v68 k0_hw14 => k0_hw14

@[reducible] def k0_t15_loop : Scf.Loop 32 :=
  let c0_i32_53 : BitVec 32 := 0#32
  let c64_i32_54 : BitVec 32 := 64#32
  let v15 : BitVec 32 := Scalar.addi c0_i32_53 c64_i32_54
  let c1_i32_55 : BitVec 32 := 1#32
  ⟨c0_i32_53, v15, c1_i32_55⟩
def k0_off71 (i : grid0.Coords) (k0_t15 : Fin k0_t15_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c448_i32 : BitVec 32 := 448#32
  let c0_i32_53 : BitVec 32 := 0#32
  let c1_i32_55 : BitVec 32 := 1#32
  let arg8 : BitVec 32 := Scf.iv c0_i32_53 c1_i32_55 k0_t15
  let v46 : BitVec 32 := Scalar.addi c448_i32 arg8
  let v66 : BitVec 32 := Scalar.addi v65 v46
  let v67 : Index := Scalar.indexCast v66
  ![v67.toNat]
def k0_off72 (k0_t15 : Fin k0_t15_loop.trips) : Fin 1 → Nat :=
  let c0_i32_53 : BitVec 32 := 0#32
  let c1_i32_55 : BitVec 32 := 1#32
  let arg8 : BitVec 32 := Scf.iv c0_i32_53 c1_i32_55 k0_t15
  ![arg8.toNat]
def k0_off73 (k0_t15 : Fin k0_t15_loop.trips) : Fin 2 → Nat :=
  let c448_i32 : BitVec 32 := 448#32
  let c0_i32_53 : BitVec 32 := 0#32
  let c1_i32_55 : BitVec 32 := 1#32
  let arg8 : BitVec 32 := Scf.iv c0_i32_53 c1_i32_55 k0_t15
  let v46 : BitVec 32 := Scalar.addi c448_i32 arg8
  let c0_i32_141 : BitVec 32 := 0#32
  ![v46.toNat, 0]
def k0_off74 (i : grid0.Coords) (k0_t15 : Fin k0_t15_loop.trips) : Fin 3 → Nat :=
  let arg0 : BitVec 32 := BitVec.ofNat 32 (i 0).val
  let c16_i32 : BitVec 32 := 16#32
  let v0 : BitVec 32 := Scalar.muli arg0 c16_i32
  let c448_i32 : BitVec 32 := 448#32
  let c0_i32_53 : BitVec 32 := 0#32
  let c1_i32_55 : BitVec 32 := 1#32
  let arg8 : BitVec 32 := Scf.iv c0_i32_53 c1_i32_55 k0_t15
  let v46 : BitVec 32 := Scalar.addi c448_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off75 (v68 : BitVec 32) : Fin 2 → Nat :=
  let c0_i32_144 : BitVec 32 := 0#32
  ![v68.toNat, 0]

def k0_chk15 (v68 : BitVec 32) : Prop :=
  (∀ a, (k0_off75 v68) a + S1x256.size a ≤ S512x256.size a)
instance k0_chk15.dec : ∀ (v68 : BitVec 32), Decidable (k0_chk15 v68) := fun v68 => decidable_of_iff' _ (Iff.of_eq (k0_chk15.eq_1 v68))
theorem k0_off75_inb : ∀ (v68 : BitVec 32) (k0_hw15 : k0_chk15 v68), ∀ a, (k0_off75 v68) a + S1x256.size a ≤ S512x256.size a := fun v68 k0_hw15 => k0_hw15

@[reducible] def k0_t16_loop : Scf.Loop 32 :=
  let c0_i32_57 : BitVec 32 := 0#32
  let c64_i32_58 : BitVec 32 := 64#32
  let v16 : BitVec 32 := Scalar.addi c0_i32_57 c64_i32_58
  let c1_i32_59 : BitVec 32 := 1#32
  ⟨c0_i32_57, v16, c1_i32_59⟩
def k0_off76 (i : grid0.Coords) (k0_t16 : Fin k0_t16_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c448_i32 : BitVec 32 := 448#32
  let c0_i32_57 : BitVec 32 := 0#32
  let c1_i32_59 : BitVec 32 := 1#32
  let arg8 : BitVec 32 := Scf.iv c0_i32_57 c1_i32_59 k0_t16
  let v46 : BitVec 32 := Scalar.addi c448_i32 arg8
  let v66 : BitVec 32 := Scalar.addi v65 v46
  let v67 : Index := Scalar.indexCast v66
  ![v67.toNat]
def k0_off77 (k0_t16 : Fin k0_t16_loop.trips) : Fin 1 → Nat :=
  let c0_i32_57 : BitVec 32 := 0#32
  let c1_i32_59 : BitVec 32 := 1#32
  let arg8 : BitVec 32 := Scf.iv c0_i32_57 c1_i32_59 k0_t16
  ![arg8.toNat]
def k0_off78 (k0_t16 : Fin k0_t16_loop.trips) : Fin 2 → Nat :=
  let c448_i32 : BitVec 32 := 448#32
  let c0_i32_57 : BitVec 32 := 0#32
  let c1_i32_59 : BitVec 32 := 1#32
  let arg8 : BitVec 32 := Scf.iv c0_i32_57 c1_i32_59 k0_t16
  let v46 : BitVec 32 := Scalar.addi c448_i32 arg8
  let c0_i32_141 : BitVec 32 := 0#32
  ![v46.toNat, 0]
def k0_off79 (i : grid0.Coords) (k0_t16 : Fin k0_t16_loop.trips) : Fin 3 → Nat :=
  let arg0 : BitVec 32 := BitVec.ofNat 32 (i 0).val
  let c16_i32 : BitVec 32 := 16#32
  let v0 : BitVec 32 := Scalar.muli arg0 c16_i32
  let c448_i32 : BitVec 32 := 448#32
  let c0_i32_57 : BitVec 32 := 0#32
  let c1_i32_59 : BitVec 32 := 1#32
  let arg8 : BitVec 32 := Scf.iv c0_i32_57 c1_i32_59 k0_t16
  let v46 : BitVec 32 := Scalar.addi c448_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off80 (v68 : BitVec 32) : Fin 2 → Nat :=
  let c0_i32_144 : BitVec 32 := 0#32
  ![v68.toNat, 0]

def k0_chk16 (v68 : BitVec 32) : Prop :=
  (∀ a, (k0_off80 v68) a + S1x256.size a ≤ S512x256.size a)
instance k0_chk16.dec : ∀ (v68 : BitVec 32), Decidable (k0_chk16 v68) := fun v68 => decidable_of_iff' _ (Iff.of_eq (k0_chk16.eq_1 v68))
theorem k0_off80_inb : ∀ (v68 : BitVec 32) (k0_hw16 : k0_chk16 v68), ∀ a, (k0_off80 v68) a + S1x256.size a ≤ S512x256.size a := fun v68 k0_hw16 => k0_hw16

@[reducible] def k0_t17_loop : Scf.Loop 32 :=
  let c0_i32_61 : BitVec 32 := 0#32
  let c64_i32_62 : BitVec 32 := 64#32
  let v17 : BitVec 32 := Scalar.addi c0_i32_61 c64_i32_62
  let c1_i32_63 : BitVec 32 := 1#32
  ⟨c0_i32_61, v17, c1_i32_63⟩
def k0_off81 (i : grid0.Coords) (k0_t17 : Fin k0_t17_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c512_i32 : BitVec 32 := 512#32
  let c0_i32_61 : BitVec 32 := 0#32
  let c1_i32_63 : BitVec 32 := 1#32
  let arg8 : BitVec 32 := Scf.iv c0_i32_61 c1_i32_63 k0_t17
  let v46 : BitVec 32 := Scalar.addi c512_i32 arg8
  let v66 : BitVec 32 := Scalar.addi v65 v46
  let v67 : Index := Scalar.indexCast v66
  ![v67.toNat]
def k0_off82 (k0_t17 : Fin k0_t17_loop.trips) : Fin 1 → Nat :=
  let c0_i32_61 : BitVec 32 := 0#32
  let c1_i32_63 : BitVec 32 := 1#32
  let arg8 : BitVec 32 := Scf.iv c0_i32_61 c1_i32_63 k0_t17
  ![arg8.toNat]
def k0_off83 (k0_t17 : Fin k0_t17_loop.trips) : Fin 2 → Nat :=
  let c512_i32 : BitVec 32 := 512#32
  let c0_i32_61 : BitVec 32 := 0#32
  let c1_i32_63 : BitVec 32 := 1#32
  let arg8 : BitVec 32 := Scf.iv c0_i32_61 c1_i32_63 k0_t17
  let v46 : BitVec 32 := Scalar.addi c512_i32 arg8
  let c0_i32_141 : BitVec 32 := 0#32
  ![v46.toNat, 0]
def k0_off84 (i : grid0.Coords) (k0_t17 : Fin k0_t17_loop.trips) : Fin 3 → Nat :=
  let arg0 : BitVec 32 := BitVec.ofNat 32 (i 0).val
  let c16_i32 : BitVec 32 := 16#32
  let v0 : BitVec 32 := Scalar.muli arg0 c16_i32
  let c512_i32 : BitVec 32 := 512#32
  let c0_i32_61 : BitVec 32 := 0#32
  let c1_i32_63 : BitVec 32 := 1#32
  let arg8 : BitVec 32 := Scf.iv c0_i32_61 c1_i32_63 k0_t17
  let v46 : BitVec 32 := Scalar.addi c512_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off85 (v68 : BitVec 32) : Fin 2 → Nat :=
  let c0_i32_144 : BitVec 32 := 0#32
  ![v68.toNat, 0]

def k0_chk17 (v68 : BitVec 32) : Prop :=
  (∀ a, (k0_off85 v68) a + S1x256.size a ≤ S512x256.size a)
instance k0_chk17.dec : ∀ (v68 : BitVec 32), Decidable (k0_chk17 v68) := fun v68 => decidable_of_iff' _ (Iff.of_eq (k0_chk17.eq_1 v68))
theorem k0_off85_inb : ∀ (v68 : BitVec 32) (k0_hw17 : k0_chk17 v68), ∀ a, (k0_off85 v68) a + S1x256.size a ≤ S512x256.size a := fun v68 k0_hw17 => k0_hw17

@[reducible] def k0_t18_loop : Scf.Loop 32 :=
  let c0_i32_65 : BitVec 32 := 0#32
  let c64_i32_66 : BitVec 32 := 64#32
  let v18 : BitVec 32 := Scalar.addi c0_i32_65 c64_i32_66
  let c1_i32_67 : BitVec 32 := 1#32
  ⟨c0_i32_65, v18, c1_i32_67⟩
def k0_off86 (i : grid0.Coords) (k0_t18 : Fin k0_t18_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c512_i32 : BitVec 32 := 512#32
  let c0_i32_65 : BitVec 32 := 0#32
  let c1_i32_67 : BitVec 32 := 1#32
  let arg8 : BitVec 32 := Scf.iv c0_i32_65 c1_i32_67 k0_t18
  let v46 : BitVec 32 := Scalar.addi c512_i32 arg8
  let v66 : BitVec 32 := Scalar.addi v65 v46
  let v67 : Index := Scalar.indexCast v66
  ![v67.toNat]
def k0_off87 (k0_t18 : Fin k0_t18_loop.trips) : Fin 1 → Nat :=
  let c0_i32_65 : BitVec 32 := 0#32
  let c1_i32_67 : BitVec 32 := 1#32
  let arg8 : BitVec 32 := Scf.iv c0_i32_65 c1_i32_67 k0_t18
  ![arg8.toNat]
def k0_off88 (k0_t18 : Fin k0_t18_loop.trips) : Fin 2 → Nat :=
  let c512_i32 : BitVec 32 := 512#32
  let c0_i32_65 : BitVec 32 := 0#32
  let c1_i32_67 : BitVec 32 := 1#32
  let arg8 : BitVec 32 := Scf.iv c0_i32_65 c1_i32_67 k0_t18
  let v46 : BitVec 32 := Scalar.addi c512_i32 arg8
  let c0_i32_141 : BitVec 32 := 0#32
  ![v46.toNat, 0]
def k0_off89 (i : grid0.Coords) (k0_t18 : Fin k0_t18_loop.trips) : Fin 3 → Nat :=
  let arg0 : BitVec 32 := BitVec.ofNat 32 (i 0).val
  let c16_i32 : BitVec 32 := 16#32
  let v0 : BitVec 32 := Scalar.muli arg0 c16_i32
  let c512_i32 : BitVec 32 := 512#32
  let c0_i32_65 : BitVec 32 := 0#32
  let c1_i32_67 : BitVec 32 := 1#32
  let arg8 : BitVec 32 := Scf.iv c0_i32_65 c1_i32_67 k0_t18
  let v46 : BitVec 32 := Scalar.addi c512_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off90 (v68 : BitVec 32) : Fin 2 → Nat :=
  let c0_i32_144 : BitVec 32 := 0#32
  ![v68.toNat, 0]

def k0_chk18 (v68 : BitVec 32) : Prop :=
  (∀ a, (k0_off90 v68) a + S1x256.size a ≤ S512x256.size a)
instance k0_chk18.dec : ∀ (v68 : BitVec 32), Decidable (k0_chk18 v68) := fun v68 => decidable_of_iff' _ (Iff.of_eq (k0_chk18.eq_1 v68))
theorem k0_off90_inb : ∀ (v68 : BitVec 32) (k0_hw18 : k0_chk18 v68), ∀ a, (k0_off90 v68) a + S1x256.size a ≤ S512x256.size a := fun v68 k0_hw18 => k0_hw18

@[reducible] def k0_t19_loop : Scf.Loop 32 :=
  let c0_i32_69 : BitVec 32 := 0#32
  let c64_i32_70 : BitVec 32 := 64#32
  let v19 : BitVec 32 := Scalar.addi c0_i32_69 c64_i32_70
  let c1_i32_71 : BitVec 32 := 1#32
  ⟨c0_i32_69, v19, c1_i32_71⟩
def k0_off91 (i : grid0.Coords) (k0_t19 : Fin k0_t19_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c576_i32 : BitVec 32 := 576#32
  let c0_i32_69 : BitVec 32 := 0#32
  let c1_i32_71 : BitVec 32 := 1#32
  let arg8 : BitVec 32 := Scf.iv c0_i32_69 c1_i32_71 k0_t19
  let v46 : BitVec 32 := Scalar.addi c576_i32 arg8
  let v66 : BitVec 32 := Scalar.addi v65 v46
  let v67 : Index := Scalar.indexCast v66
  ![v67.toNat]
def k0_off92 (k0_t19 : Fin k0_t19_loop.trips) : Fin 1 → Nat :=
  let c0_i32_69 : BitVec 32 := 0#32
  let c1_i32_71 : BitVec 32 := 1#32
  let arg8 : BitVec 32 := Scf.iv c0_i32_69 c1_i32_71 k0_t19
  ![arg8.toNat]
def k0_off93 (k0_t19 : Fin k0_t19_loop.trips) : Fin 2 → Nat :=
  let c576_i32 : BitVec 32 := 576#32
  let c0_i32_69 : BitVec 32 := 0#32
  let c1_i32_71 : BitVec 32 := 1#32
  let arg8 : BitVec 32 := Scf.iv c0_i32_69 c1_i32_71 k0_t19
  let v46 : BitVec 32 := Scalar.addi c576_i32 arg8
  let c0_i32_141 : BitVec 32 := 0#32
  ![v46.toNat, 0]
def k0_off94 (i : grid0.Coords) (k0_t19 : Fin k0_t19_loop.trips) : Fin 3 → Nat :=
  let arg0 : BitVec 32 := BitVec.ofNat 32 (i 0).val
  let c16_i32 : BitVec 32 := 16#32
  let v0 : BitVec 32 := Scalar.muli arg0 c16_i32
  let c576_i32 : BitVec 32 := 576#32
  let c0_i32_69 : BitVec 32 := 0#32
  let c1_i32_71 : BitVec 32 := 1#32
  let arg8 : BitVec 32 := Scf.iv c0_i32_69 c1_i32_71 k0_t19
  let v46 : BitVec 32 := Scalar.addi c576_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off95 (v68 : BitVec 32) : Fin 2 → Nat :=
  let c0_i32_144 : BitVec 32 := 0#32
  ![v68.toNat, 0]

def k0_chk19 (v68 : BitVec 32) : Prop :=
  (∀ a, (k0_off95 v68) a + S1x256.size a ≤ S512x256.size a)
instance k0_chk19.dec : ∀ (v68 : BitVec 32), Decidable (k0_chk19 v68) := fun v68 => decidable_of_iff' _ (Iff.of_eq (k0_chk19.eq_1 v68))
theorem k0_off95_inb : ∀ (v68 : BitVec 32) (k0_hw19 : k0_chk19 v68), ∀ a, (k0_off95 v68) a + S1x256.size a ≤ S512x256.size a := fun v68 k0_hw19 => k0_hw19

@[reducible] def k0_t20_loop : Scf.Loop 32 :=
  let c0_i32_73 : BitVec 32 := 0#32
  let c64_i32_74 : BitVec 32 := 64#32
  let v20 : BitVec 32 := Scalar.addi c0_i32_73 c64_i32_74
  let c1_i32_75 : BitVec 32 := 1#32
  ⟨c0_i32_73, v20, c1_i32_75⟩
def k0_off96 (i : grid0.Coords) (k0_t20 : Fin k0_t20_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c576_i32 : BitVec 32 := 576#32
  let c0_i32_73 : BitVec 32 := 0#32
  let c1_i32_75 : BitVec 32 := 1#32
  let arg8 : BitVec 32 := Scf.iv c0_i32_73 c1_i32_75 k0_t20
  let v46 : BitVec 32 := Scalar.addi c576_i32 arg8
  let v66 : BitVec 32 := Scalar.addi v65 v46
  let v67 : Index := Scalar.indexCast v66
  ![v67.toNat]
def k0_off97 (k0_t20 : Fin k0_t20_loop.trips) : Fin 1 → Nat :=
  let c0_i32_73 : BitVec 32 := 0#32
  let c1_i32_75 : BitVec 32 := 1#32
  let arg8 : BitVec 32 := Scf.iv c0_i32_73 c1_i32_75 k0_t20
  ![arg8.toNat]
def k0_off98 (k0_t20 : Fin k0_t20_loop.trips) : Fin 2 → Nat :=
  let c576_i32 : BitVec 32 := 576#32
  let c0_i32_73 : BitVec 32 := 0#32
  let c1_i32_75 : BitVec 32 := 1#32
  let arg8 : BitVec 32 := Scf.iv c0_i32_73 c1_i32_75 k0_t20
  let v46 : BitVec 32 := Scalar.addi c576_i32 arg8
  let c0_i32_141 : BitVec 32 := 0#32
  ![v46.toNat, 0]
def k0_off99 (i : grid0.Coords) (k0_t20 : Fin k0_t20_loop.trips) : Fin 3 → Nat :=
  let arg0 : BitVec 32 := BitVec.ofNat 32 (i 0).val
  let c16_i32 : BitVec 32 := 16#32
  let v0 : BitVec 32 := Scalar.muli arg0 c16_i32
  let c576_i32 : BitVec 32 := 576#32
  let c0_i32_73 : BitVec 32 := 0#32
  let c1_i32_75 : BitVec 32 := 1#32
  let arg8 : BitVec 32 := Scf.iv c0_i32_73 c1_i32_75 k0_t20
  let v46 : BitVec 32 := Scalar.addi c576_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off100 (v68 : BitVec 32) : Fin 2 → Nat :=
  let c0_i32_144 : BitVec 32 := 0#32
  ![v68.toNat, 0]

def k0_chk20 (v68 : BitVec 32) : Prop :=
  (∀ a, (k0_off100 v68) a + S1x256.size a ≤ S512x256.size a)
instance k0_chk20.dec : ∀ (v68 : BitVec 32), Decidable (k0_chk20 v68) := fun v68 => decidable_of_iff' _ (Iff.of_eq (k0_chk20.eq_1 v68))
theorem k0_off100_inb : ∀ (v68 : BitVec 32) (k0_hw20 : k0_chk20 v68), ∀ a, (k0_off100 v68) a + S1x256.size a ≤ S512x256.size a := fun v68 k0_hw20 => k0_hw20

@[reducible] def k0_t21_loop : Scf.Loop 32 :=
  let c0_i32_77 : BitVec 32 := 0#32
  let c64_i32_78 : BitVec 32 := 64#32
  let v21 : BitVec 32 := Scalar.addi c0_i32_77 c64_i32_78
  let c1_i32_79 : BitVec 32 := 1#32
  ⟨c0_i32_77, v21, c1_i32_79⟩
def k0_off101 (i : grid0.Coords) (k0_t21 : Fin k0_t21_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c640_i32 : BitVec 32 := 640#32
  let c0_i32_77 : BitVec 32 := 0#32
  let c1_i32_79 : BitVec 32 := 1#32
  let arg8 : BitVec 32 := Scf.iv c0_i32_77 c1_i32_79 k0_t21
  let v46 : BitVec 32 := Scalar.addi c640_i32 arg8
  let v66 : BitVec 32 := Scalar.addi v65 v46
  let v67 : Index := Scalar.indexCast v66
  ![v67.toNat]
def k0_off102 (k0_t21 : Fin k0_t21_loop.trips) : Fin 1 → Nat :=
  let c0_i32_77 : BitVec 32 := 0#32
  let c1_i32_79 : BitVec 32 := 1#32
  let arg8 : BitVec 32 := Scf.iv c0_i32_77 c1_i32_79 k0_t21
  ![arg8.toNat]
def k0_off103 (k0_t21 : Fin k0_t21_loop.trips) : Fin 2 → Nat :=
  let c640_i32 : BitVec 32 := 640#32
  let c0_i32_77 : BitVec 32 := 0#32
  let c1_i32_79 : BitVec 32 := 1#32
  let arg8 : BitVec 32 := Scf.iv c0_i32_77 c1_i32_79 k0_t21
  let v46 : BitVec 32 := Scalar.addi c640_i32 arg8
  let c0_i32_141 : BitVec 32 := 0#32
  ![v46.toNat, 0]
def k0_off104 (i : grid0.Coords) (k0_t21 : Fin k0_t21_loop.trips) : Fin 3 → Nat :=
  let arg0 : BitVec 32 := BitVec.ofNat 32 (i 0).val
  let c16_i32 : BitVec 32 := 16#32
  let v0 : BitVec 32 := Scalar.muli arg0 c16_i32
  let c640_i32 : BitVec 32 := 640#32
  let c0_i32_77 : BitVec 32 := 0#32
  let c1_i32_79 : BitVec 32 := 1#32
  let arg8 : BitVec 32 := Scf.iv c0_i32_77 c1_i32_79 k0_t21
  let v46 : BitVec 32 := Scalar.addi c640_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off105 (v68 : BitVec 32) : Fin 2 → Nat :=
  let c0_i32_144 : BitVec 32 := 0#32
  ![v68.toNat, 0]

def k0_chk21 (v68 : BitVec 32) : Prop :=
  (∀ a, (k0_off105 v68) a + S1x256.size a ≤ S512x256.size a)
instance k0_chk21.dec : ∀ (v68 : BitVec 32), Decidable (k0_chk21 v68) := fun v68 => decidable_of_iff' _ (Iff.of_eq (k0_chk21.eq_1 v68))
theorem k0_off105_inb : ∀ (v68 : BitVec 32) (k0_hw21 : k0_chk21 v68), ∀ a, (k0_off105 v68) a + S1x256.size a ≤ S512x256.size a := fun v68 k0_hw21 => k0_hw21

@[reducible] def k0_t22_loop : Scf.Loop 32 :=
  let c0_i32_81 : BitVec 32 := 0#32
  let c64_i32_82 : BitVec 32 := 64#32
  let v22 : BitVec 32 := Scalar.addi c0_i32_81 c64_i32_82
  let c1_i32_83 : BitVec 32 := 1#32
  ⟨c0_i32_81, v22, c1_i32_83⟩
def k0_off106 (i : grid0.Coords) (k0_t22 : Fin k0_t22_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c640_i32 : BitVec 32 := 640#32
  let c0_i32_81 : BitVec 32 := 0#32
  let c1_i32_83 : BitVec 32 := 1#32
  let arg8 : BitVec 32 := Scf.iv c0_i32_81 c1_i32_83 k0_t22
  let v46 : BitVec 32 := Scalar.addi c640_i32 arg8
  let v66 : BitVec 32 := Scalar.addi v65 v46
  let v67 : Index := Scalar.indexCast v66
  ![v67.toNat]
def k0_off107 (k0_t22 : Fin k0_t22_loop.trips) : Fin 1 → Nat :=
  let c0_i32_81 : BitVec 32 := 0#32
  let c1_i32_83 : BitVec 32 := 1#32
  let arg8 : BitVec 32 := Scf.iv c0_i32_81 c1_i32_83 k0_t22
  ![arg8.toNat]
def k0_off108 (k0_t22 : Fin k0_t22_loop.trips) : Fin 2 → Nat :=
  let c640_i32 : BitVec 32 := 640#32
  let c0_i32_81 : BitVec 32 := 0#32
  let c1_i32_83 : BitVec 32 := 1#32
  let arg8 : BitVec 32 := Scf.iv c0_i32_81 c1_i32_83 k0_t22
  let v46 : BitVec 32 := Scalar.addi c640_i32 arg8
  let c0_i32_141 : BitVec 32 := 0#32
  ![v46.toNat, 0]
def k0_off109 (i : grid0.Coords) (k0_t22 : Fin k0_t22_loop.trips) : Fin 3 → Nat :=
  let arg0 : BitVec 32 := BitVec.ofNat 32 (i 0).val
  let c16_i32 : BitVec 32 := 16#32
  let v0 : BitVec 32 := Scalar.muli arg0 c16_i32
  let c640_i32 : BitVec 32 := 640#32
  let c0_i32_81 : BitVec 32 := 0#32
  let c1_i32_83 : BitVec 32 := 1#32
  let arg8 : BitVec 32 := Scf.iv c0_i32_81 c1_i32_83 k0_t22
  let v46 : BitVec 32 := Scalar.addi c640_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off110 (v68 : BitVec 32) : Fin 2 → Nat :=
  let c0_i32_144 : BitVec 32 := 0#32
  ![v68.toNat, 0]

def k0_chk22 (v68 : BitVec 32) : Prop :=
  (∀ a, (k0_off110 v68) a + S1x256.size a ≤ S512x256.size a)
instance k0_chk22.dec : ∀ (v68 : BitVec 32), Decidable (k0_chk22 v68) := fun v68 => decidable_of_iff' _ (Iff.of_eq (k0_chk22.eq_1 v68))
theorem k0_off110_inb : ∀ (v68 : BitVec 32) (k0_hw22 : k0_chk22 v68), ∀ a, (k0_off110 v68) a + S1x256.size a ≤ S512x256.size a := fun v68 k0_hw22 => k0_hw22

@[reducible] def k0_t23_loop : Scf.Loop 32 :=
  let c0_i32_85 : BitVec 32 := 0#32
  let c64_i32_86 : BitVec 32 := 64#32
  let v23 : BitVec 32 := Scalar.addi c0_i32_85 c64_i32_86
  let c1_i32_87 : BitVec 32 := 1#32
  ⟨c0_i32_85, v23, c1_i32_87⟩
def k0_off111 (i : grid0.Coords) (k0_t23 : Fin k0_t23_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c704_i32 : BitVec 32 := 704#32
  let c0_i32_85 : BitVec 32 := 0#32
  let c1_i32_87 : BitVec 32 := 1#32
  let arg8 : BitVec 32 := Scf.iv c0_i32_85 c1_i32_87 k0_t23
  let v46 : BitVec 32 := Scalar.addi c704_i32 arg8
  let v66 : BitVec 32 := Scalar.addi v65 v46
  let v67 : Index := Scalar.indexCast v66
  ![v67.toNat]
def k0_off112 (k0_t23 : Fin k0_t23_loop.trips) : Fin 1 → Nat :=
  let c0_i32_85 : BitVec 32 := 0#32
  let c1_i32_87 : BitVec 32 := 1#32
  let arg8 : BitVec 32 := Scf.iv c0_i32_85 c1_i32_87 k0_t23
  ![arg8.toNat]
def k0_off113 (k0_t23 : Fin k0_t23_loop.trips) : Fin 2 → Nat :=
  let c704_i32 : BitVec 32 := 704#32
  let c0_i32_85 : BitVec 32 := 0#32
  let c1_i32_87 : BitVec 32 := 1#32
  let arg8 : BitVec 32 := Scf.iv c0_i32_85 c1_i32_87 k0_t23
  let v46 : BitVec 32 := Scalar.addi c704_i32 arg8
  let c0_i32_141 : BitVec 32 := 0#32
  ![v46.toNat, 0]
def k0_off114 (i : grid0.Coords) (k0_t23 : Fin k0_t23_loop.trips) : Fin 3 → Nat :=
  let arg0 : BitVec 32 := BitVec.ofNat 32 (i 0).val
  let c16_i32 : BitVec 32 := 16#32
  let v0 : BitVec 32 := Scalar.muli arg0 c16_i32
  let c704_i32 : BitVec 32 := 704#32
  let c0_i32_85 : BitVec 32 := 0#32
  let c1_i32_87 : BitVec 32 := 1#32
  let arg8 : BitVec 32 := Scf.iv c0_i32_85 c1_i32_87 k0_t23
  let v46 : BitVec 32 := Scalar.addi c704_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off115 (v68 : BitVec 32) : Fin 2 → Nat :=
  let c0_i32_144 : BitVec 32 := 0#32
  ![v68.toNat, 0]

def k0_chk23 (v68 : BitVec 32) : Prop :=
  (∀ a, (k0_off115 v68) a + S1x256.size a ≤ S512x256.size a)
instance k0_chk23.dec : ∀ (v68 : BitVec 32), Decidable (k0_chk23 v68) := fun v68 => decidable_of_iff' _ (Iff.of_eq (k0_chk23.eq_1 v68))
theorem k0_off115_inb : ∀ (v68 : BitVec 32) (k0_hw23 : k0_chk23 v68), ∀ a, (k0_off115 v68) a + S1x256.size a ≤ S512x256.size a := fun v68 k0_hw23 => k0_hw23

@[reducible] def k0_t24_loop : Scf.Loop 32 :=
  let c0_i32_89 : BitVec 32 := 0#32
  let c64_i32_90 : BitVec 32 := 64#32
  let v24 : BitVec 32 := Scalar.addi c0_i32_89 c64_i32_90
  let c1_i32_91 : BitVec 32 := 1#32
  ⟨c0_i32_89, v24, c1_i32_91⟩
def k0_off116 (i : grid0.Coords) (k0_t24 : Fin k0_t24_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c704_i32 : BitVec 32 := 704#32
  let c0_i32_89 : BitVec 32 := 0#32
  let c1_i32_91 : BitVec 32 := 1#32
  let arg8 : BitVec 32 := Scf.iv c0_i32_89 c1_i32_91 k0_t24
  let v46 : BitVec 32 := Scalar.addi c704_i32 arg8
  let v66 : BitVec 32 := Scalar.addi v65 v46
  let v67 : Index := Scalar.indexCast v66
  ![v67.toNat]
def k0_off117 (k0_t24 : Fin k0_t24_loop.trips) : Fin 1 → Nat :=
  let c0_i32_89 : BitVec 32 := 0#32
  let c1_i32_91 : BitVec 32 := 1#32
  let arg8 : BitVec 32 := Scf.iv c0_i32_89 c1_i32_91 k0_t24
  ![arg8.toNat]
def k0_off118 (k0_t24 : Fin k0_t24_loop.trips) : Fin 2 → Nat :=
  let c704_i32 : BitVec 32 := 704#32
  let c0_i32_89 : BitVec 32 := 0#32
  let c1_i32_91 : BitVec 32 := 1#32
  let arg8 : BitVec 32 := Scf.iv c0_i32_89 c1_i32_91 k0_t24
  let v46 : BitVec 32 := Scalar.addi c704_i32 arg8
  let c0_i32_141 : BitVec 32 := 0#32
  ![v46.toNat, 0]
def k0_off119 (i : grid0.Coords) (k0_t24 : Fin k0_t24_loop.trips) : Fin 3 → Nat :=
  let arg0 : BitVec 32 := BitVec.ofNat 32 (i 0).val
  let c16_i32 : BitVec 32 := 16#32
  let v0 : BitVec 32 := Scalar.muli arg0 c16_i32
  let c704_i32 : BitVec 32 := 704#32
  let c0_i32_89 : BitVec 32 := 0#32
  let c1_i32_91 : BitVec 32 := 1#32
  let arg8 : BitVec 32 := Scf.iv c0_i32_89 c1_i32_91 k0_t24
  let v46 : BitVec 32 := Scalar.addi c704_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off120 (v68 : BitVec 32) : Fin 2 → Nat :=
  let c0_i32_144 : BitVec 32 := 0#32
  ![v68.toNat, 0]

def k0_chk24 (v68 : BitVec 32) : Prop :=
  (∀ a, (k0_off120 v68) a + S1x256.size a ≤ S512x256.size a)
instance k0_chk24.dec : ∀ (v68 : BitVec 32), Decidable (k0_chk24 v68) := fun v68 => decidable_of_iff' _ (Iff.of_eq (k0_chk24.eq_1 v68))
theorem k0_off120_inb : ∀ (v68 : BitVec 32) (k0_hw24 : k0_chk24 v68), ∀ a, (k0_off120 v68) a + S1x256.size a ≤ S512x256.size a := fun v68 k0_hw24 => k0_hw24

@[reducible] def k0_t25_loop : Scf.Loop 32 :=
  let c0_i32_93 : BitVec 32 := 0#32
  let c64_i32_94 : BitVec 32 := 64#32
  let v25 : BitVec 32 := Scalar.addi c0_i32_93 c64_i32_94
  let c1_i32_95 : BitVec 32 := 1#32
  ⟨c0_i32_93, v25, c1_i32_95⟩
def k0_off121 (i : grid0.Coords) (k0_t25 : Fin k0_t25_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c768_i32 : BitVec 32 := 768#32
  let c0_i32_93 : BitVec 32 := 0#32
  let c1_i32_95 : BitVec 32 := 1#32
  let arg8 : BitVec 32 := Scf.iv c0_i32_93 c1_i32_95 k0_t25
  let v46 : BitVec 32 := Scalar.addi c768_i32 arg8
  let v66 : BitVec 32 := Scalar.addi v65 v46
  let v67 : Index := Scalar.indexCast v66
  ![v67.toNat]
def k0_off122 (k0_t25 : Fin k0_t25_loop.trips) : Fin 1 → Nat :=
  let c0_i32_93 : BitVec 32 := 0#32
  let c1_i32_95 : BitVec 32 := 1#32
  let arg8 : BitVec 32 := Scf.iv c0_i32_93 c1_i32_95 k0_t25
  ![arg8.toNat]
def k0_off123 (k0_t25 : Fin k0_t25_loop.trips) : Fin 2 → Nat :=
  let c768_i32 : BitVec 32 := 768#32
  let c0_i32_93 : BitVec 32 := 0#32
  let c1_i32_95 : BitVec 32 := 1#32
  let arg8 : BitVec 32 := Scf.iv c0_i32_93 c1_i32_95 k0_t25
  let v46 : BitVec 32 := Scalar.addi c768_i32 arg8
  let c0_i32_141 : BitVec 32 := 0#32
  ![v46.toNat, 0]
def k0_off124 (i : grid0.Coords) (k0_t25 : Fin k0_t25_loop.trips) : Fin 3 → Nat :=
  let arg0 : BitVec 32 := BitVec.ofNat 32 (i 0).val
  let c16_i32 : BitVec 32 := 16#32
  let v0 : BitVec 32 := Scalar.muli arg0 c16_i32
  let c768_i32 : BitVec 32 := 768#32
  let c0_i32_93 : BitVec 32 := 0#32
  let c1_i32_95 : BitVec 32 := 1#32
  let arg8 : BitVec 32 := Scf.iv c0_i32_93 c1_i32_95 k0_t25
  let v46 : BitVec 32 := Scalar.addi c768_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off125 (v68 : BitVec 32) : Fin 2 → Nat :=
  let c0_i32_144 : BitVec 32 := 0#32
  ![v68.toNat, 0]

def k0_chk25 (v68 : BitVec 32) : Prop :=
  (∀ a, (k0_off125 v68) a + S1x256.size a ≤ S512x256.size a)
instance k0_chk25.dec : ∀ (v68 : BitVec 32), Decidable (k0_chk25 v68) := fun v68 => decidable_of_iff' _ (Iff.of_eq (k0_chk25.eq_1 v68))
theorem k0_off125_inb : ∀ (v68 : BitVec 32) (k0_hw25 : k0_chk25 v68), ∀ a, (k0_off125 v68) a + S1x256.size a ≤ S512x256.size a := fun v68 k0_hw25 => k0_hw25

@[reducible] def k0_t26_loop : Scf.Loop 32 :=
  let c0_i32_97 : BitVec 32 := 0#32
  let c64_i32_98 : BitVec 32 := 64#32
  let v26 : BitVec 32 := Scalar.addi c0_i32_97 c64_i32_98
  let c1_i32_99 : BitVec 32 := 1#32
  ⟨c0_i32_97, v26, c1_i32_99⟩
def k0_off126 (i : grid0.Coords) (k0_t26 : Fin k0_t26_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c768_i32 : BitVec 32 := 768#32
  let c0_i32_97 : BitVec 32 := 0#32
  let c1_i32_99 : BitVec 32 := 1#32
  let arg8 : BitVec 32 := Scf.iv c0_i32_97 c1_i32_99 k0_t26
  let v46 : BitVec 32 := Scalar.addi c768_i32 arg8
  let v66 : BitVec 32 := Scalar.addi v65 v46
  let v67 : Index := Scalar.indexCast v66
  ![v67.toNat]
def k0_off127 (k0_t26 : Fin k0_t26_loop.trips) : Fin 1 → Nat :=
  let c0_i32_97 : BitVec 32 := 0#32
  let c1_i32_99 : BitVec 32 := 1#32
  let arg8 : BitVec 32 := Scf.iv c0_i32_97 c1_i32_99 k0_t26
  ![arg8.toNat]
def k0_off128 (k0_t26 : Fin k0_t26_loop.trips) : Fin 2 → Nat :=
  let c768_i32 : BitVec 32 := 768#32
  let c0_i32_97 : BitVec 32 := 0#32
  let c1_i32_99 : BitVec 32 := 1#32
  let arg8 : BitVec 32 := Scf.iv c0_i32_97 c1_i32_99 k0_t26
  let v46 : BitVec 32 := Scalar.addi c768_i32 arg8
  let c0_i32_141 : BitVec 32 := 0#32
  ![v46.toNat, 0]
def k0_off129 (i : grid0.Coords) (k0_t26 : Fin k0_t26_loop.trips) : Fin 3 → Nat :=
  let arg0 : BitVec 32 := BitVec.ofNat 32 (i 0).val
  let c16_i32 : BitVec 32 := 16#32
  let v0 : BitVec 32 := Scalar.muli arg0 c16_i32
  let c768_i32 : BitVec 32 := 768#32
  let c0_i32_97 : BitVec 32 := 0#32
  let c1_i32_99 : BitVec 32 := 1#32
  let arg8 : BitVec 32 := Scf.iv c0_i32_97 c1_i32_99 k0_t26
  let v46 : BitVec 32 := Scalar.addi c768_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off130 (v68 : BitVec 32) : Fin 2 → Nat :=
  let c0_i32_144 : BitVec 32 := 0#32
  ![v68.toNat, 0]

def k0_chk26 (v68 : BitVec 32) : Prop :=
  (∀ a, (k0_off130 v68) a + S1x256.size a ≤ S512x256.size a)
instance k0_chk26.dec : ∀ (v68 : BitVec 32), Decidable (k0_chk26 v68) := fun v68 => decidable_of_iff' _ (Iff.of_eq (k0_chk26.eq_1 v68))
theorem k0_off130_inb : ∀ (v68 : BitVec 32) (k0_hw26 : k0_chk26 v68), ∀ a, (k0_off130 v68) a + S1x256.size a ≤ S512x256.size a := fun v68 k0_hw26 => k0_hw26

@[reducible] def k0_t27_loop : Scf.Loop 32 :=
  let c0_i32_101 : BitVec 32 := 0#32
  let c64_i32_102 : BitVec 32 := 64#32
  let v27 : BitVec 32 := Scalar.addi c0_i32_101 c64_i32_102
  let c1_i32_103 : BitVec 32 := 1#32
  ⟨c0_i32_101, v27, c1_i32_103⟩
def k0_off131 (i : grid0.Coords) (k0_t27 : Fin k0_t27_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c832_i32 : BitVec 32 := 832#32
  let c0_i32_101 : BitVec 32 := 0#32
  let c1_i32_103 : BitVec 32 := 1#32
  let arg8 : BitVec 32 := Scf.iv c0_i32_101 c1_i32_103 k0_t27
  let v46 : BitVec 32 := Scalar.addi c832_i32 arg8
  let v66 : BitVec 32 := Scalar.addi v65 v46
  let v67 : Index := Scalar.indexCast v66
  ![v67.toNat]
def k0_off132 (k0_t27 : Fin k0_t27_loop.trips) : Fin 1 → Nat :=
  let c0_i32_101 : BitVec 32 := 0#32
  let c1_i32_103 : BitVec 32 := 1#32
  let arg8 : BitVec 32 := Scf.iv c0_i32_101 c1_i32_103 k0_t27
  ![arg8.toNat]
def k0_off133 (k0_t27 : Fin k0_t27_loop.trips) : Fin 2 → Nat :=
  let c832_i32 : BitVec 32 := 832#32
  let c0_i32_101 : BitVec 32 := 0#32
  let c1_i32_103 : BitVec 32 := 1#32
  let arg8 : BitVec 32 := Scf.iv c0_i32_101 c1_i32_103 k0_t27
  let v46 : BitVec 32 := Scalar.addi c832_i32 arg8
  let c0_i32_141 : BitVec 32 := 0#32
  ![v46.toNat, 0]
def k0_off134 (i : grid0.Coords) (k0_t27 : Fin k0_t27_loop.trips) : Fin 3 → Nat :=
  let arg0 : BitVec 32 := BitVec.ofNat 32 (i 0).val
  let c16_i32 : BitVec 32 := 16#32
  let v0 : BitVec 32 := Scalar.muli arg0 c16_i32
  let c832_i32 : BitVec 32 := 832#32
  let c0_i32_101 : BitVec 32 := 0#32
  let c1_i32_103 : BitVec 32 := 1#32
  let arg8 : BitVec 32 := Scf.iv c0_i32_101 c1_i32_103 k0_t27
  let v46 : BitVec 32 := Scalar.addi c832_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off135 (v68 : BitVec 32) : Fin 2 → Nat :=
  let c0_i32_144 : BitVec 32 := 0#32
  ![v68.toNat, 0]

def k0_chk27 (v68 : BitVec 32) : Prop :=
  (∀ a, (k0_off135 v68) a + S1x256.size a ≤ S512x256.size a)
instance k0_chk27.dec : ∀ (v68 : BitVec 32), Decidable (k0_chk27 v68) := fun v68 => decidable_of_iff' _ (Iff.of_eq (k0_chk27.eq_1 v68))
theorem k0_off135_inb : ∀ (v68 : BitVec 32) (k0_hw27 : k0_chk27 v68), ∀ a, (k0_off135 v68) a + S1x256.size a ≤ S512x256.size a := fun v68 k0_hw27 => k0_hw27

@[reducible] def k0_t28_loop : Scf.Loop 32 :=
  let c0_i32_105 : BitVec 32 := 0#32
  let c64_i32_106 : BitVec 32 := 64#32
  let v28 : BitVec 32 := Scalar.addi c0_i32_105 c64_i32_106
  let c1_i32_107 : BitVec 32 := 1#32
  ⟨c0_i32_105, v28, c1_i32_107⟩
def k0_off136 (i : grid0.Coords) (k0_t28 : Fin k0_t28_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c832_i32 : BitVec 32 := 832#32
  let c0_i32_105 : BitVec 32 := 0#32
  let c1_i32_107 : BitVec 32 := 1#32
  let arg8 : BitVec 32 := Scf.iv c0_i32_105 c1_i32_107 k0_t28
  let v46 : BitVec 32 := Scalar.addi c832_i32 arg8
  let v66 : BitVec 32 := Scalar.addi v65 v46
  let v67 : Index := Scalar.indexCast v66
  ![v67.toNat]
def k0_off137 (k0_t28 : Fin k0_t28_loop.trips) : Fin 1 → Nat :=
  let c0_i32_105 : BitVec 32 := 0#32
  let c1_i32_107 : BitVec 32 := 1#32
  let arg8 : BitVec 32 := Scf.iv c0_i32_105 c1_i32_107 k0_t28
  ![arg8.toNat]
def k0_off138 (k0_t28 : Fin k0_t28_loop.trips) : Fin 2 → Nat :=
  let c832_i32 : BitVec 32 := 832#32
  let c0_i32_105 : BitVec 32 := 0#32
  let c1_i32_107 : BitVec 32 := 1#32
  let arg8 : BitVec 32 := Scf.iv c0_i32_105 c1_i32_107 k0_t28
  let v46 : BitVec 32 := Scalar.addi c832_i32 arg8
  let c0_i32_141 : BitVec 32 := 0#32
  ![v46.toNat, 0]
def k0_off139 (i : grid0.Coords) (k0_t28 : Fin k0_t28_loop.trips) : Fin 3 → Nat :=
  let arg0 : BitVec 32 := BitVec.ofNat 32 (i 0).val
  let c16_i32 : BitVec 32 := 16#32
  let v0 : BitVec 32 := Scalar.muli arg0 c16_i32
  let c832_i32 : BitVec 32 := 832#32
  let c0_i32_105 : BitVec 32 := 0#32
  let c1_i32_107 : BitVec 32 := 1#32
  let arg8 : BitVec 32 := Scf.iv c0_i32_105 c1_i32_107 k0_t28
  let v46 : BitVec 32 := Scalar.addi c832_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off140 (v68 : BitVec 32) : Fin 2 → Nat :=
  let c0_i32_144 : BitVec 32 := 0#32
  ![v68.toNat, 0]

def k0_chk28 (v68 : BitVec 32) : Prop :=
  (∀ a, (k0_off140 v68) a + S1x256.size a ≤ S512x256.size a)
instance k0_chk28.dec : ∀ (v68 : BitVec 32), Decidable (k0_chk28 v68) := fun v68 => decidable_of_iff' _ (Iff.of_eq (k0_chk28.eq_1 v68))
theorem k0_off140_inb : ∀ (v68 : BitVec 32) (k0_hw28 : k0_chk28 v68), ∀ a, (k0_off140 v68) a + S1x256.size a ≤ S512x256.size a := fun v68 k0_hw28 => k0_hw28

@[reducible] def k0_t29_loop : Scf.Loop 32 :=
  let c0_i32_109 : BitVec 32 := 0#32
  let c64_i32_110 : BitVec 32 := 64#32
  let v29 : BitVec 32 := Scalar.addi c0_i32_109 c64_i32_110
  let c1_i32_111 : BitVec 32 := 1#32
  ⟨c0_i32_109, v29, c1_i32_111⟩
def k0_off141 (i : grid0.Coords) (k0_t29 : Fin k0_t29_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c896_i32 : BitVec 32 := 896#32
  let c0_i32_109 : BitVec 32 := 0#32
  let c1_i32_111 : BitVec 32 := 1#32
  let arg8 : BitVec 32 := Scf.iv c0_i32_109 c1_i32_111 k0_t29
  let v46 : BitVec 32 := Scalar.addi c896_i32 arg8
  let v66 : BitVec 32 := Scalar.addi v65 v46
  let v67 : Index := Scalar.indexCast v66
  ![v67.toNat]
def k0_off142 (k0_t29 : Fin k0_t29_loop.trips) : Fin 1 → Nat :=
  let c0_i32_109 : BitVec 32 := 0#32
  let c1_i32_111 : BitVec 32 := 1#32
  let arg8 : BitVec 32 := Scf.iv c0_i32_109 c1_i32_111 k0_t29
  ![arg8.toNat]
def k0_off143 (k0_t29 : Fin k0_t29_loop.trips) : Fin 2 → Nat :=
  let c896_i32 : BitVec 32 := 896#32
  let c0_i32_109 : BitVec 32 := 0#32
  let c1_i32_111 : BitVec 32 := 1#32
  let arg8 : BitVec 32 := Scf.iv c0_i32_109 c1_i32_111 k0_t29
  let v46 : BitVec 32 := Scalar.addi c896_i32 arg8
  let c0_i32_141 : BitVec 32 := 0#32
  ![v46.toNat, 0]
def k0_off144 (i : grid0.Coords) (k0_t29 : Fin k0_t29_loop.trips) : Fin 3 → Nat :=
  let arg0 : BitVec 32 := BitVec.ofNat 32 (i 0).val
  let c16_i32 : BitVec 32 := 16#32
  let v0 : BitVec 32 := Scalar.muli arg0 c16_i32
  let c896_i32 : BitVec 32 := 896#32
  let c0_i32_109 : BitVec 32 := 0#32
  let c1_i32_111 : BitVec 32 := 1#32
  let arg8 : BitVec 32 := Scf.iv c0_i32_109 c1_i32_111 k0_t29
  let v46 : BitVec 32 := Scalar.addi c896_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off145 (v68 : BitVec 32) : Fin 2 → Nat :=
  let c0_i32_144 : BitVec 32 := 0#32
  ![v68.toNat, 0]

def k0_chk29 (v68 : BitVec 32) : Prop :=
  (∀ a, (k0_off145 v68) a + S1x256.size a ≤ S512x256.size a)
instance k0_chk29.dec : ∀ (v68 : BitVec 32), Decidable (k0_chk29 v68) := fun v68 => decidable_of_iff' _ (Iff.of_eq (k0_chk29.eq_1 v68))
theorem k0_off145_inb : ∀ (v68 : BitVec 32) (k0_hw29 : k0_chk29 v68), ∀ a, (k0_off145 v68) a + S1x256.size a ≤ S512x256.size a := fun v68 k0_hw29 => k0_hw29

@[reducible] def k0_t30_loop : Scf.Loop 32 :=
  let c0_i32_113 : BitVec 32 := 0#32
  let c64_i32_114 : BitVec 32 := 64#32
  let v30 : BitVec 32 := Scalar.addi c0_i32_113 c64_i32_114
  let c1_i32_115 : BitVec 32 := 1#32
  ⟨c0_i32_113, v30, c1_i32_115⟩
def k0_off146 (i : grid0.Coords) (k0_t30 : Fin k0_t30_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c896_i32 : BitVec 32 := 896#32
  let c0_i32_113 : BitVec 32 := 0#32
  let c1_i32_115 : BitVec 32 := 1#32
  let arg8 : BitVec 32 := Scf.iv c0_i32_113 c1_i32_115 k0_t30
  let v46 : BitVec 32 := Scalar.addi c896_i32 arg8
  let v66 : BitVec 32 := Scalar.addi v65 v46
  let v67 : Index := Scalar.indexCast v66
  ![v67.toNat]
def k0_off147 (k0_t30 : Fin k0_t30_loop.trips) : Fin 1 → Nat :=
  let c0_i32_113 : BitVec 32 := 0#32
  let c1_i32_115 : BitVec 32 := 1#32
  let arg8 : BitVec 32 := Scf.iv c0_i32_113 c1_i32_115 k0_t30
  ![arg8.toNat]
def k0_off148 (k0_t30 : Fin k0_t30_loop.trips) : Fin 2 → Nat :=
  let c896_i32 : BitVec 32 := 896#32
  let c0_i32_113 : BitVec 32 := 0#32
  let c1_i32_115 : BitVec 32 := 1#32
  let arg8 : BitVec 32 := Scf.iv c0_i32_113 c1_i32_115 k0_t30
  let v46 : BitVec 32 := Scalar.addi c896_i32 arg8
  let c0_i32_141 : BitVec 32 := 0#32
  ![v46.toNat, 0]
def k0_off149 (i : grid0.Coords) (k0_t30 : Fin k0_t30_loop.trips) : Fin 3 → Nat :=
  let arg0 : BitVec 32 := BitVec.ofNat 32 (i 0).val
  let c16_i32 : BitVec 32 := 16#32
  let v0 : BitVec 32 := Scalar.muli arg0 c16_i32
  let c896_i32 : BitVec 32 := 896#32
  let c0_i32_113 : BitVec 32 := 0#32
  let c1_i32_115 : BitVec 32 := 1#32
  let arg8 : BitVec 32 := Scf.iv c0_i32_113 c1_i32_115 k0_t30
  let v46 : BitVec 32 := Scalar.addi c896_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off150 (v68 : BitVec 32) : Fin 2 → Nat :=
  let c0_i32_144 : BitVec 32 := 0#32
  ![v68.toNat, 0]

def k0_chk30 (v68 : BitVec 32) : Prop :=
  (∀ a, (k0_off150 v68) a + S1x256.size a ≤ S512x256.size a)
instance k0_chk30.dec : ∀ (v68 : BitVec 32), Decidable (k0_chk30 v68) := fun v68 => decidable_of_iff' _ (Iff.of_eq (k0_chk30.eq_1 v68))
theorem k0_off150_inb : ∀ (v68 : BitVec 32) (k0_hw30 : k0_chk30 v68), ∀ a, (k0_off150 v68) a + S1x256.size a ≤ S512x256.size a := fun v68 k0_hw30 => k0_hw30

@[reducible] def k0_t31_loop : Scf.Loop 32 :=
  let c0_i32_117 : BitVec 32 := 0#32
  let c64_i32_118 : BitVec 32 := 64#32
  let v31 : BitVec 32 := Scalar.addi c0_i32_117 c64_i32_118
  let c1_i32_119 : BitVec 32 := 1#32
  ⟨c0_i32_117, v31, c1_i32_119⟩
def k0_off151 (i : grid0.Coords) (k0_t31 : Fin k0_t31_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c960_i32 : BitVec 32 := 960#32
  let c0_i32_117 : BitVec 32 := 0#32
  let c1_i32_119 : BitVec 32 := 1#32
  let arg8 : BitVec 32 := Scf.iv c0_i32_117 c1_i32_119 k0_t31
  let v46 : BitVec 32 := Scalar.addi c960_i32 arg8
  let v66 : BitVec 32 := Scalar.addi v65 v46
  let v67 : Index := Scalar.indexCast v66
  ![v67.toNat]
def k0_off152 (k0_t31 : Fin k0_t31_loop.trips) : Fin 1 → Nat :=
  let c0_i32_117 : BitVec 32 := 0#32
  let c1_i32_119 : BitVec 32 := 1#32
  let arg8 : BitVec 32 := Scf.iv c0_i32_117 c1_i32_119 k0_t31
  ![arg8.toNat]
def k0_off153 (k0_t31 : Fin k0_t31_loop.trips) : Fin 2 → Nat :=
  let c960_i32 : BitVec 32 := 960#32
  let c0_i32_117 : BitVec 32 := 0#32
  let c1_i32_119 : BitVec 32 := 1#32
  let arg8 : BitVec 32 := Scf.iv c0_i32_117 c1_i32_119 k0_t31
  let v46 : BitVec 32 := Scalar.addi c960_i32 arg8
  let c0_i32_141 : BitVec 32 := 0#32
  ![v46.toNat, 0]
def k0_off154 (i : grid0.Coords) (k0_t31 : Fin k0_t31_loop.trips) : Fin 3 → Nat :=
  let arg0 : BitVec 32 := BitVec.ofNat 32 (i 0).val
  let c16_i32 : BitVec 32 := 16#32
  let v0 : BitVec 32 := Scalar.muli arg0 c16_i32
  let c960_i32 : BitVec 32 := 960#32
  let c0_i32_117 : BitVec 32 := 0#32
  let c1_i32_119 : BitVec 32 := 1#32
  let arg8 : BitVec 32 := Scf.iv c0_i32_117 c1_i32_119 k0_t31
  let v46 : BitVec 32 := Scalar.addi c960_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off155 (v68 : BitVec 32) : Fin 2 → Nat :=
  let c0_i32_144 : BitVec 32 := 0#32
  ![v68.toNat, 0]

def k0_chk31 (v68 : BitVec 32) : Prop :=
  (∀ a, (k0_off155 v68) a + S1x256.size a ≤ S512x256.size a)
instance k0_chk31.dec : ∀ (v68 : BitVec 32), Decidable (k0_chk31 v68) := fun v68 => decidable_of_iff' _ (Iff.of_eq (k0_chk31.eq_1 v68))
theorem k0_off155_inb : ∀ (v68 : BitVec 32) (k0_hw31 : k0_chk31 v68), ∀ a, (k0_off155 v68) a + S1x256.size a ≤ S512x256.size a := fun v68 k0_hw31 => k0_hw31

@[reducible] def k0_t32_loop : Scf.Loop 32 :=
  let c0_i32_121 : BitVec 32 := 0#32
  let c64_i32_122 : BitVec 32 := 64#32
  let v32 : BitVec 32 := Scalar.addi c0_i32_121 c64_i32_122
  let c1_i32_123 : BitVec 32 := 1#32
  ⟨c0_i32_121, v32, c1_i32_123⟩
def k0_off156 (i : grid0.Coords) (k0_t32 : Fin k0_t32_loop.trips) : Fin 1 → Nat :=
  let arg0 : BitVec 32 := BitVec.ofNat 32 (i 0).val
  let c16_i32 : BitVec 32 := 16#32
  let v0 : BitVec 32 := Scalar.muli arg0 c16_i32
  let c64_i32_140 : BitVec 32 := 64#32
  let v65 : BitVec 32 := Scalar.muli v0 c64_i32_140
  let c960_i32 : BitVec 32 := 960#32
  let c0_i32_121 : BitVec 32 := 0#32
  let c1_i32_123 : BitVec 32 := 1#32
  let arg8 : BitVec 32 := Scf.iv c0_i32_121 c1_i32_123 k0_t32
  let v46 : BitVec 32 := Scalar.addi c960_i32 arg8
  let v66 : BitVec 32 := Scalar.addi v65 v46
  let v67 : Index := Scalar.indexCast v66
  ![v67.toNat]
def k0_off157 (k0_t32 : Fin k0_t32_loop.trips) : Fin 1 → Nat :=
  let c0_i32_121 : BitVec 32 := 0#32
  let c1_i32_123 : BitVec 32 := 1#32
  let arg8 : BitVec 32 := Scf.iv c0_i32_121 c1_i32_123 k0_t32
  ![arg8.toNat]
def k0_off158 (k0_t32 : Fin k0_t32_loop.trips) : Fin 2 → Nat :=
  let c960_i32 : BitVec 32 := 960#32
  let c0_i32_121 : BitVec 32 := 0#32
  let c1_i32_123 : BitVec 32 := 1#32
  let arg8 : BitVec 32 := Scf.iv c0_i32_121 c1_i32_123 k0_t32
  let v46 : BitVec 32 := Scalar.addi c960_i32 arg8
  let c0_i32_141 : BitVec 32 := 0#32
  ![v46.toNat, 0]
def k0_off159 (i : grid0.Coords) (k0_t32 : Fin k0_t32_loop.trips) : Fin 3 → Nat :=
  let arg0 : BitVec 32 := BitVec.ofNat 32 (i 0).val
  let c16_i32 : BitVec 32 := 16#32
  let v0 : BitVec 32 := Scalar.muli arg0 c16_i32
  let c960_i32 : BitVec 32 := 960#32
  let c0_i32_121 : BitVec 32 := 0#32
  let c1_i32_123 : BitVec 32 := 1#32
  let arg8 : BitVec 32 := Scf.iv c0_i32_121 c1_i32_123 k0_t32
  let v46 : BitVec 32 := Scalar.addi c960_i32 arg8
  let c0_i32_134 : BitVec 32 := 0#32
  let v48 : BitVec 1 := Scalar.cmpi .sgt v46 c0_i32_134
  let v49 : BitVec 32 := Scalar.extui v48
  let c0_i32_135 : BitVec 32 := 0#32
  let v50 : BitVec 1 := Scalar.cmpi .slt v46 c0_i32_135
  let v51 : BitVec 32 := Scalar.extui v50
  let v52 : BitVec 32 := Scalar.subi v49 v51
  let c64_i32_133 : BitVec 32 := 64#32
  let c0_i32_136 : BitVec 32 := 0#32
  let v53 : BitVec 1 := Scalar.cmpi .sgt c64_i32_133 c0_i32_136
  let v54 : BitVec 32 := Scalar.extui v53
  let c0_i32_137 : BitVec 32 := 0#32
  let v55 : BitVec 1 := Scalar.cmpi .slt c64_i32_133 c0_i32_137
  let v56 : BitVec 32 := Scalar.extui v55
  let v57 : BitVec 32 := Scalar.subi v54 v56
  let v58 : BitVec 1 := Scalar.cmpi .ne v52 v57
  let v59 : BitVec 32 := Scalar.remsi v46 c64_i32_133
  let c0_i32_138 : BitVec 32 := 0#32
  let v60 : BitVec 1 := Scalar.cmpi .ne v59 c0_i32_138
  let v61 : BitVec 1 := Scalar.andi v58 v60
  let v47 : BitVec 32 := Scalar.divsi v46 c64_i32_133
  let c1_i32_139 : BitVec 32 := 1#32
  let v62 : BitVec 32 := Scalar.subi v47 c1_i32_139
  let v63 : BitVec 32 := Scalar.select v61 v62 v47
  let v64 : BitVec 32 := Scalar.addi v0 v63
  let c0_i32_142 : BitVec 32 := 0#32
  let c0_i32_143 : BitVec 32 := 0#32
  ![v64.toNat, 0, 0]
def k0_off160 (v68 : BitVec 32) : Fin 2 → Nat :=
  let c0_i32_144 : BitVec 32 := 0#32
  ![v68.toNat, 0]

def k0_chk32 (v68 : BitVec 32) : Prop :=
  (∀ a, (k0_off160 v68) a + S1x256.size a ≤ S512x256.size a)
instance k0_chk32.dec : ∀ (v68 : BitVec 32), Decidable (k0_chk32 v68) := fun v68 => decidable_of_iff' _ (Iff.of_eq (k0_chk32.eq_1 v68))
theorem k0_off160_inb : ∀ (v68 : BitVec 32) (k0_hw32 : k0_chk32 v68), ∀ a, (k0_off160 v68) a + S1x256.size a ≤ S512x256.size a := fun v68 k0_hw32 => k0_hw32

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024x64_S65536 : S1024x64.ShapeCasts S65536
  numel1_S1 : S1.numel = 1
  squeezes_S1_S_ : S1.Squeezes S_
  squeezes_S1x256_S256 : S1x256.Squeezes S256
  squeezes_S1x512x256_S512x256 : S1x512x256.Squeezes S512x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  inb_S1024x256_S1024x256_0_0 : ∀ a, (![0, 0] : Fin 2 → Nat) a + S1024x256.size a ≤ S1024x256.size a
  h_S1024x256 : 0 < S1024x256.numel
  shapeCasts_S256_S1x256 : S256.ShapeCasts S1x256
  broadcasts_S1x256_S1024x256 : S1x256.Broadcasts S1024x256
  shapeCasts_S1024x256_S16x64x256 : S1024x256.ShapeCasts S16x64x256
  reduces_S16x64x256_S16x256 : S16x64x256.Reduces [1] S16x256
  inb_S16x256_S16x256_0_0 : ∀ a, (![0, 0] : Fin 2 → Nat) a + S16x256.size a ≤ S16x256.size a
  h_S16x256 : 0 < S16x256.numel
  shapeCasts_S1024x64x2_S1024x128 : S1024x64x2.ShapeCasts S1024x128
  shapeCasts_S1024x64x64_S1024x4096 : S1024x64x64.ShapeCasts S1024x4096
  concatenates_S1024x64_S1024x128_S1024x4096_S1024x4096_S1024x4096_S1024x64_S1024x256_S1024x12800_d1 : Shape.Concatenates [S1024x64, S1024x128, S1024x4096, S1024x4096, S1024x4096, S1024x64, S1024x256] S1024x12800 1
  dot_S1024x256_S256x256_S1024x256_1_0_0_1_n_n_wf : DotDims.WF S1024x256 S256x256 S1024x256 [1] [0] [0] [1] [] []
  hcc0_scratch1 : 4 + S64.numel ≤ 68
  hrank0 : 0 < grid0.rank
  k0_t1_ok : k0_t1_loop.OK
  k0_off1_inb : ∀ (i : grid0.Coords) (k0_t1 : Fin k0_t1_loop.trips), ∀ a, (k0_off1 i k0_t1) a + S1.size a ≤ S65536.size a
  k0_off2_inb : ∀ k0_t1 : Fin k0_t1_loop.trips, ∀ a, (k0_off2 k0_t1) a + S1.size a ≤ S64.size a
  k0_off3_inb : ∀ k0_t1 : Fin k0_t1_loop.trips, ∀ a, (k0_off3 k0_t1) a + S1x256.size a ≤ S1024x256.size a
  k0_off4_inb : ∀ (i : grid0.Coords) (k0_t1 : Fin k0_t1_loop.trips), ∀ a, (k0_off4 i k0_t1) a + S1x512x256.size a ≤ S1024x512x256.size a
  k0_t2_ok : k0_t2_loop.OK
  k0_off6_inb : ∀ (i : grid0.Coords) (k0_t2 : Fin k0_t2_loop.trips), ∀ a, (k0_off6 i k0_t2) a + S1.size a ≤ S65536.size a
  k0_off7_inb : ∀ k0_t2 : Fin k0_t2_loop.trips, ∀ a, (k0_off7 k0_t2) a + S1.size a ≤ S64.size a
  k0_off8_inb : ∀ k0_t2 : Fin k0_t2_loop.trips, ∀ a, (k0_off8 k0_t2) a + S1x256.size a ≤ S1024x256.size a
  k0_off9_inb : ∀ (i : grid0.Coords) (k0_t2 : Fin k0_t2_loop.trips), ∀ a, (k0_off9 i k0_t2) a + S1x512x256.size a ≤ S1024x512x256.size a
  k0_t3_ok : k0_t3_loop.OK
  k0_off11_inb : ∀ (i : grid0.Coords) (k0_t3 : Fin k0_t3_loop.trips), ∀ a, (k0_off11 i k0_t3) a + S1.size a ≤ S65536.size a
  k0_off12_inb : ∀ k0_t3 : Fin k0_t3_loop.trips, ∀ a, (k0_off12 k0_t3) a + S1.size a ≤ S64.size a
  k0_off13_inb : ∀ k0_t3 : Fin k0_t3_loop.trips, ∀ a, (k0_off13 k0_t3) a + S1x256.size a ≤ S1024x256.size a
  k0_off14_inb : ∀ (i : grid0.Coords) (k0_t3 : Fin k0_t3_loop.trips), ∀ a, (k0_off14 i k0_t3) a + S1x512x256.size a ≤ S1024x512x256.size a
  k0_t4_ok : k0_t4_loop.OK
  k0_off16_inb : ∀ (i : grid0.Coords) (k0_t4 : Fin k0_t4_loop.trips), ∀ a, (k0_off16 i k0_t4) a + S1.size a ≤ S65536.size a
  k0_off17_inb : ∀ k0_t4 : Fin k0_t4_loop.trips, ∀ a, (k0_off17 k0_t4) a + S1.size a ≤ S64.size a
  k0_off18_inb : ∀ k0_t4 : Fin k0_t4_loop.trips, ∀ a, (k0_off18 k0_t4) a + S1x256.size a ≤ S1024x256.size a
  k0_off19_inb : ∀ (i : grid0.Coords) (k0_t4 : Fin k0_t4_loop.trips), ∀ a, (k0_off19 i k0_t4) a + S1x512x256.size a ≤ S1024x512x256.size a
  k0_t5_ok : k0_t5_loop.OK
  k0_off21_inb : ∀ (i : grid0.Coords) (k0_t5 : Fin k0_t5_loop.trips), ∀ a, (k0_off21 i k0_t5) a + S1.size a ≤ S65536.size a
  k0_off22_inb : ∀ k0_t5 : Fin k0_t5_loop.trips, ∀ a, (k0_off22 k0_t5) a + S1.size a ≤ S64.size a
  k0_off23_inb : ∀ k0_t5 : Fin k0_t5_loop.trips, ∀ a, (k0_off23 k0_t5) a + S1x256.size a ≤ S1024x256.size a
  k0_off24_inb : ∀ (i : grid0.Coords) (k0_t5 : Fin k0_t5_loop.trips), ∀ a, (k0_off24 i k0_t5) a + S1x512x256.size a ≤ S1024x512x256.size a
  k0_t6_ok : k0_t6_loop.OK
  k0_off26_inb : ∀ (i : grid0.Coords) (k0_t6 : Fin k0_t6_loop.trips), ∀ a, (k0_off26 i k0_t6) a + S1.size a ≤ S65536.size a
  k0_off27_inb : ∀ k0_t6 : Fin k0_t6_loop.trips, ∀ a, (k0_off27 k0_t6) a + S1.size a ≤ S64.size a
  k0_off28_inb : ∀ k0_t6 : Fin k0_t6_loop.trips, ∀ a, (k0_off28 k0_t6) a + S1x256.size a ≤ S1024x256.size a
  k0_off29_inb : ∀ (i : grid0.Coords) (k0_t6 : Fin k0_t6_loop.trips), ∀ a, (k0_off29 i k0_t6) a + S1x512x256.size a ≤ S1024x512x256.size a
  k0_t7_ok : k0_t7_loop.OK
  k0_off31_inb : ∀ (i : grid0.Coords) (k0_t7 : Fin k0_t7_loop.trips), ∀ a, (k0_off31 i k0_t7) a + S1.size a ≤ S65536.size a
  k0_off32_inb : ∀ k0_t7 : Fin k0_t7_loop.trips, ∀ a, (k0_off32 k0_t7) a + S1.size a ≤ S64.size a
  k0_off33_inb : ∀ k0_t7 : Fin k0_t7_loop.trips, ∀ a, (k0_off33 k0_t7) a + S1x256.size a ≤ S1024x256.size a
  k0_off34_inb : ∀ (i : grid0.Coords) (k0_t7 : Fin k0_t7_loop.trips), ∀ a, (k0_off34 i k0_t7) a + S1x512x256.size a ≤ S1024x512x256.size a
  k0_t8_ok : k0_t8_loop.OK
  k0_off36_inb : ∀ (i : grid0.Coords) (k0_t8 : Fin k0_t8_loop.trips), ∀ a, (k0_off36 i k0_t8) a + S1.size a ≤ S65536.size a
  k0_off37_inb : ∀ k0_t8 : Fin k0_t8_loop.trips, ∀ a, (k0_off37 k0_t8) a + S1.size a ≤ S64.size a
  k0_off38_inb : ∀ k0_t8 : Fin k0_t8_loop.trips, ∀ a, (k0_off38 k0_t8) a + S1x256.size a ≤ S1024x256.size a
  k0_off39_inb : ∀ (i : grid0.Coords) (k0_t8 : Fin k0_t8_loop.trips), ∀ a, (k0_off39 i k0_t8) a + S1x512x256.size a ≤ S1024x512x256.size a
  k0_t9_ok : k0_t9_loop.OK
  k0_off41_inb : ∀ (i : grid0.Coords) (k0_t9 : Fin k0_t9_loop.trips), ∀ a, (k0_off41 i k0_t9) a + S1.size a ≤ S65536.size a
  k0_off42_inb : ∀ k0_t9 : Fin k0_t9_loop.trips, ∀ a, (k0_off42 k0_t9) a + S1.size a ≤ S64.size a
  k0_off43_inb : ∀ k0_t9 : Fin k0_t9_loop.trips, ∀ a, (k0_off43 k0_t9) a + S1x256.size a ≤ S1024x256.size a
  k0_off44_inb : ∀ (i : grid0.Coords) (k0_t9 : Fin k0_t9_loop.trips), ∀ a, (k0_off44 i k0_t9) a + S1x512x256.size a ≤ S1024x512x256.size a
  k0_t10_ok : k0_t10_loop.OK
  k0_off46_inb : ∀ (i : grid0.Coords) (k0_t10 : Fin k0_t10_loop.trips), ∀ a, (k0_off46 i k0_t10) a + S1.size a ≤ S65536.size a
  k0_off47_inb : ∀ k0_t10 : Fin k0_t10_loop.trips, ∀ a, (k0_off47 k0_t10) a + S1.size a ≤ S64.size a
  k0_off48_inb : ∀ k0_t10 : Fin k0_t10_loop.trips, ∀ a, (k0_off48 k0_t10) a + S1x256.size a ≤ S1024x256.size a
  k0_off49_inb : ∀ (i : grid0.Coords) (k0_t10 : Fin k0_t10_loop.trips), ∀ a, (k0_off49 i k0_t10) a + S1x512x256.size a ≤ S1024x512x256.size a
  k0_t11_ok : k0_t11_loop.OK
  k0_off51_inb : ∀ (i : grid0.Coords) (k0_t11 : Fin k0_t11_loop.trips), ∀ a, (k0_off51 i k0_t11) a + S1.size a ≤ S65536.size a
  k0_off52_inb : ∀ k0_t11 : Fin k0_t11_loop.trips, ∀ a, (k0_off52 k0_t11) a + S1.size a ≤ S64.size a
  k0_off53_inb : ∀ k0_t11 : Fin k0_t11_loop.trips, ∀ a, (k0_off53 k0_t11) a + S1x256.size a ≤ S1024x256.size a
  k0_off54_inb : ∀ (i : grid0.Coords) (k0_t11 : Fin k0_t11_loop.trips), ∀ a, (k0_off54 i k0_t11) a + S1x512x256.size a ≤ S1024x512x256.size a
  k0_t12_ok : k0_t12_loop.OK
  k0_off56_inb : ∀ (i : grid0.Coords) (k0_t12 : Fin k0_t12_loop.trips), ∀ a, (k0_off56 i k0_t12) a + S1.size a ≤ S65536.size a
  k0_off57_inb : ∀ k0_t12 : Fin k0_t12_loop.trips, ∀ a, (k0_off57 k0_t12) a + S1.size a ≤ S64.size a
  k0_off58_inb : ∀ k0_t12 : Fin k0_t12_loop.trips, ∀ a, (k0_off58 k0_t12) a + S1x256.size a ≤ S1024x256.size a
  k0_off59_inb : ∀ (i : grid0.Coords) (k0_t12 : Fin k0_t12_loop.trips), ∀ a, (k0_off59 i k0_t12) a + S1x512x256.size a ≤ S1024x512x256.size a
  k0_t13_ok : k0_t13_loop.OK
  k0_off61_inb : ∀ (i : grid0.Coords) (k0_t13 : Fin k0_t13_loop.trips), ∀ a, (k0_off61 i k0_t13) a + S1.size a ≤ S65536.size a
  k0_off62_inb : ∀ k0_t13 : Fin k0_t13_loop.trips, ∀ a, (k0_off62 k0_t13) a + S1.size a ≤ S64.size a
  k0_off63_inb : ∀ k0_t13 : Fin k0_t13_loop.trips, ∀ a, (k0_off63 k0_t13) a + S1x256.size a ≤ S1024x256.size a
  k0_off64_inb : ∀ (i : grid0.Coords) (k0_t13 : Fin k0_t13_loop.trips), ∀ a, (k0_off64 i k0_t13) a + S1x512x256.size a ≤ S1024x512x256.size a
  k0_t14_ok : k0_t14_loop.OK
  k0_off66_inb : ∀ (i : grid0.Coords) (k0_t14 : Fin k0_t14_loop.trips), ∀ a, (k0_off66 i k0_t14) a + S1.size a ≤ S65536.size a
  k0_off67_inb : ∀ k0_t14 : Fin k0_t14_loop.trips, ∀ a, (k0_off67 k0_t14) a + S1.size a ≤ S64.size a
  k0_off68_inb : ∀ k0_t14 : Fin k0_t14_loop.trips, ∀ a, (k0_off68 k0_t14) a + S1x256.size a ≤ S1024x256.size a
  k0_off69_inb : ∀ (i : grid0.Coords) (k0_t14 : Fin k0_t14_loop.trips), ∀ a, (k0_off69 i k0_t14) a + S1x512x256.size a ≤ S1024x512x256.size a
  k0_t15_ok : k0_t15_loop.OK
  k0_off71_inb : ∀ (i : grid0.Coords) (k0_t15 : Fin k0_t15_loop.trips), ∀ a, (k0_off71 i k0_t15) a + S1.size a ≤ S65536.size a
  k0_off72_inb : ∀ k0_t15 : Fin k0_t15_loop.trips, ∀ a, (k0_off72 k0_t15) a + S1.size a ≤ S64.size a
  k0_off73_inb : ∀ k0_t15 : Fin k0_t15_loop.trips, ∀ a, (k0_off73 k0_t15) a + S1x256.size a ≤ S1024x256.size a
  k0_off74_inb : ∀ (i : grid0.Coords) (k0_t15 : Fin k0_t15_loop.trips), ∀ a, (k0_off74 i k0_t15) a + S1x512x256.size a ≤ S1024x512x256.size a
  k0_t16_ok : k0_t16_loop.OK
  k0_off76_inb : ∀ (i : grid0.Coords) (k0_t16 : Fin k0_t16_loop.trips), ∀ a, (k0_off76 i k0_t16) a + S1.size a ≤ S65536.size a
  k0_off77_inb : ∀ k0_t16 : Fin k0_t16_loop.trips, ∀ a, (k0_off77 k0_t16) a + S1.size a ≤ S64.size a
  k0_off78_inb : ∀ k0_t16 : Fin k0_t16_loop.trips, ∀ a, (k0_off78 k0_t16) a + S1x256.size a ≤ S1024x256.size a
  k0_off79_inb : ∀ (i : grid0.Coords) (k0_t16 : Fin k0_t16_loop.trips), ∀ a, (k0_off79 i k0_t16) a + S1x512x256.size a ≤ S1024x512x256.size a
  k0_t17_ok : k0_t17_loop.OK
  k0_off81_inb : ∀ (i : grid0.Coords) (k0_t17 : Fin k0_t17_loop.trips), ∀ a, (k0_off81 i k0_t17) a + S1.size a ≤ S65536.size a
  k0_off82_inb : ∀ k0_t17 : Fin k0_t17_loop.trips, ∀ a, (k0_off82 k0_t17) a + S1.size a ≤ S64.size a
  k0_off83_inb : ∀ k0_t17 : Fin k0_t17_loop.trips, ∀ a, (k0_off83 k0_t17) a + S1x256.size a ≤ S1024x256.size a
  k0_off84_inb : ∀ (i : grid0.Coords) (k0_t17 : Fin k0_t17_loop.trips), ∀ a, (k0_off84 i k0_t17) a + S1x512x256.size a ≤ S1024x512x256.size a
  k0_t18_ok : k0_t18_loop.OK
  k0_off86_inb : ∀ (i : grid0.Coords) (k0_t18 : Fin k0_t18_loop.trips), ∀ a, (k0_off86 i k0_t18) a + S1.size a ≤ S65536.size a
  k0_off87_inb : ∀ k0_t18 : Fin k0_t18_loop.trips, ∀ a, (k0_off87 k0_t18) a + S1.size a ≤ S64.size a
  k0_off88_inb : ∀ k0_t18 : Fin k0_t18_loop.trips, ∀ a, (k0_off88 k0_t18) a + S1x256.size a ≤ S1024x256.size a
  k0_off89_inb : ∀ (i : grid0.Coords) (k0_t18 : Fin k0_t18_loop.trips), ∀ a, (k0_off89 i k0_t18) a + S1x512x256.size a ≤ S1024x512x256.size a
  k0_t19_ok : k0_t19_loop.OK
  k0_off91_inb : ∀ (i : grid0.Coords) (k0_t19 : Fin k0_t19_loop.trips), ∀ a, (k0_off91 i k0_t19) a + S1.size a ≤ S65536.size a
  k0_off92_inb : ∀ k0_t19 : Fin k0_t19_loop.trips, ∀ a, (k0_off92 k0_t19) a + S1.size a ≤ S64.size a
  k0_off93_inb : ∀ k0_t19 : Fin k0_t19_loop.trips, ∀ a, (k0_off93 k0_t19) a + S1x256.size a ≤ S1024x256.size a
  k0_off94_inb : ∀ (i : grid0.Coords) (k0_t19 : Fin k0_t19_loop.trips), ∀ a, (k0_off94 i k0_t19) a + S1x512x256.size a ≤ S1024x512x256.size a
  k0_t20_ok : k0_t20_loop.OK
  k0_off96_inb : ∀ (i : grid0.Coords) (k0_t20 : Fin k0_t20_loop.trips), ∀ a, (k0_off96 i k0_t20) a + S1.size a ≤ S65536.size a
  k0_off97_inb : ∀ k0_t20 : Fin k0_t20_loop.trips, ∀ a, (k0_off97 k0_t20) a + S1.size a ≤ S64.size a
  k0_off98_inb : ∀ k0_t20 : Fin k0_t20_loop.trips, ∀ a, (k0_off98 k0_t20) a + S1x256.size a ≤ S1024x256.size a
  k0_off99_inb : ∀ (i : grid0.Coords) (k0_t20 : Fin k0_t20_loop.trips), ∀ a, (k0_off99 i k0_t20) a + S1x512x256.size a ≤ S1024x512x256.size a
  k0_t21_ok : k0_t21_loop.OK
  k0_off101_inb : ∀ (i : grid0.Coords) (k0_t21 : Fin k0_t21_loop.trips), ∀ a, (k0_off101 i k0_t21) a + S1.size a ≤ S65536.size a
  k0_off102_inb : ∀ k0_t21 : Fin k0_t21_loop.trips, ∀ a, (k0_off102 k0_t21) a + S1.size a ≤ S64.size a
  k0_off103_inb : ∀ k0_t21 : Fin k0_t21_loop.trips, ∀ a, (k0_off103 k0_t21) a + S1x256.size a ≤ S1024x256.size a
  k0_off104_inb : ∀ (i : grid0.Coords) (k0_t21 : Fin k0_t21_loop.trips), ∀ a, (k0_off104 i k0_t21) a + S1x512x256.size a ≤ S1024x512x256.size a
  k0_t22_ok : k0_t22_loop.OK
  k0_off106_inb : ∀ (i : grid0.Coords) (k0_t22 : Fin k0_t22_loop.trips), ∀ a, (k0_off106 i k0_t22) a + S1.size a ≤ S65536.size a
  k0_off107_inb : ∀ k0_t22 : Fin k0_t22_loop.trips, ∀ a, (k0_off107 k0_t22) a + S1.size a ≤ S64.size a
  k0_off108_inb : ∀ k0_t22 : Fin k0_t22_loop.trips, ∀ a, (k0_off108 k0_t22) a + S1x256.size a ≤ S1024x256.size a
  k0_off109_inb : ∀ (i : grid0.Coords) (k0_t22 : Fin k0_t22_loop.trips), ∀ a, (k0_off109 i k0_t22) a + S1x512x256.size a ≤ S1024x512x256.size a
  k0_t23_ok : k0_t23_loop.OK
  k0_off111_inb : ∀ (i : grid0.Coords) (k0_t23 : Fin k0_t23_loop.trips), ∀ a, (k0_off111 i k0_t23) a + S1.size a ≤ S65536.size a
  k0_off112_inb : ∀ k0_t23 : Fin k0_t23_loop.trips, ∀ a, (k0_off112 k0_t23) a + S1.size a ≤ S64.size a
  k0_off113_inb : ∀ k0_t23 : Fin k0_t23_loop.trips, ∀ a, (k0_off113 k0_t23) a + S1x256.size a ≤ S1024x256.size a
  k0_off114_inb : ∀ (i : grid0.Coords) (k0_t23 : Fin k0_t23_loop.trips), ∀ a, (k0_off114 i k0_t23) a + S1x512x256.size a ≤ S1024x512x256.size a
  k0_t24_ok : k0_t24_loop.OK
  k0_off116_inb : ∀ (i : grid0.Coords) (k0_t24 : Fin k0_t24_loop.trips), ∀ a, (k0_off116 i k0_t24) a + S1.size a ≤ S65536.size a
  k0_off117_inb : ∀ k0_t24 : Fin k0_t24_loop.trips, ∀ a, (k0_off117 k0_t24) a + S1.size a ≤ S64.size a
  k0_off118_inb : ∀ k0_t24 : Fin k0_t24_loop.trips, ∀ a, (k0_off118 k0_t24) a + S1x256.size a ≤ S1024x256.size a
  k0_off119_inb : ∀ (i : grid0.Coords) (k0_t24 : Fin k0_t24_loop.trips), ∀ a, (k0_off119 i k0_t24) a + S1x512x256.size a ≤ S1024x512x256.size a
  k0_t25_ok : k0_t25_loop.OK
  k0_off121_inb : ∀ (i : grid0.Coords) (k0_t25 : Fin k0_t25_loop.trips), ∀ a, (k0_off121 i k0_t25) a + S1.size a ≤ S65536.size a
  k0_off122_inb : ∀ k0_t25 : Fin k0_t25_loop.trips, ∀ a, (k0_off122 k0_t25) a + S1.size a ≤ S64.size a
  k0_off123_inb : ∀ k0_t25 : Fin k0_t25_loop.trips, ∀ a, (k0_off123 k0_t25) a + S1x256.size a ≤ S1024x256.size a
  k0_off124_inb : ∀ (i : grid0.Coords) (k0_t25 : Fin k0_t25_loop.trips), ∀ a, (k0_off124 i k0_t25) a + S1x512x256.size a ≤ S1024x512x256.size a
  k0_t26_ok : k0_t26_loop.OK
  k0_off126_inb : ∀ (i : grid0.Coords) (k0_t26 : Fin k0_t26_loop.trips), ∀ a, (k0_off126 i k0_t26) a + S1.size a ≤ S65536.size a
  k0_off127_inb : ∀ k0_t26 : Fin k0_t26_loop.trips, ∀ a, (k0_off127 k0_t26) a + S1.size a ≤ S64.size a
  k0_off128_inb : ∀ k0_t26 : Fin k0_t26_loop.trips, ∀ a, (k0_off128 k0_t26) a + S1x256.size a ≤ S1024x256.size a
  k0_off129_inb : ∀ (i : grid0.Coords) (k0_t26 : Fin k0_t26_loop.trips), ∀ a, (k0_off129 i k0_t26) a + S1x512x256.size a ≤ S1024x512x256.size a
  k0_t27_ok : k0_t27_loop.OK
  k0_off131_inb : ∀ (i : grid0.Coords) (k0_t27 : Fin k0_t27_loop.trips), ∀ a, (k0_off131 i k0_t27) a + S1.size a ≤ S65536.size a
  k0_off132_inb : ∀ k0_t27 : Fin k0_t27_loop.trips, ∀ a, (k0_off132 k0_t27) a + S1.size a ≤ S64.size a
  k0_off133_inb : ∀ k0_t27 : Fin k0_t27_loop.trips, ∀ a, (k0_off133 k0_t27) a + S1x256.size a ≤ S1024x256.size a
  k0_off134_inb : ∀ (i : grid0.Coords) (k0_t27 : Fin k0_t27_loop.trips), ∀ a, (k0_off134 i k0_t27) a + S1x512x256.size a ≤ S1024x512x256.size a
  k0_t28_ok : k0_t28_loop.OK
  k0_off136_inb : ∀ (i : grid0.Coords) (k0_t28 : Fin k0_t28_loop.trips), ∀ a, (k0_off136 i k0_t28) a + S1.size a ≤ S65536.size a
  k0_off137_inb : ∀ k0_t28 : Fin k0_t28_loop.trips, ∀ a, (k0_off137 k0_t28) a + S1.size a ≤ S64.size a
  k0_off138_inb : ∀ k0_t28 : Fin k0_t28_loop.trips, ∀ a, (k0_off138 k0_t28) a + S1x256.size a ≤ S1024x256.size a
  k0_off139_inb : ∀ (i : grid0.Coords) (k0_t28 : Fin k0_t28_loop.trips), ∀ a, (k0_off139 i k0_t28) a + S1x512x256.size a ≤ S1024x512x256.size a
  k0_t29_ok : k0_t29_loop.OK
  k0_off141_inb : ∀ (i : grid0.Coords) (k0_t29 : Fin k0_t29_loop.trips), ∀ a, (k0_off141 i k0_t29) a + S1.size a ≤ S65536.size a
  k0_off142_inb : ∀ k0_t29 : Fin k0_t29_loop.trips, ∀ a, (k0_off142 k0_t29) a + S1.size a ≤ S64.size a
  k0_off143_inb : ∀ k0_t29 : Fin k0_t29_loop.trips, ∀ a, (k0_off143 k0_t29) a + S1x256.size a ≤ S1024x256.size a
  k0_off144_inb : ∀ (i : grid0.Coords) (k0_t29 : Fin k0_t29_loop.trips), ∀ a, (k0_off144 i k0_t29) a + S1x512x256.size a ≤ S1024x512x256.size a
  k0_t30_ok : k0_t30_loop.OK
  k0_off146_inb : ∀ (i : grid0.Coords) (k0_t30 : Fin k0_t30_loop.trips), ∀ a, (k0_off146 i k0_t30) a + S1.size a ≤ S65536.size a
  k0_off147_inb : ∀ k0_t30 : Fin k0_t30_loop.trips, ∀ a, (k0_off147 k0_t30) a + S1.size a ≤ S64.size a
  k0_off148_inb : ∀ k0_t30 : Fin k0_t30_loop.trips, ∀ a, (k0_off148 k0_t30) a + S1x256.size a ≤ S1024x256.size a
  k0_off149_inb : ∀ (i : grid0.Coords) (k0_t30 : Fin k0_t30_loop.trips), ∀ a, (k0_off149 i k0_t30) a + S1x512x256.size a ≤ S1024x512x256.size a
  k0_t31_ok : k0_t31_loop.OK
  k0_off151_inb : ∀ (i : grid0.Coords) (k0_t31 : Fin k0_t31_loop.trips), ∀ a, (k0_off151 i k0_t31) a + S1.size a ≤ S65536.size a
  k0_off152_inb : ∀ k0_t31 : Fin k0_t31_loop.trips, ∀ a, (k0_off152 k0_t31) a + S1.size a ≤ S64.size a
  k0_off153_inb : ∀ k0_t31 : Fin k0_t31_loop.trips, ∀ a, (k0_off153 k0_t31) a + S1x256.size a ≤ S1024x256.size a
  k0_off154_inb : ∀ (i : grid0.Coords) (k0_t31 : Fin k0_t31_loop.trips), ∀ a, (k0_off154 i k0_t31) a + S1x512x256.size a ≤ S1024x512x256.size a
  k0_t32_ok : k0_t32_loop.OK
  k0_off156_inb : ∀ (i : grid0.Coords) (k0_t32 : Fin k0_t32_loop.trips), ∀ a, (k0_off156 i k0_t32) a + S1.size a ≤ S65536.size a
  k0_off157_inb : ∀ k0_t32 : Fin k0_t32_loop.trips, ∀ a, (k0_off157 k0_t32) a + S1.size a ≤ S64.size a
  k0_off158_inb : ∀ k0_t32 : Fin k0_t32_loop.trips, ∀ a, (k0_off158 k0_t32) a + S1x256.size a ≤ S1024x256.size a
  k0_off159_inb : ∀ (i : grid0.Coords) (k0_t32 : Fin k0_t32_loop.trips), ∀ a, (k0_off159 i k0_t32) a + S1x512x256.size a ≤ S1024x512x256.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S256x256.size a ≤ S256x256.size a
  hwx0_0 : ∀ i : grid0.Coords, EltTy.bits .f32 = 32 ∨ (Rect.block (s := S256x256) S256x256.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S256.size a ≤ S256.size a
  hwx0_1 : ∀ i : grid0.Coords, EltTy.bits .f32 = 32 ∨ (Rect.block (s := S256) S256.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S16x256.size a ≤ S1024x256.size a
  hwx0_2 : ∀ i : grid0.Coords, EltTy.bits .f32 = 32 ∨ (Rect.block (s := S1024x256) S16x256.size (cc0_transform_3 i) (hinb0_2 i)).WholeWords (EltTy.packing .f32)

variable [Facts₀]

abbrev cc0_scratch1 : DmaSems sig S64 := SemArray.consecutive 4 S64 hcc0_scratch1
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev spec0_0 : Pipeline.WinSpec sig grid0.rank :=
  Pipeline.WinSpec.ofSpec (Memref.whole main_arg8) S256x256.size reads0_0 false true 1 stage0_0 sem0_0 nbuf0_0 hstage0_0

abbrev spec0_1 : Pipeline.WinSpec sig grid0.rank :=
  Pipeline.WinSpec.ofSpec (Memref.whole main_arg9) S256.size reads0_1 false true 1 stage0_1 sem0_1 nbuf0_1 hstage0_1

abbrev spec0_2 : Pipeline.WinSpec sig grid0.rank :=
  Pipeline.WinSpec.ofSpec (Memref.whole main_v1) S16x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_1 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S1024x64 : Shape := ⟨2, ![1024, 64]⟩
abbrev S1024x64x2 : Shape := ⟨3, ![1024, 64, 2]⟩
abbrev S1024x64x64 : Shape := ⟨3, ![1024, 64, 64]⟩
abbrev S1024x512x256 : Shape := ⟨3, ![1024, 512, 256]⟩
abbrev S256x256 : Shape := ⟨2, ![256, 256]⟩
abbrev S256 : Shape := ⟨1, ![256]⟩
abbrev S1024x64x1 : Shape := ⟨3, ![1024, 64, 1]⟩
abbrev S_ : Shape := ⟨0, ![]⟩
abbrev S1 : Shape := ⟨1, ![1]⟩
abbrev S1x1x1 : Shape := ⟨3, ![1, 1, 1]⟩
abbrev S1024x64x256 : Shape := ⟨3, ![1024, 64, 256]⟩
abbrev S1x1x256 : Shape := ⟨3, ![1, 1, 256]⟩
abbrev S1024x256 : Shape := ⟨2, ![1024, 256]⟩
abbrev S1024x128 : Shape := ⟨2, ![1024, 128]⟩
abbrev S1024x4096 : Shape := ⟨2, ![1024, 4096]⟩
abbrev S1024x12800 : Shape := ⟨2, ![1024, 12800]⟩

abbrev nBuf : Space → Nat
  | .hbm => 48
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64x2, .f32⟩
  | .hbm, ⟨2, _⟩ => ⟨S1024x64x64, .f32⟩
  | .hbm, ⟨3, _⟩ => ⟨S1024x64x64, .f32⟩
  | .hbm, ⟨4, _⟩ => ⟨S1024x64x64, .f32⟩
  | .hbm, ⟨5, _⟩ => ⟨S1024x64, .f32⟩
  | .hbm, ⟨6, _⟩ => ⟨S1024x64, .i32⟩
  | .hbm, ⟨7, _⟩ => ⟨S1024x512x256, .f32⟩
  | .hbm, ⟨8, _⟩ => ⟨S256x256, .f32⟩
  | .hbm, ⟨9, _⟩ => ⟨S256, .f32⟩
  | .hbm, ⟨10, _⟩ => ⟨S1024x64x1, .i32⟩
  | .hbm, ⟨11, _⟩ => ⟨S_, .i32⟩
  | .hbm, ⟨12, _⟩ => ⟨S1024x64x1, .i32⟩
  | .hbm, ⟨13, _⟩ => ⟨S1024x64x1, .i1⟩
  | .hbm, ⟨14, _⟩ => ⟨S_, .i32⟩
  | .hbm, ⟨15, _⟩ => ⟨S1024x64x1, .i32⟩
  | .hbm, ⟨16, _⟩ => ⟨S1024x64x1, .i32⟩
  | .hbm, ⟨17, _⟩ => ⟨S1024x64x1, .i32⟩
  | .hbm, ⟨18, _⟩ => ⟨S1, .i32⟩
  | .hbm, ⟨19, _⟩ => ⟨S_, .i32⟩
  | .hbm, ⟨20, _⟩ => ⟨S1024x64x1, .i32⟩
  | .hbm, ⟨21, _⟩ => ⟨S1024x64x1, .i1⟩
  | .hbm, ⟨22, _⟩ => ⟨S1x1x1, .i32⟩
  | .hbm, ⟨23, _⟩ => ⟨S1024x64x1, .i32⟩
  | .hbm, ⟨24, _⟩ => ⟨S1024x64x1, .i1⟩
  | .hbm, ⟨25, _⟩ => ⟨S1024x64x1, .i1⟩
  | .hbm, ⟨26, _⟩ => ⟨S_, .i1⟩
  | .hbm, ⟨27, _⟩ => ⟨S1024x64, .i1⟩
  | .hbm, ⟨28, _⟩ => ⟨S1024x64x256, .f32⟩
  | .hbm, ⟨29, _⟩ => ⟨S1024x64x256, .i1⟩
  | .hbm, ⟨30, _⟩ => ⟨S_, .f32⟩
  | .hbm, ⟨31, _⟩ => ⟨S1024x64x256, .f32⟩
  | .hbm, ⟨32, _⟩ => ⟨S1024x64x256, .f32⟩
  | .hbm, ⟨33, _⟩ => ⟨S1024x64x256, .f32⟩
  | .hbm, ⟨34, _⟩ => ⟨S1x1x256, .f32⟩
  | .hbm, ⟨35, _⟩ => ⟨S1024x64x256, .f32⟩
  | .hbm, ⟨36, _⟩ => ⟨S1024x64x256, .f32⟩
  | .hbm, ⟨37, _⟩ => ⟨S1024x64x256, .f32⟩
  | .hbm, ⟨38, _⟩ => ⟨S_, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S1024x128, .f32⟩
  | .hbm, ⟨44, _⟩ => ⟨S1024x4096, .f32⟩
  | .hbm, ⟨45, _⟩ => ⟨S1024x4096, .f32⟩
  | .hbm, ⟨46, _⟩ => ⟨S1024x4096, .f32⟩
  | .hbm, ⟨47, _⟩ => ⟨S1024x12800, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_cst_0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩

abbrev nD : Nat := 1
abbrev τ : Topo := Topo.v7x

variable {F : FTy → Type} [FloatOps F]

class Facts₀ : Prop where
  bcast_S1024x64_S1024x64x1_0_1 : S1024x64.BroadcastsInDim S1024x64x1 (![0, 1] : Fin 2 → Fin S1024x64x1.rank)
  bcast_S_S1024x64x1 : S_.BroadcastsInDim S1024x64x1 (![] : Fin 0 → Fin S1024x64x1.rank)
  bcast_S1_S1x1x1_2 : S1.BroadcastsInDim S1x1x1 (![2] : Fin 1 → Fin S1x1x1.rank)
  bcast_S1x1x1_S1024x64x1_0_1_2 : S1x1x1.BroadcastsInDim S1024x64x1 (![0, 1, 2] : Fin 3 → Fin S1024x64x1.rank)
  reducesTo_S1024x64x1_S1024x64_d2 : S1024x64x1.ReducesTo [2] S1024x64
  h_S_ : 0 < S_.numel
  bcast_S1024x64_S1024x64x256_0_1 : S1024x64.BroadcastsInDim S1024x64x256 (![0, 1] : Fin 2 → Fin S1024x64x256.rank)
  bcast_S_S1024x64x256 : S_.BroadcastsInDim S1024x64x256 (![] : Fin 0 → Fin S1024x64x256.rank)
  bcast_S256_S1x1x256_2 : S256.BroadcastsInDim S1x1x256 (![2] : Fin 1 → Fin S1x1x256.rank)
  bcast_S1x1x256_S1024x64x256_0_1_2 : S1x1x256.BroadcastsInDim S1024x64x256 (![0, 1, 2] : Fin 3 → Fin S1024x64x256.rank)
  reducesTo_S1024x64x256_S1024x256_d1 : S1024x64x256.ReducesTo [1] S1024x256
  bcast_S_S1024x256 : S_.BroadcastsInDim S1024x256 (![] : Fin 0 → Fin S1024x256.rank)
  shapeCasts_S1024x64x2_S1024x128 : S1024x64x2.ShapeCasts S1024x128
  shapeCasts_S1024x64x64_S1024x4096 : S1024x64x64.ShapeCasts S1024x4096
  concatenates_S1024x64_S1024x128_S1024x4096_S1024x4096_S1024x4096_S1024x64_S1024x256_S1024x12800_d1 : Shape.Concatenates [S1024x64, S1024x128, S1024x4096, S1024x4096, S1024x4096, S1024x64, S1024x256] S1024x12800 1
  gather_S1024x512x256_S1024x64x1_S1024x64x256_2_1_0_0_1_2_11256_wf : GatherDims.WF S1024x512x256 S1024x64x1 S1024x64x256 [2] [1] [0] [1] [0] 2 ![1, 1, 256]
  dot_S1024x64x256_S256x256_S1024x64x256_2_0_01_1_n_n_wf : DotDims.WF S1024x64x256 S256x256 S1024x64x256 [2] [0] [0, 1] [1] [] []

variable [Facts₀]

def gather_S1024x512x256_S1024x64x1_S1024x64x256_2_1_0_0_1_2_11256 : GatherDims S1024x512x256 S1024x64x1 S1024x64x256 where
  offsetDims := [2]
  collapsedSliceDims := [1]
  operandBatchingDims := [0]
  startIndicesBatchingDims := [0]
  startIndexMap := [1]
  indexVectorDim := 2
  sliceSizes := ![1, 1, 256]
  wf := gather_S1024x512x256_S1024x64x1_S1024x64x256_2_1_0_0_1_2_11256_wf
def dot_S1024x64x256_S256x256_S1024x64x256_2_0_01_1_n_n : DotDims S1024x64x256 S256x256 S1024x64x256 where
  lhsContracting := [2]
  rhsContracting := [0]
  lhsNonContracting := [0, 1]
  rhsNonContracting := [1]
  lhsBatch := []
  rhsBatch := []
  wf := dot_S1024x64x256_S256x256_S1024x64x256_2_0_01_1_n_n_wf

class Facts : Prop extends Facts₀ where

variable [Facts]
-- ==== Proof.PreIdx.lean ====
/-
  What the precondition says of the index words.  The printed predicate ends with the two conjuncts
  `all (idx ≥ 0)` and `all (idx < 512)`, signed comparisons of every word of the index array with the constants
  `0` and `512`.  A 32-bit word that is non-negative and below `512` when read signed is below `512` when read
  unsigned: that is the range the table's row axis (extent 512) admits.
-/
import proofs.«406790_j29661044146287_2_alg».proof.Pre_finite_inputs
import Idealize.ShloMosaic.Lib.ReduceAll
import Idealize.ShloMosaic.Lib.Affine
import Idealize.ShloMosaic.Lib.ValueIdx

noncomputable section

namespace Cert.Proof.PreIdx

open Idealize.ShloMosaic Cert.Pre_finite_inputs

instance : Subsingleton S_.Idx := ⟨fun a b => funext fun d => d.elim0⟩

/-- A word that is `≥ 0` and `< 512` as a signed integer is `< 512` as a natural number. -/
theorem toNat_lt_of_signed (w : BitVec 32) (h0 : (0#32).toInt ≤ w.toInt) (h1 : w.toInt < (512#32).toInt) : w.toNat < 512 := by
  have e0 : (0#32 : BitVec 32).toInt = 0 := by decide
  have e1 : (512#32 : BitVec 32).toInt = 512 := by decide
  rw [e0] at h0; rw [e1] at h1
  have hlt := w.isLt
  unfold BitVec.toInt at h0 h1
  split at h1 <;> omega

/-- Under the precondition every word of the index array is below `512`. -/
theorem idx_lt {F : FTy → Type} [FloatOps F] [Cert.Pre_finite_inputs.Facts]
    (a0 : FVec F S1024x64 .f32) (a1 : FVec F S1024x64x2 .f32) (a2 a3 a4 : FVec F S1024x64x64 .f32) (a5 : FVec F S1024x64 .f32)
    (a6 : IVec S1024x64 32) (a7 : FVec F S1024x512x256 .f32) (a8 : FVec F S256x256 .f32) (a9 : FVec F S256 .f32)
    (h : Cert.Pre_finite_inputs.fn (F := F) a0 a1 a2 a3 a4 a5 a6 a7 a8 a9 = fun _ => 1#1) (j : S1024x64.Idx) :
    (a6 j).toNat < 512 := by
  have e := congrFun h (fun d => d.elim0)
  dsimp only [fn, fn_part1, fn_part2, fn_part3] at e
  obtain ⟨e47, e50⟩ := IntOp.andi_eq_one.1 e
  obtain ⟨-, e46⟩ := IntOp.andi_eq_one.1 e47
  have hge := Host.reduce_andi_all _ _ _ _ _ e46 j
  have hlt := Host.reduce_andi_all _ _ _ _ _ e50 j
  exact toNat_lt_of_signed (a6 j) (IntOp.cmpi_sge.1 hge) (IntOp.cmpi_slt.1 hlt)

end Cert.Proof.PreIdx

end
-- ==== Proof.Spec.lean ====
/-
  The mathematics both programs compute, stated once over plain index types and the extended reals.

  For a batch row the kernel gathers 64 rows `G p : Fin 256 → EReal` of the node table (the rows its index words
  name), maps each through the affine map `x ↦ x · W + bias` followed by `tanh`, and averages the 64 images
  feature by feature.  The kernel spells the average as the sum times the constant `2⁻⁶`; the reference as the
  sum (started from `0`) divided by `64`.  On the extended reals division by a nonzero real IS multiplication
  by its inverse, at the infinities too, so the two spellings are one function (`pooledRef_eq`): no finiteness
  of the inputs is used.
-/
import Idealize.ShloMosaic.PureOps.Ideal

noncomputable section

namespace Cert.Spec

open Idealize.ShloMosaic

/-- The image of gathered row `p` at feature `f`: `tanh (∑ₑ G p e · W e f + bias f)`. -/
def image (G : Fin 64 → Fin 256 → EReal) (W : Fin 256 → Fin 256 → EReal) (bias : Fin 256 → EReal) (f : Fin 256)
    (p : Fin 64) : EReal :=
  Ideal.tanh ((∑ e : Fin 256, G p e * W e f) + bias f)

/-- The kernel's spelling of the mean over the 64 gathered rows: the sum times `1/64`. -/
def pooled (G : Fin 64 → Fin 256 → EReal) (W : Fin 256 → Fin 256 → EReal) (bias : Fin 256 → EReal) (f : Fin 256) : EReal :=
  (∑ p : Fin 64, image G W bias f p) * ((1 / 64 : ℝ) : EReal)

/-- The reference's spelling: the sum, started from zero, divided by `64`. -/
def pooledRef (G : Fin 64 → Fin 256 → EReal) (W : Fin 256 → Fin 256 → EReal) (bias : Fin 256 → EReal) (f : Fin 256) : EReal :=
  Ideal.div ((0 : EReal) + ∑ p : Fin 64, image G W bias f p) ((64 : ℝ) : EReal)

/-- Dividing by `64` is multiplying by `1/64` on every extended real, and a sum started from zero is the sum. -/
theorem pooledRef_eq (G : Fin 64 → Fin 256 → EReal) (W : Fin 256 → Fin 256 → EReal) (bias : Fin 256 → EReal) (f : Fin 256) :
    pooledRef G W bias f = pooled G W bias f := by
  unfold pooledRef pooled
  rw [zero_add, Ideal.div_coe (by norm_num : (64 : ℝ) ≠ 0)]

/-- The word `0x00000000` denotes `0`. -/
theorem ofBits_zero : Ideal.ofBits .f32 0x00000000#32 = 0 := by
  simp [Ideal.ofBits, Ideal.ieee]

/-- The word `0x42800000` (the reference's divisor `64.0`) denotes the real `64`. -/
theorem ofBits_64 : Ideal.ofBits .f32 0x42800000#32 = ((64 : ℝ) : EReal) := by
  simp [Ideal.ofBits, Ideal.ieee, -EReal.coe_mul]; norm_num

/-- The word `0x3C800000` (the kernel's factor `0.015625`) denotes the real `1/64`: an exact dyadic. -/
theorem ofBits_inv64 : Ideal.ofBits .f32 0x3C800000#32 = ((1 / 64 : ℝ) : EReal) := by
  simp [Ideal.ofBits, Ideal.ieee, -EReal.coe_mul]; norm_num

end Cert.Spec

end
-- ==== Proof.K.Gath.lean ====
import proofs.«406790_j29661044146287_2_alg».proof.Proof.Gen.Kernel

noncomputable section

namespace Cert.Kernel.Hand

open Cert.Kernel Cert.Kernel.Gen
open Idealize.ShloMosaic Idealize.SL.Sem

variable {F : FTy → Type} [FloatOps F]

/-! ## The gather's geometry

The scratch has 1024 rows of 256 floats. Row `r` of the scratch at grid point `i` receives the table's row
`(16·i + r / 64, w)`, where `w` is the index word at position `1024·i + r` of the flattened index table.
The transfer of row `r` completes on the semaphore cell `r % 64`. -/

theorem row_inb (r : Fin 1024) : ∀ a, (![r.val, 0] : Fin 2 → Nat) a + S1x256.size a ≤ S1024x256.size a := by
  have := r.isLt; intro a; fin_cases a
  · show r.val + 1 ≤ 1024; omega
  · show 0 + 256 ≤ 256; omega

theorem bat_inb (b : Fin 1024) : ∀ a, (![b.val, 0, 0] : Fin 3 → Nat) a + S1x512x256.size a ≤ S1024x512x256.size a := by
  have := b.isLt; intro a; fin_cases a
  · show b.val + 1 ≤ 1024; omega
  · show 0 + 512 ≤ 512; omega
  · show 0 + 256 ≤ 256; omega

theorem idx_inb (w : Fin 512) : ∀ a, (![w.val, 0] : Fin 2 → Nat) a + S1x256.size a ≤ S512x256.size a := by
  have := w.isLt; intro a; fin_cases a
  · show w.val + 1 ≤ 512; omega
  · show 0 + 256 ≤ 256; omega

theorem lane_inb (j : Fin 64) : ∀ a, (![j.val] : Fin 1 → Nat) a + S1.size a ≤ S64.size a := by
  have := j.isLt; intro a; fin_cases a
  show j.val + 1 ≤ 64; omega

/-- Row `r` of the scratch, as a memref of 256 floats. -/
def rowM (arg6 : Memref sig .tc .vmem S1024x256 .f32) (r : Fin 1024) : Memref sig .tc .vmem S256 .f32 :=
  (arg6.slice (Rect.unit (s := S1024x256) ![r.val, 0] S1x256.size (row_inb r)) (fun _ => rfl)).squeeze S256 squeezes_S1x256_S256

/-- Row `w` of batch row `b` of the table, as a memref of 256 floats. -/
def srcM (arg2 : Memref sig .tc .hbm S1024x512x256 .f32) (b : Fin 1024) (w : Fin 512) : Memref sig .tc .hbm S256 .f32 :=
  ((((arg2.slice (Rect.unit (s := S1024x512x256) ![b.val, 0, 0] S1x512x256.size (bat_inb b)) (fun _ => rfl)).squeeze S512x256 squeezes_S1x512x256_S512x256).slice
    (Rect.unit (s := S512x256) ![w.val, 0] S1x256.size (idx_inb w)) (fun _ => rfl)).squeeze S256 squeezes_S1x256_S256)

/-- The semaphore cell of lane `j`. -/
def cellOfLane (arg7 : DmaSems sig S64) (j : Fin 64) : DmaSem sig :=
  ((arg7.slice (Rect.unit (s := S64) ![j.val] S1.size (lane_inb j))).squeeze S_ squeezes_S1_S_).sem

/-- The lane of a scratch row. -/
def laneOf (r : Fin 1024) : Fin 64 := ⟨r.val % 64, Nat.mod_lt _ (by decide)⟩

/-- The batch row a scratch row reads at grid point `i`. -/
def batOf (i : grid0.Coords) (r : Fin 1024) : Fin 1024 :=
  ⟨16 * (i 0).val + r.val / 64, by have h1 : (i 0).val < 64 := (i 0).isLt; have := r.isLt; omega⟩

/-- The position of a scratch row's index word at grid point `i`. -/
def wordAt (i : grid0.Coords) (r : Fin 1024) : S65536.Idx := fun a =>
  ⟨1024 * (i 0).val + r.val, by have h1 : (i 0).val < 64 := (i 0).isLt; have := r.isLt; fin_cases a; show _ < 65536; omega⟩

/-- The table row a scratch row reads (the index word, reduced into range: the words are below 512). -/
def idxOf (i : grid0.Coords) (tb : S65536.Idx → BitVec 32) (r : Fin 1024) : Fin 512 :=
  ⟨(tb (wordAt i r)).toNat % 512, Nat.mod_lt _ (by decide)⟩

/-- The table position a scratch position reads. -/
def srcIdx (i : grid0.Coords) (tb : S65536.Idx → BitVec 32) (y : S1024x256.Idx) : S1024x512x256.Idx := fun a =>
  ⟨![(batOf i (y 0)).val, (idxOf i tb (y 0)).val, (y 1).val] a, by
    have h0 := (batOf i (y 0)).isLt; have h1 := (idxOf i tb (y 0)).isLt; have h2 : (y 1).val < 256 := (y 1).isLt
    fin_cases a
    · exact h0
    · exact h1
    · exact h2⟩

/-- The scratch after the gather at grid point `i`: position `(r, x)` holds the table at
    `(16·i + r / 64, word (1024·i + r), x)`. -/
def gath (i : grid0.Coords) (tb : S65536.Idx → BitVec 32) (T : S1024x512x256.Idx → Elt F .f32) : S1024x256.Idx → Elt F .f32 :=
  fun y => T (srcIdx i tb y)

/-- Position `x` of row `r`, as a position of the scratch. -/
def rowIdx (r : Fin 1024) (x : S256.Idx) : S1024x256.Idx :=
  (Rect.unit (s := S1024x256) ![r.val, 0] S1x256.size (row_inb r)).emb (Shape.reshapeEquiv squeezes_S1x256_S256.numel_eq x)

/-- Row `r` of the gathered scratch. -/
def gathRow (i : grid0.Coords) (tb : S65536.Idx → BitVec 32) (T : S1024x512x256.Idx → Elt F .f32) (r : Fin 1024) : S256.Idx → Elt F .f32 :=
  fun x => gath i tb T (rowIdx r x)

end Cert.Kernel.Hand
end
-- ==== Proof.K.Data.lean ====
/-
  The proof data of the one pipelined region and what surrounds it: the contents of the device's buffers when the
  region is entered, the prefetched table's words, the composed term of the operations after the region, the
  kernel's own semaphore cells, and the data family of the pipeline.
-/
import proofs.«406790_j29661044146287_2_alg».proof.Kernel
import proofs.«406790_j29661044146287_2_alg».proof.Proof.Gen.Kernel.Launch
import proofs.«406790_j29661044146287_2_alg».proof.Proof.Gen.Kernel.Skeleton
import Idealize.ShloMosaic.Lib.Pipeline.FrameSuffix
import Idealize.ShloMosaic.Lib.StableHlo.Run
import proofs.«406790_j29661044146287_2_alg».proof.Proof.K.Gath

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

variable (m : (ℓ : Loc nD τ sig) → Buf (Elt F) ℓ)

/-! ## The buffers when the region is entered -/

/-- Core `c`'s buffers when the region is entered: the launch contents after the one reshape before the region
    (it writes the table's buffer and nothing else). Kept folded: only `V_v0` and `V_of_ne` open it. -/
def V₀ (c : Dev nD) : Valuation τ sig (Elt F) :=
  StableHlo.after ([hostOps0 (F := F)].flatten) (fun b => m (c, b))

/-- The same, read at a TensorCore reference. -/
def V (c : Dev nD) (b : Ref sig .tc) : Buf (Elt F) ((c.tc : Thread nD τ).loc b) := V₀ m c (Proc.devRef .tc b)

/-- The table's buffer holds the index argument's words in row-major order. -/
theorem V_v0 (c : Dev nD) :
    V m c main_v0 = fun i => shapeCast S65536 (m ((c.tc : Thread nD τ).loc main_arg6)) shapeCasts_S1024x64_S65536 i := by
  show StableHlo.after (hostOps0 (F := F)) (fun b => m (c, b)) (Proc.devRef .tc main_v0) = _
  after_results; rfl

/-- Every other buffer holds what it held at launch. -/
theorem V_of_ne (c : Dev nD) {b : Ref sig .tc} (h : b ≠ main_v0) : V m c b = m ((c.tc : Thread nD τ).loc b) := by
  show StableHlo.after (hostOps0 (F := F)) (fun b => m (c, b)) (Proc.devRef .tc b) = _
  rw [StableHlo.after_cons, StableHlo.after_nil]
  exact StableHlo.reshape_result_ne' (Val := Elt F) (x := main_arg6) (y := main_v0) rfl shapeCasts_S1024x64_S65536 _ _ _ h

/-! ## The prefetched table -/

/-- The table's words at region entry (one device: core 0's). -/
def tblOf : pre0.Contents (Elt F) := fun k => V m 0 (pre0.ref k)

/-- The pipeline's admissible table contents: the side condition on them is trivial. -/
def adm : (p : Fin 1) → (pcfgs (F := F) p).Adm := fun _ => ⟨tblOf m, trivial⟩

/-! ## The operations after the region -/

/-- The five operations after the region, composed: the four reshapes and the concatenation along axis 1 of the two
    plain arguments, the four reshaped ones and the kernel's result `agg`. -/
def tailTerm (a0 : S1024x64.Idx → Elt F .f32) (a1 : S1024x64x2.Idx → Elt F .f32) (a2 a3 a4 : S1024x64x64.Idx → Elt F .f32)
    (a5 : S1024x64.Idx → Elt F .f32) (agg : S1024x256.Idx → Elt F .f32) : S1024x12800.Idx → Elt F .f32 :=
  concatenate S1024x12800 1
    [⟨S1024x64, a0⟩,
     ⟨S1024x128, fun i => shapeCast S1024x128 a1 shapeCasts_S1024x64x2_S1024x128 i⟩,
     ⟨S1024x4096, fun i => shapeCast S1024x4096 a2 shapeCasts_S1024x64x64_S1024x4096 i⟩,
     ⟨S1024x4096, fun i => shapeCast S1024x4096 a3 shapeCasts_S1024x64x64_S1024x4096 i⟩,
     ⟨S1024x4096, fun i => shapeCast S1024x4096 a4 shapeCasts_S1024x64x64_S1024x4096 i⟩,
     ⟨S1024x64, a5⟩,
     ⟨S1024x256, agg⟩]
    concatenates_S1024x64_S1024x128_S1024x4096_S1024x4096_S1024x4096_S1024x64_S1024x256_S1024x12800_d1

/-! ## The kernel's own semaphores -/

/-- The kernel's 64 own DMA semaphore cells, one per lane of a chunk. -/
def osem : Fin 64 → SemLoc sig := fun j => SemLoc.dma (cellOfLane cc0_scratch1 j)

/-- They are scoped, pairwise distinct, and none is a staging semaphore. -/
theorem ownSemFacts : Pipeline.OwnSemFacts spec0 osem := by
  decide

/-! ## The proof data -/

/-- The pipeline at the table's contents. -/
abbrev cfgA : Pipeline.Cfg sig Λ₀ := cfg0 (adm m 0)

/-- The buffers the kernel reads by its own transfers: the table of rows. -/
abbrev HB : Finset (Ref sig .tc) := {main_arg7}

/-- The proof data of the pipeline on core `c`: the arrays at their contents when the region is entered; after the
    body at any point the two input staging buffers hold the whole weight matrix and bias, the output staging buffer
    the pooled block of the rows gathered at that point; between points the invariant holds the scratch at some
    contents, the generator register, the 64 own cells at zero, the table of rows whole, and half of the index table. -/
def dats (_ : Fin 1) (c : Dev nD) : Dat τ (Elt F) Unit ℕ (Pipeline.UD sig nD τ) ℕ (cfgA m) c where
  A w := V m c (Pipeline.arrRef spec0 w)
  after w t := match w with
    | ⟨0, _⟩ => V m c main_arg8
    | ⟨1, _⟩ => V m c main_arg9
    | ⟨2, _⟩ => k0_pay1 (V m c main_arg8) (V m c main_arg9) (gath (grid0.coords t) (tblOf m 0) (V m c main_arg7))
  Φ _ := iprop(Pipeline.ΦD osem spec0 HB (V m) c ∗ Pipeline.ΦT pre0 (tblOf m) c)
  q _ := fullShare
  owed _ := 0

/-- The kernel's result array after the run: the output window's array after every write-back. -/
def outArr (c : Dev nD) : Buf (Elt F) ((c.tc : Thread nD τ).loc main_v1) := (dats m 0 c).arrAt 2 (cfgA m).N

end Cert.Kernel.Hand

end
-- ==== Proof.K.Tail.lean ====
/-
  What surrounds the body's run: what the two input windows' staging buffers hold at every point, the index words'
  range, the side conditions of the five operations after the region, their composed result, and what every buffer
  holds after them.
-/
import proofs.«406790_j29661044146287_2_alg».proof.Proof.K.Data
import Idealize.ShloMosaic.Lib.Pipeline.FrameBody

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

variable (m : (ℓ : Loc nD τ sig) → Buf (Elt F) ℓ)

local notation "𝕄" => MT nD τ sig Unit (Elt F) ℕ (Pipeline.UD sig nD τ) ℕ

/-! ## What the input windows hold -/

set_option maxHeartbeats 400000 in
/-- The weight window's block at any point is the whole weight matrix. -/
theorem blockOf_w0 (c : Dev nD) (t : Fin (cfgA m).N) : (dats m 0 c).blockOf 0 t = V m c main_arg8 := by
  funext j
  unfold Pipeline.Dat.blockOf
  rw [View.read_apply]
  show V m c main_arg8 ((((cfgA m).win 0).blk t).view.emb j) = V m c main_arg8 j
  congr 1
  funext a
  apply Fin.ext
  show ((cfgA m).win 0).index t a * ((cfgA m).win 0).size a + 1 * (j a).val = (j a).val
  have h0 : ((cfgA m).win 0).index t a = 0 := by
    show cc0_transform_1 ((cfgA m).grid.coords t) a = 0
    unfold cc0_transform_1
    fin_cases a <;> rfl
  rw [h0]; omega

set_option maxHeartbeats 400000 in
/-- The bias window's block at any point is the whole bias. -/
theorem blockOf_w1 (c : Dev nD) (t : Fin (cfgA m).N) : (dats m 0 c).blockOf 1 t = V m c main_arg9 := by
  funext j
  unfold Pipeline.Dat.blockOf
  rw [View.read_apply]
  show V m c main_arg9 ((((cfgA m).win 1).blk t).view.emb j) = V m c main_arg9 j
  congr 1
  funext a
  apply Fin.ext
  show ((cfgA m).win 1).index t a * ((cfgA m).win 1).size a + 1 * (j a).val = (j a).val
  have h0 : ((cfgA m).win 1).index t a = 0 := by
    show cc0_transform_2 ((cfgA m).grid.coords t) a = 0
    unfold cc0_transform_2
    fin_cases a <;> rfl
  rw [h0]; omega

set_option maxHeartbeats 400000 in
/-- Whatever the weight window's staging buffer held, at any point the body finds the weight matrix in it. -/
theorem before_w0 (c : Dev nD) (t : Fin (cfgA m).N) (d) : (dats m 0 c).before 0 t d = V m c main_arg8 :=
  ((dats m 0 c).before_in_eq_fetched 0 rfl (fun _ => rfl) (fun _ _ _ => rfl) (fun t => (blockOf_w0 m c t).symm) t d).trans (blockOf_w0 m c t)

set_option maxHeartbeats 400000 in
theorem before_w1 (c : Dev nD) (t : Fin (cfgA m).N) (d) : (dats m 0 c).before 1 t d = V m c main_arg9 :=
  ((dats m 0 c).before_in_eq_fetched 1 rfl (fun _ => rfl) (fun _ _ _ => rfl) (fun t => (blockOf_w1 m c t).symm) t d).trans (blockOf_w1 m c t)

/-! ## The index words are in range -/

/-- Every word of the table is an index word of the argument, so below 512. -/
theorem tbl_lt (hidx : ∀ (c : Dev nD) (j : S1024x64.Idx), (m ((c.tc : Thread nD τ).loc main_arg6) j).toNat < 512)
    (j : S65536.Idx) : (tblOf m 0 j).toNat < 512 := by
  have e : tblOf m 0 = fun i => shapeCast S65536 (m (((0 : Dev nD).tc : Thread nD τ).loc main_arg6)) shapeCasts_S1024x64_S65536 i :=
    V_v0 m 0
  rw [e]
  unfold shapeCast
  exact hidx 0 _

/-! ## The operations after the region -/

/-- The table of rows is a buffer that bypasses the region. -/
theorem HB_sub : HB ⊆ Pipeline.restRefsP sig pre0 spec0 :=
  Finset.singleton_subset_iff.mpr (Finset.mem_sdiff.mpr ⟨Pipeline.mem_restRefs_of main_arg7 rfl (by decide), by decide⟩)

/-- Each of the five operations after the region touches only the pipeline's arrays and bypassing buffers other than the
    table of rows, determines all it writes, and writes no array of the pipeline. -/
theorem tail_ok : (hostOps1 (F := F)).Forall fun op =>
    op.bufs ⊆ Pipeline.tailRefsBut (τ := τ) sig pre0 spec0 HB ∧ op.fresh = ∅
      ∧ ∀ w, Proc.devRef .tc (Pipeline.arrRef spec0 w) ∉ op.writes := by
  refine ⟨⟨?_, rfl, ?_⟩, ⟨?_, rfl, ?_⟩, ⟨?_, rfl, ?_⟩, ⟨?_, rfl, ?_⟩, ?_, rfl, ?_⟩
  · exact Pipeline.sub_tailRefsBut pre0 spec0 HB _ (StableHlo.reshape_bufs_sub ..) (by rw [StableHlo.reshape_bufs]; decide) (by rw [StableHlo.reshape_bufs]; decide)
  · rw [StableHlo.reshape_writes]; decide
  · exact Pipeline.sub_tailRefsBut pre0 spec0 HB _ (StableHlo.reshape_bufs_sub ..) (by rw [StableHlo.reshape_bufs]; decide) (by rw [StableHlo.reshape_bufs]; decide)
  · rw [StableHlo.reshape_writes]; decide
  · exact Pipeline.sub_tailRefsBut pre0 spec0 HB _ (StableHlo.reshape_bufs_sub ..) (by rw [StableHlo.reshape_bufs]; decide) (by rw [StableHlo.reshape_bufs]; decide)
  · rw [StableHlo.reshape_writes]; decide
  · exact Pipeline.sub_tailRefsBut pre0 spec0 HB _ (StableHlo.reshape_bufs_sub ..) (by rw [StableHlo.reshape_bufs]; decide) (by rw [StableHlo.reshape_bufs]; decide)
  · rw [StableHlo.reshape_writes]; decide
  · refine Pipeline.sub_tailRefsBut pre0 spec0 HB _ (StableHlo.nary_bufs_sub ..) ?_ ?_
    · show ∀ k, Proc.devRef .tc (pre0.ref k) ∉ insert (Proc.devRef (τ := τ) .tc main_v6) (Finset.univ.image fun k => Proc.devRef .tc ((![main_arg0, main_v2, main_v3, main_v4, main_v5, main_arg5, main_v1] : Fin 7 → Ref sig .tc) k))
      decide
    · show ∀ b ∈ HB, Proc.devRef .tc b ∉ insert (Proc.devRef (τ := τ) .tc main_v6) (Finset.univ.image fun k => Proc.devRef .tc ((![main_arg0, main_v2, main_v3, main_v4, main_v5, main_arg5, main_v1] : Fin 7 → Ref sig .tc) k))
      decide
  · rw [StableHlo.nary_writes]; decide

/-- The four reshapes after the region. -/
abbrev tailReshapes : List (HloOp τ sig (Elt F)) :=
  [ StableHlo.reshape main_arg1 main_v2 rfl shapeCasts_S1024x64x2_S1024x128,
    StableHlo.reshape main_arg2 main_v3 rfl shapeCasts_S1024x64x64_S1024x4096,
    StableHlo.reshape main_arg3 main_v4 rfl shapeCasts_S1024x64x64_S1024x4096,
    StableHlo.reshape main_arg4 main_v5 rfl shapeCasts_S1024x64x64_S1024x4096 ]

/-- The concatenated result after the five operations, from any contents `W` before them, is the composed term of
    `W`'s contents at the six arguments and at the kernel's result array. -/
theorem after_tail (W : Valuation τ sig (Elt F)) :
    StableHlo.after (hostOps1 (F := F)) W (Proc.devRef .tc main_v6)
      = tailTerm (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_v1)) := by
  have h0 : StableHlo.after (tailReshapes (F := F)) W (Proc.devRef .tc main_arg0) = W (Proc.devRef .tc main_arg0) := by
    after_results
  have h5 : StableHlo.after (tailReshapes (F := F)) W (Proc.devRef .tc main_arg5) = W (Proc.devRef .tc main_arg5) := by
    after_results
  have h1 : StableHlo.after (tailReshapes (F := F)) W (Proc.devRef .tc main_v1) = W (Proc.devRef .tc main_v1) := by
    after_results
  have e2 : StableHlo.after (tailReshapes (F := F)) W (Proc.devRef .tc main_v2)
      = fun i => shapeCast S1024x128 (W (Proc.devRef .tc main_arg1)) shapeCasts_S1024x64x2_S1024x128 i := by
    after_results; rfl
  have e3 : StableHlo.after (tailReshapes (F := F)) W (Proc.devRef .tc main_v3)
      = fun i => shapeCast S1024x4096 (W (Proc.devRef .tc main_arg2)) shapeCasts_S1024x64x64_S1024x4096 i := by
    after_results; rfl
  have e4 : StableHlo.after (tailReshapes (F := F)) W (Proc.devRef .tc main_v4)
      = fun i => shapeCast S1024x4096 (W (Proc.devRef .tc main_arg3)) shapeCasts_S1024x64x64_S1024x4096 i := by
    after_results; rfl
  have e5 : StableHlo.after (tailReshapes (F := F)) W (Proc.devRef .tc main_v5)
      = fun i => shapeCast S1024x4096 (W (Proc.devRef .tc main_arg4)) shapeCasts_S1024x64x64_S1024x4096 i := by
    after_results; rfl
  have key : StableHlo.after (hostOps1 (F := F)) W (Proc.devRef .tc main_v6)
      = concatenate S1024x12800 1
          [⟨S1024x64, StableHlo.after (tailReshapes (F := F)) W (Proc.devRef .tc main_arg0)⟩,
           ⟨S1024x128, StableHlo.after (tailReshapes (F := F)) W (Proc.devRef .tc main_v2)⟩,
           ⟨S1024x4096, StableHlo.after (tailReshapes (F := F)) W (Proc.devRef .tc main_v3)⟩,
           ⟨S1024x4096, StableHlo.after (tailReshapes (F := F)) W (Proc.devRef .tc main_v4)⟩,
           ⟨S1024x4096, StableHlo.after (tailReshapes (F := F)) W (Proc.devRef .tc main_v5)⟩,
           ⟨S1024x64, StableHlo.after (tailReshapes (F := F)) W (Proc.devRef .tc main_arg5)⟩,
           ⟨S1024x256, StableHlo.after (tailReshapes (F := F)) W (Proc.devRef .tc main_v1)⟩]
          concatenates_S1024x64_S1024x128_S1024x4096_S1024x4096_S1024x4096_S1024x64_S1024x256_S1024x12800_d1 := by
    simp only [hostOps1, tailReshapes, StableHlo.after_cons, StableHlo.after_nil]
    rw [StableHlo.nary_result]
    rfl
  rw [key, h0, h5, h1, e2, e3, e4, e5]
  rfl

/-! ## The buffers after the five operations -/

/-- The five operations write the four reshaped buffers and the concatenated result, nothing else. -/
theorem tail_writes : (hostOps1 (F := F)).Forall fun op =>
    op.writes ⊆ (([main_v2, main_v3, main_v4, main_v5, main_v6] : List (Ref sig .tc)).map (Proc.devRef (τ := τ) .tc)).toFinset := by
  simp only [hostOps1, List.Forall, StableHlo.reshape_writes, StableHlo.nary_writes]
  decide

/-- The region's exit contents at a buffer that is no array of the pipeline and not the index table: the launch
    contents. -/
theorem exit_keep (c : Dev nD) (b : Ref sig .tc) (ha : ∀ w, Pipeline.arrRef spec0 w ≠ b) (h0 : b ≠ main_v0) :
    Pipeline.withArrays (Pipeline.pin (pcfgs (F := F)) (adm m) 0).spec c (V₀ m c)
        (fun w => (dats m 0 c).arrAt w (Pipeline.pin (pcfgs (F := F)) (adm m) 0).N) (Proc.devRef .tc b)
      = m ((c.tc : Thread nD τ).loc b) :=
  (Pipeline.withArrays_of_ne _ c _ _ b ha).trans (V_of_ne m c h0)

/-- A buffer the five operations do not write, that is no array of the pipeline and not the index table, holds after
    them what it held at launch. -/
theorem afterTail_keep (c : Dev nD) (b : Ref sig .tc)
    (hw : b ∉ ([main_v2, main_v3, main_v4, main_v5, main_v6] : List (Ref sig .tc)))
    (ha : ∀ w, Pipeline.arrRef spec0 w ≠ b) (h0 : b ≠ main_v0) :
    Pipeline.afterTail (pcfgs (F := F)) (adm m) (dats m) 0 (V₀ m) [hostOps1 (F := F)] c b = m ((c.tc : Thread nD τ).loc b) := by
  unfold Pipeline.afterTail
  show StableHlo.after (hostOps1 (F := F)) _ (Proc.devRef .tc b) = _
  rw [StableHlo.after_of_writes_sub _ _ tail_writes hw]
  exact exit_keep m c b ha h0

/-- The concatenated result after the run: the composed term of the six passed-through arguments and the kernel's
    result array. -/
theorem afterTail_v6 (c : Dev nD) :
    Pipeline.afterTail (pcfgs (F := F)) (adm m) (dats m) 0 (V₀ m) [hostOps1 (F := F)] c main_v6
      = tailTerm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (outArr m c) := by
  unfold Pipeline.afterTail
  show StableHlo.after (hostOps1 (F := F)) _ (Proc.devRef .tc main_v6) = _
  rw [after_tail, exit_keep m c main_arg0 (by decide) (by decide), exit_keep m c main_arg1 (by decide) (by decide),
    exit_keep m c main_arg2 (by decide) (by decide), exit_keep m c main_arg3 (by decide) (by decide),
    exit_keep m c main_arg4 (by decide) (by decide), exit_keep m c main_arg5 (by decide) (by decide)]
  congr 1
  exact Pipeline.withArrays_arr _ (launch0 (F := F)).win.arr_inj c _ _ 2

end Cert.Kernel.Hand

end
-- ==== Proof.K.Res.lean ====
import proofs.«406790_j29661044146287_2_alg».proof.Proof.Gen.Kernel.Loops
import proofs.«406790_j29661044146287_2_alg».proof.Proof.K.Gath
import Idealize.ShloMosaic.Lib.Transfers
import Idealize.ShloMosaic.Lib.Ring
import Idealize.ShloMosaic.Lib.WholeRead

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-! ## The resources of the gather -/

section Fam

variable (c : Dev nD) (i : grid0.Coords)
  (arg1 : Memref sig .tc .smem S65536 .i32) (harg1 : arg1.IsWhole)
  (arg2 : Memref sig .tc .hbm S1024x512x256 .f32) (harg2 : arg2.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)

/-- The table row that scratch row `r` receives, as a memref. -/
def srcOf (r : Fin 1024) : Memref sig .tc .hbm S256 .f32 := srcM arg2 (batOf i r) (idxOf i tb r)

/-- Scratch row `r` holding its gathered row. -/
def landedRow (r : Fin 1024) : sProp 𝕄 :=
  (rowM arg6 r).view.loc (c : Thread nD τ) ↦[(rowM arg6 r).view.set]{fullShare} (rowM arg6 r).view.rep (gathRow i tb T r)

/-- Scratch row `r` held at some contents. -/
def ownedRow (r : Fin 1024) : sProp 𝕄 :=
  iprop(∃ g, (rowM arg6 r).view.loc (c : Thread nD τ) ↦[(rowM arg6 r).view.set]{fullShare} g)

/-- The source row of scratch row `r` under the read token of the row's lane. -/
def tokRow (r : Fin 1024) : sProp 𝕄 :=
  (srcOf i arg2 tb r).view.loc (c : Thread nD τ) ↦[(srcOf i arg2 tb r).view.set]{Transfers.shareTokN fullShare (r.val % 64)} harg2.unread T

/-- The rest of the table under that token. -/
def tokRest (r : Fin 1024) : sProp 𝕄 :=
  arg2.view.loc (c : Thread nD τ) ↦[Finset.univ \ (srcOf i arg2 tb r).view.set]{Transfers.shareTokN fullShare (r.val % 64)} harg2.unread T

/-- Scratch row `r` in flight: the transfer's capability on the row's lane (it credits the lane's cell with the
    row's 256 elements), delivering the row at its gathered contents and the borrowed source row; beside it the
    rest of the lane's read token. -/
def flightRow (r : Fin 1024) : sProp 𝕄 :=
  iprop(Transfers.Flight (countersEmb (U := UR sig nD τ × Counters)) (c : Thread nD τ) (SemLoc.dma (cellOfLane arg7 (laneOf r))) () 256
      iprop(landedRow c i arg6 tb T r ∗ tokRow c i arg2 harg2 tb T r)
    ∗ tokRest c i arg2 harg2 tb T r)

/-- Lane `j` idle: its cell at zero and its read token of the table whole. -/
def idleLane (j : Fin 64) : sProp 𝕄 :=
  iprop(semVal ((c : Thread nD τ), SemLoc.dma (cellOfLane arg7 j)) 0
    ∗ (arg2.view.loc (c : Thread nD τ) ↦{Transfers.shareTokN fullShare j.val} harg2.unread T))

/-- THE FAMILY. In the chunk of rows `[base, base + 64)`, `s` transfers have been started and `w` of them waited
    for: rows below `base + w` hold their gathered rows, rows `[base + w, base + s)` are in flight on their lanes, the
    rows from `base + s` on are held at some contents; the lanes outside `[w, s)` are idle; the index table is held
    at its words, the table under what is left of the full share after 64 read tokens; the core owes nothing and
    its recorded waits are among `WB`. -/
def St (base s w : ℕ) : sProp 𝕄 :=
  iprop((arg1.view.loc (c : Thread nD τ) ↦{q1} harg1.unread tb)
    ∗ bigSep (Ring.rangeSet 1024 0 (base + w)) (landedRow c i arg6 tb T)
    ∗ bigSep (Ring.rangeSet 1024 (base + w) (base + s)) (flightRow c i arg2 harg2 arg6 arg7 tb T)
    ∗ bigSep (Ring.rangeSet 1024 (base + s) 1024) (ownedRow (F := F) c arg6)
    ∗ bigSep (Ring.rangeSet 64 0 w) (idleLane c arg2 harg2 arg7 T)
    ∗ bigSep (Ring.rangeSet 64 s 64) (idleLane c arg2 harg2 arg7 T)
    ∗ (arg2.view.loc (c : Thread nD τ) ↦{Transfers.shareDrop fullShare 64} harg2.unread T)
    ∗ ∃ W : Waits sig Unit, ⌜W ⊆ WB⌝ ∗ owes (c : Thread nD τ) 0 W)

end Fam

end Cert.Kernel.Hand
end
-- ==== Proof.K.Trips.lean ====
import proofs.«406790_j29661044146287_2_alg».proof.Proof.K.Res
import Idealize.ShloMosaic.Lib.Exec
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-! ## One trip of a start loop and of a wait loop, generic in the chunk

The 16 start regions and the 16 wait regions of the kernel differ only in the offsets their
accesses use and in the check made of the index word. The two regions below take those as
parameters. -/

/-- The region of a start loop: load the index word, check it, name the lane's cell, the scratch row and the
    table row, start the transfer. -/
def startRegionG (arg1 : Memref sig .tc .smem S65536 .i32) (arg2 : Memref sig .tc .hbm S1024x512x256 .f32)
    (arg6 : Memref sig .tc .vmem S1024x256 .f32) (arg7 : DmaSems sig S64)
    (offA : Fin 1 → Nat) (hA : ∀ a, offA a + S1.size a ≤ S65536.size a)
    (chk : BitVec 32 → Prop) (dec : ∀ v, Decidable (chk v))
    (offS : Fin 1 → Nat) (hS : ∀ a, offS a + S1.size a ≤ S64.size a)
    (offR : Fin 2 → Nat) (hR : ∀ a, offR a + S1x256.size a ≤ S1024x256.size a)
    (offB : Fin 3 → Nat) (hB : ∀ a, offB a + S1x512x256.size a ≤ S1024x512x256.size a)
    (offT : BitVec 32 → Fin 2 → Nat) (hT : ∀ v, chk v → ∀ a, offT v a + S1x256.size a ≤ S512x256.size a) :
    Prog (TpuEff nD τ sig (Elt F) Λ₀ .tc) Unit := do
  let v68 : Elt F .i32 ← smemLoad arg1 (Rect.unit (s := S65536) offA S1.size hA) numel1_S1 rfl
  have hw : chk v68 := (← Prog.lift (TpuEff.assume (chk v68) (dec v68))).down
  let v69 : DmaSems sig S1 := arg7.slice (Rect.unit (s := S64) offS S1.size hS)
  let v70 : DmaSems sig S_ := v69.squeeze S_ squeezes_S1_S_
  let v71 : Memref sig .tc .vmem S1x256 .f32 := arg6.slice (Rect.unit (s := S1024x256) offR S1x256.size hR) (fun _ => rfl)
  let v72 : Memref sig .tc .vmem S256 .f32 := v71.squeeze S256 squeezes_S1x256_S256
  let v73 : Memref sig .tc .hbm S1x512x256 .f32 := arg2.slice (Rect.unit (s := S1024x512x256) offB S1x512x256.size hB) (fun _ => rfl)
  let v74 : Memref sig .tc .hbm S512x256 .f32 := v73.squeeze S512x256 squeezes_S1x512x256_S512x256
  let v75 : Memref sig .tc .hbm S1x256 .f32 := v74.slice (Rect.unit (s := S512x256) (offT v68) S1x256.size (hT v68 hw)) (fun _ => rfl)
  let v76 : Memref sig .tc .hbm S256 .f32 := v75.squeeze S256 squeezes_S1x256_S256
  Prog.lift (.enqueueDma v76 (.here v72) (.dma v70.sem) ((View.wordExact_bits rfl).reshape _ _) ((View.wordExact_bits rfl).reshape _ _) ⟨Or.inl rfl, trivial⟩)
  pure ⟨⟩

/-- The region of a wait loop: the same names, then the wait. -/
def waitRegionG (arg1 : Memref sig .tc .smem S65536 .i32) (arg2 : Memref sig .tc .hbm S1024x512x256 .f32)
    (arg6 : Memref sig .tc .vmem S1024x256 .f32) (arg7 : DmaSems sig S64)
    (offA : Fin 1 → Nat) (hA : ∀ a, offA a + S1.size a ≤ S65536.size a)
    (chk : BitVec 32 → Prop) (dec : ∀ v, Decidable (chk v))
    (offS : Fin 1 → Nat) (hS : ∀ a, offS a + S1.size a ≤ S64.size a)
    (offR : Fin 2 → Nat) (hR : ∀ a, offR a + S1x256.size a ≤ S1024x256.size a)
    (offB : Fin 3 → Nat) (hB : ∀ a, offB a + S1x512x256.size a ≤ S1024x512x256.size a)
    (offT : BitVec 32 → Fin 2 → Nat) (hT : ∀ v, chk v → ∀ a, offT v a + S1x256.size a ≤ S512x256.size a) :
    Prog (TpuEff nD τ sig (Elt F) Λ₀ .tc) Unit := do
  let v68 : Elt F .i32 ← smemLoad arg1 (Rect.unit (s := S65536) offA S1.size hA) numel1_S1 rfl
  have hw : chk v68 := (← Prog.lift (TpuEff.assume (chk v68) (dec v68))).down
  let v69 : DmaSems sig S1 := arg7.slice (Rect.unit (s := S64) offS S1.size hS)
  let v70 : DmaSems sig S_ := v69.squeeze S_ squeezes_S1_S_
  let v71 : Memref sig .tc .vmem S1x256 .f32 := arg6.slice (Rect.unit (s := S1024x256) offR S1x256.size hR) (fun _ => rfl)
  let v72 : Memref sig .tc .vmem S256 .f32 := v71.squeeze S256 squeezes_S1x256_S256
  let v73 : Memref sig .tc .hbm S1x512x256 .f32 := arg2.slice (Rect.unit (s := S1024x512x256) offB S1x512x256.size hB) (fun _ => rfl)
  let v74 : Memref sig .tc .hbm S512x256 .f32 := v73.squeeze S512x256 squeezes_S1x512x256_S512x256
  let v75 : Memref sig .tc .hbm S1x256 .f32 := v74.slice (Rect.unit (s := S512x256) (offT v68) S1x256.size (hT v68 hw)) (fun _ => rfl)
  let v76 : Memref sig .tc .hbm S256 .f32 := v75.squeeze S256 squeezes_S1x256_S256
  Prog.lift (.waitDma2 v70.sem v76 v72 ((View.wordExact_bits rfl).reshape _ _) ((View.wordExact_bits rfl).reshape _ _))
  pure ⟨⟩

section Rfl
variable (i : grid0.Coords) (arg1 : Memref sig .tc .smem S65536 .i32) (harg1 : arg1.IsWhole) (arg2 : Memref sig .tc .hbm S1024x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S1024x256 .f32) (harg6 : arg6.IsWhole) (arg7 : DmaSems sig S64)

example (k : Fin k0_t1_loop.trips) :
    k0_t1_body (F := F) i arg1 harg1 arg2 harg2 arg3 harg3 arg4 harg4 arg5 harg5 arg6 harg6 arg7 k ()
      = startRegionG arg1 arg2 arg6 arg7 (k0_off1 i k) (k0_off1_inb i k) k0_chk1 k0_chk1.dec (k0_off2 k) (k0_off2_inb k)
          (k0_off3 k) (k0_off3_inb k) (k0_off4 i k) (k0_off4_inb i k) k0_off5 k0_off5_inb := rfl

example (k : Fin k0_t2_loop.trips) :
    k0_t2_body (F := F) i arg1 harg1 arg2 harg2 arg3 harg3 arg4 harg4 arg5 harg5 arg6 harg6 arg7 k ()
      = waitRegionG arg1 arg2 arg6 arg7 (k0_off6 i k) (k0_off6_inb i k) k0_chk2 k0_chk2.dec (k0_off7 k) (k0_off7_inb k)
          (k0_off8 k) (k0_off8_inb k) (k0_off9 i k) (k0_off9_inb i k) k0_off10 k0_off10_inb := rfl
end Rfl

section Words
variable (arg1 : Memref sig .tc .smem S65536 .i32) (harg1 : arg1.IsWhole) (tb : S65536.Idx → BitVec 32)

/-- Every word read through the index table is one of its words: below 512 when all are. -/
theorem word_lt (hidx : ∀ j, (tb j).toNat < 512) (B : LoadRect S65536) (x : B.shape.Idx) :
    (View.readAt (Elt F) arg1.view B (harg1.unread (Val := Elt F) tb) x : BitVec 32).toNat < 512 := by
  rw [harg1.readAt_unread]; exact hidx _

/-- The word read at position `1024·i + r` is the index word of scratch row `r`. -/
theorem word_read (i : grid0.Coords) (r : Fin 1024) (n : ℕ) (hn : n = 1024 * (i 0).val + r.val)
    (hA : ∀ a, (![n] : Fin 1 → ℕ) a + S1.size a ≤ S65536.size a) (x : (Rect.unit (s := S65536) ![n] S1.size hA).toLoadRect.shape.Idx) :
    (View.readAt (Elt F) arg1.view (Rect.unit (s := S65536) ![n] S1.size hA).toLoadRect (harg1.unread (Val := Elt F) tb) x : BitVec 32) = tb (wordAt i r) := by
  subst hn
  rw [harg1.readAt_unread]
  congr 1
  funext a
  apply Fin.ext
  fin_cases a
  have hx : (x 0).val = 0 := by have := (x 0).isLt; change (x 0).val < 1 at this; omega
  show 1024 * (i 0).val + r.val + 1 * (x 0).val = 1024 * (i 0).val + r.val
  omega
end Words

section Geo
variable (i : grid0.Coords) (arg2 : Memref sig .tc .hbm S1024x512x256 .f32) (harg2 : arg2.IsWhole)
  (tb : S65536.Idx → BitVec 32) (T : S1024x512x256.Idx → Elt F .f32)

/-- The table row the region spells, its offsets in closed form, is `srcM`. -/
theorem srcM_congr (b : Fin 1024) (w : Fin 512) (offB : Fin 3 → ℕ) (hB : ∀ a, offB a + S1x512x256.size a ≤ S1024x512x256.size a)
    (offW : Fin 2 → ℕ) (hW : ∀ a, offW a + S1x256.size a ≤ S512x256.size a)
    (eB : offB = ![b.val, 0, 0]) (eW : offW = ![w.val, 0]) :
    ((((arg2.slice (Rect.unit (s := S1024x512x256) offB S1x512x256.size hB) (fun _ => rfl)).squeeze S512x256 squeezes_S1x512x256_S512x256).slice
      (Rect.unit (s := S512x256) offW S1x256.size hW) (fun _ => rfl)).squeeze S256 squeezes_S1x256_S256) = srcM arg2 b w := by
  subst eB eW; rfl

theorem sq1 (h : S256.numel = S1x256.numel) (x : S256.Idx) : Shape.reshapeEquiv h x = Fin.cons ⟨0, Nat.one_pos⟩ x :=
  Shape.reshapeEquiv_cons_one (n := 1) (d := ![256]) h x
theorem sq2 (h : S512x256.numel = S1x512x256.numel) (y : S512x256.Idx) : Shape.reshapeEquiv h y = Fin.cons ⟨0, Nat.one_pos⟩ y :=
  Shape.reshapeEquiv_cons_one (n := 2) (d := ![512, 256]) h y

theorem rowIdx_zero_val (r : Fin 1024) (x : S256.Idx) : (rowIdx r x 0).val = r.val := by
  unfold rowIdx
  rw [Rect.emb_apply, sq1]
  show r.val + 1 * 0 = r.val
  omega

theorem rowIdx_zero (r : Fin 1024) (x : S256.Idx) : (rowIdx r x 0 : Fin 1024) = r := Fin.ext (rowIdx_zero_val r x)

theorem rowIdx_one (r : Fin 1024) (x : S256.Idx) : (rowIdx r x 1).val = (x 0).val := by
  unfold rowIdx
  rw [Rect.emb_apply, sq1]
  show 0 + 1 * (x 0).val = (x 0).val
  omega

theorem srcOf_read (hidx : ∀ j, (tb j).toNat < 512) (r : Fin 1024) :
    (srcOf i arg2 tb r).view.read (Elt F) (harg2.unread T) = gathRow i tb T r := by
  funext x
  unfold srcOf srcM gathRow gath
  refine (congrFun (harg2.read_unread T) _).trans (congrArg T ?_)
  have h0 : (rowIdx r x 0 : Fin 1024) = r := rowIdx_zero r x
  have eb : (batOf i (rowIdx r x 0)).val = (batOf i r).val := congrArg (fun t => (batOf i t).val) h0
  have ew : (idxOf i tb (rowIdx r x 0)).val = (idxOf i tb r).val := congrArg (fun t => (idxOf i tb t).val) h0
  funext a
  apply Fin.ext
  rw [Rect.emb_apply]
  erw [sq2, sq1]
  fin_cases a
  · exact (show (batOf i r).val + 1 * 0 = (batOf i r).val by omega).trans eb.symm
  · exact (show 0 + 1 * ((idxOf i tb r).val + 1 * 0) = (idxOf i tb r).val by omega).trans ew.symm
  · exact (show 0 + 1 * (0 + 1 * (x 0).val) = (x 0).val by omega).trans (rowIdx_one r x).symm
end Geo

section Conv

variable (c : Dev nD) (i : grid0.Coords)
  (arg2 : Memref sig .tc .hbm S1024x512x256 .f32) (harg2 : arg2.IsWhole)
  (arg6 : Memref sig .tc .vmem S1024x256 .f32)
  (arg7 : DmaSems sig S64)
  (tb : S65536.Idx → BitVec 32) (T : S1024x512x256.Idx → Elt F .f32)

/-- A run of consecutive numbers grows at its end. -/
theorem bigSep_rangeSet_snoc {M : Type _} [URA M] {NB : ℕ} {Φ : Fin NB → sProp M} {lo hi : ℕ} (h : lo ≤ hi) (hhi : hi < NB) :
    bigSep (Ring.rangeSet NB lo (hi + 1)) Φ = iprop(Φ ⟨hi, hhi⟩ ∗ bigSep (Ring.rangeSet NB lo hi) Φ) := by
  have e : Ring.rangeSet NB lo (hi + 1) = insert ⟨hi, hhi⟩ (Ring.rangeSet NB lo hi) := by
    ext b; rw [Finset.mem_insert, Ring.mem_rangeSet, Ring.mem_rangeSet, Fin.ext_iff]; dsimp only; omega
  have hm : (⟨hi, hhi⟩ : Fin NB) ∉ Ring.rangeSet NB lo hi := by rw [Ring.mem_rangeSet]; dsimp only; omega
  rw [e, bigSep_insert hm]; rfl

/-- The row as the transfer writes it — the source row's contents, whole, over whatever the row held — is the row at
    its gathered contents. -/
theorem flight_conv' (hidx : ∀ j, (tb j).toNat < 512) (r : Fin 1024)
    (g : Buf (Elt F) ((rowM arg6 r).view.loc (c : Thread nD τ))) :
    iprop(Transfers.Flight (countersEmb (U := UR sig nD τ × Counters)) (c : Thread nD τ) (SemLoc.dma (cellOfLane arg7 (laneOf r))) () 256
        iprop(((rowM arg6 r).view.loc (c : Thread nD τ) ↦[(rowM arg6 r).view.set]{fullShare}
              (rowM arg6 r).view.writes (Elt F) g [⟨Rect.whole S256, ReadAs.same.apply (View.read (Elt F) (srcOf i arg2 tb r).view (harg2.unread T))⟩])
          ∗ tokRow c i arg2 harg2 tb T r)
      ∗ tokRest c i arg2 harg2 tb T r)
    ⊢ flightRow c i arg2 harg2 arg6 arg7 tb T r := by
  unfold flightRow landedRow
  refine sep_mono (Transfers.Flight_mono _ _ (sep_mono ?_ .rfl)) .rfl
  rw [pointsTo_rep (Ix := Unit) (Name := ℕ) (U := UR sig nD τ × Counters) (Lvl := ℕ) (c : Thread nD τ) (rowM arg6 r), View.read_writes_whole,
    ReadAs.apply_same, srcOf_read i arg2 harg2 tb T hidx r]

/-- What the start of row `r`'s transfer leaves — its capability delivering the row as written from the source row
    read at the loaded word, and the two parts of the lane's read token — is the row in flight. -/
theorem flight_conv (hidx : ∀ j, (tb j).toNat < 512) (r : Fin 1024) (j : Fin 64) (hj : j = laneOf r)
    (g : Buf (Elt F) ((rowM arg6 r).view.loc (c : Thread nD τ)))
    (offB : Fin 3 → ℕ) (hB : ∀ a, offB a + S1x512x256.size a ≤ S1024x512x256.size a) (eB : offB = ![(batOf i r).val, 0, 0])
    (v : BitVec 32) (hv : v = tb (wordAt i r))
    (offW : Fin 2 → ℕ) (hW : ∀ a, offW a + S1x256.size a ≤ S512x256.size a) (eW : offW = ![v.toNat, 0]) :
    iprop(Transfers.Flight (countersEmb (U := UR sig nD τ × Counters)) (c : Thread nD τ) (SemLoc.dma (cellOfLane arg7 j)) () 256
        iprop(((rowM arg6 r).view.loc (c : Thread nD τ) ↦[(rowM arg6 r).view.set]{fullShare}
              (rowM arg6 r).view.writes (Elt F) g [⟨Rect.whole S256, ReadAs.same.apply (View.read (Elt F)
                ((((arg2.slice (Rect.unit (s := S1024x512x256) offB S1x512x256.size hB) (fun _ => rfl)).squeeze S512x256 squeezes_S1x512x256_S512x256).slice
                  (Rect.unit (s := S512x256) offW S1x256.size hW) (fun _ => rfl)).squeeze S256 squeezes_S1x256_S256).view (harg2.unread T))⟩])
          ∗ (arg2.view.loc (c : Thread nD τ) ↦[((((arg2.slice (Rect.unit (s := S1024x512x256) offB S1x512x256.size hB) (fun _ => rfl)).squeeze S512x256 squeezes_S1x512x256_S512x256).slice
                  (Rect.unit (s := S512x256) offW S1x256.size hW) (fun _ => rfl)).squeeze S256 squeezes_S1x256_S256).view.set]{Transfers.shareTokN fullShare j.val} harg2.unread T))
      ∗ (arg2.view.loc (c : Thread nD τ) ↦[Finset.univ \ ((((arg2.slice (Rect.unit (s := S1024x512x256) offB S1x512x256.size hB) (fun _ => rfl)).squeeze S512x256 squeezes_S1x512x256_S512x256).slice
                  (Rect.unit (s := S512x256) offW S1x256.size hW) (fun _ => rfl)).squeeze S256 squeezes_S1x256_S256).view.set]{Transfers.shareTokN fullShare j.val} harg2.unread T))
    ⊢ flightRow c i arg2 harg2 arg6 arg7 tb T r := by
  have eW' : offW = ![(idxOf i tb r).val, 0] := by
    rw [eW, hv]
    show ![(tb (wordAt i r)).toNat, 0] = ![(tb (wordAt i r)).toNat % 512, 0]
    rw [Nat.mod_eq_of_lt (hidx _)]
  subst hj
  subst eB
  subst eW'
  exact flight_conv' c i arg2 harg2 arg6 arg7 tb T hidx r g

end Conv

section Tok
variable (c : Dev nD) (i : grid0.Coords)
  (arg2 : Memref sig .tc .hbm S1024x512x256 .f32) (harg2 : arg2.IsWhole)
  (tb : S65536.Idx → BitVec 32) (T : S1024x512x256.Idx → Elt F .f32)

/-- The source row under a lane's read token and the rest of the table under it are the lane's token whole. -/
theorem tok_join (r : Fin 1024) (j : ℕ) (hj : r.val % 64 = j) :
    iprop(((srcOf i arg2 tb r).view.loc (c : Thread nD τ) ↦[(srcOf i arg2 tb r).view.set]{Transfers.shareTokN fullShare (r.val % 64)} harg2.unread T)
        ∗ tokRest c i arg2 harg2 tb T r)
      ⊢ (arg2.view.loc (c : Thread nD τ) ↦{Transfers.shareTokN fullShare j} harg2.unread T : sProp 𝕄) := by
  subst hj
  unfold tokRest
  exact (pointsTo_split_subset (Finset.subset_univ _)).2

end Tok

section Trips

variable (c : Dev nD) (i : grid0.Coords)
  (arg1 : Memref sig .tc .smem S65536 .i32) (harg1 : arg1.IsWhole)
  (arg2 : Memref sig .tc .hbm S1024x512x256 .f32) (harg2 : arg2.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)

set_option maxHeartbeats 1000000 in
/-- ONE TRIP OF A START LOOP: with `li` transfers of the chunk started and none waited for, the region starts the
    transfer of row `base + li` on lane `li`: the row leaves the rows held at some contents, the lane leaves the
    idle lanes, and the row joins the rows in flight. -/
theorem start_trip (base li : ℕ) (hli : li < 64) (hb : base + 64 ≤ 1024) (hdiv : 64 ∣ base)
    (hidx : ∀ j, (tb j).toNat < 512)
    (offA : Fin 1 → Nat) (hA : ∀ a, offA a + S1.size a ≤ S65536.size a)
    (chk : BitVec 32 → Prop) (dec : ∀ v, Decidable (chk v))
    (offS : Fin 1 → Nat) (hS : ∀ a, offS a + S1.size a ≤ S64.size a)
    (offR : Fin 2 → Nat) (hR : ∀ a, offR a + S1x256.size a ≤ S1024x256.size a)
    (offB : Fin 3 → Nat) (hB : ∀ a, offB a + S1x512x256.size a ≤ S1024x512x256.size a)
    (offT : BitVec 32 → Fin 2 → Nat) (hT : ∀ v, chk v → ∀ a, offT v a + S1x256.size a ≤ S512x256.size a)
    (eA : offA = ![1024 * (i 0).val + (base + li)]) (eS : offS = ![li]) (eR : offR = ![base + li, 0])
    (eB : offB = ![16 * (i 0).val + (base + li) / 64, 0, 0]) (eT : ∀ v, offT v = ![v.toNat, 0])
    (hC : ∀ v : BitVec 32, v.toNat < 512 → chk v) :
    St c i arg1 harg1 arg2 harg2 arg6 arg7 q1 tb T WB base li 0
      ⊢ wp frame (wpE (defs₀ (F := F)) Variants.none (c : Thread nD τ) none) Set.univ
          (startRegionG (F := F) arg1 arg2 arg6 arg7 offA hA chk dec offS hS offR hR offB hB offT hT)
          (fun _ => St c i arg1 harg1 arg2 harg2 arg6 arg7 q1 tb T WB base (li + 1) 0) := by
  subst eA eS eR eB
  have hr : base + li < 1024 := by omega
  have hlane : (⟨li, hli⟩ : Fin 64) = laneOf ⟨base + li, hr⟩ := by
    apply Fin.ext; show li = (base + li) % 64; omega
  unfold St
  rw [Ring.bigSep_rangeSet_head (Φ := ownedRow (F := F) c arg6) (lo := base + li) (hi := 1024) (by omega) (by omega),
    Ring.bigSep_rangeSet_head (Φ := idleLane c arg2 harg2 arg7 T) (lo := li) (hi := 64) (by omega) (by omega),
    show base + (li + 1) = base + li + 1 by omega,
    bigSep_rangeSet_snoc (Φ := flightRow c i arg2 harg2 arg6 arg7 tb T) (lo := base + 0) (hi := base + li) (by omega) hr]
  unfold ownedRow idleLane
  iintro ⟨H1, Hland, Hfl, ⟨⟨%g, Hrow⟩, Hown⟩, Hid0, ⟨⟨Hcell, Htok⟩, Hid⟩, H2, HO⟩
  unfold startRegionG
  sl_exec (disch := exact hC _ (word_lt arg1 harg1 tb hidx _ _))
  sl_step
  isplitl [H1]; · iexact H1
  isplitl [Hland]; · iexact Hland
  isplitl [Hfl Hcell Htok]
  · isplitr [Hfl]
    · iapply (flight_conv c i arg2 harg2 arg6 arg7 tb T hidx ⟨base + li, hr⟩ ⟨li, hli⟩ hlane g _ hB rfl _
        (word_read (F := F) arg1 harg1 tb i ⟨base + li, hr⟩ _ rfl hA (Shape.Idx.first (show 0 < S1.numel by decide))) _
        (hT _ (hC _ (word_lt (F := F) arg1 harg1 tb hidx _ _))) (eT _))
      isplitl [Hcell]; · iexact Hcell
      iexact Htok
    · iexact Hfl
  isplitl [Hown]; · iexact Hown
  isplitl [Hid0]; · iexact Hid0
  isplitl [Hid]; · iexact Hid
  isplitl [H2]; · iexact H2
  iexact HO

end Trips

section TripsW

variable (c : Dev nD) (i : grid0.Coords)
  (arg1 : Memref sig .tc .smem S65536 .i32) (harg1 : arg1.IsWhole)
  (arg2 : Memref sig .tc .hbm S1024x512x256 .f32) (harg2 : arg2.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)

set_option maxHeartbeats 1000000 in
/-- ONE TRIP OF A WAIT LOOP: with the chunk's 64 transfers started and `li` of them waited for, the region waits
    for the transfer of row `base + li` on lane `li`: the row leaves the rows in flight and joins the rows holding
    their gathered contents, the lane is idle again (its cell at zero, its read token whole), the wait recorded. -/
theorem wait_trip (base li : ℕ) (hli : li < 64) (hb : base + 64 ≤ 1024) (hdiv : 64 ∣ base)
    (hidx : ∀ j, (tb j).toNat < 512)
    (offA : Fin 1 → Nat) (hA : ∀ a, offA a + S1.size a ≤ S65536.size a)
    (chk : BitVec 32 → Prop) (dec : ∀ v, Decidable (chk v))
    (offS : Fin 1 → Nat) (hS : ∀ a, offS a + S1.size a ≤ S64.size a)
    (offR : Fin 2 → Nat) (hR : ∀ a, offR a + S1x256.size a ≤ S1024x256.size a)
    (offB : Fin 3 → Nat) (hB : ∀ a, offB a + S1x512x256.size a ≤ S1024x512x256.size a)
    (offT : BitVec 32 → Fin 2 → Nat) (hT : ∀ v, chk v → ∀ a, offT v a + S1x256.size a ≤ S512x256.size a)
    (eA : offA = ![1024 * (i 0).val + (base + li)]) (eS : offS = ![li]) (eR : offR = ![base + li, 0])
    (eB : offB = ![16 * (i 0).val + (base + li) / 64, 0, 0]) (eT : ∀ v, offT v = ![v.toNat, 0])
    (hC : ∀ v : BitVec 32, v.toNat < 512 → chk v)
    (hWB : ∀ j : Fin 64, (SemLoc.dma (cellOfLane arg7 j), ()) ∈ WB) :
    St c i arg1 harg1 arg2 harg2 arg6 arg7 q1 tb T WB base 64 li
      ⊢ wp frame (wpE (defs₀ (F := F)) Variants.none (c : Thread nD τ) none) Set.univ
          (waitRegionG (F := F) arg1 arg2 arg6 arg7 offA hA chk dec offS hS offR hR offB hB offT hT)
          (fun _ => St c i arg1 harg1 arg2 harg2 arg6 arg7 q1 tb T WB base 64 (li + 1)) := by
  subst eA eS eR eB
  have hr : base + li < 1024 := by omega
  have hlane : laneOf ⟨base + li, hr⟩ = (⟨li, hli⟩ : Fin 64) := by
    apply Fin.ext; show (base + li) % 64 = li; omega
  unfold St
  rw [Ring.bigSep_rangeSet_head (Φ := flightRow c i arg2 harg2 arg6 arg7 tb T) (lo := base + li) (hi := base + 64) (by omega) hr,
    show base + (li + 1) = base + li + 1 by omega,
    bigSep_rangeSet_snoc (Φ := landedRow c i arg6 tb T) (lo := 0) (hi := base + li) (by omega) hr,
    bigSep_rangeSet_snoc (Φ := idleLane c arg2 harg2 arg7 T) (lo := 0) (hi := li) (by omega) hli]
  unfold flightRow landedRow tokRow
  rw [hlane]
  iintro ⟨H1, Hland, ⟨⟨HF, Hrest⟩, Hfl⟩, Hown, Hid0, Hid1, H2, ⟨%W, %hW, HO⟩⟩
  unfold waitRegionG
  sl_exec (disch := exact hC _ (word_lt arg1 harg1 tb hidx _ _))
  sl_step
  isplitl [H1]; · iexact H1
  isplitl [HF_dst Hland]
  · isplitl [HF_dst]; · iexact HF_dst
    iexact Hland
  isplitl [Hfl]; · iexact Hfl
  isplitl [Hown]; · iexact Hown
  isplitl [HF HF_src Hrest Hid0]
  · isplitr [Hid0]
    · unfold idleLane
      isplitl [HF]; · iexact HF
      iapply (tok_join c i arg2 harg2 tb T ⟨base + li, hr⟩ li (by show (base + li) % 64 = li; omega))
      isplitl [HF_src]; · iexact HF_src
      iexact Hrest
    · iexact Hid0
  isplitl [Hid1]; · iexact Hid1
  isplitl [H2]; · iexact H2
  iexists (insert (SemLoc.dma (cellOfLane arg7 ⟨li, hli⟩), ()) W)
  isplitr; · ipureintro; exact Finset.insert_subset (hWB ⟨li, hli⟩) hW
  iexact HO
end TripsW

end Cert.Kernel.Hand
end
-- ==== Proof.K.Offsets.lean ====
import proofs.«406790_j29661044146287_2_alg».proof.Proof.Gen.Kernel

/-! # Closed forms of the gather's offset chains: the common lemmas

Every trip of every loop of the gather computes five offset vectors by 32-bit word arithmetic
from the grid coordinate `i` (64 points) and the trip number `k` (64 trips): the index word's
cell, the semaphore lane, the scratch row, the table's batch row, and (from the word read) the
table row. The closed forms of the first, third and fourth for the chunks at a positive base are
facts of the generated module in a slightly different spelling; here are the lemmas that bring
a one-, two- or three-component vector to the spelling the trips use, the bound a word below 512
gives on the table row's rectangle, and the batch row of the two loops of the chunk at base 0,
whose chain's sign test depends on the trip (decided over the 64 × 64 cases). -/

namespace Cert.Kernel.Hand
open Cert.Kernel Cert.Kernel.Gen
open Idealize.ShloMosaic

theorem vec1_of {x y : ℕ} (h : x = y) : (![x] : Fin 1 → ℕ) = ![y] := by rw [h]
theorem vec2_of {x y : ℕ} (h : x = y) : (![x, 0] : Fin 2 → ℕ) = ![y, 0] := by rw [h]
theorem vec3_of {x y : ℕ} (h : x = y) : (![x, 0, 0] : Fin 3 → ℕ) = ![y, 0, 0] := by rw [h]

/-- A word below 512 names a row of the 512-row table: the one-row rectangle at it is in bounds. -/
theorem rowCheck (v : BitVec 32) (hv : v.toNat < 512) :
    ∀ a, (![v.toNat, 0] : Fin 2 → ℕ) a + S1x256.size a ≤ S512x256.size a := by
  intro a
  fin_cases a
  · show v.toNat + 1 ≤ 512
    omega
  · show 0 + 256 ≤ 256
    omega

/-- The batch row of the start loop of the chunk at base 0: the floor division by 64 of a trip
    number below 64 adds nothing to `16 · i`. The chain's sign test is true or false with the trip, so
    the chain is evaluated at each of the 64 × 64 pairs. -/
theorem offB_1 (i : grid0.Coords) (k : Fin k0_t1_loop.trips) :
    k0_off4 i k = ![16 * (i 0).val + (0 + k.val) / 64, 0, 0] := by
  obtain ⟨t, ht⟩ : ∃ t : Fin 64, i 0 = t := ⟨i 0, rfl⟩
  simp only [k0_off4, ht]
  clear ht
  revert t k
  decide +kernel

/-- The same for the wait loop of the chunk at base 0. -/
theorem offB_2 (i : grid0.Coords) (k : Fin k0_t2_loop.trips) :
    k0_off9 i k = ![16 * (i 0).val + (0 + k.val) / 64, 0, 0] := by
  obtain ⟨t, ht⟩ : ∃ t : Fin 64, i 0 = t := ⟨i 0, rfl⟩
  simp only [k0_off9, ht]
  clear ht
  revert t k
  decide +kernel

end Cert.Kernel.Hand
-- ==== Proof.K.OffsetsTab.lean ====
import proofs.«406790_j29661044146287_2_alg».proof.Proof.K.Offsets

/-! # Closed forms of the gather's offset chains: the table of the 32 loops

Loop N (1..32) works on the chunk at base 64 * ((N - 1) / 2); its five offset chains are the
generated k0_off(5N-4) .. k0_off(5N). One line per chain: the generated closed form brought to the
common spelling, the table row by unfolding, the bound check from a word below 512, and the trip
count. -/

namespace Cert.Kernel.Hand
open Cert.Kernel Cert.Kernel.Gen
open Idealize.ShloMosaic

theorem trips_1 : k0_t1_loop.trips = 64 := by decide +kernel
theorem offA_1 (i : grid0.Coords) (k : Fin k0_t1_loop.trips) : k0_off1 i k = ![1024 * (i 0).val + (0 + k.val)] := (k0_off1_eq i k).trans (vec1_of (by omega))
theorem offS_1 (k : Fin k0_t1_loop.trips) : k0_off2 k = ![k.val] := k0_off2_eq k
theorem offR_1 (k : Fin k0_t1_loop.trips) : k0_off3 k = ![0 + k.val, 0] := (k0_off3_eq k).trans (vec2_of (by omega))
theorem offT_1 : ∀ v : BitVec 32, k0_off5 v = ![v.toNat, 0] := fun _ => rfl
theorem chk_1 : ∀ v : BitVec 32, v.toNat < 512 → k0_chk1 v := fun v hv => rowCheck v hv
theorem trips_2 : k0_t2_loop.trips = 64 := by decide +kernel
theorem offA_2 (i : grid0.Coords) (k : Fin k0_t2_loop.trips) : k0_off6 i k = ![1024 * (i 0).val + (0 + k.val)] := (k0_off6_eq i k).trans (vec1_of (by omega))
theorem offS_2 (k : Fin k0_t2_loop.trips) : k0_off7 k = ![k.val] := k0_off7_eq k
theorem offR_2 (k : Fin k0_t2_loop.trips) : k0_off8 k = ![0 + k.val, 0] := (k0_off8_eq k).trans (vec2_of (by omega))
theorem offT_2 : ∀ v : BitVec 32, k0_off10 v = ![v.toNat, 0] := fun _ => rfl
theorem chk_2 : ∀ v : BitVec 32, v.toNat < 512 → k0_chk2 v := fun v hv => rowCheck v hv
theorem trips_3 : k0_t3_loop.trips = 64 := by decide +kernel
theorem offA_3 (i : grid0.Coords) (k : Fin k0_t3_loop.trips) : k0_off11 i k = ![1024 * (i 0).val + (64 + k.val)] := (k0_off11_eq i k).trans (vec1_of (by omega))
theorem offS_3 (k : Fin k0_t3_loop.trips) : k0_off12 k = ![k.val] := k0_off12_eq k
theorem offR_3 (k : Fin k0_t3_loop.trips) : k0_off13 k = ![64 + k.val, 0] := (k0_off13_eq k).trans (vec2_of (by omega))
theorem offB_3 (i : grid0.Coords) (k : Fin k0_t3_loop.trips) : k0_off14 i k = ![16 * (i 0).val + (64 + k.val) / 64, 0, 0] := (k0_off14_eq i k).trans (vec3_of (by omega))
theorem offT_3 : ∀ v : BitVec 32, k0_off15 v = ![v.toNat, 0] := fun _ => rfl
theorem chk_3 : ∀ v : BitVec 32, v.toNat < 512 → k0_chk3 v := fun v hv => rowCheck v hv
theorem trips_4 : k0_t4_loop.trips = 64 := by decide +kernel
theorem offA_4 (i : grid0.Coords) (k : Fin k0_t4_loop.trips) : k0_off16 i k = ![1024 * (i 0).val + (64 + k.val)] := (k0_off16_eq i k).trans (vec1_of (by omega))
theorem offS_4 (k : Fin k0_t4_loop.trips) : k0_off17 k = ![k.val] := k0_off17_eq k
theorem offR_4 (k : Fin k0_t4_loop.trips) : k0_off18 k = ![64 + k.val, 0] := (k0_off18_eq k).trans (vec2_of (by omega))
theorem offB_4 (i : grid0.Coords) (k : Fin k0_t4_loop.trips) : k0_off19 i k = ![16 * (i 0).val + (64 + k.val) / 64, 0, 0] := (k0_off19_eq i k).trans (vec3_of (by omega))
theorem offT_4 : ∀ v : BitVec 32, k0_off20 v = ![v.toNat, 0] := fun _ => rfl
theorem chk_4 : ∀ v : BitVec 32, v.toNat < 512 → k0_chk4 v := fun v hv => rowCheck v hv
theorem trips_5 : k0_t5_loop.trips = 64 := by decide +kernel
theorem offA_5 (i : grid0.Coords) (k : Fin k0_t5_loop.trips) : k0_off21 i k = ![1024 * (i 0).val + (128 + k.val)] := (k0_off21_eq i k).trans (vec1_of (by omega))
theorem offS_5 (k : Fin k0_t5_loop.trips) : k0_off22 k = ![k.val] := k0_off22_eq k
theorem offR_5 (k : Fin k0_t5_loop.trips) : k0_off23 k = ![128 + k.val, 0] := (k0_off23_eq k).trans (vec2_of (by omega))
theorem offB_5 (i : grid0.Coords) (k : Fin k0_t5_loop.trips) : k0_off24 i k = ![16 * (i 0).val + (128 + k.val) / 64, 0, 0] := (k0_off24_eq i k).trans (vec3_of (by omega))
theorem offT_5 : ∀ v : BitVec 32, k0_off25 v = ![v.toNat, 0] := fun _ => rfl
theorem chk_5 : ∀ v : BitVec 32, v.toNat < 512 → k0_chk5 v := fun v hv => rowCheck v hv
theorem trips_6 : k0_t6_loop.trips = 64 := by decide +kernel
theorem offA_6 (i : grid0.Coords) (k : Fin k0_t6_loop.trips) : k0_off26 i k = ![1024 * (i 0).val + (128 + k.val)] := (k0_off26_eq i k).trans (vec1_of (by omega))
theorem offS_6 (k : Fin k0_t6_loop.trips) : k0_off27 k = ![k.val] := k0_off27_eq k
theorem offR_6 (k : Fin k0_t6_loop.trips) : k0_off28 k = ![128 + k.val, 0] := (k0_off28_eq k).trans (vec2_of (by omega))
theorem offB_6 (i : grid0.Coords) (k : Fin k0_t6_loop.trips) : k0_off29 i k = ![16 * (i 0).val + (128 + k.val) / 64, 0, 0] := (k0_off29_eq i k).trans (vec3_of (by omega))
theorem offT_6 : ∀ v : BitVec 32, k0_off30 v = ![v.toNat, 0] := fun _ => rfl
theorem chk_6 : ∀ v : BitVec 32, v.toNat < 512 → k0_chk6 v := fun v hv => rowCheck v hv
theorem trips_7 : k0_t7_loop.trips = 64 := by decide +kernel
theorem offA_7 (i : grid0.Coords) (k : Fin k0_t7_loop.trips) : k0_off31 i k = ![1024 * (i 0).val + (192 + k.val)] := (k0_off31_eq i k).trans (vec1_of (by omega))
theorem offS_7 (k : Fin k0_t7_loop.trips) : k0_off32 k = ![k.val] := k0_off32_eq k
theorem offR_7 (k : Fin k0_t7_loop.trips) : k0_off33 k = ![192 + k.val, 0] := (k0_off33_eq k).trans (vec2_of (by omega))
theorem offB_7 (i : grid0.Coords) (k : Fin k0_t7_loop.trips) : k0_off34 i k = ![16 * (i 0).val + (192 + k.val) / 64, 0, 0] := (k0_off34_eq i k).trans (vec3_of (by omega))
theorem offT_7 : ∀ v : BitVec 32, k0_off35 v = ![v.toNat, 0] := fun _ => rfl
theorem chk_7 : ∀ v : BitVec 32, v.toNat < 512 → k0_chk7 v := fun v hv => rowCheck v hv
theorem trips_8 : k0_t8_loop.trips = 64 := by decide +kernel
theorem offA_8 (i : grid0.Coords) (k : Fin k0_t8_loop.trips) : k0_off36 i k = ![1024 * (i 0).val + (192 + k.val)] := (k0_off36_eq i k).trans (vec1_of (by omega))
theorem offS_8 (k : Fin k0_t8_loop.trips) : k0_off37 k = ![k.val] := k0_off37_eq k
theorem offR_8 (k : Fin k0_t8_loop.trips) : k0_off38 k = ![192 + k.val, 0] := (k0_off38_eq k).trans (vec2_of (by omega))
theorem offB_8 (i : grid0.Coords) (k : Fin k0_t8_loop.trips) : k0_off39 i k = ![16 * (i 0).val + (192 + k.val) / 64, 0, 0] := (k0_off39_eq i k).trans (vec3_of (by omega))
theorem offT_8 : ∀ v : BitVec 32, k0_off40 v = ![v.toNat, 0] := fun _ => rfl
theorem chk_8 : ∀ v : BitVec 32, v.toNat < 512 → k0_chk8 v := fun v hv => rowCheck v hv
theorem trips_9 : k0_t9_loop.trips = 64 := by decide +kernel
theorem offA_9 (i : grid0.Coords) (k : Fin k0_t9_loop.trips) : k0_off41 i k = ![1024 * (i 0).val + (256 + k.val)] := (k0_off41_eq i k).trans (vec1_of (by omega))
theorem offS_9 (k : Fin k0_t9_loop.trips) : k0_off42 k = ![k.val] := k0_off42_eq k
theorem offR_9 (k : Fin k0_t9_loop.trips) : k0_off43 k = ![256 + k.val, 0] := (k0_off43_eq k).trans (vec2_of (by omega))
theorem offB_9 (i : grid0.Coords) (k : Fin k0_t9_loop.trips) : k0_off44 i k = ![16 * (i 0).val + (256 + k.val) / 64, 0, 0] := (k0_off44_eq i k).trans (vec3_of (by omega))
theorem offT_9 : ∀ v : BitVec 32, k0_off45 v = ![v.toNat, 0] := fun _ => rfl
theorem chk_9 : ∀ v : BitVec 32, v.toNat < 512 → k0_chk9 v := fun v hv => rowCheck v hv
theorem trips_10 : k0_t10_loop.trips = 64 := by decide +kernel
theorem offA_10 (i : grid0.Coords) (k : Fin k0_t10_loop.trips) : k0_off46 i k = ![1024 * (i 0).val + (256 + k.val)] := (k0_off46_eq i k).trans (vec1_of (by omega))
theorem offS_10 (k : Fin k0_t10_loop.trips) : k0_off47 k = ![k.val] := k0_off47_eq k
theorem offR_10 (k : Fin k0_t10_loop.trips) : k0_off48 k = ![256 + k.val, 0] := (k0_off48_eq k).trans (vec2_of (by omega))
theorem offB_10 (i : grid0.Coords) (k : Fin k0_t10_loop.trips) : k0_off49 i k = ![16 * (i 0).val + (256 + k.val) / 64, 0, 0] := (k0_off49_eq i k).trans (vec3_of (by omega))
theorem offT_10 : ∀ v : BitVec 32, k0_off50 v = ![v.toNat, 0] := fun _ => rfl
theorem chk_10 : ∀ v : BitVec 32, v.toNat < 512 → k0_chk10 v := fun v hv => rowCheck v hv
theorem trips_11 : k0_t11_loop.trips = 64 := by decide +kernel
theorem offA_11 (i : grid0.Coords) (k : Fin k0_t11_loop.trips) : k0_off51 i k = ![1024 * (i 0).val + (320 + k.val)] := (k0_off51_eq i k).trans (vec1_of (by omega))
theorem offS_11 (k : Fin k0_t11_loop.trips) : k0_off52 k = ![k.val] := k0_off52_eq k
theorem offR_11 (k : Fin k0_t11_loop.trips) : k0_off53 k = ![320 + k.val, 0] := (k0_off53_eq k).trans (vec2_of (by omega))
theorem offB_11 (i : grid0.Coords) (k : Fin k0_t11_loop.trips) : k0_off54 i k = ![16 * (i 0).val + (320 + k.val) / 64, 0, 0] := (k0_off54_eq i k).trans (vec3_of (by omega))
theorem offT_11 : ∀ v : BitVec 32, k0_off55 v = ![v.toNat, 0] := fun _ => rfl
theorem chk_11 : ∀ v : BitVec 32, v.toNat < 512 → k0_chk11 v := fun v hv => rowCheck v hv
theorem trips_12 : k0_t12_loop.trips = 64 := by decide +kernel
theorem offA_12 (i : grid0.Coords) (k : Fin k0_t12_loop.trips) : k0_off56 i k = ![1024 * (i 0).val + (320 + k.val)] := (k0_off56_eq i k).trans (vec1_of (by omega))
theorem offS_12 (k : Fin k0_t12_loop.trips) : k0_off57 k = ![k.val] := k0_off57_eq k
theorem offR_12 (k : Fin k0_t12_loop.trips) : k0_off58 k = ![320 + k.val, 0] := (k0_off58_eq k).trans (vec2_of (by omega))
theorem offB_12 (i : grid0.Coords) (k : Fin k0_t12_loop.trips) : k0_off59 i k = ![16 * (i 0).val + (320 + k.val) / 64, 0, 0] := (k0_off59_eq i k).trans (vec3_of (by omega))
theorem offT_12 : ∀ v : BitVec 32, k0_off60 v = ![v.toNat, 0] := fun _ => rfl
theorem chk_12 : ∀ v : BitVec 32, v.toNat < 512 → k0_chk12 v := fun v hv => rowCheck v hv
theorem trips_13 : k0_t13_loop.trips = 64 := by decide +kernel
theorem offA_13 (i : grid0.Coords) (k : Fin k0_t13_loop.trips) : k0_off61 i k = ![1024 * (i 0).val + (384 + k.val)] := (k0_off61_eq i k).trans (vec1_of (by omega))
theorem offS_13 (k : Fin k0_t13_loop.trips) : k0_off62 k = ![k.val] := k0_off62_eq k
theorem offR_13 (k : Fin k0_t13_loop.trips) : k0_off63 k = ![384 + k.val, 0] := (k0_off63_eq k).trans (vec2_of (by omega))
theorem offB_13 (i : grid0.Coords) (k : Fin k0_t13_loop.trips) : k0_off64 i k = ![16 * (i 0).val + (384 + k.val) / 64, 0, 0] := (k0_off64_eq i k).trans (vec3_of (by omega))
theorem offT_13 : ∀ v : BitVec 32, k0_off65 v = ![v.toNat, 0] := fun _ => rfl
theorem chk_13 : ∀ v : BitVec 32, v.toNat < 512 → k0_chk13 v := fun v hv => rowCheck v hv
theorem trips_14 : k0_t14_loop.trips = 64 := by decide +kernel
theorem offA_14 (i : grid0.Coords) (k : Fin k0_t14_loop.trips) : k0_off66 i k = ![1024 * (i 0).val + (384 + k.val)] := (k0_off66_eq i k).trans (vec1_of (by omega))
theorem offS_14 (k : Fin k0_t14_loop.trips) : k0_off67 k = ![k.val] := k0_off67_eq k
theorem offR_14 (k : Fin k0_t14_loop.trips) : k0_off68 k = ![384 + k.val, 0] := (k0_off68_eq k).trans (vec2_of (by omega))
theorem offB_14 (i : grid0.Coords) (k : Fin k0_t14_loop.trips) : k0_off69 i k = ![16 * (i 0).val + (384 + k.val) / 64, 0, 0] := (k0_off69_eq i k).trans (vec3_of (by omega))
theorem offT_14 : ∀ v : BitVec 32, k0_off70 v = ![v.toNat, 0] := fun _ => rfl
theorem chk_14 : ∀ v : BitVec 32, v.toNat < 512 → k0_chk14 v := fun v hv => rowCheck v hv
theorem trips_15 : k0_t15_loop.trips = 64 := by decide +kernel
theorem offA_15 (i : grid0.Coords) (k : Fin k0_t15_loop.trips) : k0_off71 i k = ![1024 * (i 0).val + (448 + k.val)] := (k0_off71_eq i k).trans (vec1_of (by omega))
theorem offS_15 (k : Fin k0_t15_loop.trips) : k0_off72 k = ![k.val] := k0_off72_eq k
theorem offR_15 (k : Fin k0_t15_loop.trips) : k0_off73 k = ![448 + k.val, 0] := (k0_off73_eq k).trans (vec2_of (by omega))
theorem offB_15 (i : grid0.Coords) (k : Fin k0_t15_loop.trips) : k0_off74 i k = ![16 * (i 0).val + (448 + k.val) / 64, 0, 0] := (k0_off74_eq i k).trans (vec3_of (by omega))
theorem offT_15 : ∀ v : BitVec 32, k0_off75 v = ![v.toNat, 0] := fun _ => rfl
theorem chk_15 : ∀ v : BitVec 32, v.toNat < 512 → k0_chk15 v := fun v hv => rowCheck v hv
theorem trips_16 : k0_t16_loop.trips = 64 := by decide +kernel
theorem offA_16 (i : grid0.Coords) (k : Fin k0_t16_loop.trips) : k0_off76 i k = ![1024 * (i 0).val + (448 + k.val)] := (k0_off76_eq i k).trans (vec1_of (by omega))
theorem offS_16 (k : Fin k0_t16_loop.trips) : k0_off77 k = ![k.val] := k0_off77_eq k
theorem offR_16 (k : Fin k0_t16_loop.trips) : k0_off78 k = ![448 + k.val, 0] := (k0_off78_eq k).trans (vec2_of (by omega))
theorem offB_16 (i : grid0.Coords) (k : Fin k0_t16_loop.trips) : k0_off79 i k = ![16 * (i 0).val + (448 + k.val) / 64, 0, 0] := (k0_off79_eq i k).trans (vec3_of (by omega))
theorem offT_16 : ∀ v : BitVec 32, k0_off80 v = ![v.toNat, 0] := fun _ => rfl
theorem chk_16 : ∀ v : BitVec 32, v.toNat < 512 → k0_chk16 v := fun v hv => rowCheck v hv
theorem trips_17 : k0_t17_loop.trips = 64 := by decide +kernel
theorem offA_17 (i : grid0.Coords) (k : Fin k0_t17_loop.trips) : k0_off81 i k = ![1024 * (i 0).val + (512 + k.val)] := (k0_off81_eq i k).trans (vec1_of (by omega))
theorem offS_17 (k : Fin k0_t17_loop.trips) : k0_off82 k = ![k.val] := k0_off82_eq k
theorem offR_17 (k : Fin k0_t17_loop.trips) : k0_off83 k = ![512 + k.val, 0] := (k0_off83_eq k).trans (vec2_of (by omega))
theorem offB_17 (i : grid0.Coords) (k : Fin k0_t17_loop.trips) : k0_off84 i k = ![16 * (i 0).val + (512 + k.val) / 64, 0, 0] := (k0_off84_eq i k).trans (vec3_of (by omega))
theorem offT_17 : ∀ v : BitVec 32, k0_off85 v = ![v.toNat, 0] := fun _ => rfl
theorem chk_17 : ∀ v : BitVec 32, v.toNat < 512 → k0_chk17 v := fun v hv => rowCheck v hv
theorem trips_18 : k0_t18_loop.trips = 64 := by decide +kernel
theorem offA_18 (i : grid0.Coords) (k : Fin k0_t18_loop.trips) : k0_off86 i k = ![1024 * (i 0).val + (512 + k.val)] := (k0_off86_eq i k).trans (vec1_of (by omega))
theorem offS_18 (k : Fin k0_t18_loop.trips) : k0_off87 k = ![k.val] := k0_off87_eq k
theorem offR_18 (k : Fin k0_t18_loop.trips) : k0_off88 k = ![512 + k.val, 0] := (k0_off88_eq k).trans (vec2_of (by omega))
theorem offB_18 (i : grid0.Coords) (k : Fin k0_t18_loop.trips) : k0_off89 i k = ![16 * (i 0).val + (512 + k.val) / 64, 0, 0] := (k0_off89_eq i k).trans (vec3_of (by omega))
theorem offT_18 : ∀ v : BitVec 32, k0_off90 v = ![v.toNat, 0] := fun _ => rfl
theorem chk_18 : ∀ v : BitVec 32, v.toNat < 512 → k0_chk18 v := fun v hv => rowCheck v hv
theorem trips_19 : k0_t19_loop.trips = 64 := by decide +kernel
theorem offA_19 (i : grid0.Coords) (k : Fin k0_t19_loop.trips) : k0_off91 i k = ![1024 * (i 0).val + (576 + k.val)] := (k0_off91_eq i k).trans (vec1_of (by omega))
theorem offS_19 (k : Fin k0_t19_loop.trips) : k0_off92 k = ![k.val] := k0_off92_eq k
theorem offR_19 (k : Fin k0_t19_loop.trips) : k0_off93 k = ![576 + k.val, 0] := (k0_off93_eq k).trans (vec2_of (by omega))
theorem offB_19 (i : grid0.Coords) (k : Fin k0_t19_loop.trips) : k0_off94 i k = ![16 * (i 0).val + (576 + k.val) / 64, 0, 0] := (k0_off94_eq i k).trans (vec3_of (by omega))
theorem offT_19 : ∀ v : BitVec 32, k0_off95 v = ![v.toNat, 0] := fun _ => rfl
theorem chk_19 : ∀ v : BitVec 32, v.toNat < 512 → k0_chk19 v := fun v hv => rowCheck v hv
theorem trips_20 : k0_t20_loop.trips = 64 := by decide +kernel
theorem offA_20 (i : grid0.Coords) (k : Fin k0_t20_loop.trips) : k0_off96 i k = ![1024 * (i 0).val + (576 + k.val)] := (k0_off96_eq i k).trans (vec1_of (by omega))
theorem offS_20 (k : Fin k0_t20_loop.trips) : k0_off97 k = ![k.val] := k0_off97_eq k
theorem offR_20 (k : Fin k0_t20_loop.trips) : k0_off98 k = ![576 + k.val, 0] := (k0_off98_eq k).trans (vec2_of (by omega))
theorem offB_20 (i : grid0.Coords) (k : Fin k0_t20_loop.trips) : k0_off99 i k = ![16 * (i 0).val + (576 + k.val) / 64, 0, 0] := (k0_off99_eq i k).trans (vec3_of (by omega))
theorem offT_20 : ∀ v : BitVec 32, k0_off100 v = ![v.toNat, 0] := fun _ => rfl
theorem chk_20 : ∀ v : BitVec 32, v.toNat < 512 → k0_chk20 v := fun v hv => rowCheck v hv
theorem trips_21 : k0_t21_loop.trips = 64 := by decide +kernel
theorem offA_21 (i : grid0.Coords) (k : Fin k0_t21_loop.trips) : k0_off101 i k = ![1024 * (i 0).val + (640 + k.val)] := (k0_off101_eq i k).trans (vec1_of (by omega))
theorem offS_21 (k : Fin k0_t21_loop.trips) : k0_off102 k = ![k.val] := k0_off102_eq k
theorem offR_21 (k : Fin k0_t21_loop.trips) : k0_off103 k = ![640 + k.val, 0] := (k0_off103_eq k).trans (vec2_of (by omega))
theorem offB_21 (i : grid0.Coords) (k : Fin k0_t21_loop.trips) : k0_off104 i k = ![16 * (i 0).val + (640 + k.val) / 64, 0, 0] := (k0_off104_eq i k).trans (vec3_of (by omega))
theorem offT_21 : ∀ v : BitVec 32, k0_off105 v = ![v.toNat, 0] := fun _ => rfl
theorem chk_21 : ∀ v : BitVec 32, v.toNat < 512 → k0_chk21 v := fun v hv => rowCheck v hv
theorem trips_22 : k0_t22_loop.trips = 64 := by decide +kernel
theorem offA_22 (i : grid0.Coords) (k : Fin k0_t22_loop.trips) : k0_off106 i k = ![1024 * (i 0).val + (640 + k.val)] := (k0_off106_eq i k).trans (vec1_of (by omega))
theorem offS_22 (k : Fin k0_t22_loop.trips) : k0_off107 k = ![k.val] := k0_off107_eq k
theorem offR_22 (k : Fin k0_t22_loop.trips) : k0_off108 k = ![640 + k.val, 0] := (k0_off108_eq k).trans (vec2_of (by omega))
theorem offB_22 (i : grid0.Coords) (k : Fin k0_t22_loop.trips) : k0_off109 i k = ![16 * (i 0).val + (640 + k.val) / 64, 0, 0] := (k0_off109_eq i k).trans (vec3_of (by omega))
theorem offT_22 : ∀ v : BitVec 32, k0_off110 v = ![v.toNat, 0] := fun _ => rfl
theorem chk_22 : ∀ v : BitVec 32, v.toNat < 512 → k0_chk22 v := fun v hv => rowCheck v hv
theorem trips_23 : k0_t23_loop.trips = 64 := by decide +kernel
theorem offA_23 (i : grid0.Coords) (k : Fin k0_t23_loop.trips) : k0_off111 i k = ![1024 * (i 0).val + (704 + k.val)] := (k0_off111_eq i k).trans (vec1_of (by omega))
theorem offS_23 (k : Fin k0_t23_loop.trips) : k0_off112 k = ![k.val] := k0_off112_eq k
theorem offR_23 (k : Fin k0_t23_loop.trips) : k0_off113 k = ![704 + k.val, 0] := (k0_off113_eq k).trans (vec2_of (by omega))
theorem offB_23 (i : grid0.Coords) (k : Fin k0_t23_loop.trips) : k0_off114 i k = ![16 * (i 0).val + (704 + k.val) / 64, 0, 0] := (k0_off114_eq i k).trans (vec3_of (by omega))
theorem offT_23 : ∀ v : BitVec 32, k0_off115 v = ![v.toNat, 0] := fun _ => rfl
theorem chk_23 : ∀ v : BitVec 32, v.toNat < 512 → k0_chk23 v := fun v hv => rowCheck v hv
theorem trips_24 : k0_t24_loop.trips = 64 := by decide +kernel
theorem offA_24 (i : grid0.Coords) (k : Fin k0_t24_loop.trips) : k0_off116 i k = ![1024 * (i 0).val + (704 + k.val)] := (k0_off116_eq i k).trans (vec1_of (by omega))
theorem offS_24 (k : Fin k0_t24_loop.trips) : k0_off117 k = ![k.val] := k0_off117_eq k
theorem offR_24 (k : Fin k0_t24_loop.trips) : k0_off118 k = ![704 + k.val, 0] := (k0_off118_eq k).trans (vec2_of (by omega))
theorem offB_24 (i : grid0.Coords) (k : Fin k0_t24_loop.trips) : k0_off119 i k = ![16 * (i 0).val + (704 + k.val) / 64, 0, 0] := (k0_off119_eq i k).trans (vec3_of (by omega))
theorem offT_24 : ∀ v : BitVec 32, k0_off120 v = ![v.toNat, 0] := fun _ => rfl
theorem chk_24 : ∀ v : BitVec 32, v.toNat < 512 → k0_chk24 v := fun v hv => rowCheck v hv
theorem trips_25 : k0_t25_loop.trips = 64 := by decide +kernel
theorem offA_25 (i : grid0.Coords) (k : Fin k0_t25_loop.trips) : k0_off121 i k = ![1024 * (i 0).val + (768 + k.val)] := (k0_off121_eq i k).trans (vec1_of (by omega))
theorem offS_25 (k : Fin k0_t25_loop.trips) : k0_off122 k = ![k.val] := k0_off122_eq k
theorem offR_25 (k : Fin k0_t25_loop.trips) : k0_off123 k = ![768 + k.val, 0] := (k0_off123_eq k).trans (vec2_of (by omega))
theorem offB_25 (i : grid0.Coords) (k : Fin k0_t25_loop.trips) : k0_off124 i k = ![16 * (i 0).val + (768 + k.val) / 64, 0, 0] := (k0_off124_eq i k).trans (vec3_of (by omega))
theorem offT_25 : ∀ v : BitVec 32, k0_off125 v = ![v.toNat, 0] := fun _ => rfl
theorem chk_25 : ∀ v : BitVec 32, v.toNat < 512 → k0_chk25 v := fun v hv => rowCheck v hv
theorem trips_26 : k0_t26_loop.trips = 64 := by decide +kernel
theorem offA_26 (i : grid0.Coords) (k : Fin k0_t26_loop.trips) : k0_off126 i k = ![1024 * (i 0).val + (768 + k.val)] := (k0_off126_eq i k).trans (vec1_of (by omega))
theorem offS_26 (k : Fin k0_t26_loop.trips) : k0_off127 k = ![k.val] := k0_off127_eq k
theorem offR_26 (k : Fin k0_t26_loop.trips) : k0_off128 k = ![768 + k.val, 0] := (k0_off128_eq k).trans (vec2_of (by omega))
theorem offB_26 (i : grid0.Coords) (k : Fin k0_t26_loop.trips) : k0_off129 i k = ![16 * (i 0).val + (768 + k.val) / 64, 0, 0] := (k0_off129_eq i k).trans (vec3_of (by omega))
theorem offT_26 : ∀ v : BitVec 32, k0_off130 v = ![v.toNat, 0] := fun _ => rfl
theorem chk_26 : ∀ v : BitVec 32, v.toNat < 512 → k0_chk26 v := fun v hv => rowCheck v hv
theorem trips_27 : k0_t27_loop.trips = 64 := by decide +kernel
theorem offA_27 (i : grid0.Coords) (k : Fin k0_t27_loop.trips) : k0_off131 i k = ![1024 * (i 0).val + (832 + k.val)] := (k0_off131_eq i k).trans (vec1_of (by omega))
theorem offS_27 (k : Fin k0_t27_loop.trips) : k0_off132 k = ![k.val] := k0_off132_eq k
theorem offR_27 (k : Fin k0_t27_loop.trips) : k0_off133 k = ![832 + k.val, 0] := (k0_off133_eq k).trans (vec2_of (by omega))
theorem offB_27 (i : grid0.Coords) (k : Fin k0_t27_loop.trips) : k0_off134 i k = ![16 * (i 0).val + (832 + k.val) / 64, 0, 0] := (k0_off134_eq i k).trans (vec3_of (by omega))
theorem offT_27 : ∀ v : BitVec 32, k0_off135 v = ![v.toNat, 0] := fun _ => rfl
theorem chk_27 : ∀ v : BitVec 32, v.toNat < 512 → k0_chk27 v := fun v hv => rowCheck v hv
theorem trips_28 : k0_t28_loop.trips = 64 := by decide +kernel
theorem offA_28 (i : grid0.Coords) (k : Fin k0_t28_loop.trips) : k0_off136 i k = ![1024 * (i 0).val + (832 + k.val)] := (k0_off136_eq i k).trans (vec1_of (by omega))
theorem offS_28 (k : Fin k0_t28_loop.trips) : k0_off137 k = ![k.val] := k0_off137_eq k
theorem offR_28 (k : Fin k0_t28_loop.trips) : k0_off138 k = ![832 + k.val, 0] := (k0_off138_eq k).trans (vec2_of (by omega))
theorem offB_28 (i : grid0.Coords) (k : Fin k0_t28_loop.trips) : k0_off139 i k = ![16 * (i 0).val + (832 + k.val) / 64, 0, 0] := (k0_off139_eq i k).trans (vec3_of (by omega))
theorem offT_28 : ∀ v : BitVec 32, k0_off140 v = ![v.toNat, 0] := fun _ => rfl
theorem chk_28 : ∀ v : BitVec 32, v.toNat < 512 → k0_chk28 v := fun v hv => rowCheck v hv
theorem trips_29 : k0_t29_loop.trips = 64 := by decide +kernel
theorem offA_29 (i : grid0.Coords) (k : Fin k0_t29_loop.trips) : k0_off141 i k = ![1024 * (i 0).val + (896 + k.val)] := (k0_off141_eq i k).trans (vec1_of (by omega))
theorem offS_29 (k : Fin k0_t29_loop.trips) : k0_off142 k = ![k.val] := k0_off142_eq k
theorem offR_29 (k : Fin k0_t29_loop.trips) : k0_off143 k = ![896 + k.val, 0] := (k0_off143_eq k).trans (vec2_of (by omega))
theorem offB_29 (i : grid0.Coords) (k : Fin k0_t29_loop.trips) : k0_off144 i k = ![16 * (i 0).val + (896 + k.val) / 64, 0, 0] := (k0_off144_eq i k).trans (vec3_of (by omega))
theorem offT_29 : ∀ v : BitVec 32, k0_off145 v = ![v.toNat, 0] := fun _ => rfl
theorem chk_29 : ∀ v : BitVec 32, v.toNat < 512 → k0_chk29 v := fun v hv => rowCheck v hv
theorem trips_30 : k0_t30_loop.trips = 64 := by decide +kernel
theorem offA_30 (i : grid0.Coords) (k : Fin k0_t30_loop.trips) : k0_off146 i k = ![1024 * (i 0).val + (896 + k.val)] := (k0_off146_eq i k).trans (vec1_of (by omega))
theorem offS_30 (k : Fin k0_t30_loop.trips) : k0_off147 k = ![k.val] := k0_off147_eq k
theorem offR_30 (k : Fin k0_t30_loop.trips) : k0_off148 k = ![896 + k.val, 0] := (k0_off148_eq k).trans (vec2_of (by omega))
theorem offB_30 (i : grid0.Coords) (k : Fin k0_t30_loop.trips) : k0_off149 i k = ![16 * (i 0).val + (896 + k.val) / 64, 0, 0] := (k0_off149_eq i k).trans (vec3_of (by omega))
theorem offT_30 : ∀ v : BitVec 32, k0_off150 v = ![v.toNat, 0] := fun _ => rfl
theorem chk_30 : ∀ v : BitVec 32, v.toNat < 512 → k0_chk30 v := fun v hv => rowCheck v hv
theorem trips_31 : k0_t31_loop.trips = 64 := by decide +kernel
theorem offA_31 (i : grid0.Coords) (k : Fin k0_t31_loop.trips) : k0_off151 i k = ![1024 * (i 0).val + (960 + k.val)] := (k0_off151_eq i k).trans (vec1_of (by omega))
theorem offS_31 (k : Fin k0_t31_loop.trips) : k0_off152 k = ![k.val] := k0_off152_eq k
theorem offR_31 (k : Fin k0_t31_loop.trips) : k0_off153 k = ![960 + k.val, 0] := (k0_off153_eq k).trans (vec2_of (by omega))
theorem offB_31 (i : grid0.Coords) (k : Fin k0_t31_loop.trips) : k0_off154 i k = ![16 * (i 0).val + (960 + k.val) / 64, 0, 0] := (k0_off154_eq i k).trans (vec3_of (by omega))
theorem offT_31 : ∀ v : BitVec 32, k0_off155 v = ![v.toNat, 0] := fun _ => rfl
theorem chk_31 : ∀ v : BitVec 32, v.toNat < 512 → k0_chk31 v := fun v hv => rowCheck v hv
theorem trips_32 : k0_t32_loop.trips = 64 := by decide +kernel
theorem offA_32 (i : grid0.Coords) (k : Fin k0_t32_loop.trips) : k0_off156 i k = ![1024 * (i 0).val + (960 + k.val)] := (k0_off156_eq i k).trans (vec1_of (by omega))
theorem offS_32 (k : Fin k0_t32_loop.trips) : k0_off157 k = ![k.val] := k0_off157_eq k
theorem offR_32 (k : Fin k0_t32_loop.trips) : k0_off158 k = ![960 + k.val, 0] := (k0_off158_eq k).trans (vec2_of (by omega))
theorem offB_32 (i : grid0.Coords) (k : Fin k0_t32_loop.trips) : k0_off159 i k = ![16 * (i 0).val + (960 + k.val) / 64, 0, 0] := (k0_off159_eq i k).trans (vec3_of (by omega))
theorem offT_32 : ∀ v : BitVec 32, k0_off160 v = ![v.toNat, 0] := fun _ => rfl
theorem chk_32 : ∀ v : BitVec 32, v.toNat < 512 → k0_chk32 v := fun v hv => rowCheck v hv

end Cert.Kernel.Hand
-- ==== Proof.K.LoopRule.lean ====
import proofs.«406790_j29661044146287_2_alg».proof.Proof.Gen.Kernel.Loops

/-! # A counted loop of 64 trips, by a family of resources indexed by the trip number

Every loop of the gather runs 64 trips and carries nothing. The loop rule at a family `I k` of
resources (`I k` before trip `k`): one trip takes `I k` to `I (k + 1)`, so the loop takes `I 0` to
`I 64`, from which the rest of the program continues. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

theorem loop_by_trips (c : Dev nD) (l : Scf.Loop 32) (hok : l.OK) (htr : l.trips = 64)
    (body : Fin l.trips → Unit → Prog (TpuEff nD τ sig (Elt F) Λ₀ .tc) Unit) (I : ℕ → sProp 𝕄)
    (hstep : ∀ k : Fin l.trips, I k.val ⊢ wp frame (wpE defs₀ Variants.none (c : Thread nD τ) none) Set.univ (body k ()) (fun _ => I (k.val + 1)))
    {β : Type} {kk : Unit → Prog (TpuEff nD τ sig (Elt F) Λ₀ .tc) β} {Q : β → sProp 𝕄} :
    I 0 ⊢ iprop((I 64 -∗ wp frame (wpE defs₀ Variants.none (c : Thread nD τ) none) Set.univ (kk ()) Q)
      -∗ wp frame (wpE defs₀ Variants.none (c : Thread nD τ) none) Set.univ (Scf.Loop.for l hok () body >>= kk) Q) := by
  iintro HI HK
  iapply (Scf.wp_for_bind frame (wpE defs₀ Variants.none (c : Thread nD τ) none) Set.univ l.lb l.ub l.st hok () body
    (fun k _ => I k) (fun k _ => hstep k)) $$ [HI]
  · iexact HI
  iintro %acc H
  iapply HK
  iapply (show I l.trips ⊢ I 64 from by rw [htr]) $$ H

end Cert.Kernel.Hand
end
-- ==== Proof.K.Steps.lean ====
import proofs.«406790_j29661044146287_2_alg».proof.Proof.K.Trips
import proofs.«406790_j29661044146287_2_alg».proof.Proof.K.OffsetsTab
import proofs.«406790_j29661044146287_2_alg».proof.Proof.K.LoopRule

/-! # The 32 loops of the gather: one trip, and the loop, of each

Loop N (1..32) works on the chunk at base 64 * ((N - 1) / 2): an odd N starts the chunk's 64 copies,
the next even N waits for them. One trip of loop N is the generic start (wait) trip at the loop's
offset chains, whose closed forms are the table of the offsets module; the loop is the loop rule at
the family of the chunk with the trip number as the count of copies started (waited for). -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

variable (c : Dev nD) (i : grid0.Coords)
  (arg1 : Memref sig .tc .smem S65536 .i32) (harg1 : arg1.IsWhole)
  (arg2 : Memref sig .tc .hbm S1024x512x256 .f32) (harg2 : arg2.IsWhole)
  (arg3 : Memref sig .tc .vmem S256x256 .f32) (harg3 : arg3.IsWhole)
  (arg4 : Memref sig .tc .vmem S256 .f32) (harg4 : arg4.IsWhole)
  (arg5 : Memref sig .tc .vmem S16x256 .f32) (harg5 : arg5.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)
  (hidx : ∀ j, (tb j).toNat < 512) (hWB : ∀ j : Fin 64, (SemLoc.dma (cellOfLane arg7 j), ()) ∈ WB)
  (v0 w0 : BitVec 32)
include hidx hWB

local notation "ST" => St c i arg1 harg1 arg2 harg2 arg6 arg7 q1 tb T WB
local notation "WP" => wp frame (wpE defs₀ Variants.none (c : Thread nD τ) none) Set.univ

theorem step_1 (k : Fin k0_t1_loop.trips) : (ST 0 k.val 0 : sProp 𝕄) ⊢ WP (k0_t1_body i arg1 harg1 arg2 harg2 arg3 harg3 arg4 harg4 arg5 harg5 arg6 harg6 arg7 k ()) (fun _ => ST 0 (k.val + 1) 0) :=
  start_trip c i arg1 harg1 arg2 harg2 arg6 arg7 q1 tb T WB 0 k.val (lt_of_lt_of_eq k.isLt trips_1) (by omega) (Dvd.intro 0 rfl) hidx (k0_off1 i k) (k0_off1_inb i k) k0_chk1 k0_chk1.dec (k0_off2 k) (k0_off2_inb k) (k0_off3 k) (k0_off3_inb k) (k0_off4 i k) (k0_off4_inb i k) k0_off5 k0_off5_inb (offA_1 i k) (offS_1 k) (offR_1 k) (offB_1 i k) offT_1 chk_1
theorem loop_1 {β : Type} {kk : Unit → Prog (TpuEff nD τ sig (Elt F) Λ₀ .tc) β} {Q : β → sProp 𝕄} : (ST 0 0 0 : sProp 𝕄) ⊢ iprop((ST 0 64 0 -∗ WP (kk ()) Q) -∗ WP (Scf.Loop.for k0_t1_loop k0_t1_ok () (k0_t1_body i arg1 harg1 arg2 harg2 arg3 harg3 arg4 harg4 arg5 harg5 arg6 harg6 arg7) >>= kk) Q) :=
  loop_by_trips c k0_t1_loop k0_t1_ok trips_1 _ (fun k => ST 0 k 0) (step_1 c i arg1 harg1 arg2 harg2 arg3 harg3 arg4 harg4 arg5 harg5 arg6 harg6 arg7 q1 tb T WB hidx hWB)
theorem step_2 (k : Fin k0_t2_loop.trips) : (ST 0 64 k.val : sProp 𝕄) ⊢ WP (k0_t2_body i arg1 harg1 arg2 harg2 arg3 harg3 arg4 harg4 arg5 harg5 arg6 harg6 arg7 k ()) (fun _ => ST 0 64 (k.val + 1)) :=
  wait_trip c i arg1 harg1 arg2 harg2 arg6 arg7 q1 tb T WB 0 k.val (lt_of_lt_of_eq k.isLt trips_2) (by omega) (Dvd.intro 0 rfl) hidx (k0_off6 i k) (k0_off6_inb i k) k0_chk2 k0_chk2.dec (k0_off7 k) (k0_off7_inb k) (k0_off8 k) (k0_off8_inb k) (k0_off9 i k) (k0_off9_inb i k) k0_off10 k0_off10_inb (offA_2 i k) (offS_2 k) (offR_2 k) (offB_2 i k) offT_2 chk_2 hWB
theorem loop_2 {β : Type} {kk : Unit → Prog (TpuEff nD τ sig (Elt F) Λ₀ .tc) β} {Q : β → sProp 𝕄} : (ST 0 64 0 : sProp 𝕄) ⊢ iprop((ST 0 64 64 -∗ WP (kk ()) Q) -∗ WP (Scf.Loop.for k0_t2_loop k0_t2_ok () (k0_t2_body i arg1 harg1 arg2 harg2 arg3 harg3 arg4 harg4 arg5 harg5 arg6 harg6 arg7) >>= kk) Q) :=
  loop_by_trips c k0_t2_loop k0_t2_ok trips_2 _ (fun k => ST 0 64 k) (step_2 c i arg1 harg1 arg2 harg2 arg3 harg3 arg4 harg4 arg5 harg5 arg6 harg6 arg7 q1 tb T WB hidx hWB)
theorem step_3 (k : Fin k0_t3_loop.trips) : (ST 64 k.val 0 : sProp 𝕄) ⊢ WP (k0_t3_body i arg1 harg1 arg2 harg2 arg3 harg3 arg4 harg4 arg5 harg5 arg6 harg6 arg7 k ()) (fun _ => ST 64 (k.val + 1) 0) :=
  start_trip c i arg1 harg1 arg2 harg2 arg6 arg7 q1 tb T WB 64 k.val (lt_of_lt_of_eq k.isLt trips_3) (by omega) (Dvd.intro 1 rfl) hidx (k0_off11 i k) (k0_off11_inb i k) k0_chk3 k0_chk3.dec (k0_off12 k) (k0_off12_inb k) (k0_off13 k) (k0_off13_inb k) (k0_off14 i k) (k0_off14_inb i k) k0_off15 k0_off15_inb (offA_3 i k) (offS_3 k) (offR_3 k) (offB_3 i k) offT_3 chk_3
theorem loop_3 {β : Type} {kk : Unit → Prog (TpuEff nD τ sig (Elt F) Λ₀ .tc) β} {Q : β → sProp 𝕄} : (ST 64 0 0 : sProp 𝕄) ⊢ iprop((ST 64 64 0 -∗ WP (kk ()) Q) -∗ WP (Scf.Loop.for k0_t3_loop k0_t3_ok () (k0_t3_body i arg1 harg1 arg2 harg2 arg3 harg3 arg4 harg4 arg5 harg5 arg6 harg6 arg7) >>= kk) Q) :=
  loop_by_trips c k0_t3_loop k0_t3_ok trips_3 _ (fun k => ST 64 k 0) (step_3 c i arg1 harg1 arg2 harg2 arg3 harg3 arg4 harg4 arg5 harg5 arg6 harg6 arg7 q1 tb T WB hidx hWB)
theorem step_4 (k : Fin k0_t4_loop.trips) : (ST 64 64 k.val : sProp 𝕄) ⊢ WP (k0_t4_body i arg1 harg1 arg2 harg2 arg3 harg3 arg4 harg4 arg5 harg5 arg6 harg6 arg7 k ()) (fun _ => ST 64 64 (k.val + 1)) :=
  wait_trip c i arg1 harg1 arg2 harg2 arg6 arg7 q1 tb T WB 64 k.val (lt_of_lt_of_eq k.isLt trips_4) (by omega) (Dvd.intro 1 rfl) hidx (k0_off16 i k) (k0_off16_inb i k) k0_chk4 k0_chk4.dec (k0_off17 k) (k0_off17_inb k) (k0_off18 k) (k0_off18_inb k) (k0_off19 i k) (k0_off19_inb i k) k0_off20 k0_off20_inb (offA_4 i k) (offS_4 k) (offR_4 k) (offB_4 i k) offT_4 chk_4 hWB
theorem loop_4 {β : Type} {kk : Unit → Prog (TpuEff nD τ sig (Elt F) Λ₀ .tc) β} {Q : β → sProp 𝕄} : (ST 64 64 0 : sProp 𝕄) ⊢ iprop((ST 64 64 64 -∗ WP (kk ()) Q) -∗ WP (Scf.Loop.for k0_t4_loop k0_t4_ok () (k0_t4_body i arg1 harg1 arg2 harg2 arg3 harg3 arg4 harg4 arg5 harg5 arg6 harg6 arg7) >>= kk) Q) :=
  loop_by_trips c k0_t4_loop k0_t4_ok trips_4 _ (fun k => ST 64 64 k) (step_4 c i arg1 harg1 arg2 harg2 arg3 harg3 arg4 harg4 arg5 harg5 arg6 harg6 arg7 q1 tb T WB hidx hWB)
theorem step_5 (k : Fin k0_t5_loop.trips) : (ST 128 k.val 0 : sProp 𝕄) ⊢ WP (k0_t5_body i arg1 harg1 arg2 harg2 arg3 harg3 arg4 harg4 arg5 harg5 arg6 harg6 arg7 k ()) (fun _ => ST 128 (k.val + 1) 0) :=
  start_trip c i arg1 harg1 arg2 harg2 arg6 arg7 q1 tb T WB 128 k.val (lt_of_lt_of_eq k.isLt trips_5) (by omega) (Dvd.intro 2 rfl) hidx (k0_off21 i k) (k0_off21_inb i k) k0_chk5 k0_chk5.dec (k0_off22 k) (k0_off22_inb k) (k0_off23 k) (k0_off23_inb k) (k0_off24 i k) (k0_off24_inb i k) k0_off25 k0_off25_inb (offA_5 i k) (offS_5 k) (offR_5 k) (offB_5 i k) offT_5 chk_5
theorem loop_5 {β : Type} {kk : Unit → Prog (TpuEff nD τ sig (Elt F) Λ₀ .tc) β} {Q : β → sProp 𝕄} : (ST 128 0 0 : sProp 𝕄) ⊢ iprop((ST 128 64 0 -∗ WP (kk ()) Q) -∗ WP (Scf.Loop.for k0_t5_loop k0_t5_ok () (k0_t5_body i arg1 harg1 arg2 harg2 arg3 harg3 arg4 harg4 arg5 harg5 arg6 harg6 arg7) >>= kk) Q) :=
  loop_by_trips c k0_t5_loop k0_t5_ok trips_5 _ (fun k => ST 128 k 0) (step_5 c i arg1 harg1 arg2 harg2 arg3 harg3 arg4 harg4 arg5 harg5 arg6 harg6 arg7 q1 tb T WB hidx hWB)
theorem step_6 (k : Fin k0_t6_loop.trips) : (ST 128 64 k.val : sProp 𝕄) ⊢ WP (k0_t6_body i arg1 harg1 arg2 harg2 arg3 harg3 arg4 harg4 arg5 harg5 arg6 harg6 arg7 k ()) (fun _ => ST 128 64 (k.val + 1)) :=
  wait_trip c i arg1 harg1 arg2 harg2 arg6 arg7 q1 tb T WB 128 k.val (lt_of_lt_of_eq k.isLt trips_6) (by omega) (Dvd.intro 2 rfl) hidx (k0_off26 i k) (k0_off26_inb i k) k0_chk6 k0_chk6.dec (k0_off27 k) (k0_off27_inb k) (k0_off28 k) (k0_off28_inb k) (k0_off29 i k) (k0_off29_inb i k) k0_off30 k0_off30_inb (offA_6 i k) (offS_6 k) (offR_6 k) (offB_6 i k) offT_6 chk_6 hWB
theorem loop_6 {β : Type} {kk : Unit → Prog (TpuEff nD τ sig (Elt F) Λ₀ .tc) β} {Q : β → sProp 𝕄} : (ST 128 64 0 : sProp 𝕄) ⊢ iprop((ST 128 64 64 -∗ WP (kk ()) Q) -∗ WP (Scf.Loop.for k0_t6_loop k0_t6_ok () (k0_t6_body i arg1 harg1 arg2 harg2 arg3 harg3 arg4 harg4 arg5 harg5 arg6 harg6 arg7) >>= kk) Q) :=
  loop_by_trips c k0_t6_loop k0_t6_ok trips_6 _ (fun k => ST 128 64 k) (step_6 c i arg1 harg1 arg2 harg2 arg3 harg3 arg4 harg4 arg5 harg5 arg6 harg6 arg7 q1 tb T WB hidx hWB)
theorem step_7 (k : Fin k0_t7_loop.trips) : (ST 192 k.val 0 : sProp 𝕄) ⊢ WP (k0_t7_body i arg1 harg1 arg2 harg2 arg3 harg3 arg4 harg4 arg5 harg5 arg6 harg6 arg7 k ()) (fun _ => ST 192 (k.val + 1) 0) :=
  start_trip c i arg1 harg1 arg2 harg2 arg6 arg7 q1 tb T WB 192 k.val (lt_of_lt_of_eq k.isLt trips_7) (by omega) (Dvd.intro 3 rfl) hidx (k0_off31 i k) (k0_off31_inb i k) k0_chk7 k0_chk7.dec (k0_off32 k) (k0_off32_inb k) (k0_off33 k) (k0_off33_inb k) (k0_off34 i k) (k0_off34_inb i k) k0_off35 k0_off35_inb (offA_7 i k) (offS_7 k) (offR_7 k) (offB_7 i k) offT_7 chk_7
theorem loop_7 {β : Type} {kk : Unit → Prog (TpuEff nD τ sig (Elt F) Λ₀ .tc) β} {Q : β → sProp 𝕄} : (ST 192 0 0 : sProp 𝕄) ⊢ iprop((ST 192 64 0 -∗ WP (kk ()) Q) -∗ WP (Scf.Loop.for k0_t7_loop k0_t7_ok () (k0_t7_body i arg1 harg1 arg2 harg2 arg3 harg3 arg4 harg4 arg5 harg5 arg6 harg6 arg7) >>= kk) Q) :=
  loop_by_trips c k0_t7_loop k0_t7_ok trips_7 _ (fun k => ST 192 k 0) (step_7 c i arg1 harg1 arg2 harg2 arg3 harg3 arg4 harg4 arg5 harg5 arg6 harg6 arg7 q1 tb T WB hidx hWB)
theorem step_8 (k : Fin k0_t8_loop.trips) : (ST 192 64 k.val : sProp 𝕄) ⊢ WP (k0_t8_body i arg1 harg1 arg2 harg2 arg3 harg3 arg4 harg4 arg5 harg5 arg6 harg6 arg7 k ()) (fun _ => ST 192 64 (k.val + 1)) :=
  wait_trip c i arg1 harg1 arg2 harg2 arg6 arg7 q1 tb T WB 192 k.val (lt_of_lt_of_eq k.isLt trips_8) (by omega) (Dvd.intro 3 rfl) hidx (k0_off36 i k) (k0_off36_inb i k) k0_chk8 k0_chk8.dec (k0_off37 k) (k0_off37_inb k) (k0_off38 k) (k0_off38_inb k) (k0_off39 i k) (k0_off39_inb i k) k0_off40 k0_off40_inb (offA_8 i k) (offS_8 k) (offR_8 k) (offB_8 i k) offT_8 chk_8 hWB
theorem loop_8 {β : Type} {kk : Unit → Prog (TpuEff nD τ sig (Elt F) Λ₀ .tc) β} {Q : β → sProp 𝕄} : (ST 192 64 0 : sProp 𝕄) ⊢ iprop((ST 192 64 64 -∗ WP (kk ()) Q) -∗ WP (Scf.Loop.for k0_t8_loop k0_t8_ok () (k0_t8_body i arg1 harg1 arg2 harg2 arg3 harg3 arg4 harg4 arg5 harg5 arg6 harg6 arg7) >>= kk) Q) :=
  loop_by_trips c k0_t8_loop k0_t8_ok trips_8 _ (fun k => ST 192 64 k) (step_8 c i arg1 harg1 arg2 harg2 arg3 harg3 arg4 harg4 arg5 harg5 arg6 harg6 arg7 q1 tb T WB hidx hWB)
theorem step_9 (k : Fin k0_t9_loop.trips) : (ST 256 k.val 0 : sProp 𝕄) ⊢ WP (k0_t9_body i arg1 harg1 arg2 harg2 arg3 harg3 arg4 harg4 arg5 harg5 arg6 harg6 arg7 k ()) (fun _ => ST 256 (k.val + 1) 0) :=
  start_trip c i arg1 harg1 arg2 harg2 arg6 arg7 q1 tb T WB 256 k.val (lt_of_lt_of_eq k.isLt trips_9) (by omega) (Dvd.intro 4 rfl) hidx (k0_off41 i k) (k0_off41_inb i k) k0_chk9 k0_chk9.dec (k0_off42 k) (k0_off42_inb k) (k0_off43 k) (k0_off43_inb k) (k0_off44 i k) (k0_off44_inb i k) k0_off45 k0_off45_inb (offA_9 i k) (offS_9 k) (offR_9 k) (offB_9 i k) offT_9 chk_9
theorem loop_9 {β : Type} {kk : Unit → Prog (TpuEff nD τ sig (Elt F) Λ₀ .tc) β} {Q : β → sProp 𝕄} : (ST 256 0 0 : sProp 𝕄) ⊢ iprop((ST 256 64 0 -∗ WP (kk ()) Q) -∗ WP (Scf.Loop.for k0_t9_loop k0_t9_ok () (k0_t9_body i arg1 harg1 arg2 harg2 arg3 harg3 arg4 harg4 arg5 harg5 arg6 harg6 arg7) >>= kk) Q) :=
  loop_by_trips c k0_t9_loop k0_t9_ok trips_9 _ (fun k => ST 256 k 0) (step_9 c i arg1 harg1 arg2 harg2 arg3 harg3 arg4 harg4 arg5 harg5 arg6 harg6 arg7 q1 tb T WB hidx hWB)
theorem step_10 (k : Fin k0_t10_loop.trips) : (ST 256 64 k.val : sProp 𝕄) ⊢ WP (k0_t10_body i arg1 harg1 arg2 harg2 arg3 harg3 arg4 harg4 arg5 harg5 arg6 harg6 arg7 v0 w0 k ()) (fun _ => ST 256 64 (k.val + 1)) :=
  wait_trip c i arg1 harg1 arg2 harg2 arg6 arg7 q1 tb T WB 256 k.val (lt_of_lt_of_eq k.isLt trips_10) (by omega) (Dvd.intro 4 rfl) hidx (k0_off46 i k) (k0_off46_inb i k) k0_chk10 k0_chk10.dec (k0_off47 k) (k0_off47_inb k) (k0_off48 k) (k0_off48_inb k) (k0_off49 i k) (k0_off49_inb i k) k0_off50 k0_off50_inb (offA_10 i k) (offS_10 k) (offR_10 k) (offB_10 i k) offT_10 chk_10 hWB
theorem loop_10 {β : Type} {kk : Unit → Prog (TpuEff nD τ sig (Elt F) Λ₀ .tc) β} {Q : β → sProp 𝕄} : (ST 256 64 0 : sProp 𝕄) ⊢ iprop((ST 256 64 64 -∗ WP (kk ()) Q) -∗ WP (Scf.Loop.for k0_t10_loop k0_t10_ok () (k0_t10_body i arg1 harg1 arg2 harg2 arg3 harg3 arg4 harg4 arg5 harg5 arg6 harg6 arg7 v0 w0) >>= kk) Q) :=
  loop_by_trips c k0_t10_loop k0_t10_ok trips_10 _ (fun k => ST 256 64 k) (step_10 c i arg1 harg1 arg2 harg2 arg3 harg3 arg4 harg4 arg5 harg5 arg6 harg6 arg7 q1 tb T WB hidx hWB v0 w0)
theorem step_11 (k : Fin k0_t11_loop.trips) : (ST 320 k.val 0 : sProp 𝕄) ⊢ WP (k0_t11_body i arg1 harg1 arg2 harg2 arg3 harg3 arg4 harg4 arg5 harg5 arg6 harg6 arg7 v0 w0 k ()) (fun _ => ST 320 (k.val + 1) 0) :=
  start_trip c i arg1 harg1 arg2 harg2 arg6 arg7 q1 tb T WB 320 k.val (lt_of_lt_of_eq k.isLt trips_11) (by omega) (Dvd.intro 5 rfl) hidx (k0_off51 i k) (k0_off51_inb i k) k0_chk11 k0_chk11.dec (k0_off52 k) (k0_off52_inb k) (k0_off53 k) (k0_off53_inb k) (k0_off54 i k) (k0_off54_inb i k) k0_off55 k0_off55_inb (offA_11 i k) (offS_11 k) (offR_11 k) (offB_11 i k) offT_11 chk_11
theorem loop_11 {β : Type} {kk : Unit → Prog (TpuEff nD τ sig (Elt F) Λ₀ .tc) β} {Q : β → sProp 𝕄} : (ST 320 0 0 : sProp 𝕄) ⊢ iprop((ST 320 64 0 -∗ WP (kk ()) Q) -∗ WP (Scf.Loop.for k0_t11_loop k0_t11_ok () (k0_t11_body i arg1 harg1 arg2 harg2 arg3 harg3 arg4 harg4 arg5 harg5 arg6 harg6 arg7 v0 w0) >>= kk) Q) :=
  loop_by_trips c k0_t11_loop k0_t11_ok trips_11 _ (fun k => ST 320 k 0) (step_11 c i arg1 harg1 arg2 harg2 arg3 harg3 arg4 harg4 arg5 harg5 arg6 harg6 arg7 q1 tb T WB hidx hWB v0 w0)
theorem step_12 (k : Fin k0_t12_loop.trips) : (ST 320 64 k.val : sProp 𝕄) ⊢ WP (k0_t12_body i arg1 harg1 arg2 harg2 arg3 harg3 arg4 harg4 arg5 harg5 arg6 harg6 arg7 v0 w0 k ()) (fun _ => ST 320 64 (k.val + 1)) :=
  wait_trip c i arg1 harg1 arg2 harg2 arg6 arg7 q1 tb T WB 320 k.val (lt_of_lt_of_eq k.isLt trips_12) (by omega) (Dvd.intro 5 rfl) hidx (k0_off56 i k) (k0_off56_inb i k) k0_chk12 k0_chk12.dec (k0_off57 k) (k0_off57_inb k) (k0_off58 k) (k0_off58_inb k) (k0_off59 i k) (k0_off59_inb i k) k0_off60 k0_off60_inb (offA_12 i k) (offS_12 k) (offR_12 k) (offB_12 i k) offT_12 chk_12 hWB
theorem loop_12 {β : Type} {kk : Unit → Prog (TpuEff nD τ sig (Elt F) Λ₀ .tc) β} {Q : β → sProp 𝕄} : (ST 320 64 0 : sProp 𝕄) ⊢ iprop((ST 320 64 64 -∗ WP (kk ()) Q) -∗ WP (Scf.Loop.for k0_t12_loop k0_t12_ok () (k0_t12_body i arg1 harg1 arg2 harg2 arg3 harg3 arg4 harg4 arg5 harg5 arg6 harg6 arg7 v0 w0) >>= kk) Q) :=
  loop_by_trips c k0_t12_loop k0_t12_ok trips_12 _ (fun k => ST 320 64 k) (step_12 c i arg1 harg1 arg2 harg2 arg3 harg3 arg4 harg4 arg5 harg5 arg6 harg6 arg7 q1 tb T WB hidx hWB v0 w0)
theorem step_13 (k : Fin k0_t13_loop.trips) : (ST 384 k.val 0 : sProp 𝕄) ⊢ WP (k0_t13_body i arg1 harg1 arg2 harg2 arg3 harg3 arg4 harg4 arg5 harg5 arg6 harg6 arg7 v0 w0 k ()) (fun _ => ST 384 (k.val + 1) 0) :=
  start_trip c i arg1 harg1 arg2 harg2 arg6 arg7 q1 tb T WB 384 k.val (lt_of_lt_of_eq k.isLt trips_13) (by omega) (Dvd.intro 6 rfl) hidx (k0_off61 i k) (k0_off61_inb i k) k0_chk13 k0_chk13.dec (k0_off62 k) (k0_off62_inb k) (k0_off63 k) (k0_off63_inb k) (k0_off64 i k) (k0_off64_inb i k) k0_off65 k0_off65_inb (offA_13 i k) (offS_13 k) (offR_13 k) (offB_13 i k) offT_13 chk_13
theorem loop_13 {β : Type} {kk : Unit → Prog (TpuEff nD τ sig (Elt F) Λ₀ .tc) β} {Q : β → sProp 𝕄} : (ST 384 0 0 : sProp 𝕄) ⊢ iprop((ST 384 64 0 -∗ WP (kk ()) Q) -∗ WP (Scf.Loop.for k0_t13_loop k0_t13_ok () (k0_t13_body i arg1 harg1 arg2 harg2 arg3 harg3 arg4 harg4 arg5 harg5 arg6 harg6 arg7 v0 w0) >>= kk) Q) :=
  loop_by_trips c k0_t13_loop k0_t13_ok trips_13 _ (fun k => ST 384 k 0) (step_13 c i arg1 harg1 arg2 harg2 arg3 harg3 arg4 harg4 arg5 harg5 arg6 harg6 arg7 q1 tb T WB hidx hWB v0 w0)
theorem step_14 (k : Fin k0_t14_loop.trips) : (ST 384 64 k.val : sProp 𝕄) ⊢ WP (k0_t14_body i arg1 harg1 arg2 harg2 arg3 harg3 arg4 harg4 arg5 harg5 arg6 harg6 arg7 v0 w0 k ()) (fun _ => ST 384 64 (k.val + 1)) :=
  wait_trip c i arg1 harg1 arg2 harg2 arg6 arg7 q1 tb T WB 384 k.val (lt_of_lt_of_eq k.isLt trips_14) (by omega) (Dvd.intro 6 rfl) hidx (k0_off66 i k) (k0_off66_inb i k) k0_chk14 k0_chk14.dec (k0_off67 k) (k0_off67_inb k) (k0_off68 k) (k0_off68_inb k) (k0_off69 i k) (k0_off69_inb i k) k0_off70 k0_off70_inb (offA_14 i k) (offS_14 k) (offR_14 k) (offB_14 i k) offT_14 chk_14 hWB
theorem loop_14 {β : Type} {kk : Unit → Prog (TpuEff nD τ sig (Elt F) Λ₀ .tc) β} {Q : β → sProp 𝕄} : (ST 384 64 0 : sProp 𝕄) ⊢ iprop((ST 384 64 64 -∗ WP (kk ()) Q) -∗ WP (Scf.Loop.for k0_t14_loop k0_t14_ok () (k0_t14_body i arg1 harg1 arg2 harg2 arg3 harg3 arg4 harg4 arg5 harg5 arg6 harg6 arg7 v0 w0) >>= kk) Q) :=
  loop_by_trips c k0_t14_loop k0_t14_ok trips_14 _ (fun k => ST 384 64 k) (step_14 c i arg1 harg1 arg2 harg2 arg3 harg3 arg4 harg4 arg5 harg5 arg6 harg6 arg7 q1 tb T WB hidx hWB v0 w0)
theorem step_15 (k : Fin k0_t15_loop.trips) : (ST 448 k.val 0 : sProp 𝕄) ⊢ WP (k0_t15_body i arg1 harg1 arg2 harg2 arg3 harg3 arg4 harg4 arg5 harg5 arg6 harg6 arg7 v0 w0 k ()) (fun _ => ST 448 (k.val + 1) 0) :=
  start_trip c i arg1 harg1 arg2 harg2 arg6 arg7 q1 tb T WB 448 k.val (lt_of_lt_of_eq k.isLt trips_15) (by omega) (Dvd.intro 7 rfl) hidx (k0_off71 i k) (k0_off71_inb i k) k0_chk15 k0_chk15.dec (k0_off72 k) (k0_off72_inb k) (k0_off73 k) (k0_off73_inb k) (k0_off74 i k) (k0_off74_inb i k) k0_off75 k0_off75_inb (offA_15 i k) (offS_15 k) (offR_15 k) (offB_15 i k) offT_15 chk_15
theorem loop_15 {β : Type} {kk : Unit → Prog (TpuEff nD τ sig (Elt F) Λ₀ .tc) β} {Q : β → sProp 𝕄} : (ST 448 0 0 : sProp 𝕄) ⊢ iprop((ST 448 64 0 -∗ WP (kk ()) Q) -∗ WP (Scf.Loop.for k0_t15_loop k0_t15_ok () (k0_t15_body i arg1 harg1 arg2 harg2 arg3 harg3 arg4 harg4 arg5 harg5 arg6 harg6 arg7 v0 w0) >>= kk) Q) :=
  loop_by_trips c k0_t15_loop k0_t15_ok trips_15 _ (fun k => ST 448 k 0) (step_15 c i arg1 harg1 arg2 harg2 arg3 harg3 arg4 harg4 arg5 harg5 arg6 harg6 arg7 q1 tb T WB hidx hWB v0 w0)
theorem step_16 (k : Fin k0_t16_loop.trips) : (ST 448 64 k.val : sProp 𝕄) ⊢ WP (k0_t16_body i arg1 harg1 arg2 harg2 arg3 harg3 arg4 harg4 arg5 harg5 arg6 harg6 arg7 v0 w0 k ()) (fun _ => ST 448 64 (k.val + 1)) :=
  wait_trip c i arg1 harg1 arg2 harg2 arg6 arg7 q1 tb T WB 448 k.val (lt_of_lt_of_eq k.isLt trips_16) (by omega) (Dvd.intro 7 rfl) hidx (k0_off76 i k) (k0_off76_inb i k) k0_chk16 k0_chk16.dec (k0_off77 k) (k0_off77_inb k) (k0_off78 k) (k0_off78_inb k) (k0_off79 i k) (k0_off79_inb i k) k0_off80 k0_off80_inb (offA_16 i k) (offS_16 k) (offR_16 k) (offB_16 i k) offT_16 chk_16 hWB
theorem loop_16 {β : Type} {kk : Unit → Prog (TpuEff nD τ sig (Elt F) Λ₀ .tc) β} {Q : β → sProp 𝕄} : (ST 448 64 0 : sProp 𝕄) ⊢ iprop((ST 448 64 64 -∗ WP (kk ()) Q) -∗ WP (Scf.Loop.for k0_t16_loop k0_t16_ok () (k0_t16_body i arg1 harg1 arg2 harg2 arg3 harg3 arg4 harg4 arg5 harg5 arg6 harg6 arg7 v0 w0) >>= kk) Q) :=
  loop_by_trips c k0_t16_loop k0_t16_ok trips_16 _ (fun k => ST 448 64 k) (step_16 c i arg1 harg1 arg2 harg2 arg3 harg3 arg4 harg4 arg5 harg5 arg6 harg6 arg7 q1 tb T WB hidx hWB v0 w0)
theorem step_17 (k : Fin k0_t17_loop.trips) : (ST 512 k.val 0 : sProp 𝕄) ⊢ WP (k0_t17_body i arg1 harg1 arg2 harg2 arg3 harg3 arg4 harg4 arg5 harg5 arg6 harg6 arg7 v0 w0 k ()) (fun _ => ST 512 (k.val + 1) 0) :=
  start_trip c i arg1 harg1 arg2 harg2 arg6 arg7 q1 tb T WB 512 k.val (lt_of_lt_of_eq k.isLt trips_17) (by omega) (Dvd.intro 8 rfl) hidx (k0_off81 i k) (k0_off81_inb i k) k0_chk17 k0_chk17.dec (k0_off82 k) (k0_off82_inb k) (k0_off83 k) (k0_off83_inb k) (k0_off84 i k) (k0_off84_inb i k) k0_off85 k0_off85_inb (offA_17 i k) (offS_17 k) (offR_17 k) (offB_17 i k) offT_17 chk_17
theorem loop_17 {β : Type} {kk : Unit → Prog (TpuEff nD τ sig (Elt F) Λ₀ .tc) β} {Q : β → sProp 𝕄} : (ST 512 0 0 : sProp 𝕄) ⊢ iprop((ST 512 64 0 -∗ WP (kk ()) Q) -∗ WP (Scf.Loop.for k0_t17_loop k0_t17_ok () (k0_t17_body i arg1 harg1 arg2 harg2 arg3 harg3 arg4 harg4 arg5 harg5 arg6 harg6 arg7 v0 w0) >>= kk) Q) :=
  loop_by_trips c k0_t17_loop k0_t17_ok trips_17 _ (fun k => ST 512 k 0) (step_17 c i arg1 harg1 arg2 harg2 arg3 harg3 arg4 harg4 arg5 harg5 arg6 harg6 arg7 q1 tb T WB hidx hWB v0 w0)
theorem step_18 (k : Fin k0_t18_loop.trips) : (ST 512 64 k.val : sProp 𝕄) ⊢ WP (k0_t18_body i arg1 harg1 arg2 harg2 arg3 harg3 arg4 harg4 arg5 harg5 arg6 harg6 arg7 v0 w0 k ()) (fun _ => ST 512 64 (k.val + 1)) :=
  wait_trip c i arg1 harg1 arg2 harg2 arg6 arg7 q1 tb T WB 512 k.val (lt_of_lt_of_eq k.isLt trips_18) (by omega) (Dvd.intro 8 rfl) hidx (k0_off86 i k) (k0_off86_inb i k) k0_chk18 k0_chk18.dec (k0_off87 k) (k0_off87_inb k) (k0_off88 k) (k0_off88_inb k) (k0_off89 i k) (k0_off89_inb i k) k0_off90 k0_off90_inb (offA_18 i k) (offS_18 k) (offR_18 k) (offB_18 i k) offT_18 chk_18 hWB
theorem loop_18 {β : Type} {kk : Unit → Prog (TpuEff nD τ sig (Elt F) Λ₀ .tc) β} {Q : β → sProp 𝕄} : (ST 512 64 0 : sProp 𝕄) ⊢ iprop((ST 512 64 64 -∗ WP (kk ()) Q) -∗ WP (Scf.Loop.for k0_t18_loop k0_t18_ok () (k0_t18_body i arg1 harg1 arg2 harg2 arg3 harg3 arg4 harg4 arg5 harg5 arg6 harg6 arg7 v0 w0) >>= kk) Q) :=
  loop_by_trips c k0_t18_loop k0_t18_ok trips_18 _ (fun k => ST 512 64 k) (step_18 c i arg1 harg1 arg2 harg2 arg3 harg3 arg4 harg4 arg5 harg5 arg6 harg6 arg7 q1 tb T WB hidx hWB v0 w0)
theorem step_19 (k : Fin k0_t19_loop.trips) : (ST 576 k.val 0 : sProp 𝕄) ⊢ WP (k0_t19_body i arg1 harg1 arg2 harg2 arg3 harg3 arg4 harg4 arg5 harg5 arg6 harg6 arg7 v0 w0 k ()) (fun _ => ST 576 (k.val + 1) 0) :=
  start_trip c i arg1 harg1 arg2 harg2 arg6 arg7 q1 tb T WB 576 k.val (lt_of_lt_of_eq k.isLt trips_19) (by omega) (Dvd.intro 9 rfl) hidx (k0_off91 i k) (k0_off91_inb i k) k0_chk19 k0_chk19.dec (k0_off92 k) (k0_off92_inb k) (k0_off93 k) (k0_off93_inb k) (k0_off94 i k) (k0_off94_inb i k) k0_off95 k0_off95_inb (offA_19 i k) (offS_19 k) (offR_19 k) (offB_19 i k) offT_19 chk_19
theorem loop_19 {β : Type} {kk : Unit → Prog (TpuEff nD τ sig (Elt F) Λ₀ .tc) β} {Q : β → sProp 𝕄} : (ST 576 0 0 : sProp 𝕄) ⊢ iprop((ST 576 64 0 -∗ WP (kk ()) Q) -∗ WP (Scf.Loop.for k0_t19_loop k0_t19_ok () (k0_t19_body i arg1 harg1 arg2 harg2 arg3 harg3 arg4 harg4 arg5 harg5 arg6 harg6 arg7 v0 w0) >>= kk) Q) :=
  loop_by_trips c k0_t19_loop k0_t19_ok trips_19 _ (fun k => ST 576 k 0) (step_19 c i arg1 harg1 arg2 harg2 arg3 harg3 arg4 harg4 arg5 harg5 arg6 harg6 arg7 q1 tb T WB hidx hWB v0 w0)
theorem step_20 (k : Fin k0_t20_loop.trips) : (ST 576 64 k.val : sProp 𝕄) ⊢ WP (k0_t20_body i arg1 harg1 arg2 harg2 arg3 harg3 arg4 harg4 arg5 harg5 arg6 harg6 arg7 v0 w0 k ()) (fun _ => ST 576 64 (k.val + 1)) :=
  wait_trip c i arg1 harg1 arg2 harg2 arg6 arg7 q1 tb T WB 576 k.val (lt_of_lt_of_eq k.isLt trips_20) (by omega) (Dvd.intro 9 rfl) hidx (k0_off96 i k) (k0_off96_inb i k) k0_chk20 k0_chk20.dec (k0_off97 k) (k0_off97_inb k) (k0_off98 k) (k0_off98_inb k) (k0_off99 i k) (k0_off99_inb i k) k0_off100 k0_off100_inb (offA_20 i k) (offS_20 k) (offR_20 k) (offB_20 i k) offT_20 chk_20 hWB
theorem loop_20 {β : Type} {kk : Unit → Prog (TpuEff nD τ sig (Elt F) Λ₀ .tc) β} {Q : β → sProp 𝕄} : (ST 576 64 0 : sProp 𝕄) ⊢ iprop((ST 576 64 64 -∗ WP (kk ()) Q) -∗ WP (Scf.Loop.for k0_t20_loop k0_t20_ok () (k0_t20_body i arg1 harg1 arg2 harg2 arg3 harg3 arg4 harg4 arg5 harg5 arg6 harg6 arg7 v0 w0) >>= kk) Q) :=
  loop_by_trips c k0_t20_loop k0_t20_ok trips_20 _ (fun k => ST 576 64 k) (step_20 c i arg1 harg1 arg2 harg2 arg3 harg3 arg4 harg4 arg5 harg5 arg6 harg6 arg7 q1 tb T WB hidx hWB v0 w0)
theorem step_21 (k : Fin k0_t21_loop.trips) : (ST 640 k.val 0 : sProp 𝕄) ⊢ WP (k0_t21_body i arg1 harg1 arg2 harg2 arg3 harg3 arg4 harg4 arg5 harg5 arg6 harg6 arg7 v0 w0 k ()) (fun _ => ST 640 (k.val + 1) 0) :=
  start_trip c i arg1 harg1 arg2 harg2 arg6 arg7 q1 tb T WB 640 k.val (lt_of_lt_of_eq k.isLt trips_21) (by omega) (Dvd.intro 10 rfl) hidx (k0_off101 i k) (k0_off101_inb i k) k0_chk21 k0_chk21.dec (k0_off102 k) (k0_off102_inb k) (k0_off103 k) (k0_off103_inb k) (k0_off104 i k) (k0_off104_inb i k) k0_off105 k0_off105_inb (offA_21 i k) (offS_21 k) (offR_21 k) (offB_21 i k) offT_21 chk_21
theorem loop_21 {β : Type} {kk : Unit → Prog (TpuEff nD τ sig (Elt F) Λ₀ .tc) β} {Q : β → sProp 𝕄} : (ST 640 0 0 : sProp 𝕄) ⊢ iprop((ST 640 64 0 -∗ WP (kk ()) Q) -∗ WP (Scf.Loop.for k0_t21_loop k0_t21_ok () (k0_t21_body i arg1 harg1 arg2 harg2 arg3 harg3 arg4 harg4 arg5 harg5 arg6 harg6 arg7 v0 w0) >>= kk) Q) :=
  loop_by_trips c k0_t21_loop k0_t21_ok trips_21 _ (fun k => ST 640 k 0) (step_21 c i arg1 harg1 arg2 harg2 arg3 harg3 arg4 harg4 arg5 harg5 arg6 harg6 arg7 q1 tb T WB hidx hWB v0 w0)
theorem step_22 (k : Fin k0_t22_loop.trips) : (ST 640 64 k.val : sProp 𝕄) ⊢ WP (k0_t22_body i arg1 harg1 arg2 harg2 arg3 harg3 arg4 harg4 arg5 harg5 arg6 harg6 arg7 v0 w0 k ()) (fun _ => ST 640 64 (k.val + 1)) :=
  wait_trip c i arg1 harg1 arg2 harg2 arg6 arg7 q1 tb T WB 640 k.val (lt_of_lt_of_eq k.isLt trips_22) (by omega) (Dvd.intro 10 rfl) hidx (k0_off106 i k) (k0_off106_inb i k) k0_chk22 k0_chk22.dec (k0_off107 k) (k0_off107_inb k) (k0_off108 k) (k0_off108_inb k) (k0_off109 i k) (k0_off109_inb i k) k0_off110 k0_off110_inb (offA_22 i k) (offS_22 k) (offR_22 k) (offB_22 i k) offT_22 chk_22 hWB
theorem loop_22 {β : Type} {kk : Unit → Prog (TpuEff nD τ sig (Elt F) Λ₀ .tc) β} {Q : β → sProp 𝕄} : (ST 640 64 0 : sProp 𝕄) ⊢ iprop((ST 640 64 64 -∗ WP (kk ()) Q) -∗ WP (Scf.Loop.for k0_t22_loop k0_t22_ok () (k0_t22_body i arg1 harg1 arg2 harg2 arg3 harg3 arg4 harg4 arg5 harg5 arg6 harg6 arg7 v0 w0) >>= kk) Q) :=
  loop_by_trips c k0_t22_loop k0_t22_ok trips_22 _ (fun k => ST 640 64 k) (step_22 c i arg1 harg1 arg2 harg2 arg3 harg3 arg4 harg4 arg5 harg5 arg6 harg6 arg7 q1 tb T WB hidx hWB v0 w0)
theorem step_23 (k : Fin k0_t23_loop.trips) : (ST 704 k.val 0 : sProp 𝕄) ⊢ WP (k0_t23_body i arg1 harg1 arg2 harg2 arg3 harg3 arg4 harg4 arg5 harg5 arg6 harg6 arg7 v0 w0 k ()) (fun _ => ST 704 (k.val + 1) 0) :=
  start_trip c i arg1 harg1 arg2 harg2 arg6 arg7 q1 tb T WB 704 k.val (lt_of_lt_of_eq k.isLt trips_23) (by omega) (Dvd.intro 11 rfl) hidx (k0_off111 i k) (k0_off111_inb i k) k0_chk23 k0_chk23.dec (k0_off112 k) (k0_off112_inb k) (k0_off113 k) (k0_off113_inb k) (k0_off114 i k) (k0_off114_inb i k) k0_off115 k0_off115_inb (offA_23 i k) (offS_23 k) (offR_23 k) (offB_23 i k) offT_23 chk_23
theorem loop_23 {β : Type} {kk : Unit → Prog (TpuEff nD τ sig (Elt F) Λ₀ .tc) β} {Q : β → sProp 𝕄} : (ST 704 0 0 : sProp 𝕄) ⊢ iprop((ST 704 64 0 -∗ WP (kk ()) Q) -∗ WP (Scf.Loop.for k0_t23_loop k0_t23_ok () (k0_t23_body i arg1 harg1 arg2 harg2 arg3 harg3 arg4 harg4 arg5 harg5 arg6 harg6 arg7 v0 w0) >>= kk) Q) :=
  loop_by_trips c k0_t23_loop k0_t23_ok trips_23 _ (fun k => ST 704 k 0) (step_23 c i arg1 harg1 arg2 harg2 arg3 harg3 arg4 harg4 arg5 harg5 arg6 harg6 arg7 q1 tb T WB hidx hWB v0 w0)
theorem step_24 (k : Fin k0_t24_loop.trips) : (ST 704 64 k.val : sProp 𝕄) ⊢ WP (k0_t24_body i arg1 harg1 arg2 harg2 arg3 harg3 arg4 harg4 arg5 harg5 arg6 harg6 arg7 v0 w0 k ()) (fun _ => ST 704 64 (k.val + 1)) :=
  wait_trip c i arg1 harg1 arg2 harg2 arg6 arg7 q1 tb T WB 704 k.val (lt_of_lt_of_eq k.isLt trips_24) (by omega) (Dvd.intro 11 rfl) hidx (k0_off116 i k) (k0_off116_inb i k) k0_chk24 k0_chk24.dec (k0_off117 k) (k0_off117_inb k) (k0_off118 k) (k0_off118_inb k) (k0_off119 i k) (k0_off119_inb i k) k0_off120 k0_off120_inb (offA_24 i k) (offS_24 k) (offR_24 k) (offB_24 i k) offT_24 chk_24 hWB
theorem loop_24 {β : Type} {kk : Unit → Prog (TpuEff nD τ sig (Elt F) Λ₀ .tc) β} {Q : β → sProp 𝕄} : (ST 704 64 0 : sProp 𝕄) ⊢ iprop((ST 704 64 64 -∗ WP (kk ()) Q) -∗ WP (Scf.Loop.for k0_t24_loop k0_t24_ok () (k0_t24_body i arg1 harg1 arg2 harg2 arg3 harg3 arg4 harg4 arg5 harg5 arg6 harg6 arg7 v0 w0) >>= kk) Q) :=
  loop_by_trips c k0_t24_loop k0_t24_ok trips_24 _ (fun k => ST 704 64 k) (step_24 c i arg1 harg1 arg2 harg2 arg3 harg3 arg4 harg4 arg5 harg5 arg6 harg6 arg7 q1 tb T WB hidx hWB v0 w0)
theorem step_25 (k : Fin k0_t25_loop.trips) : (ST 768 k.val 0 : sProp 𝕄) ⊢ WP (k0_t25_body i arg1 harg1 arg2 harg2 arg3 harg3 arg4 harg4 arg5 harg5 arg6 harg6 arg7 v0 w0 k ()) (fun _ => ST 768 (k.val + 1) 0) :=
  start_trip c i arg1 harg1 arg2 harg2 arg6 arg7 q1 tb T WB 768 k.val (lt_of_lt_of_eq k.isLt trips_25) (by omega) (Dvd.intro 12 rfl) hidx (k0_off121 i k) (k0_off121_inb i k) k0_chk25 k0_chk25.dec (k0_off122 k) (k0_off122_inb k) (k0_off123 k) (k0_off123_inb k) (k0_off124 i k) (k0_off124_inb i k) k0_off125 k0_off125_inb (offA_25 i k) (offS_25 k) (offR_25 k) (offB_25 i k) offT_25 chk_25
theorem loop_25 {β : Type} {kk : Unit → Prog (TpuEff nD τ sig (Elt F) Λ₀ .tc) β} {Q : β → sProp 𝕄} : (ST 768 0 0 : sProp 𝕄) ⊢ iprop((ST 768 64 0 -∗ WP (kk ()) Q) -∗ WP (Scf.Loop.for k0_t25_loop k0_t25_ok () (k0_t25_body i arg1 harg1 arg2 harg2 arg3 harg3 arg4 harg4 arg5 harg5 arg6 harg6 arg7 v0 w0) >>= kk) Q) :=
  loop_by_trips c k0_t25_loop k0_t25_ok trips_25 _ (fun k => ST 768 k 0) (step_25 c i arg1 harg1 arg2 harg2 arg3 harg3 arg4 harg4 arg5 harg5 arg6 harg6 arg7 q1 tb T WB hidx hWB v0 w0)
theorem step_26 (k : Fin k0_t26_loop.trips) : (ST 768 64 k.val : sProp 𝕄) ⊢ WP (k0_t26_body i arg1 harg1 arg2 harg2 arg3 harg3 arg4 harg4 arg5 harg5 arg6 harg6 arg7 v0 w0 k ()) (fun _ => ST 768 64 (k.val + 1)) :=
  wait_trip c i arg1 harg1 arg2 harg2 arg6 arg7 q1 tb T WB 768 k.val (lt_of_lt_of_eq k.isLt trips_26) (by omega) (Dvd.intro 12 rfl) hidx (k0_off126 i k) (k0_off126_inb i k) k0_chk26 k0_chk26.dec (k0_off127 k) (k0_off127_inb k) (k0_off128 k) (k0_off128_inb k) (k0_off129 i k) (k0_off129_inb i k) k0_off130 k0_off130_inb (offA_26 i k) (offS_26 k) (offR_26 k) (offB_26 i k) offT_26 chk_26 hWB
theorem loop_26 {β : Type} {kk : Unit → Prog (TpuEff nD τ sig (Elt F) Λ₀ .tc) β} {Q : β → sProp 𝕄} : (ST 768 64 0 : sProp 𝕄) ⊢ iprop((ST 768 64 64 -∗ WP (kk ()) Q) -∗ WP (Scf.Loop.for k0_t26_loop k0_t26_ok () (k0_t26_body i arg1 harg1 arg2 harg2 arg3 harg3 arg4 harg4 arg5 harg5 arg6 harg6 arg7 v0 w0) >>= kk) Q) :=
  loop_by_trips c k0_t26_loop k0_t26_ok trips_26 _ (fun k => ST 768 64 k) (step_26 c i arg1 harg1 arg2 harg2 arg3 harg3 arg4 harg4 arg5 harg5 arg6 harg6 arg7 q1 tb T WB hidx hWB v0 w0)
theorem step_27 (k : Fin k0_t27_loop.trips) : (ST 832 k.val 0 : sProp 𝕄) ⊢ WP (k0_t27_body i arg1 harg1 arg2 harg2 arg3 harg3 arg4 harg4 arg5 harg5 arg6 harg6 arg7 v0 w0 k ()) (fun _ => ST 832 (k.val + 1) 0) :=
  start_trip c i arg1 harg1 arg2 harg2 arg6 arg7 q1 tb T WB 832 k.val (lt_of_lt_of_eq k.isLt trips_27) (by omega) (Dvd.intro 13 rfl) hidx (k0_off131 i k) (k0_off131_inb i k) k0_chk27 k0_chk27.dec (k0_off132 k) (k0_off132_inb k) (k0_off133 k) (k0_off133_inb k) (k0_off134 i k) (k0_off134_inb i k) k0_off135 k0_off135_inb (offA_27 i k) (offS_27 k) (offR_27 k) (offB_27 i k) offT_27 chk_27
theorem loop_27 {β : Type} {kk : Unit → Prog (TpuEff nD τ sig (Elt F) Λ₀ .tc) β} {Q : β → sProp 𝕄} : (ST 832 0 0 : sProp 𝕄) ⊢ iprop((ST 832 64 0 -∗ WP (kk ()) Q) -∗ WP (Scf.Loop.for k0_t27_loop k0_t27_ok () (k0_t27_body i arg1 harg1 arg2 harg2 arg3 harg3 arg4 harg4 arg5 harg5 arg6 harg6 arg7 v0 w0) >>= kk) Q) :=
  loop_by_trips c k0_t27_loop k0_t27_ok trips_27 _ (fun k => ST 832 k 0) (step_27 c i arg1 harg1 arg2 harg2 arg3 harg3 arg4 harg4 arg5 harg5 arg6 harg6 arg7 q1 tb T WB hidx hWB v0 w0)
theorem step_28 (k : Fin k0_t28_loop.trips) : (ST 832 64 k.val : sProp 𝕄) ⊢ WP (k0_t28_body i arg1 harg1 arg2 harg2 arg3 harg3 arg4 harg4 arg5 harg5 arg6 harg6 arg7 v0 w0 k ()) (fun _ => ST 832 64 (k.val + 1)) :=
  wait_trip c i arg1 harg1 arg2 harg2 arg6 arg7 q1 tb T WB 832 k.val (lt_of_lt_of_eq k.isLt trips_28) (by omega) (Dvd.intro 13 rfl) hidx (k0_off136 i k) (k0_off136_inb i k) k0_chk28 k0_chk28.dec (k0_off137 k) (k0_off137_inb k) (k0_off138 k) (k0_off138_inb k) (k0_off139 i k) (k0_off139_inb i k) k0_off140 k0_off140_inb (offA_28 i k) (offS_28 k) (offR_28 k) (offB_28 i k) offT_28 chk_28 hWB
theorem loop_28 {β : Type} {kk : Unit → Prog (TpuEff nD τ sig (Elt F) Λ₀ .tc) β} {Q : β → sProp 𝕄} : (ST 832 64 0 : sProp 𝕄) ⊢ iprop((ST 832 64 64 -∗ WP (kk ()) Q) -∗ WP (Scf.Loop.for k0_t28_loop k0_t28_ok () (k0_t28_body i arg1 harg1 arg2 harg2 arg3 harg3 arg4 harg4 arg5 harg5 arg6 harg6 arg7 v0 w0) >>= kk) Q) :=
  loop_by_trips c k0_t28_loop k0_t28_ok trips_28 _ (fun k => ST 832 64 k) (step_28 c i arg1 harg1 arg2 harg2 arg3 harg3 arg4 harg4 arg5 harg5 arg6 harg6 arg7 q1 tb T WB hidx hWB v0 w0)
theorem step_29 (k : Fin k0_t29_loop.trips) : (ST 896 k.val 0 : sProp 𝕄) ⊢ WP (k0_t29_body i arg1 harg1 arg2 harg2 arg3 harg3 arg4 harg4 arg5 harg5 arg6 harg6 arg7 v0 w0 k ()) (fun _ => ST 896 (k.val + 1) 0) :=
  start_trip c i arg1 harg1 arg2 harg2 arg6 arg7 q1 tb T WB 896 k.val (lt_of_lt_of_eq k.isLt trips_29) (by omega) (Dvd.intro 14 rfl) hidx (k0_off141 i k) (k0_off141_inb i k) k0_chk29 k0_chk29.dec (k0_off142 k) (k0_off142_inb k) (k0_off143 k) (k0_off143_inb k) (k0_off144 i k) (k0_off144_inb i k) k0_off145 k0_off145_inb (offA_29 i k) (offS_29 k) (offR_29 k) (offB_29 i k) offT_29 chk_29
theorem loop_29 {β : Type} {kk : Unit → Prog (TpuEff nD τ sig (Elt F) Λ₀ .tc) β} {Q : β → sProp 𝕄} : (ST 896 0 0 : sProp 𝕄) ⊢ iprop((ST 896 64 0 -∗ WP (kk ()) Q) -∗ WP (Scf.Loop.for k0_t29_loop k0_t29_ok () (k0_t29_body i arg1 harg1 arg2 harg2 arg3 harg3 arg4 harg4 arg5 harg5 arg6 harg6 arg7 v0 w0) >>= kk) Q) :=
  loop_by_trips c k0_t29_loop k0_t29_ok trips_29 _ (fun k => ST 896 k 0) (step_29 c i arg1 harg1 arg2 harg2 arg3 harg3 arg4 harg4 arg5 harg5 arg6 harg6 arg7 q1 tb T WB hidx hWB v0 w0)
theorem step_30 (k : Fin k0_t30_loop.trips) : (ST 896 64 k.val : sProp 𝕄) ⊢ WP (k0_t30_body i arg1 harg1 arg2 harg2 arg3 harg3 arg4 harg4 arg5 harg5 arg6 harg6 arg7 k ()) (fun _ => ST 896 64 (k.val + 1)) :=
  wait_trip c i arg1 harg1 arg2 harg2 arg6 arg7 q1 tb T WB 896 k.val (lt_of_lt_of_eq k.isLt trips_30) (by omega) (Dvd.intro 14 rfl) hidx (k0_off146 i k) (k0_off146_inb i k) k0_chk30 k0_chk30.dec (k0_off147 k) (k0_off147_inb k) (k0_off148 k) (k0_off148_inb k) (k0_off149 i k) (k0_off149_inb i k) k0_off150 k0_off150_inb (offA_30 i k) (offS_30 k) (offR_30 k) (offB_30 i k) offT_30 chk_30 hWB
theorem loop_30 {β : Type} {kk : Unit → Prog (TpuEff nD τ sig (Elt F) Λ₀ .tc) β} {Q : β → sProp 𝕄} : (ST 896 64 0 : sProp 𝕄) ⊢ iprop((ST 896 64 64 -∗ WP (kk ()) Q) -∗ WP (Scf.Loop.for k0_t30_loop k0_t30_ok () (k0_t30_body i arg1 harg1 arg2 harg2 arg3 harg3 arg4 harg4 arg5 harg5 arg6 harg6 arg7) >>= kk) Q) :=
  loop_by_trips c k0_t30_loop k0_t30_ok trips_30 _ (fun k => ST 896 64 k) (step_30 c i arg1 harg1 arg2 harg2 arg3 harg3 arg4 harg4 arg5 harg5 arg6 harg6 arg7 q1 tb T WB hidx hWB)
theorem step_31 (k : Fin k0_t31_loop.trips) : (ST 960 k.val 0 : sProp 𝕄) ⊢ WP (k0_t31_body i arg1 harg1 arg2 harg2 arg3 harg3 arg4 harg4 arg5 harg5 arg6 harg6 arg7 k ()) (fun _ => ST 960 (k.val + 1) 0) :=
  start_trip c i arg1 harg1 arg2 harg2 arg6 arg7 q1 tb T WB 960 k.val (lt_of_lt_of_eq k.isLt trips_31) (by omega) (Dvd.intro 15 rfl) hidx (k0_off151 i k) (k0_off151_inb i k) k0_chk31 k0_chk31.dec (k0_off152 k) (k0_off152_inb k) (k0_off153 k) (k0_off153_inb k) (k0_off154 i k) (k0_off154_inb i k) k0_off155 k0_off155_inb (offA_31 i k) (offS_31 k) (offR_31 k) (offB_31 i k) offT_31 chk_31
theorem loop_31 {β : Type} {kk : Unit → Prog (TpuEff nD τ sig (Elt F) Λ₀ .tc) β} {Q : β → sProp 𝕄} : (ST 960 0 0 : sProp 𝕄) ⊢ iprop((ST 960 64 0 -∗ WP (kk ()) Q) -∗ WP (Scf.Loop.for k0_t31_loop k0_t31_ok () (k0_t31_body i arg1 harg1 arg2 harg2 arg3 harg3 arg4 harg4 arg5 harg5 arg6 harg6 arg7) >>= kk) Q) :=
  loop_by_trips c k0_t31_loop k0_t31_ok trips_31 _ (fun k => ST 960 k 0) (step_31 c i arg1 harg1 arg2 harg2 arg3 harg3 arg4 harg4 arg5 harg5 arg6 harg6 arg7 q1 tb T WB hidx hWB)
theorem step_32 (k : Fin k0_t32_loop.trips) : (ST 960 64 k.val : sProp 𝕄) ⊢ WP (k0_t32_body i arg1 harg1 arg2 harg2 arg3 harg3 arg4 harg4 arg5 harg5 arg6 harg6 arg7 k ()) (fun _ => ST 960 64 (k.val + 1)) :=
  wait_trip c i arg1 harg1 arg2 harg2 arg6 arg7 q1 tb T WB 960 k.val (lt_of_lt_of_eq k.isLt trips_32) (by omega) (Dvd.intro 15 rfl) hidx (k0_off156 i k) (k0_off156_inb i k) k0_chk32 k0_chk32.dec (k0_off157 k) (k0_off157_inb k) (k0_off158 k) (k0_off158_inb k) (k0_off159 i k) (k0_off159_inb i k) k0_off160 k0_off160_inb (offA_32 i k) (offS_32 k) (offR_32 k) (offB_32 i k) offT_32 chk_32 hWB
theorem loop_32 {β : Type} {kk : Unit → Prog (TpuEff nD τ sig (Elt F) Λ₀ .tc) β} {Q : β → sProp 𝕄} : (ST 960 64 0 : sProp 𝕄) ⊢ iprop((ST 960 64 64 -∗ WP (kk ()) Q) -∗ WP (Scf.Loop.for k0_t32_loop k0_t32_ok () (k0_t32_body i arg1 harg1 arg2 harg2 arg3 harg3 arg4 harg4 arg5 harg5 arg6 harg6 arg7) >>= kk) Q) :=
  loop_by_trips c k0_t32_loop k0_t32_ok trips_32 _ (fun k => ST 960 64 k) (step_32 c i arg1 harg1 arg2 harg2 arg3 harg3 arg4 harg4 arg5 harg5 arg6 harg6 arg7 q1 tb T WB hidx hWB)

end Cert.Kernel.Hand
end
-- ==== Proof.K.Conv.lean ====
/-
  The gather's resource family at its ends: before the first chunk the family is what the kernel function is handed
  (the index table, the table of rows, the scratch, the 64 cells at zero), and a chunk whose 64 rows have all been
  waited for is the next chunk with nothing started.
-/
import proofs.«406790_j29661044146287_2_alg».proof.Proof.K.Res

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-! ## From one chunk to the next -/

/-- The empty run of lanes may stand before or after the full one. -/
theorem swap_emp (P L O I D W : sProp 𝕄) :
    iprop(P ∗ L ∗ emp ∗ O ∗ I ∗ emp ∗ D ∗ W) = iprop(P ∗ L ∗ emp ∗ O ∗ emp ∗ I ∗ D ∗ W) := by
  have h₁ : iprop(P ∗ L ∗ emp ∗ O ∗ I ∗ emp ∗ D ∗ W) ⊢ (iprop(P ∗ L ∗ emp ∗ O ∗ emp ∗ I ∗ D ∗ W) : sProp 𝕄) := by
    iintro ⟨H1, HL, -, HO, HI, -, HD, HW⟩
    isplitl [H1]; · iexact H1
    isplitl [HL]; · iexact HL
    isplitr; · iempintro
    isplitl [HO]; · iexact HO
    isplitr; · iempintro
    isplitl [HI]; · iexact HI
    isplitl [HD]; · iexact HD
    iexact HW
  have h₂ : iprop(P ∗ L ∗ emp ∗ O ∗ emp ∗ I ∗ D ∗ W) ⊢ (iprop(P ∗ L ∗ emp ∗ O ∗ I ∗ emp ∗ D ∗ W) : sProp 𝕄) := by
    iintro ⟨H1, HL, -, HO, -, HI, HD, HW⟩
    isplitl [H1]; · iexact H1
    isplitl [HL]; · iexact HL
    isplitr; · iempintro
    isplitl [HO]; · iexact HO
    isplitl [HI]; · iexact HI
    isplitr; · iempintro
    isplitl [HD]; · iexact HD
    iexact HW
  exact BI.equiv_iff.mp ⟨h₁, h₂⟩

/-- A chunk all of whose 64 rows have been started and waited for is the next chunk with nothing started: the same
    rows landed, none in flight, the same rows untouched, all 64 lanes idle. -/
theorem St_chunk (c : Dev nD) (i : grid0.Coords) (arg1 : Memref sig .tc .smem S65536 .i32) (harg1 : arg1.IsWhole)
    (arg2 : Memref sig .tc .hbm S1024x512x256 .f32) (harg2 : arg2.IsWhole)
    (arg6 : Memref sig .tc .vmem S1024x256 .f32) (harg6 : arg6.IsWhole) (arg7 : DmaSems sig S64)
    (q1 : PosShare TreeShare) (tb : S65536.Idx → BitVec 32) (T : S1024x512x256.Idx → Elt F .f32) (WB : Waits sig Unit)
    (base : ℕ) :
    (St c i arg1 harg1 arg2 harg2 arg6 arg7 q1 tb T WB base 64 64 : sProp 𝕄)
      = St c i arg1 harg1 arg2 harg2 arg6 arg7 q1 tb T WB (base + 64) 0 0 := by
  unfold St
  rw [Nat.add_zero, Ring.bigSep_rangeSet_empty (le_refl (base + 64)), Ring.bigSep_rangeSet_empty (le_refl 64),
    Ring.bigSep_rangeSet_empty (le_refl 0)]
  exact swap_emp _ _ _ _ _ _

/-! ## Before the first chunk -/

/-- A whole memref owned at what it reads is its buffer's points-to at the contents that read so. -/
theorem owns_unread (c : Dev nD) {sp : Space} {sh : Shape} {e : EltTy} (m : Memref sig .tc sp sh e) (h : m.IsWhole)
    (q : PosShare TreeShare) (X : sh.Idx → Elt F e) :
    (owns (c : Thread nD τ) m q X : sProp 𝕄) = (m.view.loc (c : Thread nD τ) ↦{q} h.unread X) := by
  unfold owns
  rw [h.set_eq_univ]
  have h₁ : iprop(∃ f, ⌜m.view.read (Elt F) f = X⌝ ∗ (m.view.loc (c : Thread nD τ) ↦[Finset.univ]{q} f))
      ⊢ (m.view.loc (c : Thread nD τ) ↦{q} h.unread X : sProp 𝕄) := by
    iintro ⟨%f, %hf, H⟩
    rw [← h.eq_unread hf]; iexact H
  have h₂ : (m.view.loc (c : Thread nD τ) ↦{q} h.unread X : sProp 𝕄)
      ⊢ iprop(∃ f, ⌜m.view.read (Elt F) f = X⌝ ∗ (m.view.loc (c : Thread nD τ) ↦[Finset.univ]{q} f)) := by
    iintro H; iexists h.unread X; isplitr
    · ipureintro; exact h.read_unread X
    · iexact H
  exact BI.equiv_iff.mp ⟨h₁, h₂⟩

/-- Row `r`'s positions in the scratch. -/
abbrev rset (r : Fin 1024) : Finset S1024x256.Idx := (Rect.unit (s := S1024x256) ![r.val, 0] S1x256.size (row_inb r)).set

theorem mem_rset (r : Fin 1024) (y : S1024x256.Idx) : y ∈ rset r ↔ (y 0).val = r.val := by
  rw [Rect.mem_set_unit]
  have h1 : (y 1).val < 256 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 256; omega

/-- Row `r`'s elements of the scratch buffer are the scratch's elements under the row's positions. -/
theorem rowM_set (arg6 : Memref sig .tc .vmem S1024x256 .f32) (r : Fin 1024) :
    (rowM arg6 r).view.set = (rset r).map arg6.view.emb := by
  unfold rowM; exact (View.set_reshape _ _).trans (View.set_slice _ _)

/-- Row `r`'s elements, as elements of the scratch buffer. -/
abbrev rowSet (arg6 : Memref sig .tc .vmem S1024x256 .f32) (r : Fin 1024) : Finset arg6.view.ty.Idx := (rowM arg6 r).view.set

theorem rowSet_eq (arg6 : Memref sig .tc .vmem S1024x256 .f32) (r : Fin 1024) :
    rowSet arg6 r = (rset r).map arg6.view.emb := rowM_set arg6 r

theorem rows_disjoint (arg6 : Memref sig .tc .vmem S1024x256 .f32) :
    ∀ r r' : Fin 1024, r ≠ r' → Disjoint (rowSet arg6 r) (rowSet arg6 r') := fun r r' hne => by
  rw [rowSet_eq, rowSet_eq, Finset.disjoint_map, Finset.disjoint_left]
  intro y hy hy'; rw [mem_rset] at hy hy'; exact hne (Fin.ext (by omega))

theorem rows_cover (arg6 : Memref sig .tc .vmem S1024x256 .f32) (harg6 : arg6.IsWhole) :
    Finset.univ.biUnion (rowSet arg6) = Finset.univ := by
  ext j
  simp only [Finset.mem_biUnion, Finset.mem_univ, true_and, iff_true]
  have hj : j ∈ arg6.view.set := by rw [harg6.set_eq_univ]; exact Finset.mem_univ _
  obtain ⟨y, -, rfl⟩ := Finset.mem_map.mp hj
  have hm := Finset.mem_map_of_mem arg6.view.emb ((mem_rset (y 0) y).mpr rfl)
  rw [← rowSet_eq arg6 (y 0)] at hm
  exact ⟨y 0, hm⟩

/-- The scratch held whole at contents `f` is its 1024 rows, each held at some contents. -/
theorem rows_split_at (c : Dev nD) (arg6 : Memref sig .tc .vmem S1024x256 .f32) (harg6 : arg6.IsWhole)
    (f : Buf (Elt F) (arg6.view.loc (c : Thread nD τ))) :
    (arg6.view.loc (c : Thread nD τ) ↦{fullShare} f : sProp 𝕄) ⊢ bigSep Finset.univ (ownedRow (F := F) c arg6) :=
  (Entails.of_eq (Ring.pointsTo_blocks (ℓ := arg6.view.loc (c : Thread nD τ)) (q := fullShare) (rowSet arg6)
      (rows_disjoint arg6) (rows_cover arg6 harg6) f)).trans
    (BI.bigSep_mono fun r _ => by
      show (arg6.view.loc (c : Thread nD τ) ↦[rowSet arg6 r]{fullShare} f : sProp 𝕄) ⊢ ownedRow c arg6 r
      unfold ownedRow; iintro H; iexists f; iexact H)

theorem rows_split (c : Dev nD) (arg6 : Memref sig .tc .vmem S1024x256 .f32) (harg6 : arg6.IsWhole) :
    iprop(∃ s, owns (c : Thread nD τ) arg6 fullShare s) ⊢ (bigSep Finset.univ (ownedRow (F := F) c arg6) : sProp 𝕄) := by
  rw [Memref.IsWhole.exists_owns_eq harg6 fullShare]
  iintro ⟨%f, H⟩
  iapply (rows_split_at c arg6 harg6 f); iexact H

/-- All 64 lanes idle are the 64 cells at zero and the 64 read tokens of the table. -/
theorem idle_all (c : Dev nD) (arg2 : Memref sig .tc .hbm S1024x512x256 .f32) (harg2 : arg2.IsWhole) (arg7 : DmaSems sig S64)
    (T : S1024x512x256.Idx → Elt F .f32) :
    (bigSep Finset.univ (idleLane c arg2 harg2 arg7 T) : sProp 𝕄)
      = iprop(bigSep Finset.univ (fun j : Fin 64 => semVal ((c : Thread nD τ), SemLoc.dma (cellOfLane arg7 j)) 0)
          ∗ bigSep Finset.univ (fun j : Fin 64 => (arg2.view.loc (c : Thread nD τ) ↦{Transfers.shareTok fullShare 64 j} harg2.unread T))) :=
  BI.bigSep_sep Finset.univ _ _

/-- Before the first chunk: from the index table, the table of rows and the scratch owned whole, the 64 cells at zero
    and the core owing nothing, the family with nothing started. -/
theorem St_entry (c : Dev nD) (i : grid0.Coords) (arg1 : Memref sig .tc .smem S65536 .i32) (harg1 : arg1.IsWhole)
    (arg2 : Memref sig .tc .hbm S1024x512x256 .f32) (harg2 : arg2.IsWhole)
    (arg6 : Memref sig .tc .vmem S1024x256 .f32) (harg6 : arg6.IsWhole) (arg7 : DmaSems sig S64)
    (q1 : PosShare TreeShare) (tb : S65536.Idx → BitVec 32) (T : S1024x512x256.Idx → Elt F .f32) (WB : Waits sig Unit)
    (Wt : Waits sig Unit) (hWt : Wt ⊆ WB) :
    (iprop(owns (c : Thread nD τ) arg1 q1 tb ∗ owns (c : Thread nD τ) arg2 fullShare T
        ∗ (∃ s, owns (c : Thread nD τ) arg6 fullShare s)
        ∗ (bigSep Finset.univ fun j : Fin 64 => semVal ((c : Thread nD τ), SemLoc.dma (cellOfLane arg7 j)) 0)
        ∗ owes (c : Thread nD τ) 0 Wt) : sProp 𝕄)
      ⊢ St c i arg1 harg1 arg2 harg2 arg6 arg7 q1 tb T WB 0 0 0 := by
  unfold St
  simp only [Nat.zero_add, Nat.add_zero]
  rw [Ring.bigSep_rangeSet_empty (le_refl 0), Ring.bigSep_rangeSet_empty (le_refl 0), Ring.bigSep_rangeSet_empty (le_refl 0),
    Ring.rangeSet_univ, Ring.rangeSet_univ, idle_all]
  iintro ⟨H1, H2, H6, Hc, Ho⟩
  ihave H1' := (Entails.of_eq (owns_unread c arg1 harg1 q1 tb)) $$ H1
  ihave H2' := (Entails.of_eq (owns_unread c arg2 harg2 fullShare T)) $$ H2
  ihave HR := (rows_split c arg6 harg6) $$ H6
  ihave HT := (Transfers.pointsTo_toks_split fullShare 64) $$ H2'
  icases HT with ⟨HD, HT⟩
  isplitl [H1']; · iexact H1'
  isplitr; · iempintro
  isplitr; · iempintro
  isplitl [HR]; · iexact HR
  isplitr; · iempintro
  isplitl [Hc HT]
  · isplitl [Hc]; · iexact Hc
    iexact HT
  isplitl [HD]; · iexact HD
  iexists Wt; isplitr
  · ipureintro; exact hWt
  · iexact Ho

end Cert.Kernel.Hand

end
-- ==== Proof.K.Parts.lean ====
import proofs.«406790_j29661044146287_2_alg».proof.Proof.K.Steps
import proofs.«406790_j29661044146287_2_alg».proof.Proof.K.Conv

/-! # The three printed parts of the gather, loop after loop

Part 1 runs loops 1 to 9, part 2 loops 10 to 19, part 3 loops 20 to 29. Each loop is taken by its
loop lemma from the family at the loop's chunk; after a wait loop the chunk is complete and the
family is the family at the next chunk with nothing started (the chunk equation). A part ends by
returning words the rest does not read. -/

set_option maxHeartbeats 1000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

variable (c : Dev nD) (i : grid0.Coords)
  (arg1 : Memref sig .tc .smem S65536 .i32) (harg1 : arg1.IsWhole)
  (arg2 : Memref sig .tc .hbm S1024x512x256 .f32) (harg2 : arg2.IsWhole)
  (arg3 : Memref sig .tc .vmem S256x256 .f32) (harg3 : arg3.IsWhole)
  (arg4 : Memref sig .tc .vmem S256 .f32) (harg4 : arg4.IsWhole)
  (arg5 : Memref sig .tc .vmem S16x256 .f32) (harg5 : arg5.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)
  (hidx : ∀ j, (tb j).toNat < 512) (hWB : ∀ j : Fin 64, (SemLoc.dma (cellOfLane arg7 j), ()) ∈ WB)
  (v0 w0 : BitVec 32)
include hidx hWB

local notation "ST" => St c i arg1 harg1 arg2 harg2 arg6 arg7 q1 tb T WB
local notation "WP" => wp frame (wpE defs₀ Variants.none (c : Thread nD τ) none) Set.univ

/-- Loops 1 to 9: the chunks at 0, 64, 128 and 192 gathered, the chunk at 256 started. -/
theorem part1_triple : (ST 0 0 0 : sProp 𝕄) ⊢ WP (k0_part1 i arg1 harg1 arg2 harg2 arg3 harg3 arg4 harg4 arg5 harg5 arg6 harg6 arg7) (fun _ => ST 256 64 0) := by
  rw [k0_part1_eq_skeleton]
  unfold k0_part1_skel
  extract_lets a0 u0
  iintro H
  iapply (loop_1 c i arg1 harg1 arg2 harg2 arg3 harg3 arg4 harg4 arg5 harg5 arg6 harg6 arg7 q1 tb T WB hidx hWB) $$ [H]
  · iexact H
  iintro H
  iapply (loop_2 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 0)) $$ H
  iapply (loop_3 c i arg1 harg1 arg2 harg2 arg3 harg3 arg4 harg4 arg5 harg5 arg6 harg6 arg7 q1 tb T WB hidx hWB) $$ [H]
  · iexact H
  iintro H
  iapply (loop_4 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 64)) $$ H
  iapply (loop_5 c i arg1 harg1 arg2 harg2 arg3 harg3 arg4 harg4 arg5 harg5 arg6 harg6 arg7 q1 tb T WB hidx hWB) $$ [H]
  · iexact H
  iintro H
  iapply (loop_6 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 128)) $$ H
  iapply (loop_7 c i arg1 harg1 arg2 harg2 arg3 harg3 arg4 harg4 arg5 harg5 arg6 harg6 arg7 q1 tb T WB hidx hWB) $$ [H]
  · iexact H
  iintro H
  iapply (loop_8 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 192)) $$ H
  iapply (loop_9 c i arg1 harg1 arg2 harg2 arg3 harg3 arg4 harg4 arg5 harg5 arg6 harg6 arg7 q1 tb T WB hidx hWB) $$ [H]
  · iexact H
  iintro H
  rw [wp_pure]
  imodintro
  iexact H

/-- Loops 10 to 19: the chunks up to 512 gathered, the chunk at 576 started. -/
theorem part2_triple : (ST 256 64 0 : sProp 𝕄) ⊢ WP (k0_part2 i arg1 harg1 arg2 harg2 arg3 harg3 arg4 harg4 arg5 harg5 arg6 harg6 arg7 v0 w0) (fun _ => ST 576 64 0) := by
  rw [k0_part2_eq_skeleton]
  unfold k0_part2_skel
  iintro H
  iapply (loop_10 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 256)) $$ H
  iapply (loop_11 c i arg1 harg1 arg2 harg2 arg3 harg3 arg4 harg4 arg5 harg5 arg6 harg6 arg7 q1 tb T WB hidx hWB v0 w0) $$ [H]
  · iexact H
  iintro H
  iapply (loop_12 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 320)) $$ H
  iapply (loop_13 c i arg1 harg1 arg2 harg2 arg3 harg3 arg4 harg4 arg5 harg5 arg6 harg6 arg7 q1 tb T WB hidx hWB v0 w0) $$ [H]
  · iexact H
  iintro H
  iapply (loop_14 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 384)) $$ H
  iapply (loop_15 c i arg1 harg1 arg2 harg2 arg3 harg3 arg4 harg4 arg5 harg5 arg6 harg6 arg7 q1 tb T WB hidx hWB v0 w0) $$ [H]
  · iexact H
  iintro H
  iapply (loop_16 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 448)) $$ H
  iapply (loop_17 c i arg1 harg1 arg2 harg2 arg3 harg3 arg4 harg4 arg5 harg5 arg6 harg6 arg7 q1 tb T WB hidx hWB v0 w0) $$ [H]
  · iexact H
  iintro H
  iapply (loop_18 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 512)) $$ H
  iapply (loop_19 c i arg1 harg1 arg2 harg2 arg3 harg3 arg4 harg4 arg5 harg5 arg6 harg6 arg7 q1 tb T WB hidx hWB v0 w0) $$ [H]
  · iexact H
  iintro H
  rw [wp_pure]
  imodintro
  iexact H

/-- Loops 20 to 29: the chunks up to 832 gathered, the chunk at 896 started. -/
theorem part3_triple : (ST 576 64 0 : sProp 𝕄) ⊢ WP (k0_part3 i arg1 harg1 arg2 harg2 arg3 harg3 arg4 harg4 arg5 harg5 arg6 harg6 arg7 v0 w0) (fun _ => ST 896 64 0) := by
  rw [k0_part3_eq_skeleton]
  unfold k0_part3_skel
  iintro H
  iapply (loop_20 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 576)) $$ H
  iapply (loop_21 c i arg1 harg1 arg2 harg2 arg3 harg3 arg4 harg4 arg5 harg5 arg6 harg6 arg7 q1 tb T WB hidx hWB v0 w0) $$ [H]
  · iexact H
  iintro H
  iapply (loop_22 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 640)) $$ H
  iapply (loop_23 c i arg1 harg1 arg2 harg2 arg3 harg3 arg4 harg4 arg5 harg5 arg6 harg6 arg7 q1 tb T WB hidx hWB v0 w0) $$ [H]
  · iexact H
  iintro H
  iapply (loop_24 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 704)) $$ H
  iapply (loop_25 c i arg1 harg1 arg2 harg2 arg3 harg3 arg4 harg4 arg5 harg5 arg6 harg6 arg7 q1 tb T WB hidx hWB v0 w0) $$ [H]
  · iexact H
  iintro H
  iapply (loop_26 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 768)) $$ H
  iapply (loop_27 c i arg1 harg1 arg2 harg2 arg3 harg3 arg4 harg4 arg5 harg5 arg6 harg6 arg7 q1 tb T WB hidx hWB v0 w0) $$ [H]
  · iexact H
  iintro H
  iapply (loop_28 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 832)) $$ H
  iapply (loop_29 c i arg1 harg1 arg2 harg2 arg3 harg3 arg4 harg4 arg5 harg5 arg6 harg6 arg7 q1 tb T WB hidx hWB v0 w0) $$ [H]
  · iexact H
  iintro H
  rw [wp_pure]
  imodintro
  iexact H

end Cert.Kernel.Hand
end
-- ==== Proof.K.ConvExit.lean ====
import proofs.«406790_j29661044146287_2_alg».proof.Proof.K.Res
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

section Exit

variable (c : Dev nD) (i : grid0.Coords)
  (arg1 : Memref sig .tc .smem S65536 .i32) (harg1 : arg1.IsWhole)
  (arg2 : Memref sig .tc .hbm S1024x512x256 .f32) (harg2 : arg2.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)

/-- A whole memref owned at `X` is its buffer held at the contents that read `X`. -/
theorem owns_whole_unread {sp : Space} {sh : Shape} {e : EltTy} (m : Memref sig .tc sp sh e) (h : m.IsWhole)
    (q : PosShare TreeShare) (X : sh.Idx → Elt F e) :
    (owns (c : Thread nD τ) m q X : sProp 𝕄) = (m.view.loc (c : Thread nD τ) ↦{q} h.unread X) := by
  unfold owns
  rw [h.set_eq_univ]
  have h₁ : iprop(∃ f, ⌜m.view.read (Elt F) f = X⌝ ∗ (m.view.loc (c : Thread nD τ) ↦{q} f))
      ⊢ (m.view.loc (c : Thread nD τ) ↦{q} h.unread X : sProp 𝕄) := by
    iintro ⟨%f, %hf, H⟩
    obtain rfl := h.eq_unread hf
    iexact H
  have h₂ : (m.view.loc (c : Thread nD τ) ↦{q} h.unread X : sProp 𝕄)
      ⊢ iprop(∃ f, ⌜m.view.read (Elt F) f = X⌝ ∗ (m.view.loc (c : Thread nD τ) ↦{q} f)) := by
    iintro H
    iexists h.unread X
    isplitr; · ipureintro; exact h.read_unread X
    iexact H
  exact BI.equiv_iff.mp ⟨h₁, h₂⟩

/-- A scratch row's elements: the buffer's under the row's rectangle. -/
def rowEls (r : Fin 1024) : Finset arg6.view.ty.Idx :=
  (Rect.unit (s := S1024x256) ![r.val, 0] S1x256.size (row_inb r)).set.map arg6.view.emb

theorem rowEls_eq (r : Fin 1024) : ((rowM arg6 r).view.set : Finset arg6.view.ty.Idx) = rowEls arg6 r := by
  unfold rowM rowEls; exact (View.set_reshape _ _).trans (View.set_slice _ _)

/-- Distinct rows share no element. -/
theorem rowEls_disjoint : ∀ r r' : Fin 1024, r ≠ r' → Disjoint (rowEls arg6 r) (rowEls arg6 r') := by
  intro r r' h
  unfold rowEls
  rw [Finset.disjoint_map]
  refine Rect.unit_disjoint 0 ?_
  have : r.val ≠ r'.val := fun e => h (Fin.ext e)
  show r.val + 1 ≤ r'.val ∨ r'.val + 1 ≤ r.val
  omega

include harg6 in
/-- The rows make up the scratch. -/
theorem rowEls_cover : Finset.univ.biUnion (rowEls arg6) = Finset.univ := by
  ext x
  simp only [Finset.mem_biUnion, Finset.mem_univ, true_and, iff_true]
  have hx : x ∈ arg6.view.set := by rw [harg6.set_eq_univ]; exact Finset.mem_univ _
  obtain ⟨y, -, rfl⟩ := Finset.mem_map.mp hx
  refine ⟨(y 0 : Fin 1024), ?_⟩
  unfold rowEls
  refine Finset.mem_map_of_mem _ (Rect.mem_set_unit.mpr fun a => ?_)
  have h1 : (y 1).val < 256 := (y 1).isLt
  fin_cases a
  · show (y 0).val ≤ (y 0).val ∧ (y 0).val < (y 0).val + 1; omega
  · show 0 ≤ (y 1).val ∧ (y 1).val < 0 + 256; omega

/-- Held by its own elements, a memref at the representative of what some contents read is the memref at those contents. -/
theorem pointsTo_rep_of_read {sp : Space} {sh : Shape} {e : EltTy} (m : Memref sig .tc sp sh e) (q : PosShare TreeShare)
    (f : Buf (Elt F) (m.view.loc (c : Thread nD τ))) (X : sh.Idx → Elt F e) (hf : m.view.read (Elt F) f = X) :
    (m.view.loc (c : Thread nD τ) ↦[m.view.set]{q} m.view.rep X : sProp 𝕄) = (m.view.loc (c : Thread nD τ) ↦[m.view.set]{q} f) := by
  subst hf
  exact (pointsTo_rep (Ix := Unit) (Name := ℕ) (U := UR sig nD τ × Counters) (Lvl := ℕ) (c : Thread nD τ) m f q).symm

/-- A row at its gathered contents is the row's elements of the scratch at the gathered scratch. -/
theorem landedRow_eq (r : Fin 1024) :
    landedRow c i arg6 tb T r
      = (arg6.view.loc (c : Thread nD τ) ↦[rowEls arg6 r]{fullShare} harg6.unread (gath i tb T) : sProp 𝕄) := by
  have hf : (rowM arg6 r).view.read (Elt F) (harg6.unread (gath i tb T)) = gathRow i tb T r :=
    funext fun x => congrFun (harg6.read_unread (gath i tb T)) (rowIdx r x)
  exact (pointsTo_rep_of_read c (rowM arg6 r) fullShare (harg6.unread (gath i tb T)) (gathRow i tb T r) hf).trans
    (congrArg (fun s => (arg6.view.loc (c : Thread nD τ) ↦[s]{fullShare} harg6.unread (gath i tb T) : sProp 𝕄)) (rowEls_eq arg6 r))

/-- The rows at their gathered contents are the scratch at the gathered scratch. -/
theorem rows_join :
    bigSep Finset.univ (landedRow c i arg6 tb T)
      = (arg6.view.loc (c : Thread nD τ) ↦{fullShare} harg6.unread (gath i tb T) : sProp 𝕄) := by
  exact (bigSep_congr fun r _ => landedRow_eq c i arg6 harg6 tb T r).trans
    (Ring.pointsTo_blocks (ℓ := arg6.view.loc (c : Thread nD τ)) (q := fullShare) (rowEls arg6) (rowEls_disjoint arg6)
      (rowEls_cover arg6 harg6) (harg6.unread (gath i tb T))).symm

/-- The 64 idle lanes are the 64 cells at zero and the 64 read tokens of the table. -/
theorem lanes_split :
    bigSep Finset.univ (idleLane c arg2 harg2 arg7 T)
      = iprop(bigSep Finset.univ (fun j : Fin 64 => semVal ((c : Thread nD τ), SemLoc.dma (cellOfLane arg7 j)) 0)
          ∗ bigSep Finset.univ (fun j : Fin 64 => (arg2.view.loc (c : Thread nD τ) ↦{Transfers.shareTok fullShare 64 j} harg2.unread T : sProp 𝕄))) := by
  unfold idleLane
  exact BI.bigSep_sep _ _ _

include harg6 in
/-- THE EXIT: after the last chunk's waits every row holds its gathered row and every lane is idle: the scratch is
    held whole at the gathered scratch, the index table and the table as at entry, the 64 cells at zero. -/
theorem St_exit (hidx : ∀ j, (tb j).toNat < 512) :
    St c i arg1 harg1 arg2 harg2 arg6 arg7 q1 tb T WB 960 64 64
      ⊢ iprop(owns (c : Thread nD τ) arg1 q1 tb ∗ owns (c : Thread nD τ) arg2 fullShare T
          ∗ owns (c : Thread nD τ) arg6 fullShare (gath i tb T)
          ∗ bigSep Finset.univ (fun j : Fin 64 => semVal ((c : Thread nD τ), SemLoc.dma (cellOfLane arg7 j)) 0)
          ∗ ∃ W' : Waits sig Unit, ⌜W' ⊆ WB⌝ ∗ owes (c : Thread nD τ) 0 W') := by
  unfold St
  rw [show (960 : ℕ) + 64 = 1024 from rfl, Ring.rangeSet_univ, Ring.rangeSet_univ,
    Ring.bigSep_rangeSet_empty (Φ := flightRow c i arg2 harg2 arg6 arg7 tb T) (le_refl 1024),
    Ring.bigSep_rangeSet_empty (Φ := ownedRow (F := F) c arg6) (le_refl 1024),
    Ring.bigSep_rangeSet_empty (Φ := idleLane c arg2 harg2 arg7 T) (le_refl 64)]
  iintro ⟨H1, Hrows, -, -, Hid, -, H2, HO⟩
  ihave Hrows' := (Entails.of_eq (rows_join c i arg6 harg6 tb T)) $$ Hrows
  ihave Hid' := (Entails.of_eq (lanes_split c arg2 harg2 arg7 T)) $$ Hid
  icases Hid' with ⟨Hcells, Htoks⟩
  isplitl [H1]
  · iapply (Entails.of_eq (owns_whole_unread c arg1 harg1 q1 tb).symm); iexact H1
  isplitl [H2 Htoks]
  · iapply (Entails.of_eq (owns_whole_unread c arg2 harg2 fullShare T).symm)
    iapply (Transfers.pointsTo_toks_join fullShare 64)
    isplitl [H2]; · iexact H2
    iexact Htoks
  isplitl [Hrows']
  · iapply (Entails.of_eq (owns_whole_unread c arg6 harg6 fullShare (gath i tb T)).symm); iexact Hrows'
  isplitl [Hcells]; · iexact Hcells
  iexact HO

end Exit

end Cert.Kernel.Hand
end
-- ==== Proof.K.Body.lean ====
import proofs.«406790_j29661044146287_2_alg».proof.Proof.K.Parts
import proofs.«406790_j29661044146287_2_alg».proof.Proof.K.ConvExit

/-! # The kernel function at a grid point

The kernel function is its three printed parts (loops 1 to 29 of the gather), the loops 30, 31 and 32, then the
loads of the weights, the bias and the whole scratch, and one store of the pooled block. The gather is taken from
the family of its resources: entered from the buffers, the 64 semaphore cells at zero and the core's waits; left
with the scratch holding the gathered rows. The loads read what the buffers hold, and the store leaves the pooled
block of the gathered rows in the output block. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-! ## The loads and the store after the gather -/

/-- A load of everything (a unit-stride rectangle at offset zero of the full sizes) through a whole memref held at
    the contents that read `X` reads `X`. -/
theorem readAt_unit0_unread {sp : Space} {s : Shape} {e : EltTy} {m : Memref sig .tc sp s e} (h : m.IsWhole)
    (X : s.Idx → Elt F e) (off : Fin s.rank → ℕ) (hoff : ∀ a, off a = 0) (inb : ∀ a, off a + s.size a ≤ s.size a) :
    View.readAt (Elt F) m.view (Rect.unit (s := s) off s.size inb).toLoadRect (h.unread X) = X := by
  funext x
  rw [Memref.IsWhole.readAt_unread]
  congr 1
  funext a
  apply Fin.ext
  show off a + 1 * (x a : ℕ) = x a
  rw [hoff a]; omega

/-- What a piece covering everything reads back: its payload. -/
theorem read_writes_unit0 {κ : Kind} {sp : Space} {s : Shape} {e : EltTy} (v : View sig κ sp s e) (f : v.ty.Contents (Elt F))
    (off : Fin s.rank → ℕ) (hoff : ∀ a, off a = 0) (inb : ∀ a, off a + s.size a ≤ s.size a) (P : s.Idx → Elt F e) :
    v.read (Elt F) (v.writes (Elt F) f [⟨Rect.unit (s := s) off s.size inb, P⟩]) = P := by
  funext y
  have h := View.read_writes_cons_emb v f (Rect.unit (s := s) off s.size inb) P [] y
  have e' : (Rect.unit (s := s) off s.size inb).emb y = y := by
    funext a
    apply Fin.ext
    show off a + 1 * (y a : ℕ) = y a
    rw [hoff a]; omega
  rwa [e'] at h

theorem vec2_zero : ∀ a : Fin 2, (![0, 0] : Fin 2 → ℕ) a = 0 := by decide
theorem vec1_zero : ∀ a : Fin 1, (![0] : Fin 1 → ℕ) a = 0 := by decide

/-- The program after the last loop: four whole loads and the store of the pooled block. -/
def tailProg (arg3 : Memref sig .tc .vmem S256x256 .f32) (arg4 : Memref sig .tc .vmem S256 .f32)
    (arg5 : Memref sig .tc .vmem S16x256 .f32) (arg6 : Memref sig .tc .vmem S1024x256 .f32) :
    Prog (TpuEff nD τ sig (Elt F) Λ₀ .tc) PUnit := do
  let v33 : Vec F S256x256 .f32 ← Prog.lift (.load arg3 (Rect.unit (s := S256x256) ![0, 0] S256x256.size inb_S256x256_S256x256_0_0).toLoadRect (View.loadsAt_vmem h_S256x256))
  let v34 : Vec F S256 .f32 ← Prog.lift (.load arg4 (Rect.unit (s := S256) ![0] S256.size inb_S256_S256_0).toLoadRect (View.loadsAt_vmem h_S256))
  let v35 : Vec F S1024x256 .f32 ← Prog.lift (.load arg6 (Rect.unit (s := S1024x256) ![0, 0] S1024x256.size inb_S1024x256_S1024x256_0_0).toLoadRect (View.loadsAt_vmem h_S1024x256))
  let v45 : Vec F S16x256 .f32 ← Prog.lift (.load arg5 (Rect.unit (s := S16x256) ![0, 0] S16x256.size inb_S16x256_S16x256_0_0).toLoadRect (View.loadsAt_vmem h_S16x256))
  Prog.lift (.store arg5 (Rect.unit (s := S16x256) ![0, 0] S16x256.size inb_S16x256_S16x256_0_0) (k0_pay1 v33 v34 v35) Finset.univ (View.stores_vmem_bits_univ h_S16x256 rfl) (.inl rfl))
  pure ⟨⟩

set_option maxHeartbeats 1600000 in
/-- The loads read the contents held; the store leaves the pooled block of what was loaded. -/
theorem tail_triple (c : Dev nD)
    (arg3 : Memref sig .tc .vmem S256x256 .f32) (harg3 : arg3.IsWhole)
    (arg4 : Memref sig .tc .vmem S256 .f32) (harg4 : arg4.IsWhole)
    (arg5 : Memref sig .tc .vmem S16x256 .f32) (harg5 : arg5.IsWhole)
    (arg6 : Memref sig .tc .vmem S1024x256 .f32) (harg6 : arg6.IsWhole)
    (Wb : S256x256.Idx → Elt F .f32) (bb : S256.Idx → Elt F .f32) (G : S1024x256.Idx → Elt F .f32) :
    (iprop(owns (c : Thread nD τ) arg3 fullShare Wb ∗ owns (c : Thread nD τ) arg4 fullShare bb
        ∗ owns (c : Thread nD τ) arg6 fullShare G ∗ (∃ o, owns (c : Thread nD τ) arg5 fullShare o)) : sProp 𝕄)
      ⊢ wp frame (wpE defs₀ Variants.none (c : Thread nD τ) none) Set.univ
          (tailProg (F := F) arg3 arg4 arg5 arg6)
          (fun _ => iprop(owns (c : Thread nD τ) arg3 fullShare Wb ∗ owns (c : Thread nD τ) arg4 fullShare bb
            ∗ owns (c : Thread nD τ) arg6 fullShare G
            ∗ owns (c : Thread nD τ) arg5 fullShare (k0_pay1 Wb bb G))) := by
  unfold owns
  iintro ⟨⟨%f3, %h3, H3⟩, ⟨%f4, %h4, H4⟩, ⟨%f6, %h6, H6⟩, ⟨%o, %f5, %h5, H5⟩⟩
  unfold tailProg
  obtain rfl := harg3.eq_unread h3
  obtain rfl := harg4.eq_unread h4
  obtain rfl := harg6.eq_unread h6
  sl_exec
  rw [wp_ret]
  imodintro
  isplitl [H3]
  · iexists _; isplitr
    · ipureintro; exact harg3.read_unread _
    · iexact H3
  isplitl [H4]
  · iexists _; isplitr
    · ipureintro; exact harg4.read_unread _
    · iexact H4
  isplitl [H6]
  · iexists _; isplitr
    · ipureintro; exact harg6.read_unread _
    · iexact H6
  iexists _; isplitr
  on_goal 2 => iexact H5
  ipureintro
  rw [read_writes_unit0 _ _ _ vec2_zero, readAt_unit0_unread harg3 Wb _ vec2_zero, readAt_unit0_unread harg4 bb _ vec1_zero,
    readAt_unit0_unread harg6 G _ vec2_zero]

/-! ## The kernel function -/

section
variable (c : Dev nD) (i : grid0.Coords)
  (arg1 : Memref sig .tc .smem S65536 .i32) (harg1 : arg1.IsWhole)
  (arg2 : Memref sig .tc .hbm S1024x512x256 .f32) (harg2 : arg2.IsWhole)
  (arg3 : Memref sig .tc .vmem S256x256 .f32) (harg3 : arg3.IsWhole)
  (arg4 : Memref sig .tc .vmem S256 .f32) (harg4 : arg4.IsWhole)
  (arg5 : Memref sig .tc .vmem S16x256 .f32) (harg5 : arg5.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)
  (hidx : ∀ j, (tb j).toNat < 512) (hWB : ∀ j : Fin 64, (SemLoc.dma (cellOfLane arg7 j), ()) ∈ WB)
include hidx hWB

local notation "ST" => St c i arg1 harg1 arg2 harg2 arg6 arg7 q1 tb T WB
local notation "WP" => wp frame (wpE defs₀ Variants.none (c : Thread nD τ) none) Set.univ

set_option maxHeartbeats 1000000 in
/-- The kernel function at a grid point, over a bound `WB` on the waits it may record: the gather fills the scratch,
    the weights, the bias and the scratch are loaded whole and the pooled block is stored whole. -/
theorem body_inner (Wb : S256x256.Idx → Elt F .f32) (bb : S256.Idx → Elt F .f32) (Wt : Waits sig Unit) (hWt : Wt ⊆ WB) :
    (iprop(owns (c : Thread nD τ) arg1 q1 tb ∗ owns (c : Thread nD τ) arg2 fullShare T
        ∗ owns (c : Thread nD τ) arg3 fullShare Wb ∗ owns (c : Thread nD τ) arg4 fullShare bb
        ∗ (∃ o, owns (c : Thread nD τ) arg5 fullShare o) ∗ (∃ s, owns (c : Thread nD τ) arg6 fullShare s)
        ∗ (bigSep Finset.univ fun j : Fin 64 => semVal ((c : Thread nD τ), SemLoc.dma (cellOfLane arg7 j)) 0)
        ∗ owes (c : Thread nD τ) 0 Wt) : sProp 𝕄)
      ⊢ WP (cc0__gather_linear_tanh_pool_kernel i arg1 harg1 arg2 harg2 arg3 harg3 arg4 harg4 arg5 harg5 arg6 harg6 arg7)
          (fun _ => iprop(owns (c : Thread nD τ) arg1 q1 tb ∗ owns (c : Thread nD τ) arg2 fullShare T
            ∗ owns (c : Thread nD τ) arg3 fullShare Wb ∗ owns (c : Thread nD τ) arg4 fullShare bb
            ∗ owns (c : Thread nD τ) arg5 fullShare (k0_pay1 Wb bb (gath i tb T))
            ∗ (∃ s, owns (c : Thread nD τ) arg6 fullShare s)
            ∗ (bigSep Finset.univ fun j : Fin 64 => semVal ((c : Thread nD τ), SemLoc.dma (cellOfLane arg7 j)) 0)
            ∗ (∃ W', ⌜W' ⊆ WB⌝ ∗ owes (c : Thread nD τ) 0 W'))) := by
  rw [cc0__gather_linear_tanh_pool_kernel_eq_skeleton]
  unfold cc0__gather_linear_tanh_pool_kernel_skel
  iintro ⟨H1, H2, H3, H4, H5, H6, Hc, Ho⟩
  ihave H := (St_entry c i arg1 harg1 arg2 harg2 arg6 harg6 arg7 q1 tb T WB Wt hWt) $$ [H1 H2 H6 Hc Ho]
  · isplitl [H1]
    · iexact H1
    isplitl [H2]
    · iexact H2
    isplitl [H6]
    · iexact H6
    isplitl [Hc]
    · iexact Hc
    iexact Ho
  rw [wp_bind]
  iapply (wp_wand_r frame (wpE defs₀ Variants.none (c : Thread nD τ) none) Set.univ)
  isplitl [H]
  · iapply (part1_triple c i arg1 harg1 arg2 harg2 arg3 harg3 arg4 harg4 arg5 harg5 arg6 harg6 arg7 q1 tb T WB hidx hWB) $$ H
  iintro %r H
  rcases r with ⟨u0, u1⟩
  dsimp only
  rw [wp_bind]
  iapply (wp_wand_r frame (wpE defs₀ Variants.none (c : Thread nD τ) none) Set.univ)
  isplitl [H]
  · iapply (part2_triple c i arg1 harg1 arg2 harg2 arg3 harg3 arg4 harg4 arg5 harg5 arg6 harg6 arg7 q1 tb T WB hidx hWB u0 u1) $$ H
  iintro %u2 H
  rw [wp_bind]
  iapply (wp_wand_r frame (wpE defs₀ Variants.none (c : Thread nD τ) none) Set.univ)
  isplitl [H]
  · iapply (part3_triple c i arg1 harg1 arg2 harg2 arg3 harg3 arg4 harg4 arg5 harg5 arg6 harg6 arg7 q1 tb T WB hidx hWB u0 u2) $$ H
  iintro %u3 H
  iapply (loop_30 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 896)) $$ H
  iapply (loop_31 c i arg1 harg1 arg2 harg2 arg3 harg3 arg4 harg4 arg5 harg5 arg6 harg6 arg7 q1 tb T WB hidx hWB) $$ [H]
  · iexact H
  iintro H
  iapply (loop_32 c i arg1 harg1 arg2 harg2 arg3 harg3 arg4 harg4 arg5 harg5 arg6 harg6 arg7 q1 tb T WB hidx hWB) $$ [H]
  · iexact H
  iintro H
  ihave H := (St_exit c i arg1 harg1 arg2 harg2 arg6 harg6 arg7 q1 tb T WB hidx) $$ H
  icases H with ⟨H1, H2, H6, Hc, Ho⟩
  iapply (wp_wand_r frame (wpE defs₀ Variants.none (c : Thread nD τ) none) Set.univ)
  isplitl [H3 H4 H6 H5]
  · iapply (tail_triple c arg3 harg3 arg4 harg4 arg5 harg5 arg6 harg6 Wb bb (gath i tb T)) $$ [H3 H4 H6 H5]
    isplitl [H3]
    · iexact H3
    isplitl [H4]
    · iexact H4
    isplitl [H6]
    · iexact H6
    iexact H5
  iintro %u ⟨H3, H4, H6, H5⟩
  isplitl [H1]
  · iexact H1
  isplitl [H2]
  · iexact H2
  isplitl [H3]
  · iexact H3
  isplitl [H4]
  · iexact H4
  isplitl [H5]
  · iexact H5
  isplitl [H6]
  · iexists _
    iexact H6
  isplitl [Hc]
  · iexact Hc
  iexact Ho

end

/-- THE TRIPLE of the kernel function at grid point `i`, over memrefs known only to be whole: from the index table,
    the table, the weights, the bias, the output block and the scratch at any contents, the 64 cells at zero and the
    core's waits `Wt`, it leaves the output block at the pooled block of the gathered rows, everything else as
    it was (the scratch at some contents), the waits within `Wt` and the 64 lanes' pairs. -/
theorem body_triple (c : Dev nD) (i : grid0.Coords)
    (arg1 : Memref sig .tc .smem S65536 .i32) (harg1 : arg1.IsWhole)
    (arg2 : Memref sig .tc .hbm S1024x512x256 .f32) (harg2 : arg2.IsWhole)
    (arg3 : Memref sig .tc .vmem S256x256 .f32) (harg3 : arg3.IsWhole)
    (arg4 : Memref sig .tc .vmem S256 .f32) (harg4 : arg4.IsWhole)
    (arg5 : Memref sig .tc .vmem S16x256 .f32) (harg5 : arg5.IsWhole)
    (arg6 : Memref sig .tc .vmem S1024x256 .f32) (harg6 : arg6.IsWhole)
    (q1 : PosShare TreeShare)
    (tb : S65536.Idx → Elt F .i32) (T : S1024x512x256.Idx → Elt F .f32)
    (Wb : S256x256.Idx → Elt F .f32) (bb : S256.Idx → Elt F .f32)
    (hidx : ∀ j, (tb j).toNat < 512) (Wt : Waits sig Unit) :
    (iprop(owns (c : Thread nD τ) arg1 q1 tb ∗ owns (c : Thread nD τ) arg2 fullShare T
        ∗ owns (c : Thread nD τ) arg3 fullShare Wb ∗ owns (c : Thread nD τ) arg4 fullShare bb
        ∗ (∃ o, owns (c : Thread nD τ) arg5 fullShare o) ∗ (∃ s, owns (c : Thread nD τ) arg6 fullShare s)
        ∗ Pipeline.ownSems0 (fun j : Fin 64 => SemLoc.dma (cellOfLane cc0_scratch1 j)) c
        ∗ owes (c : Thread nD τ) 0 Wt) : sProp 𝕄)
      ⊢ wp frame (wpE defs₀ Variants.none (c : Thread nD τ) none) Set.univ
          (cc0__gather_linear_tanh_pool_kernel i arg1 harg1 arg2 harg2 arg3 harg3 arg4 harg4 arg5 harg5 arg6 harg6 cc0_scratch1)
          (fun _ => iprop(owns (c : Thread nD τ) arg1 q1 tb ∗ owns (c : Thread nD τ) arg2 fullShare T
            ∗ owns (c : Thread nD τ) arg3 fullShare Wb ∗ owns (c : Thread nD τ) arg4 fullShare bb
            ∗ owns (c : Thread nD τ) arg5 fullShare (k0_pay1 Wb bb (gath i tb T))
            ∗ (∃ s, owns (c : Thread nD τ) arg6 fullShare s)
            ∗ Pipeline.ownSems0 (fun j : Fin 64 => SemLoc.dma (cellOfLane cc0_scratch1 j)) c
            ∗ (∃ W', ⌜W' ⊆ Wt ∪ Finset.univ.image (fun j : Fin 64 => (SemLoc.dma (cellOfLane cc0_scratch1 j), ()))⌝ ∗ owes (c : Thread nD τ) 0 W'))) := by
  unfold Pipeline.ownSems0
  exact body_inner c i arg1 harg1 arg2 harg2 arg3 harg3 arg4 harg4 arg5 harg5 arg6 harg6 cc0_scratch1 q1 tb T
    (Wt ∪ Finset.univ.image (fun j : Fin 64 => (SemLoc.dma (cellOfLane cc0_scratch1 j), ()))) hidx
    (fun j => Finset.mem_union_right _ (Finset.mem_image_of_mem _ (Finset.mem_univ j))) Wb bb Wt Finset.subset_union_left

end Cert.Kernel.Hand
end
-- ==== Proof.K.Launch.lean ====
/-
  The launch: the body obligation of the pipeline from the kernel function's triple, the run of @main around the
  region by the library's launch theorem for a kernel that reads an operand by its own transfers within each point and
  whose @main goes on after the region with host operations, and the post read off.
-/
import proofs.«406790_j29661044146287_2_alg».proof.Proof.K.Tail
import proofs.«406790_j29661044146287_2_alg».proof.Proof.K.Body

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

variable (m : (ℓ : Loc nD τ sig) → Buf (Elt F) ℓ)

local notation "𝕄" => MT nD τ sig Unit (Elt F) ℕ (Pipeline.UD sig nD τ) ℕ

/-! ## The body obligation -/

/-- A conjunction over a one-element index type is its one conjunct. -/
theorem bigSep_fin1 {M : Type} [URA M] (Φ : Fin 1 → sProp M) : bigSep Finset.univ Φ = Φ 0 :=
  bigSep_univ_eq_bigSepL [(0 : Fin 1)] (by decide) (by decide) Φ

set_option maxHeartbeats 1000000 in
/-- At every point the kernel function, run from the invariant and the windows' current staging buffers, restores the
    invariant and leaves the buffers at the stated contents. -/
theorem body_obligation (hidx : ∀ j, (tblOf m 0 j).toNat < 512) (c : Dev nD) :
    BodyObligationLoose (dats m 0 c) defs₀ Variants.none () Set.univ := fun t => by
  rw [bigSep_W0, bigSep_W0]
  show iprop(iprop(Pipeline.ΦD osem spec0 HB (V m) c ∗ Pipeline.ΦT pre0 (tblOf m) c) ∗ (dats m 0 c).owesAt () t.castSucc
      ∗ (∃ d, owns (c : Thread nD τ) (((cfgA m).win 0).stage ((cfgA m).slots t 0)) fullShare ((dats m 0 c).before 0 t d))
      ∗ (∃ d, owns (c : Thread nD τ) (((cfgA m).win 1).stage ((cfgA m).slots t 1)) fullShare ((dats m 0 c).before 1 t d))
      ∗ (∃ d, owns (c : Thread nD τ) (((cfgA m).win 2).stage ((cfgA m).slots t 2)) fullShare ((dats m 0 c).before 2 t d)))
    ⊢ wp frame (wpE defs₀ Variants.none (c : Thread nD τ) none) Set.univ
        (cc0__gather_linear_tanh_pool_kernel (grid0.coords t) (Memref.whole main_v0) (Memref.isWhole_whole _) (Memref.whole main_arg7) (Memref.isWhole_whole _)
          (spec0_0.stage ((cfgA m).slots t 0)) (hstage0_0 (((cfgA m).slots t 0).cast nbuf0_0))
          (spec0_1.stage ((cfgA m).slots t 1)) (hstage0_1 (((cfgA m).slots t 1).cast nbuf0_1))
          (spec0_2.stage ((cfgA m).slots t 2)) (hstage0_2 (((cfgA m).slots t 2).cast nbuf0_2))
          (Memref.whole cc0_scratch0) (Memref.isWhole_whole _) cc0_scratch1)
        (fun _ => iprop(iprop(Pipeline.ΦD osem spec0 HB (V m) c ∗ Pipeline.ΦT pre0 (tblOf m) c) ∗ (dats m 0 c).owesAt () t.succ
          ∗ owns (c : Thread nD τ) (((cfgA m).win 0).stage ((cfgA m).slots t 0)) fullShare ((dats m 0 c).after 0 t)
          ∗ owns (c : Thread nD τ) (((cfgA m).win 1).stage ((cfgA m).slots t 1)) fullShare ((dats m 0 c).after 1 t)
          ∗ owns (c : Thread nD τ) (((cfgA m).win 2).stage ((cfgA m).slots t 2)) fullShare ((dats m 0 c).after 2 t)))
  have hΦT : (Pipeline.ΦT pre0 (tblOf m) c : sProp 𝕄) = (((c.tc : Thread nD τ).loc main_v0) ↦{fullShare.right} tblOf m 0) :=
    bigSep_fin1 _
  simp only [before_w0 m c, before_w1 m c]
  rw [Pipeline.ΦD_eq, scopedRest0_eq, bigSep_singleton, hΦT]
  iintro ⟨⟨⟨⟨%s, Hsc⟩, Hprng, Hsem, HT7⟩, Htb⟩, ⟨%Wt, %hW, Howes⟩, ⟨%d0, H0⟩, ⟨%d1, H1⟩, ⟨%d2, H2⟩⟩
  ihave Htb' := (Entails.of_eq (owns_whole (c.tc : Thread nD τ) main_v0 fullShare.right (tblOf m 0)).symm) $$ Htb
  ihave HT7' := (Entails.of_eq (owns_whole (c.tc : Thread nD τ) main_arg7 fullShare (V m c main_arg7)).symm) $$ HT7
  ihave Hsc' := (Entails.of_eq (owns_whole (c.tc : Thread nD τ) cc0_scratch0 fullShare s).symm) $$ Hsc
  iapply (wp_wand frame (wpE defs₀ Variants.none (c : Thread nD τ) none) Set.univ) $$ [Htb' HT7' H0 H1 H2 Hsc' Hsem Howes]
  · iapply (body_triple c (grid0.coords t) _ _ _ _ _ _ _ _ _ _ _ _ fullShare.right (tblOf m 0) (V m c main_arg7) (V m c main_arg8) (V m c main_arg9) hidx Wt)
    isplitl [Htb']; · iexact Htb'
    isplitl [HT7']; · iexact HT7'
    isplitl [H0]; · iexact H0
    isplitl [H1]; · iexact H1
    isplitl [H2]; · iexists _; iexact H2
    isplitl [Hsc']; · iexists s; iexact Hsc'
    isplitl [Hsem]; · iexact Hsem
    iexact Howes
  iintro %_ ⟨Htb', HT7', H0, H1, H2, ⟨%s', Hsc'⟩, Hsem, ⟨%W', %hW', Howes⟩⟩
  ihave Htb := (Entails.of_eq (owns_whole (c.tc : Thread nD τ) main_v0 fullShare.right (tblOf m 0))) $$ Htb'
  ihave HT7 := (Entails.of_eq (owns_whole (c.tc : Thread nD τ) main_arg7 fullShare (V m c main_arg7))) $$ HT7'
  ihave Hsc := (Entails.of_eq (owns_whole (c.tc : Thread nD τ) cc0_scratch0 fullShare s')) $$ Hsc'
  isplitl [Hsc Hprng Hsem HT7 Htb]
  · isplitr [Htb]
    · isplitl [Hsc]; · iexists s'; iexact Hsc
      isplitl [Hprng]; · iexact Hprng
      isplitl [Hsem]; · iexact Hsem
      iexact HT7
    · iexact Htb
  isplitl [Howes]
  · iexists W'; isplitr
    · ipureintro; exact fun x _ => Or.inl trivial
    · iexact Howes
  isplitl [H0]; · iexact H0
  isplitl [H1]; · iexact H1
  iexact H2

/-! ## The run -/

variable (g : Dev nD → PrngReg)

set_option maxHeartbeats 1000000 in
/-- From any launch memory whose index words are in range, every weakly fair execution of @main terminates, the
    pipeline's arrays end at what the library computes from the proof data, and every other unscoped buffer at the
    five operations' result from the region's exit contents. -/
theorem run_frame (hidx : ∀ j, (tblOf m 0 j).toNat < 512) :
    θ_run (defs (F := F)) (onTc (τ := τ) (main (F := F))) (s₀ m g)
      (Pipeline.FramePost (Pipeline.pin (pcfgs (F := F)) (adm m)) (dats m) 0
        (Pipeline.afterTail (pcfgs (F := F)) (adm m) (dats m) 0 (V₀ m) [hostOps1 (F := F)])) :=
  Pipeline.θ_run_frameP_dma_around (pcfgs (F := F)) (adm m) (dats m) 0 (launch0 (F := F)) osem defs₀ Variants.none
    ownSemFacts HB HB_sub m g main
    (hbody := body_obligation m hidx)
    (hshare := fun c => (dats m 0 c).share_full fun _ => rfl)
    (howed := fun _ _ => rfl)
    (V₀ := V₀ m) (opss := [hostOps1 (F := F)])
    (hsub := fun ops hops op hop => by
      obtain rfl := List.mem_singleton.mp hops
      exact ((List.forall_iff_forall_mem.mp tail_ok) op hop).1)
    (hfresh := fun ops hops op hop => by
      obtain rfl := List.mem_singleton.mp hops
      exact ((List.forall_iff_forall_mem.mp tail_ok) op hop).2.1)
    (hkeep := fun ops hops op hop => by
      obtain rfl := List.mem_singleton.mp hops
      exact ((List.forall_iff_forall_mem.mp tail_ok) op hop).2.2)
    (hmain := Pipeline.hmainP_around (pcfgs (F := F)) 0 defs₀ Variants.none m main [hostOps0 (F := F)] [hostOps1 (F := F)]
      (hostOps0_sub (F := F)) rfl (fun c => main_chain c))
    (hA := fun _ _ => rfl)
    (hpf := fun c k => by obtain rfl : c = 0 := Subsingleton.elim _ _; rfl)
    (hin := fun c => .rfl)
    (hout := fun c => by
      show iprop(Pipeline.ΦD osem spec0 HB (V m) c ∗ Pipeline.ΦT pre0 (tblOf m) c) ⊢ _
      iintro ⟨H, -⟩; iexact H)

/-! ## The post -/

set_option maxHeartbeats 1000000 in
/-- From any launch memory whose index words are below 512, every weakly fair execution of @main terminates; the result
    is the composed term of the passed-through arguments and the kernel's result array, and the ten arguments hold what
    they held. -/
theorem run_main (hidx : ∀ (c : Dev nD) (j : S1024x64.Idx), (m ((c.tc : Thread nD τ).loc main_arg6) j).toNat < 512) :
    θ_run (defs (F := F)) (onTc (τ := τ) (main (F := F))) ⟨m, fun _ => 0, g⟩ (fun r => ∀ c : Dev nD,
      r.2.mem ((c.tc : Thread nD τ).loc main_v6) = tailTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := F)) _ _).mono
    (fun r h c =>
      have mem : ∀ b : Ref sig .tc, b.isScoped = false → (∀ w, Pipeline.arrRef spec0 w ≠ b) →
          r.2.mem ((c.tc : Thread nD τ).loc b)
            = Pipeline.afterTail (pcfgs (F := F)) (adm m) (dats m) 0 (V₀ m) [hostOps1 (F := F)] c b := fun b hs ha =>
        (h c).2 b (Pipeline.mem_restRefs_of b hs ha)
      have keep : ∀ b : Ref sig .tc, b ∉ ([main_v2, main_v3, main_v4, main_v5, main_v6] : List (Ref sig .tc)) →
          (b.isScoped = false) → (∀ w, Pipeline.arrRef spec0 w ≠ b) → b ≠ main_v0 →
          r.2.mem ((c.tc : Thread nD τ).loc b) = m ((c.tc : Thread nD τ).loc b) := fun b hw hs ha h0 =>
        (mem b hs ha).trans (afterTail_keep m c b hw ha h0)
      ⟨(mem main_v6 rfl (by decide)).trans (afterTail_v6 m c),
       keep main_arg0 (by decide) rfl (by decide) (by decide),
       keep main_arg1 (by decide) rfl (by decide) (by decide),
       keep main_arg2 (by decide) rfl (by decide) (by decide),
       keep main_arg3 (by decide) rfl (by decide) (by decide),
       keep main_arg4 (by decide) rfl (by decide) (by decide),
       keep main_arg5 (by decide) rfl (by decide) (by decide),
       keep main_arg6 (by decide) rfl (by decide) (by decide),
       keep main_arg7 (by decide) rfl (by decide) (by decide),
       ((h c).1 0).trans (((dats m 0 c).arrAt_in 0 rfl _).trans (V_of_ne m c (b := main_arg8) (by decide))),
       ((h c).1 1).trans (((dats m 0 c).arrAt_in 1 rfl _).trans (V_of_ne m c (b := main_arg9) (by decide)))⟩)
    (run_frame m g (tbl_lt m hidx))

end Cert.Kernel.Hand

end
-- ==== Proof.KI.Gath.lean ====
import proofs.«406790_j29661044146287_2_alg».proof.Proof.Gen.KernelIdeal

noncomputable section

namespace Cert.KernelIdeal.Hand

open Cert.KernelIdeal Cert.KernelIdeal.Gen
open Idealize.ShloMosaic Idealize.SL.Sem

variable {F : FTy → Type} [FloatOps F]

/-! ## The gather's geometry

The scratch has 1024 rows of 256 floats. Row `r` of the scratch at grid point `i` receives the table's row
`(16·i + r / 64, w)`, where `w` is the index word at position `1024·i + r` of the flattened index table.
The transfer of row `r` completes on the semaphore cell `r % 64`. -/

theorem row_inb (r : Fin 1024) : ∀ a, (![r.val, 0] : Fin 2 → Nat) a + S1x256.size a ≤ S1024x256.size a := by
  have := r.isLt; intro a; fin_cases a
  · show r.val + 1 ≤ 1024; omega
  · show 0 + 256 ≤ 256; omega

theorem bat_inb (b : Fin 1024) : ∀ a, (![b.val, 0, 0] : Fin 3 → Nat) a + S1x512x256.size a ≤ S1024x512x256.size a := by
  have := b.isLt; intro a; fin_cases a
  · show b.val + 1 ≤ 1024; omega
  · show 0 + 512 ≤ 512; omega
  · show 0 + 256 ≤ 256; omega

theorem idx_inb (w : Fin 512) : ∀ a, (![w.val, 0] : Fin 2 → Nat) a + S1x256.size a ≤ S512x256.size a := by
  have := w.isLt; intro a; fin_cases a
  · show w.val + 1 ≤ 512; omega
  · show 0 + 256 ≤ 256; omega

theorem lane_inb (j : Fin 64) : ∀ a, (![j.val] : Fin 1 → Nat) a + S1.size a ≤ S64.size a := by
  have := j.isLt; intro a; fin_cases a
  show j.val + 1 ≤ 64; omega

/-- Row `r` of the scratch, as a memref of 256 floats. -/
def rowM (arg6 : Memref sig .tc .vmem S1024x256 .f32) (r : Fin 1024) : Memref sig .tc .vmem S256 .f32 :=
  (arg6.slice (Rect.unit (s := S1024x256) ![r.val, 0] S1x256.size (row_inb r)) (fun _ => rfl)).squeeze S256 squeezes_S1x256_S256

/-- Row `w` of batch row `b` of the table, as a memref of 256 floats. -/
def srcM (arg2 : Memref sig .tc .hbm S1024x512x256 .f32) (b : Fin 1024) (w : Fin 512) : Memref sig .tc .hbm S256 .f32 :=
  ((((arg2.slice (Rect.unit (s := S1024x512x256) ![b.val, 0, 0] S1x512x256.size (bat_inb b)) (fun _ => rfl)).squeeze S512x256 squeezes_S1x512x256_S512x256).slice
    (Rect.unit (s := S512x256) ![w.val, 0] S1x256.size (idx_inb w)) (fun _ => rfl)).squeeze S256 squeezes_S1x256_S256)

/-- The semaphore cell of lane `j`. -/
def cellOfLane (arg7 : DmaSems sig S64) (j : Fin 64) : DmaSem sig :=
  ((arg7.slice (Rect.unit (s := S64) ![j.val] S1.size (lane_inb j))).squeeze S_ squeezes_S1_S_).sem

/-- The lane of a scratch row. -/
def laneOf (r : Fin 1024) : Fin 64 := ⟨r.val % 64, Nat.mod_lt _ (by decide)⟩

/-- The batch row a scratch row reads at grid point `i`. -/
def batOf (i : grid0.Coords) (r : Fin 1024) : Fin 1024 :=
  ⟨16 * (i 0).val + r.val / 64, by have h1 : (i 0).val < 64 := (i 0).isLt; have := r.isLt; omega⟩

/-- The position of a scratch row's index word at grid point `i`. -/
def wordAt (i : grid0.Coords) (r : Fin 1024) : S65536.Idx := fun a =>
  ⟨1024 * (i 0).val + r.val, by have h1 : (i 0).val < 64 := (i 0).isLt; have := r.isLt; fin_cases a; show _ < 65536; omega⟩

/-- The table row a scratch row reads (the index word, reduced into range: the words are below 512). -/
def idxOf (i : grid0.Coords) (tb : S65536.Idx → BitVec 32) (r : Fin 1024) : Fin 512 :=
  ⟨(tb (wordAt i r)).toNat % 512, Nat.mod_lt _ (by decide)⟩

/-- The table position a scratch position reads. -/
def srcIdx (i : grid0.Coords) (tb : S65536.Idx → BitVec 32) (y : S1024x256.Idx) : S1024x512x256.Idx := fun a =>
  ⟨![(batOf i (y 0)).val, (idxOf i tb (y 0)).val, (y 1).val] a, by
    have h0 := (batOf i (y 0)).isLt; have h1 := (idxOf i tb (y 0)).isLt; have h2 : (y 1).val < 256 := (y 1).isLt
    fin_cases a
    · exact h0
    · exact h1
    · exact h2⟩

/-- The scratch after the gather at grid point `i`: position `(r, x)` holds the table at
    `(16·i + r / 64, word (1024·i + r), x)`. -/
def gath (i : grid0.Coords) (tb : S65536.Idx → BitVec 32) (T : S1024x512x256.Idx → Elt F .f32) : S1024x256.Idx → Elt F .f32 :=
  fun y => T (srcIdx i tb y)

/-- Position `x` of row `r`, as a position of the scratch. -/
def rowIdx (r : Fin 1024) (x : S256.Idx) : S1024x256.Idx :=
  (Rect.unit (s := S1024x256) ![r.val, 0] S1x256.size (row_inb r)).emb (Shape.reshapeEquiv squeezes_S1x256_S256.numel_eq x)

/-- Row `r` of the gathered scratch. -/
def gathRow (i : grid0.Coords) (tb : S65536.Idx → BitVec 32) (T : S1024x512x256.Idx → Elt F .f32) (r : Fin 1024) : S256.Idx → Elt F .f32 :=
  fun x => gath i tb T (rowIdx r x)

end Cert.KernelIdeal.Hand
end
-- ==== Proof.KI.Data.lean ====
/-
  The proof data of the one pipelined region and what surrounds it: the contents of the device's buffers when the
  region is entered, the prefetched table's words, the composed term of the operations after the region, the
  kernel's own semaphore cells, and the data family of the pipeline.
-/
import proofs.«406790_j29661044146287_2_alg».proof.KernelIdeal
import proofs.«406790_j29661044146287_2_alg».proof.Proof.Gen.KernelIdeal.Launch
import proofs.«406790_j29661044146287_2_alg».proof.Proof.Gen.KernelIdeal.Skeleton
import Idealize.ShloMosaic.Lib.Pipeline.FrameSuffix
import Idealize.ShloMosaic.Lib.StableHlo.Run
import proofs.«406790_j29661044146287_2_alg».proof.Proof.KI.Gath

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

variable (m : (ℓ : Loc nD τ sig) → Buf (Elt F) ℓ)

/-! ## The buffers when the region is entered -/

/-- Core `c`'s buffers when the region is entered: the launch contents after the one reshape before the region
    (it writes the table's buffer and nothing else). Kept folded: only `V_v0` and `V_of_ne` open it. -/
def V₀ (c : Dev nD) : Valuation τ sig (Elt F) :=
  StableHlo.after ([hostOps0 (F := F)].flatten) (fun b => m (c, b))

/-- The same, read at a TensorCore reference. -/
def V (c : Dev nD) (b : Ref sig .tc) : Buf (Elt F) ((c.tc : Thread nD τ).loc b) := V₀ m c (Proc.devRef .tc b)

/-- The table's buffer holds the index argument's words in row-major order. -/
theorem V_v0 (c : Dev nD) :
    V m c main_v0 = fun i => shapeCast S65536 (m ((c.tc : Thread nD τ).loc main_arg6)) shapeCasts_S1024x64_S65536 i := by
  show StableHlo.after (hostOps0 (F := F)) (fun b => m (c, b)) (Proc.devRef .tc main_v0) = _
  after_results; rfl

/-- Every other buffer holds what it held at launch. -/
theorem V_of_ne (c : Dev nD) {b : Ref sig .tc} (h : b ≠ main_v0) : V m c b = m ((c.tc : Thread nD τ).loc b) := by
  show StableHlo.after (hostOps0 (F := F)) (fun b => m (c, b)) (Proc.devRef .tc b) = _
  rw [StableHlo.after_cons, StableHlo.after_nil]
  exact StableHlo.reshape_result_ne' (Val := Elt F) (x := main_arg6) (y := main_v0) rfl shapeCasts_S1024x64_S65536 _ _ _ h

/-! ## The prefetched table -/

/-- The table's words at region entry (one device: core 0's). -/
def tblOf : pre0.Contents (Elt F) := fun k => V m 0 (pre0.ref k)

/-- The pipeline's admissible table contents: the side condition on them is trivial. -/
def adm : (p : Fin 1) → (pcfgs (F := F) p).Adm := fun _ => ⟨tblOf m, trivial⟩

/-! ## The operations after the region -/

/-- The five operations after the region, composed: the four reshapes and the concatenation along axis 1 of the two
    plain arguments, the four reshaped ones and the kernel's result `agg`. -/
def tailTerm (a0 : S1024x64.Idx → Elt F .f32) (a1 : S1024x64x2.Idx → Elt F .f32) (a2 a3 a4 : S1024x64x64.Idx → Elt F .f32)
    (a5 : S1024x64.Idx → Elt F .f32) (agg : S1024x256.Idx → Elt F .f32) : S1024x12800.Idx → Elt F .f32 :=
  concatenate S1024x12800 1
    [⟨S1024x64, a0⟩,
     ⟨S1024x128, fun i => shapeCast S1024x128 a1 shapeCasts_S1024x64x2_S1024x128 i⟩,
     ⟨S1024x4096, fun i => shapeCast S1024x4096 a2 shapeCasts_S1024x64x64_S1024x4096 i⟩,
     ⟨S1024x4096, fun i => shapeCast S1024x4096 a3 shapeCasts_S1024x64x64_S1024x4096 i⟩,
     ⟨S1024x4096, fun i => shapeCast S1024x4096 a4 shapeCasts_S1024x64x64_S1024x4096 i⟩,
     ⟨S1024x64, a5⟩,
     ⟨S1024x256, agg⟩]
    concatenates_S1024x64_S1024x128_S1024x4096_S1024x4096_S1024x4096_S1024x64_S1024x256_S1024x12800_d1

/-! ## The kernel's own semaphores -/

/-- The kernel's 64 own DMA semaphore cells, one per lane of a chunk. -/
def osem : Fin 64 → SemLoc sig := fun j => SemLoc.dma (cellOfLane cc0_scratch1 j)

/-- They are scoped, pairwise distinct, and none is a staging semaphore. -/
theorem ownSemFacts : Pipeline.OwnSemFacts spec0 osem := by
  decide

/-! ## The proof data -/

/-- The pipeline at the table's contents. -/
abbrev cfgA : Pipeline.Cfg sig Λ₀ := cfg0 (adm m 0)

/-- The buffers the kernel reads by its own transfers: the table of rows. -/
abbrev HB : Finset (Ref sig .tc) := {main_arg7}

/-- The proof data of the pipeline on core `c`: the arrays at their contents when the region is entered; after the
    body at any point the two input staging buffers hold the whole weight matrix and bias, the output staging buffer
    the pooled block of the rows gathered at that point; between points the invariant holds the scratch at some
    contents, the generator register, the 64 own cells at zero, the table of rows whole, and half of the index table. -/
def dats (_ : Fin 1) (c : Dev nD) : Dat τ (Elt F) Unit ℕ (Pipeline.UD sig nD τ) ℕ (cfgA m) c where
  A w := V m c (Pipeline.arrRef spec0 w)
  after w t := match w with
    | ⟨0, _⟩ => V m c main_arg8
    | ⟨1, _⟩ => V m c main_arg9
    | ⟨2, _⟩ => k0_pay1 (V m c main_arg8) (V m c main_arg9) (gath (grid0.coords t) (tblOf m 0) (V m c main_arg7))
  Φ _ := iprop(Pipeline.ΦD osem spec0 HB (V m) c ∗ Pipeline.ΦT pre0 (tblOf m) c)
  q _ := fullShare
  owed _ := 0

/-- The kernel's result array after the run: the output window's array after every write-back. -/
def outArr (c : Dev nD) : Buf (Elt F) ((c.tc : Thread nD τ).loc main_v1) := (dats m 0 c).arrAt 2 (cfgA m).N

end Cert.KernelIdeal.Hand

end
-- ==== Proof.KI.Tail.lean ====
/-
  What surrounds the body's run: what the two input windows' staging buffers hold at every point, the index words'
  range, the side conditions of the five operations after the region, their composed result, and what every buffer
  holds after them.
-/
import proofs.«406790_j29661044146287_2_alg».proof.Proof.KI.Data
import Idealize.ShloMosaic.Lib.Pipeline.FrameBody

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

variable (m : (ℓ : Loc nD τ sig) → Buf (Elt F) ℓ)

local notation "𝕄" => MT nD τ sig Unit (Elt F) ℕ (Pipeline.UD sig nD τ) ℕ

/-! ## What the input windows hold -/

set_option maxHeartbeats 400000 in
/-- The weight window's block at any point is the whole weight matrix. -/
theorem blockOf_w0 (c : Dev nD) (t : Fin (cfgA m).N) : (dats m 0 c).blockOf 0 t = V m c main_arg8 := by
  funext j
  unfold Pipeline.Dat.blockOf
  rw [View.read_apply]
  show V m c main_arg8 ((((cfgA m).win 0).blk t).view.emb j) = V m c main_arg8 j
  congr 1
  funext a
  apply Fin.ext
  show ((cfgA m).win 0).index t a * ((cfgA m).win 0).size a + 1 * (j a).val = (j a).val
  have h0 : ((cfgA m).win 0).index t a = 0 := by
    show cc0_transform_1 ((cfgA m).grid.coords t) a = 0
    unfold cc0_transform_1
    fin_cases a <;> rfl
  rw [h0]; omega

set_option maxHeartbeats 400000 in
/-- The bias window's block at any point is the whole bias. -/
theorem blockOf_w1 (c : Dev nD) (t : Fin (cfgA m).N) : (dats m 0 c).blockOf 1 t = V m c main_arg9 := by
  funext j
  unfold Pipeline.Dat.blockOf
  rw [View.read_apply]
  show V m c main_arg9 ((((cfgA m).win 1).blk t).view.emb j) = V m c main_arg9 j
  congr 1
  funext a
  apply Fin.ext
  show ((cfgA m).win 1).index t a * ((cfgA m).win 1).size a + 1 * (j a).val = (j a).val
  have h0 : ((cfgA m).win 1).index t a = 0 := by
    show cc0_transform_2 ((cfgA m).grid.coords t) a = 0
    unfold cc0_transform_2
    fin_cases a <;> rfl
  rw [h0]; omega

set_option maxHeartbeats 400000 in
/-- Whatever the weight window's staging buffer held, at any point the body finds the weight matrix in it. -/
theorem before_w0 (c : Dev nD) (t : Fin (cfgA m).N) (d) : (dats m 0 c).before 0 t d = V m c main_arg8 :=
  ((dats m 0 c).before_in_eq_fetched 0 rfl (fun _ => rfl) (fun _ _ _ => rfl) (fun t => (blockOf_w0 m c t).symm) t d).trans (blockOf_w0 m c t)

set_option maxHeartbeats 400000 in
theorem before_w1 (c : Dev nD) (t : Fin (cfgA m).N) (d) : (dats m 0 c).before 1 t d = V m c main_arg9 :=
  ((dats m 0 c).before_in_eq_fetched 1 rfl (fun _ => rfl) (fun _ _ _ => rfl) (fun t => (blockOf_w1 m c t).symm) t d).trans (blockOf_w1 m c t)

/-! ## The index words are in range -/

/-- Every word of the table is an index word of the argument, so below 512. -/
theorem tbl_lt (hidx : ∀ (c : Dev nD) (j : S1024x64.Idx), (m ((c.tc : Thread nD τ).loc main_arg6) j).toNat < 512)
    (j : S65536.Idx) : (tblOf m 0 j).toNat < 512 := by
  have e : tblOf m 0 = fun i => shapeCast S65536 (m (((0 : Dev nD).tc : Thread nD τ).loc main_arg6)) shapeCasts_S1024x64_S65536 i :=
    V_v0 m 0
  rw [e]
  unfold shapeCast
  exact hidx 0 _

/-! ## The operations after the region -/

/-- The table of rows is a buffer that bypasses the region. -/
theorem HB_sub : HB ⊆ Pipeline.restRefsP sig pre0 spec0 :=
  Finset.singleton_subset_iff.mpr (Finset.mem_sdiff.mpr ⟨Pipeline.mem_restRefs_of main_arg7 rfl (by decide), by decide⟩)

/-- Each of the five operations after the region touches only the pipeline's arrays and bypassing buffers other than the
    table of rows, determines all it writes, and writes no array of the pipeline. -/
theorem tail_ok : (hostOps1 (F := F)).Forall fun op =>
    op.bufs ⊆ Pipeline.tailRefsBut (τ := τ) sig pre0 spec0 HB ∧ op.fresh = ∅
      ∧ ∀ w, Proc.devRef .tc (Pipeline.arrRef spec0 w) ∉ op.writes := by
  refine ⟨⟨?_, rfl, ?_⟩, ⟨?_, rfl, ?_⟩, ⟨?_, rfl, ?_⟩, ⟨?_, rfl, ?_⟩, ?_, rfl, ?_⟩
  · exact Pipeline.sub_tailRefsBut pre0 spec0 HB _ (StableHlo.reshape_bufs_sub ..) (by rw [StableHlo.reshape_bufs]; decide) (by rw [StableHlo.reshape_bufs]; decide)
  · rw [StableHlo.reshape_writes]; decide
  · exact Pipeline.sub_tailRefsBut pre0 spec0 HB _ (StableHlo.reshape_bufs_sub ..) (by rw [StableHlo.reshape_bufs]; decide) (by rw [StableHlo.reshape_bufs]; decide)
  · rw [StableHlo.reshape_writes]; decide
  · exact Pipeline.sub_tailRefsBut pre0 spec0 HB _ (StableHlo.reshape_bufs_sub ..) (by rw [StableHlo.reshape_bufs]; decide) (by rw [StableHlo.reshape_bufs]; decide)
  · rw [StableHlo.reshape_writes]; decide
  · exact Pipeline.sub_tailRefsBut pre0 spec0 HB _ (StableHlo.reshape_bufs_sub ..) (by rw [StableHlo.reshape_bufs]; decide) (by rw [StableHlo.reshape_bufs]; decide)
  · rw [StableHlo.reshape_writes]; decide
  · refine Pipeline.sub_tailRefsBut pre0 spec0 HB _ (StableHlo.nary_bufs_sub ..) ?_ ?_
    · show ∀ k, Proc.devRef .tc (pre0.ref k) ∉ insert (Proc.devRef (τ := τ) .tc main_v6) (Finset.univ.image fun k => Proc.devRef .tc ((![main_arg0, main_v2, main_v3, main_v4, main_v5, main_arg5, main_v1] : Fin 7 → Ref sig .tc) k))
      decide
    · show ∀ b ∈ HB, Proc.devRef .tc b ∉ insert (Proc.devRef (τ := τ) .tc main_v6) (Finset.univ.image fun k => Proc.devRef .tc ((![main_arg0, main_v2, main_v3, main_v4, main_v5, main_arg5, main_v1] : Fin 7 → Ref sig .tc) k))
      decide
  · rw [StableHlo.nary_writes]; decide

/-- The four reshapes after the region. -/
abbrev tailReshapes : List (HloOp τ sig (Elt F)) :=
  [ StableHlo.reshape main_arg1 main_v2 rfl shapeCasts_S1024x64x2_S1024x128,
    StableHlo.reshape main_arg2 main_v3 rfl shapeCasts_S1024x64x64_S1024x4096,
    StableHlo.reshape main_arg3 main_v4 rfl shapeCasts_S1024x64x64_S1024x4096,
    StableHlo.reshape main_arg4 main_v5 rfl shapeCasts_S1024x64x64_S1024x4096 ]

/-- The concatenated result after the five operations, from any contents `W` before them, is the composed term of
    `W`'s contents at the six arguments and at the kernel's result array. -/
theorem after_tail (W : Valuation τ sig (Elt F)) :
    StableHlo.after (hostOps1 (F := F)) W (Proc.devRef .tc main_v6)
      = tailTerm (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_v1)) := by
  have h0 : StableHlo.after (tailReshapes (F := F)) W (Proc.devRef .tc main_arg0) = W (Proc.devRef .tc main_arg0) := by
    after_results
  have h5 : StableHlo.after (tailReshapes (F := F)) W (Proc.devRef .tc main_arg5) = W (Proc.devRef .tc main_arg5) := by
    after_results
  have h1 : StableHlo.after (tailReshapes (F := F)) W (Proc.devRef .tc main_v1) = W (Proc.devRef .tc main_v1) := by
    after_results
  have e2 : StableHlo.after (tailReshapes (F := F)) W (Proc.devRef .tc main_v2)
      = fun i => shapeCast S1024x128 (W (Proc.devRef .tc main_arg1)) shapeCasts_S1024x64x2_S1024x128 i := by
    after_results; rfl
  have e3 : StableHlo.after (tailReshapes (F := F)) W (Proc.devRef .tc main_v3)
      = fun i => shapeCast S1024x4096 (W (Proc.devRef .tc main_arg2)) shapeCasts_S1024x64x64_S1024x4096 i := by
    after_results; rfl
  have e4 : StableHlo.after (tailReshapes (F := F)) W (Proc.devRef .tc main_v4)
      = fun i => shapeCast S1024x4096 (W (Proc.devRef .tc main_arg3)) shapeCasts_S1024x64x64_S1024x4096 i := by
    after_results; rfl
  have e5 : StableHlo.after (tailReshapes (F := F)) W (Proc.devRef .tc main_v5)
      = fun i => shapeCast S1024x4096 (W (Proc.devRef .tc main_arg4)) shapeCasts_S1024x64x64_S1024x4096 i := by
    after_results; rfl
  have key : StableHlo.after (hostOps1 (F := F)) W (Proc.devRef .tc main_v6)
      = concatenate S1024x12800 1
          [⟨S1024x64, StableHlo.after (tailReshapes (F := F)) W (Proc.devRef .tc main_arg0)⟩,
           ⟨S1024x128, StableHlo.after (tailReshapes (F := F)) W (Proc.devRef .tc main_v2)⟩,
           ⟨S1024x4096, StableHlo.after (tailReshapes (F := F)) W (Proc.devRef .tc main_v3)⟩,
           ⟨S1024x4096, StableHlo.after (tailReshapes (F := F)) W (Proc.devRef .tc main_v4)⟩,
           ⟨S1024x4096, StableHlo.after (tailReshapes (F := F)) W (Proc.devRef .tc main_v5)⟩,
           ⟨S1024x64, StableHlo.after (tailReshapes (F := F)) W (Proc.devRef .tc main_arg5)⟩,
           ⟨S1024x256, StableHlo.after (tailReshapes (F := F)) W (Proc.devRef .tc main_v1)⟩]
          concatenates_S1024x64_S1024x128_S1024x4096_S1024x4096_S1024x4096_S1024x64_S1024x256_S1024x12800_d1 := by
    simp only [hostOps1, tailReshapes, StableHlo.after_cons, StableHlo.after_nil]
    rw [StableHlo.nary_result]
    rfl
  rw [key, h0, h5, h1, e2, e3, e4, e5]
  rfl

/-! ## The buffers after the five operations -/

/-- The five operations write the four reshaped buffers and the concatenated result, nothing else. -/
theorem tail_writes : (hostOps1 (F := F)).Forall fun op =>
    op.writes ⊆ (([main_v2, main_v3, main_v4, main_v5, main_v6] : List (Ref sig .tc)).map (Proc.devRef (τ := τ) .tc)).toFinset := by
  simp only [hostOps1, List.Forall, StableHlo.reshape_writes, StableHlo.nary_writes]
  decide

/-- The region's exit contents at a buffer that is no array of the pipeline and not the index table: the launch
    contents. -/
theorem exit_keep (c : Dev nD) (b : Ref sig .tc) (ha : ∀ w, Pipeline.arrRef spec0 w ≠ b) (h0 : b ≠ main_v0) :
    Pipeline.withArrays (Pipeline.pin (pcfgs (F := F)) (adm m) 0).spec c (V₀ m c)
        (fun w => (dats m 0 c).arrAt w (Pipeline.pin (pcfgs (F := F)) (adm m) 0).N) (Proc.devRef .tc b)
      = m ((c.tc : Thread nD τ).loc b) :=
  (Pipeline.withArrays_of_ne _ c _ _ b ha).trans (V_of_ne m c h0)

/-- A buffer the five operations do not write, that is no array of the pipeline and not the index table, holds after
    them what it held at launch. -/
theorem afterTail_keep (c : Dev nD) (b : Ref sig .tc)
    (hw : b ∉ ([main_v2, main_v3, main_v4, main_v5, main_v6] : List (Ref sig .tc)))
    (ha : ∀ w, Pipeline.arrRef spec0 w ≠ b) (h0 : b ≠ main_v0) :
    Pipeline.afterTail (pcfgs (F := F)) (adm m) (dats m) 0 (V₀ m) [hostOps1 (F := F)] c b = m ((c.tc : Thread nD τ).loc b) := by
  unfold Pipeline.afterTail
  show StableHlo.after (hostOps1 (F := F)) _ (Proc.devRef .tc b) = _
  rw [StableHlo.after_of_writes_sub _ _ tail_writes hw]
  exact exit_keep m c b ha h0

/-- The concatenated result after the run: the composed term of the six passed-through arguments and the kernel's
    result array. -/
theorem afterTail_v6 (c : Dev nD) :
    Pipeline.afterTail (pcfgs (F := F)) (adm m) (dats m) 0 (V₀ m) [hostOps1 (F := F)] c main_v6
      = tailTerm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (outArr m c) := by
  unfold Pipeline.afterTail
  show StableHlo.after (hostOps1 (F := F)) _ (Proc.devRef .tc main_v6) = _
  rw [after_tail, exit_keep m c main_arg0 (by decide) (by decide), exit_keep m c main_arg1 (by decide) (by decide),
    exit_keep m c main_arg2 (by decide) (by decide), exit_keep m c main_arg3 (by decide) (by decide),
    exit_keep m c main_arg4 (by decide) (by decide), exit_keep m c main_arg5 (by decide) (by decide)]
  congr 1
  exact Pipeline.withArrays_arr _ (launch0 (F := F)).win.arr_inj c _ _ 2

end Cert.KernelIdeal.Hand

end
-- ==== Proof.KI.Res.lean ====
import proofs.«406790_j29661044146287_2_alg».proof.Proof.Gen.KernelIdeal.Loops
import proofs.«406790_j29661044146287_2_alg».proof.Proof.KI.Gath
import Idealize.ShloMosaic.Lib.Transfers
import Idealize.ShloMosaic.Lib.Ring
import Idealize.ShloMosaic.Lib.WholeRead

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-! ## The resources of the gather -/

section Fam

variable (c : Dev nD) (i : grid0.Coords)
  (arg1 : Memref sig .tc .smem S65536 .i32) (harg1 : arg1.IsWhole)
  (arg2 : Memref sig .tc .hbm S1024x512x256 .f32) (harg2 : arg2.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)

/-- The table row that scratch row `r` receives, as a memref. -/
def srcOf (r : Fin 1024) : Memref sig .tc .hbm S256 .f32 := srcM arg2 (batOf i r) (idxOf i tb r)

/-- Scratch row `r` holding its gathered row. -/
def landedRow (r : Fin 1024) : sProp 𝕄 :=
  (rowM arg6 r).view.loc (c : Thread nD τ) ↦[(rowM arg6 r).view.set]{fullShare} (rowM arg6 r).view.rep (gathRow i tb T r)

/-- Scratch row `r` held at some contents. -/
def ownedRow (r : Fin 1024) : sProp 𝕄 :=
  iprop(∃ g, (rowM arg6 r).view.loc (c : Thread nD τ) ↦[(rowM arg6 r).view.set]{fullShare} g)

/-- The source row of scratch row `r` under the read token of the row's lane. -/
def tokRow (r : Fin 1024) : sProp 𝕄 :=
  (srcOf i arg2 tb r).view.loc (c : Thread nD τ) ↦[(srcOf i arg2 tb r).view.set]{Transfers.shareTokN fullShare (r.val % 64)} harg2.unread T

/-- The rest of the table under that token. -/
def tokRest (r : Fin 1024) : sProp 𝕄 :=
  arg2.view.loc (c : Thread nD τ) ↦[Finset.univ \ (srcOf i arg2 tb r).view.set]{Transfers.shareTokN fullShare (r.val % 64)} harg2.unread T

/-- Scratch row `r` in flight: the transfer's capability on the row's lane (it credits the lane's cell with the
    row's 256 elements), delivering the row at its gathered contents and the borrowed source row; beside it the
    rest of the lane's read token. -/
def flightRow (r : Fin 1024) : sProp 𝕄 :=
  iprop(Transfers.Flight (countersEmb (U := UR sig nD τ × Counters)) (c : Thread nD τ) (SemLoc.dma (cellOfLane arg7 (laneOf r))) () 256
      iprop(landedRow c i arg6 tb T r ∗ tokRow c i arg2 harg2 tb T r)
    ∗ tokRest c i arg2 harg2 tb T r)

/-- Lane `j` idle: its cell at zero and its read token of the table whole. -/
def idleLane (j : Fin 64) : sProp 𝕄 :=
  iprop(semVal ((c : Thread nD τ), SemLoc.dma (cellOfLane arg7 j)) 0
    ∗ (arg2.view.loc (c : Thread nD τ) ↦{Transfers.shareTokN fullShare j.val} harg2.unread T))

/-- THE FAMILY. In the chunk of rows `[base, base + 64)`, `s` transfers have been started and `w` of them waited
    for: rows below `base + w` hold their gathered rows, rows `[base + w, base + s)` are in flight on their lanes, the
    rows from `base + s` on are held at some contents; the lanes outside `[w, s)` are idle; the index table is held
    at its words, the table under what is left of the full share after 64 read tokens; the core owes nothing and
    its recorded waits are among `WB`. -/
def St (base s w : ℕ) : sProp 𝕄 :=
  iprop((arg1.view.loc (c : Thread nD τ) ↦{q1} harg1.unread tb)
    ∗ bigSep (Ring.rangeSet 1024 0 (base + w)) (landedRow c i arg6 tb T)
    ∗ bigSep (Ring.rangeSet 1024 (base + w) (base + s)) (flightRow c i arg2 harg2 arg6 arg7 tb T)
    ∗ bigSep (Ring.rangeSet 1024 (base + s) 1024) (ownedRow (F := F) c arg6)
    ∗ bigSep (Ring.rangeSet 64 0 w) (idleLane c arg2 harg2 arg7 T)
    ∗ bigSep (Ring.rangeSet 64 s 64) (idleLane c arg2 harg2 arg7 T)
    ∗ (arg2.view.loc (c : Thread nD τ) ↦{Transfers.shareDrop fullShare 64} harg2.unread T)
    ∗ ∃ W : Waits sig Unit, ⌜W ⊆ WB⌝ ∗ owes (c : Thread nD τ) 0 W)

end Fam

end Cert.KernelIdeal.Hand
end
-- ==== Proof.KI.Trips.lean ====
import proofs.«406790_j29661044146287_2_alg».proof.Proof.KI.Res
import Idealize.ShloMosaic.Lib.Exec
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-! ## One trip of a start loop and of a wait loop, generic in the chunk

The 16 start regions and the 16 wait regions of the kernel differ only in the offsets their
accesses use and in the check made of the index word. The two regions below take those as
parameters. -/

/-- The region of a start loop: load the index word, check it, name the lane's cell, the scratch row and the
    table row, start the transfer. -/
def startRegionG (arg1 : Memref sig .tc .smem S65536 .i32) (arg2 : Memref sig .tc .hbm S1024x512x256 .f32)
    (arg6 : Memref sig .tc .vmem S1024x256 .f32) (arg7 : DmaSems sig S64)
    (offA : Fin 1 → Nat) (hA : ∀ a, offA a + S1.size a ≤ S65536.size a)
    (chk : BitVec 32 → Prop) (dec : ∀ v, Decidable (chk v))
    (offS : Fin 1 → Nat) (hS : ∀ a, offS a + S1.size a ≤ S64.size a)
    (offR : Fin 2 → Nat) (hR : ∀ a, offR a + S1x256.size a ≤ S1024x256.size a)
    (offB : Fin 3 → Nat) (hB : ∀ a, offB a + S1x512x256.size a ≤ S1024x512x256.size a)
    (offT : BitVec 32 → Fin 2 → Nat) (hT : ∀ v, chk v → ∀ a, offT v a + S1x256.size a ≤ S512x256.size a) :
    Prog (TpuEff nD τ sig (Elt F) Λ₀ .tc) Unit := do
  let v68 : Elt F .i32 ← smemLoad arg1 (Rect.unit (s := S65536) offA S1.size hA) numel1_S1 rfl
  have hw : chk v68 := (← Prog.lift (TpuEff.assume (chk v68) (dec v68))).down
  let v69 : DmaSems sig S1 := arg7.slice (Rect.unit (s := S64) offS S1.size hS)
  let v70 : DmaSems sig S_ := v69.squeeze S_ squeezes_S1_S_
  let v71 : Memref sig .tc .vmem S1x256 .f32 := arg6.slice (Rect.unit (s := S1024x256) offR S1x256.size hR) (fun _ => rfl)
  let v72 : Memref sig .tc .vmem S256 .f32 := v71.squeeze S256 squeezes_S1x256_S256
  let v73 : Memref sig .tc .hbm S1x512x256 .f32 := arg2.slice (Rect.unit (s := S1024x512x256) offB S1x512x256.size hB) (fun _ => rfl)
  let v74 : Memref sig .tc .hbm S512x256 .f32 := v73.squeeze S512x256 squeezes_S1x512x256_S512x256
  let v75 : Memref sig .tc .hbm S1x256 .f32 := v74.slice (Rect.unit (s := S512x256) (offT v68) S1x256.size (hT v68 hw)) (fun _ => rfl)
  let v76 : Memref sig .tc .hbm S256 .f32 := v75.squeeze S256 squeezes_S1x256_S256
  Prog.lift (.enqueueDma v76 (.here v72) (.dma v70.sem) ((View.wordExact_bits rfl).reshape _ _) ((View.wordExact_bits rfl).reshape _ _) ⟨Or.inl rfl, trivial⟩)
  pure ⟨⟩

/-- The region of a wait loop: the same names, then the wait. -/
def waitRegionG (arg1 : Memref sig .tc .smem S65536 .i32) (arg2 : Memref sig .tc .hbm S1024x512x256 .f32)
    (arg6 : Memref sig .tc .vmem S1024x256 .f32) (arg7 : DmaSems sig S64)
    (offA : Fin 1 → Nat) (hA : ∀ a, offA a + S1.size a ≤ S65536.size a)
    (chk : BitVec 32 → Prop) (dec : ∀ v, Decidable (chk v))
    (offS : Fin 1 → Nat) (hS : ∀ a, offS a + S1.size a ≤ S64.size a)
    (offR : Fin 2 → Nat) (hR : ∀ a, offR a + S1x256.size a ≤ S1024x256.size a)
    (offB : Fin 3 → Nat) (hB : ∀ a, offB a + S1x512x256.size a ≤ S1024x512x256.size a)
    (offT : BitVec 32 → Fin 2 → Nat) (hT : ∀ v, chk v → ∀ a, offT v a + S1x256.size a ≤ S512x256.size a) :
    Prog (TpuEff nD τ sig (Elt F) Λ₀ .tc) Unit := do
  let v68 : Elt F .i32 ← smemLoad arg1 (Rect.unit (s := S65536) offA S1.size hA) numel1_S1 rfl
  have hw : chk v68 := (← Prog.lift (TpuEff.assume (chk v68) (dec v68))).down
  let v69 : DmaSems sig S1 := arg7.slice (Rect.unit (s := S64) offS S1.size hS)
  let v70 : DmaSems sig S_ := v69.squeeze S_ squeezes_S1_S_
  let v71 : Memref sig .tc .vmem S1x256 .f32 := arg6.slice (Rect.unit (s := S1024x256) offR S1x256.size hR) (fun _ => rfl)
  let v72 : Memref sig .tc .vmem S256 .f32 := v71.squeeze S256 squeezes_S1x256_S256
  let v73 : Memref sig .tc .hbm S1x512x256 .f32 := arg2.slice (Rect.unit (s := S1024x512x256) offB S1x512x256.size hB) (fun _ => rfl)
  let v74 : Memref sig .tc .hbm S512x256 .f32 := v73.squeeze S512x256 squeezes_S1x512x256_S512x256
  let v75 : Memref sig .tc .hbm S1x256 .f32 := v74.slice (Rect.unit (s := S512x256) (offT v68) S1x256.size (hT v68 hw)) (fun _ => rfl)
  let v76 : Memref sig .tc .hbm S256 .f32 := v75.squeeze S256 squeezes_S1x256_S256
  Prog.lift (.waitDma2 v70.sem v76 v72 ((View.wordExact_bits rfl).reshape _ _) ((View.wordExact_bits rfl).reshape _ _))
  pure ⟨⟩

section Rfl
variable (i : grid0.Coords) (arg1 : Memref sig .tc .smem S65536 .i32) (harg1 : arg1.IsWhole) (arg2 : Memref sig .tc .hbm S1024x512x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S1024x256 .f32) (harg6 : arg6.IsWhole) (arg7 : DmaSems sig S64)

example (k : Fin k0_t1_loop.trips) :
    k0_t1_body (F := F) i arg1 harg1 arg2 harg2 arg3 harg3 arg4 harg4 arg5 harg5 arg6 harg6 arg7 k ()
      = startRegionG arg1 arg2 arg6 arg7 (k0_off1 i k) (k0_off1_inb i k) k0_chk1 k0_chk1.dec (k0_off2 k) (k0_off2_inb k)
          (k0_off3 k) (k0_off3_inb k) (k0_off4 i k) (k0_off4_inb i k) k0_off5 k0_off5_inb := rfl

example (k : Fin k0_t2_loop.trips) :
    k0_t2_body (F := F) i arg1 harg1 arg2 harg2 arg3 harg3 arg4 harg4 arg5 harg5 arg6 harg6 arg7 k ()
      = waitRegionG arg1 arg2 arg6 arg7 (k0_off6 i k) (k0_off6_inb i k) k0_chk2 k0_chk2.dec (k0_off7 k) (k0_off7_inb k)
          (k0_off8 k) (k0_off8_inb k) (k0_off9 i k) (k0_off9_inb i k) k0_off10 k0_off10_inb := rfl
end Rfl

section Words
variable (arg1 : Memref sig .tc .smem S65536 .i32) (harg1 : arg1.IsWhole) (tb : S65536.Idx → BitVec 32)

/-- Every word read through the index table is one of its words: below 512 when all are. -/
theorem word_lt (hidx : ∀ j, (tb j).toNat < 512) (B : LoadRect S65536) (x : B.shape.Idx) :
    (View.readAt (Elt F) arg1.view B (harg1.unread (Val := Elt F) tb) x : BitVec 32).toNat < 512 := by
  rw [harg1.readAt_unread]; exact hidx _

/-- The word read at position `1024·i + r` is the index word of scratch row `r`. -/
theorem word_read (i : grid0.Coords) (r : Fin 1024) (n : ℕ) (hn : n = 1024 * (i 0).val + r.val)
    (hA : ∀ a, (![n] : Fin 1 → ℕ) a + S1.size a ≤ S65536.size a) (x : (Rect.unit (s := S65536) ![n] S1.size hA).toLoadRect.shape.Idx) :
    (View.readAt (Elt F) arg1.view (Rect.unit (s := S65536) ![n] S1.size hA).toLoadRect (harg1.unread (Val := Elt F) tb) x : BitVec 32) = tb (wordAt i r) := by
  subst hn
  rw [harg1.readAt_unread]
  congr 1
  funext a
  apply Fin.ext
  fin_cases a
  have hx : (x 0).val = 0 := by have := (x 0).isLt; change (x 0).val < 1 at this; omega
  show 1024 * (i 0).val + r.val + 1 * (x 0).val = 1024 * (i 0).val + r.val
  omega
end Words

section Geo
variable (i : grid0.Coords) (arg2 : Memref sig .tc .hbm S1024x512x256 .f32) (harg2 : arg2.IsWhole)
  (tb : S65536.Idx → BitVec 32) (T : S1024x512x256.Idx → Elt F .f32)

/-- The table row the region spells, its offsets in closed form, is `srcM`. -/
theorem srcM_congr (b : Fin 1024) (w : Fin 512) (offB : Fin 3 → ℕ) (hB : ∀ a, offB a + S1x512x256.size a ≤ S1024x512x256.size a)
    (offW : Fin 2 → ℕ) (hW : ∀ a, offW a + S1x256.size a ≤ S512x256.size a)
    (eB : offB = ![b.val, 0, 0]) (eW : offW = ![w.val, 0]) :
    ((((arg2.slice (Rect.unit (s := S1024x512x256) offB S1x512x256.size hB) (fun _ => rfl)).squeeze S512x256 squeezes_S1x512x256_S512x256).slice
      (Rect.unit (s := S512x256) offW S1x256.size hW) (fun _ => rfl)).squeeze S256 squeezes_S1x256_S256) = srcM arg2 b w := by
  subst eB eW; rfl

theorem sq1 (h : S256.numel = S1x256.numel) (x : S256.Idx) : Shape.reshapeEquiv h x = Fin.cons ⟨0, Nat.one_pos⟩ x :=
  Shape.reshapeEquiv_cons_one (n := 1) (d := ![256]) h x
theorem sq2 (h : S512x256.numel = S1x512x256.numel) (y : S512x256.Idx) : Shape.reshapeEquiv h y = Fin.cons ⟨0, Nat.one_pos⟩ y :=
  Shape.reshapeEquiv_cons_one (n := 2) (d := ![512, 256]) h y

theorem rowIdx_zero_val (r : Fin 1024) (x : S256.Idx) : (rowIdx r x 0).val = r.val := by
  unfold rowIdx
  rw [Rect.emb_apply, sq1]
  show r.val + 1 * 0 = r.val
  omega

theorem rowIdx_zero (r : Fin 1024) (x : S256.Idx) : (rowIdx r x 0 : Fin 1024) = r := Fin.ext (rowIdx_zero_val r x)

theorem rowIdx_one (r : Fin 1024) (x : S256.Idx) : (rowIdx r x 1).val = (x 0).val := by
  unfold rowIdx
  rw [Rect.emb_apply, sq1]
  show 0 + 1 * (x 0).val = (x 0).val
  omega

theorem srcOf_read (hidx : ∀ j, (tb j).toNat < 512) (r : Fin 1024) :
    (srcOf i arg2 tb r).view.read (Elt F) (harg2.unread T) = gathRow i tb T r := by
  funext x
  unfold srcOf srcM gathRow gath
  refine (congrFun (harg2.read_unread T) _).trans (congrArg T ?_)
  have h0 : (rowIdx r x 0 : Fin 1024) = r := rowIdx_zero r x
  have eb : (batOf i (rowIdx r x 0)).val = (batOf i r).val := congrArg (fun t => (batOf i t).val) h0
  have ew : (idxOf i tb (rowIdx r x 0)).val = (idxOf i tb r).val := congrArg (fun t => (idxOf i tb t).val) h0
  funext a
  apply Fin.ext
  rw [Rect.emb_apply]
  erw [sq2, sq1]
  fin_cases a
  · exact (show (batOf i r).val + 1 * 0 = (batOf i r).val by omega).trans eb.symm
  · exact (show 0 + 1 * ((idxOf i tb r).val + 1 * 0) = (idxOf i tb r).val by omega).trans ew.symm
  · exact (show 0 + 1 * (0 + 1 * (x 0).val) = (x 0).val by omega).trans (rowIdx_one r x).symm
end Geo

section Conv

variable (c : Dev nD) (i : grid0.Coords)
  (arg2 : Memref sig .tc .hbm S1024x512x256 .f32) (harg2 : arg2.IsWhole)
  (arg6 : Memref sig .tc .vmem S1024x256 .f32)
  (arg7 : DmaSems sig S64)
  (tb : S65536.Idx → BitVec 32) (T : S1024x512x256.Idx → Elt F .f32)

/-- A run of consecutive numbers grows at its end. -/
theorem bigSep_rangeSet_snoc {M : Type _} [URA M] {NB : ℕ} {Φ : Fin NB → sProp M} {lo hi : ℕ} (h : lo ≤ hi) (hhi : hi < NB) :
    bigSep (Ring.rangeSet NB lo (hi + 1)) Φ = iprop(Φ ⟨hi, hhi⟩ ∗ bigSep (Ring.rangeSet NB lo hi) Φ) := by
  have e : Ring.rangeSet NB lo (hi + 1) = insert ⟨hi, hhi⟩ (Ring.rangeSet NB lo hi) := by
    ext b; rw [Finset.mem_insert, Ring.mem_rangeSet, Ring.mem_rangeSet, Fin.ext_iff]; dsimp only; omega
  have hm : (⟨hi, hhi⟩ : Fin NB) ∉ Ring.rangeSet NB lo hi := by rw [Ring.mem_rangeSet]; dsimp only; omega
  rw [e, bigSep_insert hm]; rfl

/-- The row as the transfer writes it — the source row's contents, whole, over whatever the row held — is the row at
    its gathered contents. -/
theorem flight_conv' (hidx : ∀ j, (tb j).toNat < 512) (r : Fin 1024)
    (g : Buf (Elt F) ((rowM arg6 r).view.loc (c : Thread nD τ))) :
    iprop(Transfers.Flight (countersEmb (U := UR sig nD τ × Counters)) (c : Thread nD τ) (SemLoc.dma (cellOfLane arg7 (laneOf r))) () 256
        iprop(((rowM arg6 r).view.loc (c : Thread nD τ) ↦[(rowM arg6 r).view.set]{fullShare}
              (rowM arg6 r).view.writes (Elt F) g [⟨Rect.whole S256, ReadAs.same.apply (View.read (Elt F) (srcOf i arg2 tb r).view (harg2.unread T))⟩])
          ∗ tokRow c i arg2 harg2 tb T r)
      ∗ tokRest c i arg2 harg2 tb T r)
    ⊢ flightRow c i arg2 harg2 arg6 arg7 tb T r := by
  unfold flightRow landedRow
  refine sep_mono (Transfers.Flight_mono _ _ (sep_mono ?_ .rfl)) .rfl
  rw [pointsTo_rep (Ix := Unit) (Name := ℕ) (U := UR sig nD τ × Counters) (Lvl := ℕ) (c : Thread nD τ) (rowM arg6 r), View.read_writes_whole,
    ReadAs.apply_same, srcOf_read i arg2 harg2 tb T hidx r]

/-- What the start of row `r`'s transfer leaves — its capability delivering the row as written from the source row
    read at the loaded word, and the two parts of the lane's read token — is the row in flight. -/
theorem flight_conv (hidx : ∀ j, (tb j).toNat < 512) (r : Fin 1024) (j : Fin 64) (hj : j = laneOf r)
    (g : Buf (Elt F) ((rowM arg6 r).view.loc (c : Thread nD τ)))
    (offB : Fin 3 → ℕ) (hB : ∀ a, offB a + S1x512x256.size a ≤ S1024x512x256.size a) (eB : offB = ![(batOf i r).val, 0, 0])
    (v : BitVec 32) (hv : v = tb (wordAt i r))
    (offW : Fin 2 → ℕ) (hW : ∀ a, offW a + S1x256.size a ≤ S512x256.size a) (eW : offW = ![v.toNat, 0]) :
    iprop(Transfers.Flight (countersEmb (U := UR sig nD τ × Counters)) (c : Thread nD τ) (SemLoc.dma (cellOfLane arg7 j)) () 256
        iprop(((rowM arg6 r).view.loc (c : Thread nD τ) ↦[(rowM arg6 r).view.set]{fullShare}
              (rowM arg6 r).view.writes (Elt F) g [⟨Rect.whole S256, ReadAs.same.apply (View.read (Elt F)
                ((((arg2.slice (Rect.unit (s := S1024x512x256) offB S1x512x256.size hB) (fun _ => rfl)).squeeze S512x256 squeezes_S1x512x256_S512x256).slice
                  (Rect.unit (s := S512x256) offW S1x256.size hW) (fun _ => rfl)).squeeze S256 squeezes_S1x256_S256).view (harg2.unread T))⟩])
          ∗ (arg2.view.loc (c : Thread nD τ) ↦[((((arg2.slice (Rect.unit (s := S1024x512x256) offB S1x512x256.size hB) (fun _ => rfl)).squeeze S512x256 squeezes_S1x512x256_S512x256).slice
                  (Rect.unit (s := S512x256) offW S1x256.size hW) (fun _ => rfl)).squeeze S256 squeezes_S1x256_S256).view.set]{Transfers.shareTokN fullShare j.val} harg2.unread T))
      ∗ (arg2.view.loc (c : Thread nD τ) ↦[Finset.univ \ ((((arg2.slice (Rect.unit (s := S1024x512x256) offB S1x512x256.size hB) (fun _ => rfl)).squeeze S512x256 squeezes_S1x512x256_S512x256).slice
                  (Rect.unit (s := S512x256) offW S1x256.size hW) (fun _ => rfl)).squeeze S256 squeezes_S1x256_S256).view.set]{Transfers.shareTokN fullShare j.val} harg2.unread T))
    ⊢ flightRow c i arg2 harg2 arg6 arg7 tb T r := by
  have eW' : offW = ![(idxOf i tb r).val, 0] := by
    rw [eW, hv]
    show ![(tb (wordAt i r)).toNat, 0] = ![(tb (wordAt i r)).toNat % 512, 0]
    rw [Nat.mod_eq_of_lt (hidx _)]
  subst hj
  subst eB
  subst eW'
  exact flight_conv' c i arg2 harg2 arg6 arg7 tb T hidx r g

end Conv

section Tok
variable (c : Dev nD) (i : grid0.Coords)
  (arg2 : Memref sig .tc .hbm S1024x512x256 .f32) (harg2 : arg2.IsWhole)
  (tb : S65536.Idx → BitVec 32) (T : S1024x512x256.Idx → Elt F .f32)

/-- The source row under a lane's read token and the rest of the table under it are the lane's token whole. -/
theorem tok_join (r : Fin 1024) (j : ℕ) (hj : r.val % 64 = j) :
    iprop(((srcOf i arg2 tb r).view.loc (c : Thread nD τ) ↦[(srcOf i arg2 tb r).view.set]{Transfers.shareTokN fullShare (r.val % 64)} harg2.unread T)
        ∗ tokRest c i arg2 harg2 tb T r)
      ⊢ (arg2.view.loc (c : Thread nD τ) ↦{Transfers.shareTokN fullShare j} harg2.unread T : sProp 𝕄) := by
  subst hj
  unfold tokRest
  exact (pointsTo_split_subset (Finset.subset_univ _)).2

end Tok

section Trips

variable (c : Dev nD) (i : grid0.Coords)
  (arg1 : Memref sig .tc .smem S65536 .i32) (harg1 : arg1.IsWhole)
  (arg2 : Memref sig .tc .hbm S1024x512x256 .f32) (harg2 : arg2.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)

set_option maxHeartbeats 1000000 in
/-- ONE TRIP OF A START LOOP: with `li` transfers of the chunk started and none waited for, the region starts the
    transfer of row `base + li` on lane `li`: the row leaves the rows held at some contents, the lane leaves the
    idle lanes, and the row joins the rows in flight. -/
theorem start_trip (base li : ℕ) (hli : li < 64) (hb : base + 64 ≤ 1024) (hdiv : 64 ∣ base)
    (hidx : ∀ j, (tb j).toNat < 512)
    (offA : Fin 1 → Nat) (hA : ∀ a, offA a + S1.size a ≤ S65536.size a)
    (chk : BitVec 32 → Prop) (dec : ∀ v, Decidable (chk v))
    (offS : Fin 1 → Nat) (hS : ∀ a, offS a + S1.size a ≤ S64.size a)
    (offR : Fin 2 → Nat) (hR : ∀ a, offR a + S1x256.size a ≤ S1024x256.size a)
    (offB : Fin 3 → Nat) (hB : ∀ a, offB a + S1x512x256.size a ≤ S1024x512x256.size a)
    (offT : BitVec 32 → Fin 2 → Nat) (hT : ∀ v, chk v → ∀ a, offT v a + S1x256.size a ≤ S512x256.size a)
    (eA : offA = ![1024 * (i 0).val + (base + li)]) (eS : offS = ![li]) (eR : offR = ![base + li, 0])
    (eB : offB = ![16 * (i 0).val + (base + li) / 64, 0, 0]) (eT : ∀ v, offT v = ![v.toNat, 0])
    (hC : ∀ v : BitVec 32, v.toNat < 512 → chk v) :
    St c i arg1 harg1 arg2 harg2 arg6 arg7 q1 tb T WB base li 0
      ⊢ wp frame (wpE (defs₀ (F := F)) Variants.none (c : Thread nD τ) none) Set.univ
          (startRegionG (F := F) arg1 arg2 arg6 arg7 offA hA chk dec offS hS offR hR offB hB offT hT)
          (fun _ => St c i arg1 harg1 arg2 harg2 arg6 arg7 q1 tb T WB base (li + 1) 0) := by
  subst eA eS eR eB
  have hr : base + li < 1024 := by omega
  have hlane : (⟨li, hli⟩ : Fin 64) = laneOf ⟨base + li, hr⟩ := by
    apply Fin.ext; show li = (base + li) % 64; omega
  unfold St
  rw [Ring.bigSep_rangeSet_head (Φ := ownedRow (F := F) c arg6) (lo := base + li) (hi := 1024) (by omega) (by omega),
    Ring.bigSep_rangeSet_head (Φ := idleLane c arg2 harg2 arg7 T) (lo := li) (hi := 64) (by omega) (by omega),
    show base + (li + 1) = base + li + 1 by omega,
    bigSep_rangeSet_snoc (Φ := flightRow c i arg2 harg2 arg6 arg7 tb T) (lo := base + 0) (hi := base + li) (by omega) hr]
  unfold ownedRow idleLane
  iintro ⟨H1, Hland, Hfl, ⟨⟨%g, Hrow⟩, Hown⟩, Hid0, ⟨⟨Hcell, Htok⟩, Hid⟩, H2, HO⟩
  unfold startRegionG
  sl_exec (disch := exact hC _ (word_lt arg1 harg1 tb hidx _ _))
  sl_step
  isplitl [H1]; · iexact H1
  isplitl [Hland]; · iexact Hland
  isplitl [Hfl Hcell Htok]
  · isplitr [Hfl]
    · iapply (flight_conv c i arg2 harg2 arg6 arg7 tb T hidx ⟨base + li, hr⟩ ⟨li, hli⟩ hlane g _ hB rfl _
        (word_read (F := F) arg1 harg1 tb i ⟨base + li, hr⟩ _ rfl hA (Shape.Idx.first (show 0 < S1.numel by decide))) _
        (hT _ (hC _ (word_lt (F := F) arg1 harg1 tb hidx _ _))) (eT _))
      isplitl [Hcell]; · iexact Hcell
      iexact Htok
    · iexact Hfl
  isplitl [Hown]; · iexact Hown
  isplitl [Hid0]; · iexact Hid0
  isplitl [Hid]; · iexact Hid
  isplitl [H2]; · iexact H2
  iexact HO

end Trips

section TripsW

variable (c : Dev nD) (i : grid0.Coords)
  (arg1 : Memref sig .tc .smem S65536 .i32) (harg1 : arg1.IsWhole)
  (arg2 : Memref sig .tc .hbm S1024x512x256 .f32) (harg2 : arg2.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)

set_option maxHeartbeats 1000000 in
/-- ONE TRIP OF A WAIT LOOP: with the chunk's 64 transfers started and `li` of them waited for, the region waits
    for the transfer of row `base + li` on lane `li`: the row leaves the rows in flight and joins the rows holding
    their gathered contents, the lane is idle again (its cell at zero, its read token whole), the wait recorded. -/
theorem wait_trip (base li : ℕ) (hli : li < 64) (hb : base + 64 ≤ 1024) (hdiv : 64 ∣ base)
    (hidx : ∀ j, (tb j).toNat < 512)
    (offA : Fin 1 → Nat) (hA : ∀ a, offA a + S1.size a ≤ S65536.size a)
    (chk : BitVec 32 → Prop) (dec : ∀ v, Decidable (chk v))
    (offS : Fin 1 → Nat) (hS : ∀ a, offS a + S1.size a ≤ S64.size a)
    (offR : Fin 2 → Nat) (hR : ∀ a, offR a + S1x256.size a ≤ S1024x256.size a)
    (offB : Fin 3 → Nat) (hB : ∀ a, offB a + S1x512x256.size a ≤ S1024x512x256.size a)
    (offT : BitVec 32 → Fin 2 → Nat) (hT : ∀ v, chk v → ∀ a, offT v a + S1x256.size a ≤ S512x256.size a)
    (eA : offA = ![1024 * (i 0).val + (base + li)]) (eS : offS = ![li]) (eR : offR = ![base + li, 0])
    (eB : offB = ![16 * (i 0).val + (base + li) / 64, 0, 0]) (eT : ∀ v, offT v = ![v.toNat, 0])
    (hC : ∀ v : BitVec 32, v.toNat < 512 → chk v)
    (hWB : ∀ j : Fin 64, (SemLoc.dma (cellOfLane arg7 j), ()) ∈ WB) :
    St c i arg1 harg1 arg2 harg2 arg6 arg7 q1 tb T WB base 64 li
      ⊢ wp frame (wpE (defs₀ (F := F)) Variants.none (c : Thread nD τ) none) Set.univ
          (waitRegionG (F := F) arg1 arg2 arg6 arg7 offA hA chk dec offS hS offR hR offB hB offT hT)
          (fun _ => St c i arg1 harg1 arg2 harg2 arg6 arg7 q1 tb T WB base 64 (li + 1)) := by
  subst eA eS eR eB
  have hr : base + li < 1024 := by omega
  have hlane : laneOf ⟨base + li, hr⟩ = (⟨li, hli⟩ : Fin 64) := by
    apply Fin.ext; show (base + li) % 64 = li; omega
  unfold St
  rw [Ring.bigSep_rangeSet_head (Φ := flightRow c i arg2 harg2 arg6 arg7 tb T) (lo := base + li) (hi := base + 64) (by omega) hr,
    show base + (li + 1) = base + li + 1 by omega,
    bigSep_rangeSet_snoc (Φ := landedRow c i arg6 tb T) (lo := 0) (hi := base + li) (by omega) hr,
    bigSep_rangeSet_snoc (Φ := idleLane c arg2 harg2 arg7 T) (lo := 0) (hi := li) (by omega) hli]
  unfold flightRow landedRow tokRow
  rw [hlane]
  iintro ⟨H1, Hland, ⟨⟨HF, Hrest⟩, Hfl⟩, Hown, Hid0, Hid1, H2, ⟨%W, %hW, HO⟩⟩
  unfold waitRegionG
  sl_exec (disch := exact hC _ (word_lt arg1 harg1 tb hidx _ _))
  sl_step
  isplitl [H1]; · iexact H1
  isplitl [HF_dst Hland]
  · isplitl [HF_dst]; · iexact HF_dst
    iexact Hland
  isplitl [Hfl]; · iexact Hfl
  isplitl [Hown]; · iexact Hown
  isplitl [HF HF_src Hrest Hid0]
  · isplitr [Hid0]
    · unfold idleLane
      isplitl [HF]; · iexact HF
      iapply (tok_join c i arg2 harg2 tb T ⟨base + li, hr⟩ li (by show (base + li) % 64 = li; omega))
      isplitl [HF_src]; · iexact HF_src
      iexact Hrest
    · iexact Hid0
  isplitl [Hid1]; · iexact Hid1
  isplitl [H2]; · iexact H2
  iexists (insert (SemLoc.dma (cellOfLane arg7 ⟨li, hli⟩), ()) W)
  isplitr; · ipureintro; exact Finset.insert_subset (hWB ⟨li, hli⟩) hW
  iexact HO
end TripsW

end Cert.KernelIdeal.Hand
end
-- ==== Proof.KI.Offsets.lean ====
import proofs.«406790_j29661044146287_2_alg».proof.Proof.Gen.KernelIdeal

/-! # Closed forms of the gather's offset chains: the common lemmas

Every trip of every loop of the gather computes five offset vectors by 32-bit word arithmetic
from the grid coordinate `i` (64 points) and the trip number `k` (64 trips): the index word's
cell, the semaphore lane, the scratch row, the table's batch row, and (from the word read) the
table row. The closed forms of the first, third and fourth for the chunks at a positive base are
facts of the generated module in a slightly different spelling; here are the lemmas that bring
a one-, two- or three-component vector to the spelling the trips use, the bound a word below 512
gives on the table row's rectangle, and the batch row of the two loops of the chunk at base 0,
whose chain's sign test depends on the trip (decided over the 64 × 64 cases). -/

namespace Cert.KernelIdeal.Hand
open Cert.KernelIdeal Cert.KernelIdeal.Gen
open Idealize.ShloMosaic

theorem vec1_of {x y : ℕ} (h : x = y) : (![x] : Fin 1 → ℕ) = ![y] := by rw [h]
theorem vec2_of {x y : ℕ} (h : x = y) : (![x, 0] : Fin 2 → ℕ) = ![y, 0] := by rw [h]
theorem vec3_of {x y : ℕ} (h : x = y) : (![x, 0, 0] : Fin 3 → ℕ) = ![y, 0, 0] := by rw [h]

/-- A word below 512 names a row of the 512-row table: the one-row rectangle at it is in bounds. -/
theorem rowCheck (v : BitVec 32) (hv : v.toNat < 512) :
    ∀ a, (![v.toNat, 0] : Fin 2 → ℕ) a + S1x256.size a ≤ S512x256.size a := by
  intro a
  fin_cases a
  · show v.toNat + 1 ≤ 512
    omega
  · show 0 + 256 ≤ 256
    omega

/-- The batch row of the start loop of the chunk at base 0: the floor division by 64 of a trip
    number below 64 adds nothing to `16 · i`. The chain's sign test is true or false with the trip, so
    the chain is evaluated at each of the 64 × 64 pairs. -/
theorem offB_1 (i : grid0.Coords) (k : Fin k0_t1_loop.trips) :
    k0_off4 i k = ![16 * (i 0).val + (0 + k.val) / 64, 0, 0] := by
  obtain ⟨t, ht⟩ : ∃ t : Fin 64, i 0 = t := ⟨i 0, rfl⟩
  simp only [k0_off4, ht]
  clear ht
  revert t k
  decide +kernel

/-- The same for the wait loop of the chunk at base 0. -/
theorem offB_2 (i : grid0.Coords) (k : Fin k0_t2_loop.trips) :
    k0_off9 i k = ![16 * (i 0).val + (0 + k.val) / 64, 0, 0] := by
  obtain ⟨t, ht⟩ : ∃ t : Fin 64, i 0 = t := ⟨i 0, rfl⟩
  simp only [k0_off9, ht]
  clear ht
  revert t k
  decide +kernel

end Cert.KernelIdeal.Hand
-- ==== Proof.KI.OffsetsTab.lean ====
import proofs.«406790_j29661044146287_2_alg».proof.Proof.KI.Offsets

/-! # Closed forms of the gather's offset chains: the table of the 32 loops

Loop N (1..32) works on the chunk at base 64 * ((N - 1) / 2); its five offset chains are the
generated k0_off(5N-4) .. k0_off(5N). One line per chain: the generated closed form brought to the
common spelling, the table row by unfolding, the bound check from a word below 512, and the trip
count. -/

namespace Cert.KernelIdeal.Hand
open Cert.KernelIdeal Cert.KernelIdeal.Gen
open Idealize.ShloMosaic

theorem trips_1 : k0_t1_loop.trips = 64 := by decide +kernel
theorem offA_1 (i : grid0.Coords) (k : Fin k0_t1_loop.trips) : k0_off1 i k = ![1024 * (i 0).val + (0 + k.val)] := (k0_off1_eq i k).trans (vec1_of (by omega))
theorem offS_1 (k : Fin k0_t1_loop.trips) : k0_off2 k = ![k.val] := k0_off2_eq k
theorem offR_1 (k : Fin k0_t1_loop.trips) : k0_off3 k = ![0 + k.val, 0] := (k0_off3_eq k).trans (vec2_of (by omega))
theorem offT_1 : ∀ v : BitVec 32, k0_off5 v = ![v.toNat, 0] := fun _ => rfl
theorem chk_1 : ∀ v : BitVec 32, v.toNat < 512 → k0_chk1 v := fun v hv => rowCheck v hv
theorem trips_2 : k0_t2_loop.trips = 64 := by decide +kernel
theorem offA_2 (i : grid0.Coords) (k : Fin k0_t2_loop.trips) : k0_off6 i k = ![1024 * (i 0).val + (0 + k.val)] := (k0_off6_eq i k).trans (vec1_of (by omega))
theorem offS_2 (k : Fin k0_t2_loop.trips) : k0_off7 k = ![k.val] := k0_off7_eq k
theorem offR_2 (k : Fin k0_t2_loop.trips) : k0_off8 k = ![0 + k.val, 0] := (k0_off8_eq k).trans (vec2_of (by omega))
theorem offT_2 : ∀ v : BitVec 32, k0_off10 v = ![v.toNat, 0] := fun _ => rfl
theorem chk_2 : ∀ v : BitVec 32, v.toNat < 512 → k0_chk2 v := fun v hv => rowCheck v hv
theorem trips_3 : k0_t3_loop.trips = 64 := by decide +kernel
theorem offA_3 (i : grid0.Coords) (k : Fin k0_t3_loop.trips) : k0_off11 i k = ![1024 * (i 0).val + (64 + k.val)] := (k0_off11_eq i k).trans (vec1_of (by omega))
theorem offS_3 (k : Fin k0_t3_loop.trips) : k0_off12 k = ![k.val] := k0_off12_eq k
theorem offR_3 (k : Fin k0_t3_loop.trips) : k0_off13 k = ![64 + k.val, 0] := (k0_off13_eq k).trans (vec2_of (by omega))
theorem offB_3 (i : grid0.Coords) (k : Fin k0_t3_loop.trips) : k0_off14 i k = ![16 * (i 0).val + (64 + k.val) / 64, 0, 0] := (k0_off14_eq i k).trans (vec3_of (by omega))
theorem offT_3 : ∀ v : BitVec 32, k0_off15 v = ![v.toNat, 0] := fun _ => rfl
theorem chk_3 : ∀ v : BitVec 32, v.toNat < 512 → k0_chk3 v := fun v hv => rowCheck v hv
theorem trips_4 : k0_t4_loop.trips = 64 := by decide +kernel
theorem offA_4 (i : grid0.Coords) (k : Fin k0_t4_loop.trips) : k0_off16 i k = ![1024 * (i 0).val + (64 + k.val)] := (k0_off16_eq i k).trans (vec1_of (by omega))
theorem offS_4 (k : Fin k0_t4_loop.trips) : k0_off17 k = ![k.val] := k0_off17_eq k
theorem offR_4 (k : Fin k0_t4_loop.trips) : k0_off18 k = ![64 + k.val, 0] := (k0_off18_eq k).trans (vec2_of (by omega))
theorem offB_4 (i : grid0.Coords) (k : Fin k0_t4_loop.trips) : k0_off19 i k = ![16 * (i 0).val + (64 + k.val) / 64, 0, 0] := (k0_off19_eq i k).trans (vec3_of (by omega))
theorem offT_4 : ∀ v : BitVec 32, k0_off20 v = ![v.toNat, 0] := fun _ => rfl
theorem chk_4 : ∀ v : BitVec 32, v.toNat < 512 → k0_chk4 v := fun v hv => rowCheck v hv
theorem trips_5 : k0_t5_loop.trips = 64 := by decide +kernel
theorem offA_5 (i : grid0.Coords) (k : Fin k0_t5_loop.trips) : k0_off21 i k = ![1024 * (i 0).val + (128 + k.val)] := (k0_off21_eq i k).trans (vec1_of (by omega))
theorem offS_5 (k : Fin k0_t5_loop.trips) : k0_off22 k = ![k.val] := k0_off22_eq k
theorem offR_5 (k : Fin k0_t5_loop.trips) : k0_off23 k = ![128 + k.val, 0] := (k0_off23_eq k).trans (vec2_of (by omega))
theorem offB_5 (i : grid0.Coords) (k : Fin k0_t5_loop.trips) : k0_off24 i k = ![16 * (i 0).val + (128 + k.val) / 64, 0, 0] := (k0_off24_eq i k).trans (vec3_of (by omega))
theorem offT_5 : ∀ v : BitVec 32, k0_off25 v = ![v.toNat, 0] := fun _ => rfl
theorem chk_5 : ∀ v : BitVec 32, v.toNat < 512 → k0_chk5 v := fun v hv => rowCheck v hv
theorem trips_6 : k0_t6_loop.trips = 64 := by decide +kernel
theorem offA_6 (i : grid0.Coords) (k : Fin k0_t6_loop.trips) : k0_off26 i k = ![1024 * (i 0).val + (128 + k.val)] := (k0_off26_eq i k).trans (vec1_of (by omega))
theorem offS_6 (k : Fin k0_t6_loop.trips) : k0_off27 k = ![k.val] := k0_off27_eq k
theorem offR_6 (k : Fin k0_t6_loop.trips) : k0_off28 k = ![128 + k.val, 0] := (k0_off28_eq k).trans (vec2_of (by omega))
theorem offB_6 (i : grid0.Coords) (k : Fin k0_t6_loop.trips) : k0_off29 i k = ![16 * (i 0).val + (128 + k.val) / 64, 0, 0] := (k0_off29_eq i k).trans (vec3_of (by omega))
theorem offT_6 : ∀ v : BitVec 32, k0_off30 v = ![v.toNat, 0] := fun _ => rfl
theorem chk_6 : ∀ v : BitVec 32, v.toNat < 512 → k0_chk6 v := fun v hv => rowCheck v hv
theorem trips_7 : k0_t7_loop.trips = 64 := by decide +kernel
theorem offA_7 (i : grid0.Coords) (k : Fin k0_t7_loop.trips) : k0_off31 i k = ![1024 * (i 0).val + (192 + k.val)] := (k0_off31_eq i k).trans (vec1_of (by omega))
theorem offS_7 (k : Fin k0_t7_loop.trips) : k0_off32 k = ![k.val] := k0_off32_eq k
theorem offR_7 (k : Fin k0_t7_loop.trips) : k0_off33 k = ![192 + k.val, 0] := (k0_off33_eq k).trans (vec2_of (by omega))
theorem offB_7 (i : grid0.Coords) (k : Fin k0_t7_loop.trips) : k0_off34 i k = ![16 * (i 0).val + (192 + k.val) / 64, 0, 0] := (k0_off34_eq i k).trans (vec3_of (by omega))
theorem offT_7 : ∀ v : BitVec 32, k0_off35 v = ![v.toNat, 0] := fun _ => rfl
theorem chk_7 : ∀ v : BitVec 32, v.toNat < 512 → k0_chk7 v := fun v hv => rowCheck v hv
theorem trips_8 : k0_t8_loop.trips = 64 := by decide +kernel
theorem offA_8 (i : grid0.Coords) (k : Fin k0_t8_loop.trips) : k0_off36 i k = ![1024 * (i 0).val + (192 + k.val)] := (k0_off36_eq i k).trans (vec1_of (by omega))
theorem offS_8 (k : Fin k0_t8_loop.trips) : k0_off37 k = ![k.val] := k0_off37_eq k
theorem offR_8 (k : Fin k0_t8_loop.trips) : k0_off38 k = ![192 + k.val, 0] := (k0_off38_eq k).trans (vec2_of (by omega))
theorem offB_8 (i : grid0.Coords) (k : Fin k0_t8_loop.trips) : k0_off39 i k = ![16 * (i 0).val + (192 + k.val) / 64, 0, 0] := (k0_off39_eq i k).trans (vec3_of (by omega))
theorem offT_8 : ∀ v : BitVec 32, k0_off40 v = ![v.toNat, 0] := fun _ => rfl
theorem chk_8 : ∀ v : BitVec 32, v.toNat < 512 → k0_chk8 v := fun v hv => rowCheck v hv
theorem trips_9 : k0_t9_loop.trips = 64 := by decide +kernel
theorem offA_9 (i : grid0.Coords) (k : Fin k0_t9_loop.trips) : k0_off41 i k = ![1024 * (i 0).val + (256 + k.val)] := (k0_off41_eq i k).trans (vec1_of (by omega))
theorem offS_9 (k : Fin k0_t9_loop.trips) : k0_off42 k = ![k.val] := k0_off42_eq k
theorem offR_9 (k : Fin k0_t9_loop.trips) : k0_off43 k = ![256 + k.val, 0] := (k0_off43_eq k).trans (vec2_of (by omega))
theorem offB_9 (i : grid0.Coords) (k : Fin k0_t9_loop.trips) : k0_off44 i k = ![16 * (i 0).val + (256 + k.val) / 64, 0, 0] := (k0_off44_eq i k).trans (vec3_of (by omega))
theorem offT_9 : ∀ v : BitVec 32, k0_off45 v = ![v.toNat, 0] := fun _ => rfl
theorem chk_9 : ∀ v : BitVec 32, v.toNat < 512 → k0_chk9 v := fun v hv => rowCheck v hv
theorem trips_10 : k0_t10_loop.trips = 64 := by decide +kernel
theorem offA_10 (i : grid0.Coords) (k : Fin k0_t10_loop.trips) : k0_off46 i k = ![1024 * (i 0).val + (256 + k.val)] := (k0_off46_eq i k).trans (vec1_of (by omega))
theorem offS_10 (k : Fin k0_t10_loop.trips) : k0_off47 k = ![k.val] := k0_off47_eq k
theorem offR_10 (k : Fin k0_t10_loop.trips) : k0_off48 k = ![256 + k.val, 0] := (k0_off48_eq k).trans (vec2_of (by omega))
theorem offB_10 (i : grid0.Coords) (k : Fin k0_t10_loop.trips) : k0_off49 i k = ![16 * (i 0).val + (256 + k.val) / 64, 0, 0] := (k0_off49_eq i k).trans (vec3_of (by omega))
theorem offT_10 : ∀ v : BitVec 32, k0_off50 v = ![v.toNat, 0] := fun _ => rfl
theorem chk_10 : ∀ v : BitVec 32, v.toNat < 512 → k0_chk10 v := fun v hv => rowCheck v hv
theorem trips_11 : k0_t11_loop.trips = 64 := by decide +kernel
theorem offA_11 (i : grid0.Coords) (k : Fin k0_t11_loop.trips) : k0_off51 i k = ![1024 * (i 0).val + (320 + k.val)] := (k0_off51_eq i k).trans (vec1_of (by omega))
theorem offS_11 (k : Fin k0_t11_loop.trips) : k0_off52 k = ![k.val] := k0_off52_eq k
theorem offR_11 (k : Fin k0_t11_loop.trips) : k0_off53 k = ![320 + k.val, 0] := (k0_off53_eq k).trans (vec2_of (by omega))
theorem offB_11 (i : grid0.Coords) (k : Fin k0_t11_loop.trips) : k0_off54 i k = ![16 * (i 0).val + (320 + k.val) / 64, 0, 0] := (k0_off54_eq i k).trans (vec3_of (by omega))
theorem offT_11 : ∀ v : BitVec 32, k0_off55 v = ![v.toNat, 0] := fun _ => rfl
theorem chk_11 : ∀ v : BitVec 32, v.toNat < 512 → k0_chk11 v := fun v hv => rowCheck v hv
theorem trips_12 : k0_t12_loop.trips = 64 := by decide +kernel
theorem offA_12 (i : grid0.Coords) (k : Fin k0_t12_loop.trips) : k0_off56 i k = ![1024 * (i 0).val + (320 + k.val)] := (k0_off56_eq i k).trans (vec1_of (by omega))
theorem offS_12 (k : Fin k0_t12_loop.trips) : k0_off57 k = ![k.val] := k0_off57_eq k
theorem offR_12 (k : Fin k0_t12_loop.trips) : k0_off58 k = ![320 + k.val, 0] := (k0_off58_eq k).trans (vec2_of (by omega))
theorem offB_12 (i : grid0.Coords) (k : Fin k0_t12_loop.trips) : k0_off59 i k = ![16 * (i 0).val + (320 + k.val) / 64, 0, 0] := (k0_off59_eq i k).trans (vec3_of (by omega))
theorem offT_12 : ∀ v : BitVec 32, k0_off60 v = ![v.toNat, 0] := fun _ => rfl
theorem chk_12 : ∀ v : BitVec 32, v.toNat < 512 → k0_chk12 v := fun v hv => rowCheck v hv
theorem trips_13 : k0_t13_loop.trips = 64 := by decide +kernel
theorem offA_13 (i : grid0.Coords) (k : Fin k0_t13_loop.trips) : k0_off61 i k = ![1024 * (i 0).val + (384 + k.val)] := (k0_off61_eq i k).trans (vec1_of (by omega))
theorem offS_13 (k : Fin k0_t13_loop.trips) : k0_off62 k = ![k.val] := k0_off62_eq k
theorem offR_13 (k : Fin k0_t13_loop.trips) : k0_off63 k = ![384 + k.val, 0] := (k0_off63_eq k).trans (vec2_of (by omega))
theorem offB_13 (i : grid0.Coords) (k : Fin k0_t13_loop.trips) : k0_off64 i k = ![16 * (i 0).val + (384 + k.val) / 64, 0, 0] := (k0_off64_eq i k).trans (vec3_of (by omega))
theorem offT_13 : ∀ v : BitVec 32, k0_off65 v = ![v.toNat, 0] := fun _ => rfl
theorem chk_13 : ∀ v : BitVec 32, v.toNat < 512 → k0_chk13 v := fun v hv => rowCheck v hv
theorem trips_14 : k0_t14_loop.trips = 64 := by decide +kernel
theorem offA_14 (i : grid0.Coords) (k : Fin k0_t14_loop.trips) : k0_off66 i k = ![1024 * (i 0).val + (384 + k.val)] := (k0_off66_eq i k).trans (vec1_of (by omega))
theorem offS_14 (k : Fin k0_t14_loop.trips) : k0_off67 k = ![k.val] := k0_off67_eq k
theorem offR_14 (k : Fin k0_t14_loop.trips) : k0_off68 k = ![384 + k.val, 0] := (k0_off68_eq k).trans (vec2_of (by omega))
theorem offB_14 (i : grid0.Coords) (k : Fin k0_t14_loop.trips) : k0_off69 i k = ![16 * (i 0).val + (384 + k.val) / 64, 0, 0] := (k0_off69_eq i k).trans (vec3_of (by omega))
theorem offT_14 : ∀ v : BitVec 32, k0_off70 v = ![v.toNat, 0] := fun _ => rfl
theorem chk_14 : ∀ v : BitVec 32, v.toNat < 512 → k0_chk14 v := fun v hv => rowCheck v hv
theorem trips_15 : k0_t15_loop.trips = 64 := by decide +kernel
theorem offA_15 (i : grid0.Coords) (k : Fin k0_t15_loop.trips) : k0_off71 i k = ![1024 * (i 0).val + (448 + k.val)] := (k0_off71_eq i k).trans (vec1_of (by omega))
theorem offS_15 (k : Fin k0_t15_loop.trips) : k0_off72 k = ![k.val] := k0_off72_eq k
theorem offR_15 (k : Fin k0_t15_loop.trips) : k0_off73 k = ![448 + k.val, 0] := (k0_off73_eq k).trans (vec2_of (by omega))
theorem offB_15 (i : grid0.Coords) (k : Fin k0_t15_loop.trips) : k0_off74 i k = ![16 * (i 0).val + (448 + k.val) / 64, 0, 0] := (k0_off74_eq i k).trans (vec3_of (by omega))
theorem offT_15 : ∀ v : BitVec 32, k0_off75 v = ![v.toNat, 0] := fun _ => rfl
theorem chk_15 : ∀ v : BitVec 32, v.toNat < 512 → k0_chk15 v := fun v hv => rowCheck v hv
theorem trips_16 : k0_t16_loop.trips = 64 := by decide +kernel
theorem offA_16 (i : grid0.Coords) (k : Fin k0_t16_loop.trips) : k0_off76 i k = ![1024 * (i 0).val + (448 + k.val)] := (k0_off76_eq i k).trans (vec1_of (by omega))
theorem offS_16 (k : Fin k0_t16_loop.trips) : k0_off77 k = ![k.val] := k0_off77_eq k
theorem offR_16 (k : Fin k0_t16_loop.trips) : k0_off78 k = ![448 + k.val, 0] := (k0_off78_eq k).trans (vec2_of (by omega))
theorem offB_16 (i : grid0.Coords) (k : Fin k0_t16_loop.trips) : k0_off79 i k = ![16 * (i 0).val + (448 + k.val) / 64, 0, 0] := (k0_off79_eq i k).trans (vec3_of (by omega))
theorem offT_16 : ∀ v : BitVec 32, k0_off80 v = ![v.toNat, 0] := fun _ => rfl
theorem chk_16 : ∀ v : BitVec 32, v.toNat < 512 → k0_chk16 v := fun v hv => rowCheck v hv
theorem trips_17 : k0_t17_loop.trips = 64 := by decide +kernel
theorem offA_17 (i : grid0.Coords) (k : Fin k0_t17_loop.trips) : k0_off81 i k = ![1024 * (i 0).val + (512 + k.val)] := (k0_off81_eq i k).trans (vec1_of (by omega))
theorem offS_17 (k : Fin k0_t17_loop.trips) : k0_off82 k = ![k.val] := k0_off82_eq k
theorem offR_17 (k : Fin k0_t17_loop.trips) : k0_off83 k = ![512 + k.val, 0] := (k0_off83_eq k).trans (vec2_of (by omega))
theorem offB_17 (i : grid0.Coords) (k : Fin k0_t17_loop.trips) : k0_off84 i k = ![16 * (i 0).val + (512 + k.val) / 64, 0, 0] := (k0_off84_eq i k).trans (vec3_of (by omega))
theorem offT_17 : ∀ v : BitVec 32, k0_off85 v = ![v.toNat, 0] := fun _ => rfl
theorem chk_17 : ∀ v : BitVec 32, v.toNat < 512 → k0_chk17 v := fun v hv => rowCheck v hv
theorem trips_18 : k0_t18_loop.trips = 64 := by decide +kernel
theorem offA_18 (i : grid0.Coords) (k : Fin k0_t18_loop.trips) : k0_off86 i k = ![1024 * (i 0).val + (512 + k.val)] := (k0_off86_eq i k).trans (vec1_of (by omega))
theorem offS_18 (k : Fin k0_t18_loop.trips) : k0_off87 k = ![k.val] := k0_off87_eq k
theorem offR_18 (k : Fin k0_t18_loop.trips) : k0_off88 k = ![512 + k.val, 0] := (k0_off88_eq k).trans (vec2_of (by omega))
theorem offB_18 (i : grid0.Coords) (k : Fin k0_t18_loop.trips) : k0_off89 i k = ![16 * (i 0).val + (512 + k.val) / 64, 0, 0] := (k0_off89_eq i k).trans (vec3_of (by omega))
theorem offT_18 : ∀ v : BitVec 32, k0_off90 v = ![v.toNat, 0] := fun _ => rfl
theorem chk_18 : ∀ v : BitVec 32, v.toNat < 512 → k0_chk18 v := fun v hv => rowCheck v hv
theorem trips_19 : k0_t19_loop.trips = 64 := by decide +kernel
theorem offA_19 (i : grid0.Coords) (k : Fin k0_t19_loop.trips) : k0_off91 i k = ![1024 * (i 0).val + (576 + k.val)] := (k0_off91_eq i k).trans (vec1_of (by omega))
theorem offS_19 (k : Fin k0_t19_loop.trips) : k0_off92 k = ![k.val] := k0_off92_eq k
theorem offR_19 (k : Fin k0_t19_loop.trips) : k0_off93 k = ![576 + k.val, 0] := (k0_off93_eq k).trans (vec2_of (by omega))
theorem offB_19 (i : grid0.Coords) (k : Fin k0_t19_loop.trips) : k0_off94 i k = ![16 * (i 0).val + (576 + k.val) / 64, 0, 0] := (k0_off94_eq i k).trans (vec3_of (by omega))
theorem offT_19 : ∀ v : BitVec 32, k0_off95 v = ![v.toNat, 0] := fun _ => rfl
theorem chk_19 : ∀ v : BitVec 32, v.toNat < 512 → k0_chk19 v := fun v hv => rowCheck v hv
theorem trips_20 : k0_t20_loop.trips = 64 := by decide +kernel
theorem offA_20 (i : grid0.Coords) (k : Fin k0_t20_loop.trips) : k0_off96 i k = ![1024 * (i 0).val + (576 + k.val)] := (k0_off96_eq i k).trans (vec1_of (by omega))
theorem offS_20 (k : Fin k0_t20_loop.trips) : k0_off97 k = ![k.val] := k0_off97_eq k
theorem offR_20 (k : Fin k0_t20_loop.trips) : k0_off98 k = ![576 + k.val, 0] := (k0_off98_eq k).trans (vec2_of (by omega))
theorem offB_20 (i : grid0.Coords) (k : Fin k0_t20_loop.trips) : k0_off99 i k = ![16 * (i 0).val + (576 + k.val) / 64, 0, 0] := (k0_off99_eq i k).trans (vec3_of (by omega))
theorem offT_20 : ∀ v : BitVec 32, k0_off100 v = ![v.toNat, 0] := fun _ => rfl
theorem chk_20 : ∀ v : BitVec 32, v.toNat < 512 → k0_chk20 v := fun v hv => rowCheck v hv
theorem trips_21 : k0_t21_loop.trips = 64 := by decide +kernel
theorem offA_21 (i : grid0.Coords) (k : Fin k0_t21_loop.trips) : k0_off101 i k = ![1024 * (i 0).val + (640 + k.val)] := (k0_off101_eq i k).trans (vec1_of (by omega))
theorem offS_21 (k : Fin k0_t21_loop.trips) : k0_off102 k = ![k.val] := k0_off102_eq k
theorem offR_21 (k : Fin k0_t21_loop.trips) : k0_off103 k = ![640 + k.val, 0] := (k0_off103_eq k).trans (vec2_of (by omega))
theorem offB_21 (i : grid0.Coords) (k : Fin k0_t21_loop.trips) : k0_off104 i k = ![16 * (i 0).val + (640 + k.val) / 64, 0, 0] := (k0_off104_eq i k).trans (vec3_of (by omega))
theorem offT_21 : ∀ v : BitVec 32, k0_off105 v = ![v.toNat, 0] := fun _ => rfl
theorem chk_21 : ∀ v : BitVec 32, v.toNat < 512 → k0_chk21 v := fun v hv => rowCheck v hv
theorem trips_22 : k0_t22_loop.trips = 64 := by decide +kernel
theorem offA_22 (i : grid0.Coords) (k : Fin k0_t22_loop.trips) : k0_off106 i k = ![1024 * (i 0).val + (640 + k.val)] := (k0_off106_eq i k).trans (vec1_of (by omega))
theorem offS_22 (k : Fin k0_t22_loop.trips) : k0_off107 k = ![k.val] := k0_off107_eq k
theorem offR_22 (k : Fin k0_t22_loop.trips) : k0_off108 k = ![640 + k.val, 0] := (k0_off108_eq k).trans (vec2_of (by omega))
theorem offB_22 (i : grid0.Coords) (k : Fin k0_t22_loop.trips) : k0_off109 i k = ![16 * (i 0).val + (640 + k.val) / 64, 0, 0] := (k0_off109_eq i k).trans (vec3_of (by omega))
theorem offT_22 : ∀ v : BitVec 32, k0_off110 v = ![v.toNat, 0] := fun _ => rfl
theorem chk_22 : ∀ v : BitVec 32, v.toNat < 512 → k0_chk22 v := fun v hv => rowCheck v hv
theorem trips_23 : k0_t23_loop.trips = 64 := by decide +kernel
theorem offA_23 (i : grid0.Coords) (k : Fin k0_t23_loop.trips) : k0_off111 i k = ![1024 * (i 0).val + (704 + k.val)] := (k0_off111_eq i k).trans (vec1_of (by omega))
theorem offS_23 (k : Fin k0_t23_loop.trips) : k0_off112 k = ![k.val] := k0_off112_eq k
theorem offR_23 (k : Fin k0_t23_loop.trips) : k0_off113 k = ![704 + k.val, 0] := (k0_off113_eq k).trans (vec2_of (by omega))
theorem offB_23 (i : grid0.Coords) (k : Fin k0_t23_loop.trips) : k0_off114 i k = ![16 * (i 0).val + (704 + k.val) / 64, 0, 0] := (k0_off114_eq i k).trans (vec3_of (by omega))
theorem offT_23 : ∀ v : BitVec 32, k0_off115 v = ![v.toNat, 0] := fun _ => rfl
theorem chk_23 : ∀ v : BitVec 32, v.toNat < 512 → k0_chk23 v := fun v hv => rowCheck v hv
theorem trips_24 : k0_t24_loop.trips = 64 := by decide +kernel
theorem offA_24 (i : grid0.Coords) (k : Fin k0_t24_loop.trips) : k0_off116 i k = ![1024 * (i 0).val + (704 + k.val)] := (k0_off116_eq i k).trans (vec1_of (by omega))
theorem offS_24 (k : Fin k0_t24_loop.trips) : k0_off117 k = ![k.val] := k0_off117_eq k
theorem offR_24 (k : Fin k0_t24_loop.trips) : k0_off118 k = ![704 + k.val, 0] := (k0_off118_eq k).trans (vec2_of (by omega))
theorem offB_24 (i : grid0.Coords) (k : Fin k0_t24_loop.trips) : k0_off119 i k = ![16 * (i 0).val + (704 + k.val) / 64, 0, 0] := (k0_off119_eq i k).trans (vec3_of (by omega))
theorem offT_24 : ∀ v : BitVec 32, k0_off120 v = ![v.toNat, 0] := fun _ => rfl
theorem chk_24 : ∀ v : BitVec 32, v.toNat < 512 → k0_chk24 v := fun v hv => rowCheck v hv
theorem trips_25 : k0_t25_loop.trips = 64 := by decide +kernel
theorem offA_25 (i : grid0.Coords) (k : Fin k0_t25_loop.trips) : k0_off121 i k = ![1024 * (i 0).val + (768 + k.val)] := (k0_off121_eq i k).trans (vec1_of (by omega))
theorem offS_25 (k : Fin k0_t25_loop.trips) : k0_off122 k = ![k.val] := k0_off122_eq k
theorem offR_25 (k : Fin k0_t25_loop.trips) : k0_off123 k = ![768 + k.val, 0] := (k0_off123_eq k).trans (vec2_of (by omega))
theorem offB_25 (i : grid0.Coords) (k : Fin k0_t25_loop.trips) : k0_off124 i k = ![16 * (i 0).val + (768 + k.val) / 64, 0, 0] := (k0_off124_eq i k).trans (vec3_of (by omega))
theorem offT_25 : ∀ v : BitVec 32, k0_off125 v = ![v.toNat, 0] := fun _ => rfl
theorem chk_25 : ∀ v : BitVec 32, v.toNat < 512 → k0_chk25 v := fun v hv => rowCheck v hv
theorem trips_26 : k0_t26_loop.trips = 64 := by decide +kernel
theorem offA_26 (i : grid0.Coords) (k : Fin k0_t26_loop.trips) : k0_off126 i k = ![1024 * (i 0).val + (768 + k.val)] := (k0_off126_eq i k).trans (vec1_of (by omega))
theorem offS_26 (k : Fin k0_t26_loop.trips) : k0_off127 k = ![k.val] := k0_off127_eq k
theorem offR_26 (k : Fin k0_t26_loop.trips) : k0_off128 k = ![768 + k.val, 0] := (k0_off128_eq k).trans (vec2_of (by omega))
theorem offB_26 (i : grid0.Coords) (k : Fin k0_t26_loop.trips) : k0_off129 i k = ![16 * (i 0).val + (768 + k.val) / 64, 0, 0] := (k0_off129_eq i k).trans (vec3_of (by omega))
theorem offT_26 : ∀ v : BitVec 32, k0_off130 v = ![v.toNat, 0] := fun _ => rfl
theorem chk_26 : ∀ v : BitVec 32, v.toNat < 512 → k0_chk26 v := fun v hv => rowCheck v hv
theorem trips_27 : k0_t27_loop.trips = 64 := by decide +kernel
theorem offA_27 (i : grid0.Coords) (k : Fin k0_t27_loop.trips) : k0_off131 i k = ![1024 * (i 0).val + (832 + k.val)] := (k0_off131_eq i k).trans (vec1_of (by omega))
theorem offS_27 (k : Fin k0_t27_loop.trips) : k0_off132 k = ![k.val] := k0_off132_eq k
theorem offR_27 (k : Fin k0_t27_loop.trips) : k0_off133 k = ![832 + k.val, 0] := (k0_off133_eq k).trans (vec2_of (by omega))
theorem offB_27 (i : grid0.Coords) (k : Fin k0_t27_loop.trips) : k0_off134 i k = ![16 * (i 0).val + (832 + k.val) / 64, 0, 0] := (k0_off134_eq i k).trans (vec3_of (by omega))
theorem offT_27 : ∀ v : BitVec 32, k0_off135 v = ![v.toNat, 0] := fun _ => rfl
theorem chk_27 : ∀ v : BitVec 32, v.toNat < 512 → k0_chk27 v := fun v hv => rowCheck v hv
theorem trips_28 : k0_t28_loop.trips = 64 := by decide +kernel
theorem offA_28 (i : grid0.Coords) (k : Fin k0_t28_loop.trips) : k0_off136 i k = ![1024 * (i 0).val + (832 + k.val)] := (k0_off136_eq i k).trans (vec1_of (by omega))
theorem offS_28 (k : Fin k0_t28_loop.trips) : k0_off137 k = ![k.val] := k0_off137_eq k
theorem offR_28 (k : Fin k0_t28_loop.trips) : k0_off138 k = ![832 + k.val, 0] := (k0_off138_eq k).trans (vec2_of (by omega))
theorem offB_28 (i : grid0.Coords) (k : Fin k0_t28_loop.trips) : k0_off139 i k = ![16 * (i 0).val + (832 + k.val) / 64, 0, 0] := (k0_off139_eq i k).trans (vec3_of (by omega))
theorem offT_28 : ∀ v : BitVec 32, k0_off140 v = ![v.toNat, 0] := fun _ => rfl
theorem chk_28 : ∀ v : BitVec 32, v.toNat < 512 → k0_chk28 v := fun v hv => rowCheck v hv
theorem trips_29 : k0_t29_loop.trips = 64 := by decide +kernel
theorem offA_29 (i : grid0.Coords) (k : Fin k0_t29_loop.trips) : k0_off141 i k = ![1024 * (i 0).val + (896 + k.val)] := (k0_off141_eq i k).trans (vec1_of (by omega))
theorem offS_29 (k : Fin k0_t29_loop.trips) : k0_off142 k = ![k.val] := k0_off142_eq k
theorem offR_29 (k : Fin k0_t29_loop.trips) : k0_off143 k = ![896 + k.val, 0] := (k0_off143_eq k).trans (vec2_of (by omega))
theorem offB_29 (i : grid0.Coords) (k : Fin k0_t29_loop.trips) : k0_off144 i k = ![16 * (i 0).val + (896 + k.val) / 64, 0, 0] := (k0_off144_eq i k).trans (vec3_of (by omega))
theorem offT_29 : ∀ v : BitVec 32, k0_off145 v = ![v.toNat, 0] := fun _ => rfl
theorem chk_29 : ∀ v : BitVec 32, v.toNat < 512 → k0_chk29 v := fun v hv => rowCheck v hv
theorem trips_30 : k0_t30_loop.trips = 64 := by decide +kernel
theorem offA_30 (i : grid0.Coords) (k : Fin k0_t30_loop.trips) : k0_off146 i k = ![1024 * (i 0).val + (896 + k.val)] := (k0_off146_eq i k).trans (vec1_of (by omega))
theorem offS_30 (k : Fin k0_t30_loop.trips) : k0_off147 k = ![k.val] := k0_off147_eq k
theorem offR_30 (k : Fin k0_t30_loop.trips) : k0_off148 k = ![896 + k.val, 0] := (k0_off148_eq k).trans (vec2_of (by omega))
theorem offB_30 (i : grid0.Coords) (k : Fin k0_t30_loop.trips) : k0_off149 i k = ![16 * (i 0).val + (896 + k.val) / 64, 0, 0] := (k0_off149_eq i k).trans (vec3_of (by omega))
theorem offT_30 : ∀ v : BitVec 32, k0_off150 v = ![v.toNat, 0] := fun _ => rfl
theorem chk_30 : ∀ v : BitVec 32, v.toNat < 512 → k0_chk30 v := fun v hv => rowCheck v hv
theorem trips_31 : k0_t31_loop.trips = 64 := by decide +kernel
theorem offA_31 (i : grid0.Coords) (k : Fin k0_t31_loop.trips) : k0_off151 i k = ![1024 * (i 0).val + (960 + k.val)] := (k0_off151_eq i k).trans (vec1_of (by omega))
theorem offS_31 (k : Fin k0_t31_loop.trips) : k0_off152 k = ![k.val] := k0_off152_eq k
theorem offR_31 (k : Fin k0_t31_loop.trips) : k0_off153 k = ![960 + k.val, 0] := (k0_off153_eq k).trans (vec2_of (by omega))
theorem offB_31 (i : grid0.Coords) (k : Fin k0_t31_loop.trips) : k0_off154 i k = ![16 * (i 0).val + (960 + k.val) / 64, 0, 0] := (k0_off154_eq i k).trans (vec3_of (by omega))
theorem offT_31 : ∀ v : BitVec 32, k0_off155 v = ![v.toNat, 0] := fun _ => rfl
theorem chk_31 : ∀ v : BitVec 32, v.toNat < 512 → k0_chk31 v := fun v hv => rowCheck v hv
theorem trips_32 : k0_t32_loop.trips = 64 := by decide +kernel
theorem offA_32 (i : grid0.Coords) (k : Fin k0_t32_loop.trips) : k0_off156 i k = ![1024 * (i 0).val + (960 + k.val)] := (k0_off156_eq i k).trans (vec1_of (by omega))
theorem offS_32 (k : Fin k0_t32_loop.trips) : k0_off157 k = ![k.val] := k0_off157_eq k
theorem offR_32 (k : Fin k0_t32_loop.trips) : k0_off158 k = ![960 + k.val, 0] := (k0_off158_eq k).trans (vec2_of (by omega))
theorem offB_32 (i : grid0.Coords) (k : Fin k0_t32_loop.trips) : k0_off159 i k = ![16 * (i 0).val + (960 + k.val) / 64, 0, 0] := (k0_off159_eq i k).trans (vec3_of (by omega))
theorem offT_32 : ∀ v : BitVec 32, k0_off160 v = ![v.toNat, 0] := fun _ => rfl
theorem chk_32 : ∀ v : BitVec 32, v.toNat < 512 → k0_chk32 v := fun v hv => rowCheck v hv

end Cert.KernelIdeal.Hand
-- ==== Proof.KI.LoopRule.lean ====
import proofs.«406790_j29661044146287_2_alg».proof.Proof.Gen.KernelIdeal.Loops

/-! # A counted loop of 64 trips, by a family of resources indexed by the trip number

Every loop of the gather runs 64 trips and carries nothing. The loop rule at a family `I k` of
resources (`I k` before trip `k`): one trip takes `I k` to `I (k + 1)`, so the loop takes `I 0` to
`I 64`, from which the rest of the program continues. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

theorem loop_by_trips (c : Dev nD) (l : Scf.Loop 32) (hok : l.OK) (htr : l.trips = 64)
    (body : Fin l.trips → Unit → Prog (TpuEff nD τ sig (Elt F) Λ₀ .tc) Unit) (I : ℕ → sProp 𝕄)
    (hstep : ∀ k : Fin l.trips, I k.val ⊢ wp frame (wpE defs₀ Variants.none (c : Thread nD τ) none) Set.univ (body k ()) (fun _ => I (k.val + 1)))
    {β : Type} {kk : Unit → Prog (TpuEff nD τ sig (Elt F) Λ₀ .tc) β} {Q : β → sProp 𝕄} :
    I 0 ⊢ iprop((I 64 -∗ wp frame (wpE defs₀ Variants.none (c : Thread nD τ) none) Set.univ (kk ()) Q)
      -∗ wp frame (wpE defs₀ Variants.none (c : Thread nD τ) none) Set.univ (Scf.Loop.for l hok () body >>= kk) Q) := by
  iintro HI HK
  iapply (Scf.wp_for_bind frame (wpE defs₀ Variants.none (c : Thread nD τ) none) Set.univ l.lb l.ub l.st hok () body
    (fun k _ => I k) (fun k _ => hstep k)) $$ [HI]
  · iexact HI
  iintro %acc H
  iapply HK
  iapply (show I l.trips ⊢ I 64 from by rw [htr]) $$ H

end Cert.KernelIdeal.Hand
end
-- ==== Proof.KI.Steps.lean ====
import proofs.«406790_j29661044146287_2_alg».proof.Proof.KI.Trips
import proofs.«406790_j29661044146287_2_alg».proof.Proof.KI.OffsetsTab
import proofs.«406790_j29661044146287_2_alg».proof.Proof.KI.LoopRule

/-! # The 32 loops of the gather: one trip, and the loop, of each

Loop N (1..32) works on the chunk at base 64 * ((N - 1) / 2): an odd N starts the chunk's 64 copies,
the next even N waits for them. One trip of loop N is the generic start (wait) trip at the loop's
offset chains, whose closed forms are the table of the offsets module; the loop is the loop rule at
the family of the chunk with the trip number as the count of copies started (waited for). -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

variable (c : Dev nD) (i : grid0.Coords)
  (arg1 : Memref sig .tc .smem S65536 .i32) (harg1 : arg1.IsWhole)
  (arg2 : Memref sig .tc .hbm S1024x512x256 .f32) (harg2 : arg2.IsWhole)
  (arg3 : Memref sig .tc .vmem S256x256 .f32) (harg3 : arg3.IsWhole)
  (arg4 : Memref sig .tc .vmem S256 .f32) (harg4 : arg4.IsWhole)
  (arg5 : Memref sig .tc .vmem S16x256 .f32) (harg5 : arg5.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)
  (hidx : ∀ j, (tb j).toNat < 512) (hWB : ∀ j : Fin 64, (SemLoc.dma (cellOfLane arg7 j), ()) ∈ WB)
  (v0 w0 : BitVec 32)
include hidx hWB

local notation "ST" => St c i arg1 harg1 arg2 harg2 arg6 arg7 q1 tb T WB
local notation "WP" => wp frame (wpE defs₀ Variants.none (c : Thread nD τ) none) Set.univ

theorem step_1 (k : Fin k0_t1_loop.trips) : (ST 0 k.val 0 : sProp 𝕄) ⊢ WP (k0_t1_body i arg1 harg1 arg2 harg2 arg3 harg3 arg4 harg4 arg5 harg5 arg6 harg6 arg7 k ()) (fun _ => ST 0 (k.val + 1) 0) :=
  start_trip c i arg1 harg1 arg2 harg2 arg6 arg7 q1 tb T WB 0 k.val (lt_of_lt_of_eq k.isLt trips_1) (by omega) (Dvd.intro 0 rfl) hidx (k0_off1 i k) (k0_off1_inb i k) k0_chk1 k0_chk1.dec (k0_off2 k) (k0_off2_inb k) (k0_off3 k) (k0_off3_inb k) (k0_off4 i k) (k0_off4_inb i k) k0_off5 k0_off5_inb (offA_1 i k) (offS_1 k) (offR_1 k) (offB_1 i k) offT_1 chk_1
theorem loop_1 {β : Type} {kk : Unit → Prog (TpuEff nD τ sig (Elt F) Λ₀ .tc) β} {Q : β → sProp 𝕄} : (ST 0 0 0 : sProp 𝕄) ⊢ iprop((ST 0 64 0 -∗ WP (kk ()) Q) -∗ WP (Scf.Loop.for k0_t1_loop k0_t1_ok () (k0_t1_body i arg1 harg1 arg2 harg2 arg3 harg3 arg4 harg4 arg5 harg5 arg6 harg6 arg7) >>= kk) Q) :=
  loop_by_trips c k0_t1_loop k0_t1_ok trips_1 _ (fun k => ST 0 k 0) (step_1 c i arg1 harg1 arg2 harg2 arg3 harg3 arg4 harg4 arg5 harg5 arg6 harg6 arg7 q1 tb T WB hidx hWB)
theorem step_2 (k : Fin k0_t2_loop.trips) : (ST 0 64 k.val : sProp 𝕄) ⊢ WP (k0_t2_body i arg1 harg1 arg2 harg2 arg3 harg3 arg4 harg4 arg5 harg5 arg6 harg6 arg7 k ()) (fun _ => ST 0 64 (k.val + 1)) :=
  wait_trip c i arg1 harg1 arg2 harg2 arg6 arg7 q1 tb T WB 0 k.val (lt_of_lt_of_eq k.isLt trips_2) (by omega) (Dvd.intro 0 rfl) hidx (k0_off6 i k) (k0_off6_inb i k) k0_chk2 k0_chk2.dec (k0_off7 k) (k0_off7_inb k) (k0_off8 k) (k0_off8_inb k) (k0_off9 i k) (k0_off9_inb i k) k0_off10 k0_off10_inb (offA_2 i k) (offS_2 k) (offR_2 k) (offB_2 i k) offT_2 chk_2 hWB
theorem loop_2 {β : Type} {kk : Unit → Prog (TpuEff nD τ sig (Elt F) Λ₀ .tc) β} {Q : β → sProp 𝕄} : (ST 0 64 0 : sProp 𝕄) ⊢ iprop((ST 0 64 64 -∗ WP (kk ()) Q) -∗ WP (Scf.Loop.for k0_t2_loop k0_t2_ok () (k0_t2_body i arg1 harg1 arg2 harg2 arg3 harg3 arg4 harg4 arg5 harg5 arg6 harg6 arg7) >>= kk) Q) :=
  loop_by_trips c k0_t2_loop k0_t2_ok trips_2 _ (fun k => ST 0 64 k) (step_2 c i arg1 harg1 arg2 harg2 arg3 harg3 arg4 harg4 arg5 harg5 arg6 harg6 arg7 q1 tb T WB hidx hWB)
theorem step_3 (k : Fin k0_t3_loop.trips) : (ST 64 k.val 0 : sProp 𝕄) ⊢ WP (k0_t3_body i arg1 harg1 arg2 harg2 arg3 harg3 arg4 harg4 arg5 harg5 arg6 harg6 arg7 k ()) (fun _ => ST 64 (k.val + 1) 0) :=
  start_trip c i arg1 harg1 arg2 harg2 arg6 arg7 q1 tb T WB 64 k.val (lt_of_lt_of_eq k.isLt trips_3) (by omega) (Dvd.intro 1 rfl) hidx (k0_off11 i k) (k0_off11_inb i k) k0_chk3 k0_chk3.dec (k0_off12 k) (k0_off12_inb k) (k0_off13 k) (k0_off13_inb k) (k0_off14 i k) (k0_off14_inb i k) k0_off15 k0_off15_inb (offA_3 i k) (offS_3 k) (offR_3 k) (offB_3 i k) offT_3 chk_3
theorem loop_3 {β : Type} {kk : Unit → Prog (TpuEff nD τ sig (Elt F) Λ₀ .tc) β} {Q : β → sProp 𝕄} : (ST 64 0 0 : sProp 𝕄) ⊢ iprop((ST 64 64 0 -∗ WP (kk ()) Q) -∗ WP (Scf.Loop.for k0_t3_loop k0_t3_ok () (k0_t3_body i arg1 harg1 arg2 harg2 arg3 harg3 arg4 harg4 arg5 harg5 arg6 harg6 arg7) >>= kk) Q) :=
  loop_by_trips c k0_t3_loop k0_t3_ok trips_3 _ (fun k => ST 64 k 0) (step_3 c i arg1 harg1 arg2 harg2 arg3 harg3 arg4 harg4 arg5 harg5 arg6 harg6 arg7 q1 tb T WB hidx hWB)
theorem step_4 (k : Fin k0_t4_loop.trips) : (ST 64 64 k.val : sProp 𝕄) ⊢ WP (k0_t4_body i arg1 harg1 arg2 harg2 arg3 harg3 arg4 harg4 arg5 harg5 arg6 harg6 arg7 k ()) (fun _ => ST 64 64 (k.val + 1)) :=
  wait_trip c i arg1 harg1 arg2 harg2 arg6 arg7 q1 tb T WB 64 k.val (lt_of_lt_of_eq k.isLt trips_4) (by omega) (Dvd.intro 1 rfl) hidx (k0_off16 i k) (k0_off16_inb i k) k0_chk4 k0_chk4.dec (k0_off17 k) (k0_off17_inb k) (k0_off18 k) (k0_off18_inb k) (k0_off19 i k) (k0_off19_inb i k) k0_off20 k0_off20_inb (offA_4 i k) (offS_4 k) (offR_4 k) (offB_4 i k) offT_4 chk_4 hWB
theorem loop_4 {β : Type} {kk : Unit → Prog (TpuEff nD τ sig (Elt F) Λ₀ .tc) β} {Q : β → sProp 𝕄} : (ST 64 64 0 : sProp 𝕄) ⊢ iprop((ST 64 64 64 -∗ WP (kk ()) Q) -∗ WP (Scf.Loop.for k0_t4_loop k0_t4_ok () (k0_t4_body i arg1 harg1 arg2 harg2 arg3 harg3 arg4 harg4 arg5 harg5 arg6 harg6 arg7) >>= kk) Q) :=
  loop_by_trips c k0_t4_loop k0_t4_ok trips_4 _ (fun k => ST 64 64 k) (step_4 c i arg1 harg1 arg2 harg2 arg3 harg3 arg4 harg4 arg5 harg5 arg6 harg6 arg7 q1 tb T WB hidx hWB)
theorem step_5 (k : Fin k0_t5_loop.trips) : (ST 128 k.val 0 : sProp 𝕄) ⊢ WP (k0_t5_body i arg1 harg1 arg2 harg2 arg3 harg3 arg4 harg4 arg5 harg5 arg6 harg6 arg7 k ()) (fun _ => ST 128 (k.val + 1) 0) :=
  start_trip c i arg1 harg1 arg2 harg2 arg6 arg7 q1 tb T WB 128 k.val (lt_of_lt_of_eq k.isLt trips_5) (by omega) (Dvd.intro 2 rfl) hidx (k0_off21 i k) (k0_off21_inb i k) k0_chk5 k0_chk5.dec (k0_off22 k) (k0_off22_inb k) (k0_off23 k) (k0_off23_inb k) (k0_off24 i k) (k0_off24_inb i k) k0_off25 k0_off25_inb (offA_5 i k) (offS_5 k) (offR_5 k) (offB_5 i k) offT_5 chk_5
theorem loop_5 {β : Type} {kk : Unit → Prog (TpuEff nD τ sig (Elt F) Λ₀ .tc) β} {Q : β → sProp 𝕄} : (ST 128 0 0 : sProp 𝕄) ⊢ iprop((ST 128 64 0 -∗ WP (kk ()) Q) -∗ WP (Scf.Loop.for k0_t5_loop k0_t5_ok () (k0_t5_body i arg1 harg1 arg2 harg2 arg3 harg3 arg4 harg4 arg5 harg5 arg6 harg6 arg7) >>= kk) Q) :=
  loop_by_trips c k0_t5_loop k0_t5_ok trips_5 _ (fun k => ST 128 k 0) (step_5 c i arg1 harg1 arg2 harg2 arg3 harg3 arg4 harg4 arg5 harg5 arg6 harg6 arg7 q1 tb T WB hidx hWB)
theorem step_6 (k : Fin k0_t6_loop.trips) : (ST 128 64 k.val : sProp 𝕄) ⊢ WP (k0_t6_body i arg1 harg1 arg2 harg2 arg3 harg3 arg4 harg4 arg5 harg5 arg6 harg6 arg7 k ()) (fun _ => ST 128 64 (k.val + 1)) :=
  wait_trip c i arg1 harg1 arg2 harg2 arg6 arg7 q1 tb T WB 128 k.val (lt_of_lt_of_eq k.isLt trips_6) (by omega) (Dvd.intro 2 rfl) hidx (k0_off26 i k) (k0_off26_inb i k) k0_chk6 k0_chk6.dec (k0_off27 k) (k0_off27_inb k) (k0_off28 k) (k0_off28_inb k) (k0_off29 i k) (k0_off29_inb i k) k0_off30 k0_off30_inb (offA_6 i k) (offS_6 k) (offR_6 k) (offB_6 i k) offT_6 chk_6 hWB
theorem loop_6 {β : Type} {kk : Unit → Prog (TpuEff nD τ sig (Elt F) Λ₀ .tc) β} {Q : β → sProp 𝕄} : (ST 128 64 0 : sProp 𝕄) ⊢ iprop((ST 128 64 64 -∗ WP (kk ()) Q) -∗ WP (Scf.Loop.for k0_t6_loop k0_t6_ok () (k0_t6_body i arg1 harg1 arg2 harg2 arg3 harg3 arg4 harg4 arg5 harg5 arg6 harg6 arg7) >>= kk) Q) :=
  loop_by_trips c k0_t6_loop k0_t6_ok trips_6 _ (fun k => ST 128 64 k) (step_6 c i arg1 harg1 arg2 harg2 arg3 harg3 arg4 harg4 arg5 harg5 arg6 harg6 arg7 q1 tb T WB hidx hWB)
theorem step_7 (k : Fin k0_t7_loop.trips) : (ST 192 k.val 0 : sProp 𝕄) ⊢ WP (k0_t7_body i arg1 harg1 arg2 harg2 arg3 harg3 arg4 harg4 arg5 harg5 arg6 harg6 arg7 k ()) (fun _ => ST 192 (k.val + 1) 0) :=
  start_trip c i arg1 harg1 arg2 harg2 arg6 arg7 q1 tb T WB 192 k.val (lt_of_lt_of_eq k.isLt trips_7) (by omega) (Dvd.intro 3 rfl) hidx (k0_off31 i k) (k0_off31_inb i k) k0_chk7 k0_chk7.dec (k0_off32 k) (k0_off32_inb k) (k0_off33 k) (k0_off33_inb k) (k0_off34 i k) (k0_off34_inb i k) k0_off35 k0_off35_inb (offA_7 i k) (offS_7 k) (offR_7 k) (offB_7 i k) offT_7 chk_7
theorem loop_7 {β : Type} {kk : Unit → Prog (TpuEff nD τ sig (Elt F) Λ₀ .tc) β} {Q : β → sProp 𝕄} : (ST 192 0 0 : sProp 𝕄) ⊢ iprop((ST 192 64 0 -∗ WP (kk ()) Q) -∗ WP (Scf.Loop.for k0_t7_loop k0_t7_ok () (k0_t7_body i arg1 harg1 arg2 harg2 arg3 harg3 arg4 harg4 arg5 harg5 arg6 harg6 arg7) >>= kk) Q) :=
  loop_by_trips c k0_t7_loop k0_t7_ok trips_7 _ (fun k => ST 192 k 0) (step_7 c i arg1 harg1 arg2 harg2 arg3 harg3 arg4 harg4 arg5 harg5 arg6 harg6 arg7 q1 tb T WB hidx hWB)
theorem step_8 (k : Fin k0_t8_loop.trips) : (ST 192 64 k.val : sProp 𝕄) ⊢ WP (k0_t8_body i arg1 harg1 arg2 harg2 arg3 harg3 arg4 harg4 arg5 harg5 arg6 harg6 arg7 k ()) (fun _ => ST 192 64 (k.val + 1)) :=
  wait_trip c i arg1 harg1 arg2 harg2 arg6 arg7 q1 tb T WB 192 k.val (lt_of_lt_of_eq k.isLt trips_8) (by omega) (Dvd.intro 3 rfl) hidx (k0_off36 i k) (k0_off36_inb i k) k0_chk8 k0_chk8.dec (k0_off37 k) (k0_off37_inb k) (k0_off38 k) (k0_off38_inb k) (k0_off39 i k) (k0_off39_inb i k) k0_off40 k0_off40_inb (offA_8 i k) (offS_8 k) (offR_8 k) (offB_8 i k) offT_8 chk_8 hWB
theorem loop_8 {β : Type} {kk : Unit → Prog (TpuEff nD τ sig (Elt F) Λ₀ .tc) β} {Q : β → sProp 𝕄} : (ST 192 64 0 : sProp 𝕄) ⊢ iprop((ST 192 64 64 -∗ WP (kk ()) Q) -∗ WP (Scf.Loop.for k0_t8_loop k0_t8_ok () (k0_t8_body i arg1 harg1 arg2 harg2 arg3 harg3 arg4 harg4 arg5 harg5 arg6 harg6 arg7) >>= kk) Q) :=
  loop_by_trips c k0_t8_loop k0_t8_ok trips_8 _ (fun k => ST 192 64 k) (step_8 c i arg1 harg1 arg2 harg2 arg3 harg3 arg4 harg4 arg5 harg5 arg6 harg6 arg7 q1 tb T WB hidx hWB)
theorem step_9 (k : Fin k0_t9_loop.trips) : (ST 256 k.val 0 : sProp 𝕄) ⊢ WP (k0_t9_body i arg1 harg1 arg2 harg2 arg3 harg3 arg4 harg4 arg5 harg5 arg6 harg6 arg7 k ()) (fun _ => ST 256 (k.val + 1) 0) :=
  start_trip c i arg1 harg1 arg2 harg2 arg6 arg7 q1 tb T WB 256 k.val (lt_of_lt_of_eq k.isLt trips_9) (by omega) (Dvd.intro 4 rfl) hidx (k0_off41 i k) (k0_off41_inb i k) k0_chk9 k0_chk9.dec (k0_off42 k) (k0_off42_inb k) (k0_off43 k) (k0_off43_inb k) (k0_off44 i k) (k0_off44_inb i k) k0_off45 k0_off45_inb (offA_9 i k) (offS_9 k) (offR_9 k) (offB_9 i k) offT_9 chk_9
theorem loop_9 {β : Type} {kk : Unit → Prog (TpuEff nD τ sig (Elt F) Λ₀ .tc) β} {Q : β → sProp 𝕄} : (ST 256 0 0 : sProp 𝕄) ⊢ iprop((ST 256 64 0 -∗ WP (kk ()) Q) -∗ WP (Scf.Loop.for k0_t9_loop k0_t9_ok () (k0_t9_body i arg1 harg1 arg2 harg2 arg3 harg3 arg4 harg4 arg5 harg5 arg6 harg6 arg7) >>= kk) Q) :=
  loop_by_trips c k0_t9_loop k0_t9_ok trips_9 _ (fun k => ST 256 k 0) (step_9 c i arg1 harg1 arg2 harg2 arg3 harg3 arg4 harg4 arg5 harg5 arg6 harg6 arg7 q1 tb T WB hidx hWB)
theorem step_10 (k : Fin k0_t10_loop.trips) : (ST 256 64 k.val : sProp 𝕄) ⊢ WP (k0_t10_body i arg1 harg1 arg2 harg2 arg3 harg3 arg4 harg4 arg5 harg5 arg6 harg6 arg7 v0 w0 k ()) (fun _ => ST 256 64 (k.val + 1)) :=
  wait_trip c i arg1 harg1 arg2 harg2 arg6 arg7 q1 tb T WB 256 k.val (lt_of_lt_of_eq k.isLt trips_10) (by omega) (Dvd.intro 4 rfl) hidx (k0_off46 i k) (k0_off46_inb i k) k0_chk10 k0_chk10.dec (k0_off47 k) (k0_off47_inb k) (k0_off48 k) (k0_off48_inb k) (k0_off49 i k) (k0_off49_inb i k) k0_off50 k0_off50_inb (offA_10 i k) (offS_10 k) (offR_10 k) (offB_10 i k) offT_10 chk_10 hWB
theorem loop_10 {β : Type} {kk : Unit → Prog (TpuEff nD τ sig (Elt F) Λ₀ .tc) β} {Q : β → sProp 𝕄} : (ST 256 64 0 : sProp 𝕄) ⊢ iprop((ST 256 64 64 -∗ WP (kk ()) Q) -∗ WP (Scf.Loop.for k0_t10_loop k0_t10_ok () (k0_t10_body i arg1 harg1 arg2 harg2 arg3 harg3 arg4 harg4 arg5 harg5 arg6 harg6 arg7 v0 w0) >>= kk) Q) :=
  loop_by_trips c k0_t10_loop k0_t10_ok trips_10 _ (fun k => ST 256 64 k) (step_10 c i arg1 harg1 arg2 harg2 arg3 harg3 arg4 harg4 arg5 harg5 arg6 harg6 arg7 q1 tb T WB hidx hWB v0 w0)
theorem step_11 (k : Fin k0_t11_loop.trips) : (ST 320 k.val 0 : sProp 𝕄) ⊢ WP (k0_t11_body i arg1 harg1 arg2 harg2 arg3 harg3 arg4 harg4 arg5 harg5 arg6 harg6 arg7 v0 w0 k ()) (fun _ => ST 320 (k.val + 1) 0) :=
  start_trip c i arg1 harg1 arg2 harg2 arg6 arg7 q1 tb T WB 320 k.val (lt_of_lt_of_eq k.isLt trips_11) (by omega) (Dvd.intro 5 rfl) hidx (k0_off51 i k) (k0_off51_inb i k) k0_chk11 k0_chk11.dec (k0_off52 k) (k0_off52_inb k) (k0_off53 k) (k0_off53_inb k) (k0_off54 i k) (k0_off54_inb i k) k0_off55 k0_off55_inb (offA_11 i k) (offS_11 k) (offR_11 k) (offB_11 i k) offT_11 chk_11
theorem loop_11 {β : Type} {kk : Unit → Prog (TpuEff nD τ sig (Elt F) Λ₀ .tc) β} {Q : β → sProp 𝕄} : (ST 320 0 0 : sProp 𝕄) ⊢ iprop((ST 320 64 0 -∗ WP (kk ()) Q) -∗ WP (Scf.Loop.for k0_t11_loop k0_t11_ok () (k0_t11_body i arg1 harg1 arg2 harg2 arg3 harg3 arg4 harg4 arg5 harg5 arg6 harg6 arg7 v0 w0) >>= kk) Q) :=
  loop_by_trips c k0_t11_loop k0_t11_ok trips_11 _ (fun k => ST 320 k 0) (step_11 c i arg1 harg1 arg2 harg2 arg3 harg3 arg4 harg4 arg5 harg5 arg6 harg6 arg7 q1 tb T WB hidx hWB v0 w0)
theorem step_12 (k : Fin k0_t12_loop.trips) : (ST 320 64 k.val : sProp 𝕄) ⊢ WP (k0_t12_body i arg1 harg1 arg2 harg2 arg3 harg3 arg4 harg4 arg5 harg5 arg6 harg6 arg7 v0 w0 k ()) (fun _ => ST 320 64 (k.val + 1)) :=
  wait_trip c i arg1 harg1 arg2 harg2 arg6 arg7 q1 tb T WB 320 k.val (lt_of_lt_of_eq k.isLt trips_12) (by omega) (Dvd.intro 5 rfl) hidx (k0_off56 i k) (k0_off56_inb i k) k0_chk12 k0_chk12.dec (k0_off57 k) (k0_off57_inb k) (k0_off58 k) (k0_off58_inb k) (k0_off59 i k) (k0_off59_inb i k) k0_off60 k0_off60_inb (offA_12 i k) (offS_12 k) (offR_12 k) (offB_12 i k) offT_12 chk_12 hWB
theorem loop_12 {β : Type} {kk : Unit → Prog (TpuEff nD τ sig (Elt F) Λ₀ .tc) β} {Q : β → sProp 𝕄} : (ST 320 64 0 : sProp 𝕄) ⊢ iprop((ST 320 64 64 -∗ WP (kk ()) Q) -∗ WP (Scf.Loop.for k0_t12_loop k0_t12_ok () (k0_t12_body i arg1 harg1 arg2 harg2 arg3 harg3 arg4 harg4 arg5 harg5 arg6 harg6 arg7 v0 w0) >>= kk) Q) :=
  loop_by_trips c k0_t12_loop k0_t12_ok trips_12 _ (fun k => ST 320 64 k) (step_12 c i arg1 harg1 arg2 harg2 arg3 harg3 arg4 harg4 arg5 harg5 arg6 harg6 arg7 q1 tb T WB hidx hWB v0 w0)
theorem step_13 (k : Fin k0_t13_loop.trips) : (ST 384 k.val 0 : sProp 𝕄) ⊢ WP (k0_t13_body i arg1 harg1 arg2 harg2 arg3 harg3 arg4 harg4 arg5 harg5 arg6 harg6 arg7 v0 w0 k ()) (fun _ => ST 384 (k.val + 1) 0) :=
  start_trip c i arg1 harg1 arg2 harg2 arg6 arg7 q1 tb T WB 384 k.val (lt_of_lt_of_eq k.isLt trips_13) (by omega) (Dvd.intro 6 rfl) hidx (k0_off61 i k) (k0_off61_inb i k) k0_chk13 k0_chk13.dec (k0_off62 k) (k0_off62_inb k) (k0_off63 k) (k0_off63_inb k) (k0_off64 i k) (k0_off64_inb i k) k0_off65 k0_off65_inb (offA_13 i k) (offS_13 k) (offR_13 k) (offB_13 i k) offT_13 chk_13
theorem loop_13 {β : Type} {kk : Unit → Prog (TpuEff nD τ sig (Elt F) Λ₀ .tc) β} {Q : β → sProp 𝕄} : (ST 384 0 0 : sProp 𝕄) ⊢ iprop((ST 384 64 0 -∗ WP (kk ()) Q) -∗ WP (Scf.Loop.for k0_t13_loop k0_t13_ok () (k0_t13_body i arg1 harg1 arg2 harg2 arg3 harg3 arg4 harg4 arg5 harg5 arg6 harg6 arg7 v0 w0) >>= kk) Q) :=
  loop_by_trips c k0_t13_loop k0_t13_ok trips_13 _ (fun k => ST 384 k 0) (step_13 c i arg1 harg1 arg2 harg2 arg3 harg3 arg4 harg4 arg5 harg5 arg6 harg6 arg7 q1 tb T WB hidx hWB v0 w0)
theorem step_14 (k : Fin k0_t14_loop.trips) : (ST 384 64 k.val : sProp 𝕄) ⊢ WP (k0_t14_body i arg1 harg1 arg2 harg2 arg3 harg3 arg4 harg4 arg5 harg5 arg6 harg6 arg7 v0 w0 k ()) (fun _ => ST 384 64 (k.val + 1)) :=
  wait_trip c i arg1 harg1 arg2 harg2 arg6 arg7 q1 tb T WB 384 k.val (lt_of_lt_of_eq k.isLt trips_14) (by omega) (Dvd.intro 6 rfl) hidx (k0_off66 i k) (k0_off66_inb i k) k0_chk14 k0_chk14.dec (k0_off67 k) (k0_off67_inb k) (k0_off68 k) (k0_off68_inb k) (k0_off69 i k) (k0_off69_inb i k) k0_off70 k0_off70_inb (offA_14 i k) (offS_14 k) (offR_14 k) (offB_14 i k) offT_14 chk_14 hWB
theorem loop_14 {β : Type} {kk : Unit → Prog (TpuEff nD τ sig (Elt F) Λ₀ .tc) β} {Q : β → sProp 𝕄} : (ST 384 64 0 : sProp 𝕄) ⊢ iprop((ST 384 64 64 -∗ WP (kk ()) Q) -∗ WP (Scf.Loop.for k0_t14_loop k0_t14_ok () (k0_t14_body i arg1 harg1 arg2 harg2 arg3 harg3 arg4 harg4 arg5 harg5 arg6 harg6 arg7 v0 w0) >>= kk) Q) :=
  loop_by_trips c k0_t14_loop k0_t14_ok trips_14 _ (fun k => ST 384 64 k) (step_14 c i arg1 harg1 arg2 harg2 arg3 harg3 arg4 harg4 arg5 harg5 arg6 harg6 arg7 q1 tb T WB hidx hWB v0 w0)
theorem step_15 (k : Fin k0_t15_loop.trips) : (ST 448 k.val 0 : sProp 𝕄) ⊢ WP (k0_t15_body i arg1 harg1 arg2 harg2 arg3 harg3 arg4 harg4 arg5 harg5 arg6 harg6 arg7 v0 w0 k ()) (fun _ => ST 448 (k.val + 1) 0) :=
  start_trip c i arg1 harg1 arg2 harg2 arg6 arg7 q1 tb T WB 448 k.val (lt_of_lt_of_eq k.isLt trips_15) (by omega) (Dvd.intro 7 rfl) hidx (k0_off71 i k) (k0_off71_inb i k) k0_chk15 k0_chk15.dec (k0_off72 k) (k0_off72_inb k) (k0_off73 k) (k0_off73_inb k) (k0_off74 i k) (k0_off74_inb i k) k0_off75 k0_off75_inb (offA_15 i k) (offS_15 k) (offR_15 k) (offB_15 i k) offT_15 chk_15
theorem loop_15 {β : Type} {kk : Unit → Prog (TpuEff nD τ sig (Elt F) Λ₀ .tc) β} {Q : β → sProp 𝕄} : (ST 448 0 0 : sProp 𝕄) ⊢ iprop((ST 448 64 0 -∗ WP (kk ()) Q) -∗ WP (Scf.Loop.for k0_t15_loop k0_t15_ok () (k0_t15_body i arg1 harg1 arg2 harg2 arg3 harg3 arg4 harg4 arg5 harg5 arg6 harg6 arg7 v0 w0) >>= kk) Q) :=
  loop_by_trips c k0_t15_loop k0_t15_ok trips_15 _ (fun k => ST 448 k 0) (step_15 c i arg1 harg1 arg2 harg2 arg3 harg3 arg4 harg4 arg5 harg5 arg6 harg6 arg7 q1 tb T WB hidx hWB v0 w0)
theorem step_16 (k : Fin k0_t16_loop.trips) : (ST 448 64 k.val : sProp 𝕄) ⊢ WP (k0_t16_body i arg1 harg1 arg2 harg2 arg3 harg3 arg4 harg4 arg5 harg5 arg6 harg6 arg7 v0 w0 k ()) (fun _ => ST 448 64 (k.val + 1)) :=
  wait_trip c i arg1 harg1 arg2 harg2 arg6 arg7 q1 tb T WB 448 k.val (lt_of_lt_of_eq k.isLt trips_16) (by omega) (Dvd.intro 7 rfl) hidx (k0_off76 i k) (k0_off76_inb i k) k0_chk16 k0_chk16.dec (k0_off77 k) (k0_off77_inb k) (k0_off78 k) (k0_off78_inb k) (k0_off79 i k) (k0_off79_inb i k) k0_off80 k0_off80_inb (offA_16 i k) (offS_16 k) (offR_16 k) (offB_16 i k) offT_16 chk_16 hWB
theorem loop_16 {β : Type} {kk : Unit → Prog (TpuEff nD τ sig (Elt F) Λ₀ .tc) β} {Q : β → sProp 𝕄} : (ST 448 64 0 : sProp 𝕄) ⊢ iprop((ST 448 64 64 -∗ WP (kk ()) Q) -∗ WP (Scf.Loop.for k0_t16_loop k0_t16_ok () (k0_t16_body i arg1 harg1 arg2 harg2 arg3 harg3 arg4 harg4 arg5 harg5 arg6 harg6 arg7 v0 w0) >>= kk) Q) :=
  loop_by_trips c k0_t16_loop k0_t16_ok trips_16 _ (fun k => ST 448 64 k) (step_16 c i arg1 harg1 arg2 harg2 arg3 harg3 arg4 harg4 arg5 harg5 arg6 harg6 arg7 q1 tb T WB hidx hWB v0 w0)
theorem step_17 (k : Fin k0_t17_loop.trips) : (ST 512 k.val 0 : sProp 𝕄) ⊢ WP (k0_t17_body i arg1 harg1 arg2 harg2 arg3 harg3 arg4 harg4 arg5 harg5 arg6 harg6 arg7 v0 w0 k ()) (fun _ => ST 512 (k.val + 1) 0) :=
  start_trip c i arg1 harg1 arg2 harg2 arg6 arg7 q1 tb T WB 512 k.val (lt_of_lt_of_eq k.isLt trips_17) (by omega) (Dvd.intro 8 rfl) hidx (k0_off81 i k) (k0_off81_inb i k) k0_chk17 k0_chk17.dec (k0_off82 k) (k0_off82_inb k) (k0_off83 k) (k0_off83_inb k) (k0_off84 i k) (k0_off84_inb i k) k0_off85 k0_off85_inb (offA_17 i k) (offS_17 k) (offR_17 k) (offB_17 i k) offT_17 chk_17
theorem loop_17 {β : Type} {kk : Unit → Prog (TpuEff nD τ sig (Elt F) Λ₀ .tc) β} {Q : β → sProp 𝕄} : (ST 512 0 0 : sProp 𝕄) ⊢ iprop((ST 512 64 0 -∗ WP (kk ()) Q) -∗ WP (Scf.Loop.for k0_t17_loop k0_t17_ok () (k0_t17_body i arg1 harg1 arg2 harg2 arg3 harg3 arg4 harg4 arg5 harg5 arg6 harg6 arg7 v0 w0) >>= kk) Q) :=
  loop_by_trips c k0_t17_loop k0_t17_ok trips_17 _ (fun k => ST 512 k 0) (step_17 c i arg1 harg1 arg2 harg2 arg3 harg3 arg4 harg4 arg5 harg5 arg6 harg6 arg7 q1 tb T WB hidx hWB v0 w0)
theorem step_18 (k : Fin k0_t18_loop.trips) : (ST 512 64 k.val : sProp 𝕄) ⊢ WP (k0_t18_body i arg1 harg1 arg2 harg2 arg3 harg3 arg4 harg4 arg5 harg5 arg6 harg6 arg7 v0 w0 k ()) (fun _ => ST 512 64 (k.val + 1)) :=
  wait_trip c i arg1 harg1 arg2 harg2 arg6 arg7 q1 tb T WB 512 k.val (lt_of_lt_of_eq k.isLt trips_18) (by omega) (Dvd.intro 8 rfl) hidx (k0_off86 i k) (k0_off86_inb i k) k0_chk18 k0_chk18.dec (k0_off87 k) (k0_off87_inb k) (k0_off88 k) (k0_off88_inb k) (k0_off89 i k) (k0_off89_inb i k) k0_off90 k0_off90_inb (offA_18 i k) (offS_18 k) (offR_18 k) (offB_18 i k) offT_18 chk_18 hWB
theorem loop_18 {β : Type} {kk : Unit → Prog (TpuEff nD τ sig (Elt F) Λ₀ .tc) β} {Q : β → sProp 𝕄} : (ST 512 64 0 : sProp 𝕄) ⊢ iprop((ST 512 64 64 -∗ WP (kk ()) Q) -∗ WP (Scf.Loop.for k0_t18_loop k0_t18_ok () (k0_t18_body i arg1 harg1 arg2 harg2 arg3 harg3 arg4 harg4 arg5 harg5 arg6 harg6 arg7 v0 w0) >>= kk) Q) :=
  loop_by_trips c k0_t18_loop k0_t18_ok trips_18 _ (fun k => ST 512 64 k) (step_18 c i arg1 harg1 arg2 harg2 arg3 harg3 arg4 harg4 arg5 harg5 arg6 harg6 arg7 q1 tb T WB hidx hWB v0 w0)
theorem step_19 (k : Fin k0_t19_loop.trips) : (ST 576 k.val 0 : sProp 𝕄) ⊢ WP (k0_t19_body i arg1 harg1 arg2 harg2 arg3 harg3 arg4 harg4 arg5 harg5 arg6 harg6 arg7 v0 w0 k ()) (fun _ => ST 576 (k.val + 1) 0) :=
  start_trip c i arg1 harg1 arg2 harg2 arg6 arg7 q1 tb T WB 576 k.val (lt_of_lt_of_eq k.isLt trips_19) (by omega) (Dvd.intro 9 rfl) hidx (k0_off91 i k) (k0_off91_inb i k) k0_chk19 k0_chk19.dec (k0_off92 k) (k0_off92_inb k) (k0_off93 k) (k0_off93_inb k) (k0_off94 i k) (k0_off94_inb i k) k0_off95 k0_off95_inb (offA_19 i k) (offS_19 k) (offR_19 k) (offB_19 i k) offT_19 chk_19
theorem loop_19 {β : Type} {kk : Unit → Prog (TpuEff nD τ sig (Elt F) Λ₀ .tc) β} {Q : β → sProp 𝕄} : (ST 576 0 0 : sProp 𝕄) ⊢ iprop((ST 576 64 0 -∗ WP (kk ()) Q) -∗ WP (Scf.Loop.for k0_t19_loop k0_t19_ok () (k0_t19_body i arg1 harg1 arg2 harg2 arg3 harg3 arg4 harg4 arg5 harg5 arg6 harg6 arg7 v0 w0) >>= kk) Q) :=
  loop_by_trips c k0_t19_loop k0_t19_ok trips_19 _ (fun k => ST 576 k 0) (step_19 c i arg1 harg1 arg2 harg2 arg3 harg3 arg4 harg4 arg5 harg5 arg6 harg6 arg7 q1 tb T WB hidx hWB v0 w0)
theorem step_20 (k : Fin k0_t20_loop.trips) : (ST 576 64 k.val : sProp 𝕄) ⊢ WP (k0_t20_body i arg1 harg1 arg2 harg2 arg3 harg3 arg4 harg4 arg5 harg5 arg6 harg6 arg7 v0 w0 k ()) (fun _ => ST 576 64 (k.val + 1)) :=
  wait_trip c i arg1 harg1 arg2 harg2 arg6 arg7 q1 tb T WB 576 k.val (lt_of_lt_of_eq k.isLt trips_20) (by omega) (Dvd.intro 9 rfl) hidx (k0_off96 i k) (k0_off96_inb i k) k0_chk20 k0_chk20.dec (k0_off97 k) (k0_off97_inb k) (k0_off98 k) (k0_off98_inb k) (k0_off99 i k) (k0_off99_inb i k) k0_off100 k0_off100_inb (offA_20 i k) (offS_20 k) (offR_20 k) (offB_20 i k) offT_20 chk_20 hWB
theorem loop_20 {β : Type} {kk : Unit → Prog (TpuEff nD τ sig (Elt F) Λ₀ .tc) β} {Q : β → sProp 𝕄} : (ST 576 64 0 : sProp 𝕄) ⊢ iprop((ST 576 64 64 -∗ WP (kk ()) Q) -∗ WP (Scf.Loop.for k0_t20_loop k0_t20_ok () (k0_t20_body i arg1 harg1 arg2 harg2 arg3 harg3 arg4 harg4 arg5 harg5 arg6 harg6 arg7 v0 w0) >>= kk) Q) :=
  loop_by_trips c k0_t20_loop k0_t20_ok trips_20 _ (fun k => ST 576 64 k) (step_20 c i arg1 harg1 arg2 harg2 arg3 harg3 arg4 harg4 arg5 harg5 arg6 harg6 arg7 q1 tb T WB hidx hWB v0 w0)
theorem step_21 (k : Fin k0_t21_loop.trips) : (ST 640 k.val 0 : sProp 𝕄) ⊢ WP (k0_t21_body i arg1 harg1 arg2 harg2 arg3 harg3 arg4 harg4 arg5 harg5 arg6 harg6 arg7 v0 w0 k ()) (fun _ => ST 640 (k.val + 1) 0) :=
  start_trip c i arg1 harg1 arg2 harg2 arg6 arg7 q1 tb T WB 640 k.val (lt_of_lt_of_eq k.isLt trips_21) (by omega) (Dvd.intro 10 rfl) hidx (k0_off101 i k) (k0_off101_inb i k) k0_chk21 k0_chk21.dec (k0_off102 k) (k0_off102_inb k) (k0_off103 k) (k0_off103_inb k) (k0_off104 i k) (k0_off104_inb i k) k0_off105 k0_off105_inb (offA_21 i k) (offS_21 k) (offR_21 k) (offB_21 i k) offT_21 chk_21
theorem loop_21 {β : Type} {kk : Unit → Prog (TpuEff nD τ sig (Elt F) Λ₀ .tc) β} {Q : β → sProp 𝕄} : (ST 640 0 0 : sProp 𝕄) ⊢ iprop((ST 640 64 0 -∗ WP (kk ()) Q) -∗ WP (Scf.Loop.for k0_t21_loop k0_t21_ok () (k0_t21_body i arg1 harg1 arg2 harg2 arg3 harg3 arg4 harg4 arg5 harg5 arg6 harg6 arg7 v0 w0) >>= kk) Q) :=
  loop_by_trips c k0_t21_loop k0_t21_ok trips_21 _ (fun k => ST 640 k 0) (step_21 c i arg1 harg1 arg2 harg2 arg3 harg3 arg4 harg4 arg5 harg5 arg6 harg6 arg7 q1 tb T WB hidx hWB v0 w0)
theorem step_22 (k : Fin k0_t22_loop.trips) : (ST 640 64 k.val : sProp 𝕄) ⊢ WP (k0_t22_body i arg1 harg1 arg2 harg2 arg3 harg3 arg4 harg4 arg5 harg5 arg6 harg6 arg7 v0 w0 k ()) (fun _ => ST 640 64 (k.val + 1)) :=
  wait_trip c i arg1 harg1 arg2 harg2 arg6 arg7 q1 tb T WB 640 k.val (lt_of_lt_of_eq k.isLt trips_22) (by omega) (Dvd.intro 10 rfl) hidx (k0_off106 i k) (k0_off106_inb i k) k0_chk22 k0_chk22.dec (k0_off107 k) (k0_off107_inb k) (k0_off108 k) (k0_off108_inb k) (k0_off109 i k) (k0_off109_inb i k) k0_off110 k0_off110_inb (offA_22 i k) (offS_22 k) (offR_22 k) (offB_22 i k) offT_22 chk_22 hWB
theorem loop_22 {β : Type} {kk : Unit → Prog (TpuEff nD τ sig (Elt F) Λ₀ .tc) β} {Q : β → sProp 𝕄} : (ST 640 64 0 : sProp 𝕄) ⊢ iprop((ST 640 64 64 -∗ WP (kk ()) Q) -∗ WP (Scf.Loop.for k0_t22_loop k0_t22_ok () (k0_t22_body i arg1 harg1 arg2 harg2 arg3 harg3 arg4 harg4 arg5 harg5 arg6 harg6 arg7 v0 w0) >>= kk) Q) :=
  loop_by_trips c k0_t22_loop k0_t22_ok trips_22 _ (fun k => ST 640 64 k) (step_22 c i arg1 harg1 arg2 harg2 arg3 harg3 arg4 harg4 arg5 harg5 arg6 harg6 arg7 q1 tb T WB hidx hWB v0 w0)
theorem step_23 (k : Fin k0_t23_loop.trips) : (ST 704 k.val 0 : sProp 𝕄) ⊢ WP (k0_t23_body i arg1 harg1 arg2 harg2 arg3 harg3 arg4 harg4 arg5 harg5 arg6 harg6 arg7 v0 w0 k ()) (fun _ => ST 704 (k.val + 1) 0) :=
  start_trip c i arg1 harg1 arg2 harg2 arg6 arg7 q1 tb T WB 704 k.val (lt_of_lt_of_eq k.isLt trips_23) (by omega) (Dvd.intro 11 rfl) hidx (k0_off111 i k) (k0_off111_inb i k) k0_chk23 k0_chk23.dec (k0_off112 k) (k0_off112_inb k) (k0_off113 k) (k0_off113_inb k) (k0_off114 i k) (k0_off114_inb i k) k0_off115 k0_off115_inb (offA_23 i k) (offS_23 k) (offR_23 k) (offB_23 i k) offT_23 chk_23
theorem loop_23 {β : Type} {kk : Unit → Prog (TpuEff nD τ sig (Elt F) Λ₀ .tc) β} {Q : β → sProp 𝕄} : (ST 704 0 0 : sProp 𝕄) ⊢ iprop((ST 704 64 0 -∗ WP (kk ()) Q) -∗ WP (Scf.Loop.for k0_t23_loop k0_t23_ok () (k0_t23_body i arg1 harg1 arg2 harg2 arg3 harg3 arg4 harg4 arg5 harg5 arg6 harg6 arg7 v0 w0) >>= kk) Q) :=
  loop_by_trips c k0_t23_loop k0_t23_ok trips_23 _ (fun k => ST 704 k 0) (step_23 c i arg1 harg1 arg2 harg2 arg3 harg3 arg4 harg4 arg5 harg5 arg6 harg6 arg7 q1 tb T WB hidx hWB v0 w0)
theorem step_24 (k : Fin k0_t24_loop.trips) : (ST 704 64 k.val : sProp 𝕄) ⊢ WP (k0_t24_body i arg1 harg1 arg2 harg2 arg3 harg3 arg4 harg4 arg5 harg5 arg6 harg6 arg7 v0 w0 k ()) (fun _ => ST 704 64 (k.val + 1)) :=
  wait_trip c i arg1 harg1 arg2 harg2 arg6 arg7 q1 tb T WB 704 k.val (lt_of_lt_of_eq k.isLt trips_24) (by omega) (Dvd.intro 11 rfl) hidx (k0_off116 i k) (k0_off116_inb i k) k0_chk24 k0_chk24.dec (k0_off117 k) (k0_off117_inb k) (k0_off118 k) (k0_off118_inb k) (k0_off119 i k) (k0_off119_inb i k) k0_off120 k0_off120_inb (offA_24 i k) (offS_24 k) (offR_24 k) (offB_24 i k) offT_24 chk_24 hWB
theorem loop_24 {β : Type} {kk : Unit → Prog (TpuEff nD τ sig (Elt F) Λ₀ .tc) β} {Q : β → sProp 𝕄} : (ST 704 64 0 : sProp 𝕄) ⊢ iprop((ST 704 64 64 -∗ WP (kk ()) Q) -∗ WP (Scf.Loop.for k0_t24_loop k0_t24_ok () (k0_t24_body i arg1 harg1 arg2 harg2 arg3 harg3 arg4 harg4 arg5 harg5 arg6 harg6 arg7 v0 w0) >>= kk) Q) :=
  loop_by_trips c k0_t24_loop k0_t24_ok trips_24 _ (fun k => ST 704 64 k) (step_24 c i arg1 harg1 arg2 harg2 arg3 harg3 arg4 harg4 arg5 harg5 arg6 harg6 arg7 q1 tb T WB hidx hWB v0 w0)
theorem step_25 (k : Fin k0_t25_loop.trips) : (ST 768 k.val 0 : sProp 𝕄) ⊢ WP (k0_t25_body i arg1 harg1 arg2 harg2 arg3 harg3 arg4 harg4 arg5 harg5 arg6 harg6 arg7 v0 w0 k ()) (fun _ => ST 768 (k.val + 1) 0) :=
  start_trip c i arg1 harg1 arg2 harg2 arg6 arg7 q1 tb T WB 768 k.val (lt_of_lt_of_eq k.isLt trips_25) (by omega) (Dvd.intro 12 rfl) hidx (k0_off121 i k) (k0_off121_inb i k) k0_chk25 k0_chk25.dec (k0_off122 k) (k0_off122_inb k) (k0_off123 k) (k0_off123_inb k) (k0_off124 i k) (k0_off124_inb i k) k0_off125 k0_off125_inb (offA_25 i k) (offS_25 k) (offR_25 k) (offB_25 i k) offT_25 chk_25
theorem loop_25 {β : Type} {kk : Unit → Prog (TpuEff nD τ sig (Elt F) Λ₀ .tc) β} {Q : β → sProp 𝕄} : (ST 768 0 0 : sProp 𝕄) ⊢ iprop((ST 768 64 0 -∗ WP (kk ()) Q) -∗ WP (Scf.Loop.for k0_t25_loop k0_t25_ok () (k0_t25_body i arg1 harg1 arg2 harg2 arg3 harg3 arg4 harg4 arg5 harg5 arg6 harg6 arg7 v0 w0) >>= kk) Q) :=
  loop_by_trips c k0_t25_loop k0_t25_ok trips_25 _ (fun k => ST 768 k 0) (step_25 c i arg1 harg1 arg2 harg2 arg3 harg3 arg4 harg4 arg5 harg5 arg6 harg6 arg7 q1 tb T WB hidx hWB v0 w0)
theorem step_26 (k : Fin k0_t26_loop.trips) : (ST 768 64 k.val : sProp 𝕄) ⊢ WP (k0_t26_body i arg1 harg1 arg2 harg2 arg3 harg3 arg4 harg4 arg5 harg5 arg6 harg6 arg7 v0 w0 k ()) (fun _ => ST 768 64 (k.val + 1)) :=
  wait_trip c i arg1 harg1 arg2 harg2 arg6 arg7 q1 tb T WB 768 k.val (lt_of_lt_of_eq k.isLt trips_26) (by omega) (Dvd.intro 12 rfl) hidx (k0_off126 i k) (k0_off126_inb i k) k0_chk26 k0_chk26.dec (k0_off127 k) (k0_off127_inb k) (k0_off128 k) (k0_off128_inb k) (k0_off129 i k) (k0_off129_inb i k) k0_off130 k0_off130_inb (offA_26 i k) (offS_26 k) (offR_26 k) (offB_26 i k) offT_26 chk_26 hWB
theorem loop_26 {β : Type} {kk : Unit → Prog (TpuEff nD τ sig (Elt F) Λ₀ .tc) β} {Q : β → sProp 𝕄} : (ST 768 64 0 : sProp 𝕄) ⊢ iprop((ST 768 64 64 -∗ WP (kk ()) Q) -∗ WP (Scf.Loop.for k0_t26_loop k0_t26_ok () (k0_t26_body i arg1 harg1 arg2 harg2 arg3 harg3 arg4 harg4 arg5 harg5 arg6 harg6 arg7 v0 w0) >>= kk) Q) :=
  loop_by_trips c k0_t26_loop k0_t26_ok trips_26 _ (fun k => ST 768 64 k) (step_26 c i arg1 harg1 arg2 harg2 arg3 harg3 arg4 harg4 arg5 harg5 arg6 harg6 arg7 q1 tb T WB hidx hWB v0 w0)
theorem step_27 (k : Fin k0_t27_loop.trips) : (ST 832 k.val 0 : sProp 𝕄) ⊢ WP (k0_t27_body i arg1 harg1 arg2 harg2 arg3 harg3 arg4 harg4 arg5 harg5 arg6 harg6 arg7 v0 w0 k ()) (fun _ => ST 832 (k.val + 1) 0) :=
  start_trip c i arg1 harg1 arg2 harg2 arg6 arg7 q1 tb T WB 832 k.val (lt_of_lt_of_eq k.isLt trips_27) (by omega) (Dvd.intro 13 rfl) hidx (k0_off131 i k) (k0_off131_inb i k) k0_chk27 k0_chk27.dec (k0_off132 k) (k0_off132_inb k) (k0_off133 k) (k0_off133_inb k) (k0_off134 i k) (k0_off134_inb i k) k0_off135 k0_off135_inb (offA_27 i k) (offS_27 k) (offR_27 k) (offB_27 i k) offT_27 chk_27
theorem loop_27 {β : Type} {kk : Unit → Prog (TpuEff nD τ sig (Elt F) Λ₀ .tc) β} {Q : β → sProp 𝕄} : (ST 832 0 0 : sProp 𝕄) ⊢ iprop((ST 832 64 0 -∗ WP (kk ()) Q) -∗ WP (Scf.Loop.for k0_t27_loop k0_t27_ok () (k0_t27_body i arg1 harg1 arg2 harg2 arg3 harg3 arg4 harg4 arg5 harg5 arg6 harg6 arg7 v0 w0) >>= kk) Q) :=
  loop_by_trips c k0_t27_loop k0_t27_ok trips_27 _ (fun k => ST 832 k 0) (step_27 c i arg1 harg1 arg2 harg2 arg3 harg3 arg4 harg4 arg5 harg5 arg6 harg6 arg7 q1 tb T WB hidx hWB v0 w0)
theorem step_28 (k : Fin k0_t28_loop.trips) : (ST 832 64 k.val : sProp 𝕄) ⊢ WP (k0_t28_body i arg1 harg1 arg2 harg2 arg3 harg3 arg4 harg4 arg5 harg5 arg6 harg6 arg7 v0 w0 k ()) (fun _ => ST 832 64 (k.val + 1)) :=
  wait_trip c i arg1 harg1 arg2 harg2 arg6 arg7 q1 tb T WB 832 k.val (lt_of_lt_of_eq k.isLt trips_28) (by omega) (Dvd.intro 13 rfl) hidx (k0_off136 i k) (k0_off136_inb i k) k0_chk28 k0_chk28.dec (k0_off137 k) (k0_off137_inb k) (k0_off138 k) (k0_off138_inb k) (k0_off139 i k) (k0_off139_inb i k) k0_off140 k0_off140_inb (offA_28 i k) (offS_28 k) (offR_28 k) (offB_28 i k) offT_28 chk_28 hWB
theorem loop_28 {β : Type} {kk : Unit → Prog (TpuEff nD τ sig (Elt F) Λ₀ .tc) β} {Q : β → sProp 𝕄} : (ST 832 64 0 : sProp 𝕄) ⊢ iprop((ST 832 64 64 -∗ WP (kk ()) Q) -∗ WP (Scf.Loop.for k0_t28_loop k0_t28_ok () (k0_t28_body i arg1 harg1 arg2 harg2 arg3 harg3 arg4 harg4 arg5 harg5 arg6 harg6 arg7 v0 w0) >>= kk) Q) :=
  loop_by_trips c k0_t28_loop k0_t28_ok trips_28 _ (fun k => ST 832 64 k) (step_28 c i arg1 harg1 arg2 harg2 arg3 harg3 arg4 harg4 arg5 harg5 arg6 harg6 arg7 q1 tb T WB hidx hWB v0 w0)
theorem step_29 (k : Fin k0_t29_loop.trips) : (ST 896 k.val 0 : sProp 𝕄) ⊢ WP (k0_t29_body i arg1 harg1 arg2 harg2 arg3 harg3 arg4 harg4 arg5 harg5 arg6 harg6 arg7 v0 w0 k ()) (fun _ => ST 896 (k.val + 1) 0) :=
  start_trip c i arg1 harg1 arg2 harg2 arg6 arg7 q1 tb T WB 896 k.val (lt_of_lt_of_eq k.isLt trips_29) (by omega) (Dvd.intro 14 rfl) hidx (k0_off141 i k) (k0_off141_inb i k) k0_chk29 k0_chk29.dec (k0_off142 k) (k0_off142_inb k) (k0_off143 k) (k0_off143_inb k) (k0_off144 i k) (k0_off144_inb i k) k0_off145 k0_off145_inb (offA_29 i k) (offS_29 k) (offR_29 k) (offB_29 i k) offT_29 chk_29
theorem loop_29 {β : Type} {kk : Unit → Prog (TpuEff nD τ sig (Elt F) Λ₀ .tc) β} {Q : β → sProp 𝕄} : (ST 896 0 0 : sProp 𝕄) ⊢ iprop((ST 896 64 0 -∗ WP (kk ()) Q) -∗ WP (Scf.Loop.for k0_t29_loop k0_t29_ok () (k0_t29_body i arg1 harg1 arg2 harg2 arg3 harg3 arg4 harg4 arg5 harg5 arg6 harg6 arg7 v0 w0) >>= kk) Q) :=
  loop_by_trips c k0_t29_loop k0_t29_ok trips_29 _ (fun k => ST 896 k 0) (step_29 c i arg1 harg1 arg2 harg2 arg3 harg3 arg4 harg4 arg5 harg5 arg6 harg6 arg7 q1 tb T WB hidx hWB v0 w0)
theorem step_30 (k : Fin k0_t30_loop.trips) : (ST 896 64 k.val : sProp 𝕄) ⊢ WP (k0_t30_body i arg1 harg1 arg2 harg2 arg3 harg3 arg4 harg4 arg5 harg5 arg6 harg6 arg7 k ()) (fun _ => ST 896 64 (k.val + 1)) :=
  wait_trip c i arg1 harg1 arg2 harg2 arg6 arg7 q1 tb T WB 896 k.val (lt_of_lt_of_eq k.isLt trips_30) (by omega) (Dvd.intro 14 rfl) hidx (k0_off146 i k) (k0_off146_inb i k) k0_chk30 k0_chk30.dec (k0_off147 k) (k0_off147_inb k) (k0_off148 k) (k0_off148_inb k) (k0_off149 i k) (k0_off149_inb i k) k0_off150 k0_off150_inb (offA_30 i k) (offS_30 k) (offR_30 k) (offB_30 i k) offT_30 chk_30 hWB
theorem loop_30 {β : Type} {kk : Unit → Prog (TpuEff nD τ sig (Elt F) Λ₀ .tc) β} {Q : β → sProp 𝕄} : (ST 896 64 0 : sProp 𝕄) ⊢ iprop((ST 896 64 64 -∗ WP (kk ()) Q) -∗ WP (Scf.Loop.for k0_t30_loop k0_t30_ok () (k0_t30_body i arg1 harg1 arg2 harg2 arg3 harg3 arg4 harg4 arg5 harg5 arg6 harg6 arg7) >>= kk) Q) :=
  loop_by_trips c k0_t30_loop k0_t30_ok trips_30 _ (fun k => ST 896 64 k) (step_30 c i arg1 harg1 arg2 harg2 arg3 harg3 arg4 harg4 arg5 harg5 arg6 harg6 arg7 q1 tb T WB hidx hWB)
theorem step_31 (k : Fin k0_t31_loop.trips) : (ST 960 k.val 0 : sProp 𝕄) ⊢ WP (k0_t31_body i arg1 harg1 arg2 harg2 arg3 harg3 arg4 harg4 arg5 harg5 arg6 harg6 arg7 k ()) (fun _ => ST 960 (k.val + 1) 0) :=
  start_trip c i arg1 harg1 arg2 harg2 arg6 arg7 q1 tb T WB 960 k.val (lt_of_lt_of_eq k.isLt trips_31) (by omega) (Dvd.intro 15 rfl) hidx (k0_off151 i k) (k0_off151_inb i k) k0_chk31 k0_chk31.dec (k0_off152 k) (k0_off152_inb k) (k0_off153 k) (k0_off153_inb k) (k0_off154 i k) (k0_off154_inb i k) k0_off155 k0_off155_inb (offA_31 i k) (offS_31 k) (offR_31 k) (offB_31 i k) offT_31 chk_31
theorem loop_31 {β : Type} {kk : Unit → Prog (TpuEff nD τ sig (Elt F) Λ₀ .tc) β} {Q : β → sProp 𝕄} : (ST 960 0 0 : sProp 𝕄) ⊢ iprop((ST 960 64 0 -∗ WP (kk ()) Q) -∗ WP (Scf.Loop.for k0_t31_loop k0_t31_ok () (k0_t31_body i arg1 harg1 arg2 harg2 arg3 harg3 arg4 harg4 arg5 harg5 arg6 harg6 arg7) >>= kk) Q) :=
  loop_by_trips c k0_t31_loop k0_t31_ok trips_31 _ (fun k => ST 960 k 0) (step_31 c i arg1 harg1 arg2 harg2 arg3 harg3 arg4 harg4 arg5 harg5 arg6 harg6 arg7 q1 tb T WB hidx hWB)
theorem step_32 (k : Fin k0_t32_loop.trips) : (ST 960 64 k.val : sProp 𝕄) ⊢ WP (k0_t32_body i arg1 harg1 arg2 harg2 arg3 harg3 arg4 harg4 arg5 harg5 arg6 harg6 arg7 k ()) (fun _ => ST 960 64 (k.val + 1)) :=
  wait_trip c i arg1 harg1 arg2 harg2 arg6 arg7 q1 tb T WB 960 k.val (lt_of_lt_of_eq k.isLt trips_32) (by omega) (Dvd.intro 15 rfl) hidx (k0_off156 i k) (k0_off156_inb i k) k0_chk32 k0_chk32.dec (k0_off157 k) (k0_off157_inb k) (k0_off158 k) (k0_off158_inb k) (k0_off159 i k) (k0_off159_inb i k) k0_off160 k0_off160_inb (offA_32 i k) (offS_32 k) (offR_32 k) (offB_32 i k) offT_32 chk_32 hWB
theorem loop_32 {β : Type} {kk : Unit → Prog (TpuEff nD τ sig (Elt F) Λ₀ .tc) β} {Q : β → sProp 𝕄} : (ST 960 64 0 : sProp 𝕄) ⊢ iprop((ST 960 64 64 -∗ WP (kk ()) Q) -∗ WP (Scf.Loop.for k0_t32_loop k0_t32_ok () (k0_t32_body i arg1 harg1 arg2 harg2 arg3 harg3 arg4 harg4 arg5 harg5 arg6 harg6 arg7) >>= kk) Q) :=
  loop_by_trips c k0_t32_loop k0_t32_ok trips_32 _ (fun k => ST 960 64 k) (step_32 c i arg1 harg1 arg2 harg2 arg3 harg3 arg4 harg4 arg5 harg5 arg6 harg6 arg7 q1 tb T WB hidx hWB)

end Cert.KernelIdeal.Hand
end
-- ==== Proof.KI.Conv.lean ====
/-
  The gather's resource family at its ends: before the first chunk the family is what the kernel function is handed
  (the index table, the table of rows, the scratch, the 64 cells at zero), and a chunk whose 64 rows have all been
  waited for is the next chunk with nothing started.
-/
import proofs.«406790_j29661044146287_2_alg».proof.Proof.KI.Res

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-! ## From one chunk to the next -/

/-- The empty run of lanes may stand before or after the full one. -/
theorem swap_emp (P L O I D W : sProp 𝕄) :
    iprop(P ∗ L ∗ emp ∗ O ∗ I ∗ emp ∗ D ∗ W) = iprop(P ∗ L ∗ emp ∗ O ∗ emp ∗ I ∗ D ∗ W) := by
  have h₁ : iprop(P ∗ L ∗ emp ∗ O ∗ I ∗ emp ∗ D ∗ W) ⊢ (iprop(P ∗ L ∗ emp ∗ O ∗ emp ∗ I ∗ D ∗ W) : sProp 𝕄) := by
    iintro ⟨H1, HL, -, HO, HI, -, HD, HW⟩
    isplitl [H1]; · iexact H1
    isplitl [HL]; · iexact HL
    isplitr; · iempintro
    isplitl [HO]; · iexact HO
    isplitr; · iempintro
    isplitl [HI]; · iexact HI
    isplitl [HD]; · iexact HD
    iexact HW
  have h₂ : iprop(P ∗ L ∗ emp ∗ O ∗ emp ∗ I ∗ D ∗ W) ⊢ (iprop(P ∗ L ∗ emp ∗ O ∗ I ∗ emp ∗ D ∗ W) : sProp 𝕄) := by
    iintro ⟨H1, HL, -, HO, -, HI, HD, HW⟩
    isplitl [H1]; · iexact H1
    isplitl [HL]; · iexact HL
    isplitr; · iempintro
    isplitl [HO]; · iexact HO
    isplitl [HI]; · iexact HI
    isplitr; · iempintro
    isplitl [HD]; · iexact HD
    iexact HW
  exact BI.equiv_iff.mp ⟨h₁, h₂⟩

/-- A chunk all of whose 64 rows have been started and waited for is the next chunk with nothing started: the same
    rows landed, none in flight, the same rows untouched, all 64 lanes idle. -/
theorem St_chunk (c : Dev nD) (i : grid0.Coords) (arg1 : Memref sig .tc .smem S65536 .i32) (harg1 : arg1.IsWhole)
    (arg2 : Memref sig .tc .hbm S1024x512x256 .f32) (harg2 : arg2.IsWhole)
    (arg6 : Memref sig .tc .vmem S1024x256 .f32) (harg6 : arg6.IsWhole) (arg7 : DmaSems sig S64)
    (q1 : PosShare TreeShare) (tb : S65536.Idx → BitVec 32) (T : S1024x512x256.Idx → Elt F .f32) (WB : Waits sig Unit)
    (base : ℕ) :
    (St c i arg1 harg1 arg2 harg2 arg6 arg7 q1 tb T WB base 64 64 : sProp 𝕄)
      = St c i arg1 harg1 arg2 harg2 arg6 arg7 q1 tb T WB (base + 64) 0 0 := by
  unfold St
  rw [Nat.add_zero, Ring.bigSep_rangeSet_empty (le_refl (base + 64)), Ring.bigSep_rangeSet_empty (le_refl 64),
    Ring.bigSep_rangeSet_empty (le_refl 0)]
  exact swap_emp _ _ _ _ _ _

/-! ## Before the first chunk -/

/-- A whole memref owned at what it reads is its buffer's points-to at the contents that read so. -/
theorem owns_unread (c : Dev nD) {sp : Space} {sh : Shape} {e : EltTy} (m : Memref sig .tc sp sh e) (h : m.IsWhole)
    (q : PosShare TreeShare) (X : sh.Idx → Elt F e) :
    (owns (c : Thread nD τ) m q X : sProp 𝕄) = (m.view.loc (c : Thread nD τ) ↦{q} h.unread X) := by
  unfold owns
  rw [h.set_eq_univ]
  have h₁ : iprop(∃ f, ⌜m.view.read (Elt F) f = X⌝ ∗ (m.view.loc (c : Thread nD τ) ↦[Finset.univ]{q} f))
      ⊢ (m.view.loc (c : Thread nD τ) ↦{q} h.unread X : sProp 𝕄) := by
    iintro ⟨%f, %hf, H⟩
    rw [← h.eq_unread hf]; iexact H
  have h₂ : (m.view.loc (c : Thread nD τ) ↦{q} h.unread X : sProp 𝕄)
      ⊢ iprop(∃ f, ⌜m.view.read (Elt F) f = X⌝ ∗ (m.view.loc (c : Thread nD τ) ↦[Finset.univ]{q} f)) := by
    iintro H; iexists h.unread X; isplitr
    · ipureintro; exact h.read_unread X
    · iexact H
  exact BI.equiv_iff.mp ⟨h₁, h₂⟩

/-- Row `r`'s positions in the scratch. -/
abbrev rset (r : Fin 1024) : Finset S1024x256.Idx := (Rect.unit (s := S1024x256) ![r.val, 0] S1x256.size (row_inb r)).set

theorem mem_rset (r : Fin 1024) (y : S1024x256.Idx) : y ∈ rset r ↔ (y 0).val = r.val := by
  rw [Rect.mem_set_unit]
  have h1 : (y 1).val < 256 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 256; omega

/-- Row `r`'s elements of the scratch buffer are the scratch's elements under the row's positions. -/
theorem rowM_set (arg6 : Memref sig .tc .vmem S1024x256 .f32) (r : Fin 1024) :
    (rowM arg6 r).view.set = (rset r).map arg6.view.emb := by
  unfold rowM; exact (View.set_reshape _ _).trans (View.set_slice _ _)

/-- Row `r`'s elements, as elements of the scratch buffer. -/
abbrev rowSet (arg6 : Memref sig .tc .vmem S1024x256 .f32) (r : Fin 1024) : Finset arg6.view.ty.Idx := (rowM arg6 r).view.set

theorem rowSet_eq (arg6 : Memref sig .tc .vmem S1024x256 .f32) (r : Fin 1024) :
    rowSet arg6 r = (rset r).map arg6.view.emb := rowM_set arg6 r

theorem rows_disjoint (arg6 : Memref sig .tc .vmem S1024x256 .f32) :
    ∀ r r' : Fin 1024, r ≠ r' → Disjoint (rowSet arg6 r) (rowSet arg6 r') := fun r r' hne => by
  rw [rowSet_eq, rowSet_eq, Finset.disjoint_map, Finset.disjoint_left]
  intro y hy hy'; rw [mem_rset] at hy hy'; exact hne (Fin.ext (by omega))

theorem rows_cover (arg6 : Memref sig .tc .vmem S1024x256 .f32) (harg6 : arg6.IsWhole) :
    Finset.univ.biUnion (rowSet arg6) = Finset.univ := by
  ext j
  simp only [Finset.mem_biUnion, Finset.mem_univ, true_and, iff_true]
  have hj : j ∈ arg6.view.set := by rw [harg6.set_eq_univ]; exact Finset.mem_univ _
  obtain ⟨y, -, rfl⟩ := Finset.mem_map.mp hj
  have hm := Finset.mem_map_of_mem arg6.view.emb ((mem_rset (y 0) y).mpr rfl)
  rw [← rowSet_eq arg6 (y 0)] at hm
  exact ⟨y 0, hm⟩

/-- The scratch held whole at contents `f` is its 1024 rows, each held at some contents. -/
theorem rows_split_at (c : Dev nD) (arg6 : Memref sig .tc .vmem S1024x256 .f32) (harg6 : arg6.IsWhole)
    (f : Buf (Elt F) (arg6.view.loc (c : Thread nD τ))) :
    (arg6.view.loc (c : Thread nD τ) ↦{fullShare} f : sProp 𝕄) ⊢ bigSep Finset.univ (ownedRow (F := F) c arg6) :=
  (Entails.of_eq (Ring.pointsTo_blocks (ℓ := arg6.view.loc (c : Thread nD τ)) (q := fullShare) (rowSet arg6)
      (rows_disjoint arg6) (rows_cover arg6 harg6) f)).trans
    (BI.bigSep_mono fun r _ => by
      show (arg6.view.loc (c : Thread nD τ) ↦[rowSet arg6 r]{fullShare} f : sProp 𝕄) ⊢ ownedRow c arg6 r
      unfold ownedRow; iintro H; iexists f; iexact H)

theorem rows_split (c : Dev nD) (arg6 : Memref sig .tc .vmem S1024x256 .f32) (harg6 : arg6.IsWhole) :
    iprop(∃ s, owns (c : Thread nD τ) arg6 fullShare s) ⊢ (bigSep Finset.univ (ownedRow (F := F) c arg6) : sProp 𝕄) := by
  rw [Memref.IsWhole.exists_owns_eq harg6 fullShare]
  iintro ⟨%f, H⟩
  iapply (rows_split_at c arg6 harg6 f); iexact H

/-- All 64 lanes idle are the 64 cells at zero and the 64 read tokens of the table. -/
theorem idle_all (c : Dev nD) (arg2 : Memref sig .tc .hbm S1024x512x256 .f32) (harg2 : arg2.IsWhole) (arg7 : DmaSems sig S64)
    (T : S1024x512x256.Idx → Elt F .f32) :
    (bigSep Finset.univ (idleLane c arg2 harg2 arg7 T) : sProp 𝕄)
      = iprop(bigSep Finset.univ (fun j : Fin 64 => semVal ((c : Thread nD τ), SemLoc.dma (cellOfLane arg7 j)) 0)
          ∗ bigSep Finset.univ (fun j : Fin 64 => (arg2.view.loc (c : Thread nD τ) ↦{Transfers.shareTok fullShare 64 j} harg2.unread T))) :=
  BI.bigSep_sep Finset.univ _ _

/-- Before the first chunk: from the index table, the table of rows and the scratch owned whole, the 64 cells at zero
    and the core owing nothing, the family with nothing started. -/
theorem St_entry (c : Dev nD) (i : grid0.Coords) (arg1 : Memref sig .tc .smem S65536 .i32) (harg1 : arg1.IsWhole)
    (arg2 : Memref sig .tc .hbm S1024x512x256 .f32) (harg2 : arg2.IsWhole)
    (arg6 : Memref sig .tc .vmem S1024x256 .f32) (harg6 : arg6.IsWhole) (arg7 : DmaSems sig S64)
    (q1 : PosShare TreeShare) (tb : S65536.Idx → BitVec 32) (T : S1024x512x256.Idx → Elt F .f32) (WB : Waits sig Unit)
    (Wt : Waits sig Unit) (hWt : Wt ⊆ WB) :
    (iprop(owns (c : Thread nD τ) arg1 q1 tb ∗ owns (c : Thread nD τ) arg2 fullShare T
        ∗ (∃ s, owns (c : Thread nD τ) arg6 fullShare s)
        ∗ (bigSep Finset.univ fun j : Fin 64 => semVal ((c : Thread nD τ), SemLoc.dma (cellOfLane arg7 j)) 0)
        ∗ owes (c : Thread nD τ) 0 Wt) : sProp 𝕄)
      ⊢ St c i arg1 harg1 arg2 harg2 arg6 arg7 q1 tb T WB 0 0 0 := by
  unfold St
  simp only [Nat.zero_add, Nat.add_zero]
  rw [Ring.bigSep_rangeSet_empty (le_refl 0), Ring.bigSep_rangeSet_empty (le_refl 0), Ring.bigSep_rangeSet_empty (le_refl 0),
    Ring.rangeSet_univ, Ring.rangeSet_univ, idle_all]
  iintro ⟨H1, H2, H6, Hc, Ho⟩
  ihave H1' := (Entails.of_eq (owns_unread c arg1 harg1 q1 tb)) $$ H1
  ihave H2' := (Entails.of_eq (owns_unread c arg2 harg2 fullShare T)) $$ H2
  ihave HR := (rows_split c arg6 harg6) $$ H6
  ihave HT := (Transfers.pointsTo_toks_split fullShare 64) $$ H2'
  icases HT with ⟨HD, HT⟩
  isplitl [H1']; · iexact H1'
  isplitr; · iempintro
  isplitr; · iempintro
  isplitl [HR]; · iexact HR
  isplitr; · iempintro
  isplitl [Hc HT]
  · isplitl [Hc]; · iexact Hc
    iexact HT
  isplitl [HD]; · iexact HD
  iexists Wt; isplitr
  · ipureintro; exact hWt
  · iexact Ho

end Cert.KernelIdeal.Hand

end
-- ==== Proof.KI.Parts.lean ====
import proofs.«406790_j29661044146287_2_alg».proof.Proof.KI.Steps
import proofs.«406790_j29661044146287_2_alg».proof.Proof.KI.Conv

/-! # The three printed parts of the gather, loop after loop

Part 1 runs loops 1 to 9, part 2 loops 10 to 19, part 3 loops 20 to 29. Each loop is taken by its
loop lemma from the family at the loop's chunk; after a wait loop the chunk is complete and the
family is the family at the next chunk with nothing started (the chunk equation). A part ends by
returning words the rest does not read. -/

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

variable (c : Dev nD) (i : grid0.Coords)
  (arg1 : Memref sig .tc .smem S65536 .i32) (harg1 : arg1.IsWhole)
  (arg2 : Memref sig .tc .hbm S1024x512x256 .f32) (harg2 : arg2.IsWhole)
  (arg3 : Memref sig .tc .vmem S256x256 .f32) (harg3 : arg3.IsWhole)
  (arg4 : Memref sig .tc .vmem S256 .f32) (harg4 : arg4.IsWhole)
  (arg5 : Memref sig .tc .vmem S16x256 .f32) (harg5 : arg5.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)
  (hidx : ∀ j, (tb j).toNat < 512) (hWB : ∀ j : Fin 64, (SemLoc.dma (cellOfLane arg7 j), ()) ∈ WB)
  (v0 w0 : BitVec 32)
include hidx hWB

local notation "ST" => St c i arg1 harg1 arg2 harg2 arg6 arg7 q1 tb T WB
local notation "WP" => wp frame (wpE defs₀ Variants.none (c : Thread nD τ) none) Set.univ

/-- Loops 1 to 9: the chunks at 0, 64, 128 and 192 gathered, the chunk at 256 started. -/
theorem part1_triple : (ST 0 0 0 : sProp 𝕄) ⊢ WP (k0_part1 i arg1 harg1 arg2 harg2 arg3 harg3 arg4 harg4 arg5 harg5 arg6 harg6 arg7) (fun _ => ST 256 64 0) := by
  rw [k0_part1_eq_skeleton]
  unfold k0_part1_skel
  extract_lets a0 u0
  iintro H
  iapply (loop_1 c i arg1 harg1 arg2 harg2 arg3 harg3 arg4 harg4 arg5 harg5 arg6 harg6 arg7 q1 tb T WB hidx hWB) $$ [H]
  · iexact H
  iintro H
  iapply (loop_2 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 0)) $$ H
  iapply (loop_3 c i arg1 harg1 arg2 harg2 arg3 harg3 arg4 harg4 arg5 harg5 arg6 harg6 arg7 q1 tb T WB hidx hWB) $$ [H]
  · iexact H
  iintro H
  iapply (loop_4 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 64)) $$ H
  iapply (loop_5 c i arg1 harg1 arg2 harg2 arg3 harg3 arg4 harg4 arg5 harg5 arg6 harg6 arg7 q1 tb T WB hidx hWB) $$ [H]
  · iexact H
  iintro H
  iapply (loop_6 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 128)) $$ H
  iapply (loop_7 c i arg1 harg1 arg2 harg2 arg3 harg3 arg4 harg4 arg5 harg5 arg6 harg6 arg7 q1 tb T WB hidx hWB) $$ [H]
  · iexact H
  iintro H
  iapply (loop_8 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 192)) $$ H
  iapply (loop_9 c i arg1 harg1 arg2 harg2 arg3 harg3 arg4 harg4 arg5 harg5 arg6 harg6 arg7 q1 tb T WB hidx hWB) $$ [H]
  · iexact H
  iintro H
  rw [wp_pure]
  imodintro
  iexact H

/-- Loops 10 to 19: the chunks up to 512 gathered, the chunk at 576 started. -/
theorem part2_triple : (ST 256 64 0 : sProp 𝕄) ⊢ WP (k0_part2 i arg1 harg1 arg2 harg2 arg3 harg3 arg4 harg4 arg5 harg5 arg6 harg6 arg7 v0 w0) (fun _ => ST 576 64 0) := by
  rw [k0_part2_eq_skeleton]
  unfold k0_part2_skel
  iintro H
  iapply (loop_10 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 256)) $$ H
  iapply (loop_11 c i arg1 harg1 arg2 harg2 arg3 harg3 arg4 harg4 arg5 harg5 arg6 harg6 arg7 q1 tb T WB hidx hWB v0 w0) $$ [H]
  · iexact H
  iintro H
  iapply (loop_12 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 320)) $$ H
  iapply (loop_13 c i arg1 harg1 arg2 harg2 arg3 harg3 arg4 harg4 arg5 harg5 arg6 harg6 arg7 q1 tb T WB hidx hWB v0 w0) $$ [H]
  · iexact H
  iintro H
  iapply (loop_14 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 384)) $$ H
  iapply (loop_15 c i arg1 harg1 arg2 harg2 arg3 harg3 arg4 harg4 arg5 harg5 arg6 harg6 arg7 q1 tb T WB hidx hWB v0 w0) $$ [H]
  · iexact H
  iintro H
  iapply (loop_16 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 448)) $$ H
  iapply (loop_17 c i arg1 harg1 arg2 harg2 arg3 harg3 arg4 harg4 arg5 harg5 arg6 harg6 arg7 q1 tb T WB hidx hWB v0 w0) $$ [H]
  · iexact H
  iintro H
  iapply (loop_18 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 512)) $$ H
  iapply (loop_19 c i arg1 harg1 arg2 harg2 arg3 harg3 arg4 harg4 arg5 harg5 arg6 harg6 arg7 q1 tb T WB hidx hWB v0 w0) $$ [H]
  · iexact H
  iintro H
  rw [wp_pure]
  imodintro
  iexact H

/-- Loops 20 to 29: the chunks up to 832 gathered, the chunk at 896 started. -/
theorem part3_triple : (ST 576 64 0 : sProp 𝕄) ⊢ WP (k0_part3 i arg1 harg1 arg2 harg2 arg3 harg3 arg4 harg4 arg5 harg5 arg6 harg6 arg7 v0 w0) (fun _ => ST 896 64 0) := by
  rw [k0_part3_eq_skeleton]
  unfold k0_part3_skel
  iintro H
  iapply (loop_20 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 576)) $$ H
  iapply (loop_21 c i arg1 harg1 arg2 harg2 arg3 harg3 arg4 harg4 arg5 harg5 arg6 harg6 arg7 q1 tb T WB hidx hWB v0 w0) $$ [H]
  · iexact H
  iintro H
  iapply (loop_22 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 640)) $$ H
  iapply (loop_23 c i arg1 harg1 arg2 harg2 arg3 harg3 arg4 harg4 arg5 harg5 arg6 harg6 arg7 q1 tb T WB hidx hWB v0 w0) $$ [H]
  · iexact H
  iintro H
  iapply (loop_24 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 704)) $$ H
  iapply (loop_25 c i arg1 harg1 arg2 harg2 arg3 harg3 arg4 harg4 arg5 harg5 arg6 harg6 arg7 q1 tb T WB hidx hWB v0 w0) $$ [H]
  · iexact H
  iintro H
  iapply (loop_26 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 768)) $$ H
  iapply (loop_27 c i arg1 harg1 arg2 harg2 arg3 harg3 arg4 harg4 arg5 harg5 arg6 harg6 arg7 q1 tb T WB hidx hWB v0 w0) $$ [H]
  · iexact H
  iintro H
  iapply (loop_28 c i arg1 harg1 arg2 harg2 arg3 harg3 arg4 harg4 arg5 harg5 arg6 harg6 arg7 q1 tb T WB hidx hWB v0 w0) $$ [H]
  · iexact H
  iintro H
  ihave H := (Entails.of_eq (St_chunk c i arg1 harg1 arg2 harg2 arg6 harg6 arg7 q1 tb T WB 832)) $$ H
  iapply (loop_29 c i arg1 harg1 arg2 harg2 arg3 harg3 arg4 harg4 arg5 harg5 arg6 harg6 arg7 q1 tb T WB hidx hWB v0 w0) $$ [H]
  · iexact H
  iintro H
  rw [wp_pure]
  imodintro
  iexact H

end Cert.KernelIdeal.Hand
end
-- ==== Proof.KI.ConvExit.lean ====
import proofs.«406790_j29661044146287_2_alg».proof.Proof.KI.Res
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

section Exit

variable (c : Dev nD) (i : grid0.Coords)
  (arg1 : Memref sig .tc .smem S65536 .i32) (harg1 : arg1.IsWhole)
  (arg2 : Memref sig .tc .hbm S1024x512x256 .f32) (harg2 : arg2.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)

/-- A whole memref owned at `X` is its buffer held at the contents that read `X`. -/
theorem owns_whole_unread {sp : Space} {sh : Shape} {e : EltTy} (m : Memref sig .tc sp sh e) (h : m.IsWhole)
    (q : PosShare TreeShare) (X : sh.Idx → Elt F e) :
    (owns (c : Thread nD τ) m q X : sProp 𝕄) = (m.view.loc (c : Thread nD τ) ↦{q} h.unread X) := by
  unfold owns
  rw [h.set_eq_univ]
  have h₁ : iprop(∃ f, ⌜m.view.read (Elt F) f = X⌝ ∗ (m.view.loc (c : Thread nD τ) ↦{q} f))
      ⊢ (m.view.loc (c : Thread nD τ) ↦{q} h.unread X : sProp 𝕄) := by
    iintro ⟨%f, %hf, H⟩
    obtain rfl := h.eq_unread hf
    iexact H
  have h₂ : (m.view.loc (c : Thread nD τ) ↦{q} h.unread X : sProp 𝕄)
      ⊢ iprop(∃ f, ⌜m.view.read (Elt F) f = X⌝ ∗ (m.view.loc (c : Thread nD τ) ↦{q} f)) := by
    iintro H
    iexists h.unread X
    isplitr; · ipureintro; exact h.read_unread X
    iexact H
  exact BI.equiv_iff.mp ⟨h₁, h₂⟩

/-- A scratch row's elements: the buffer's under the row's rectangle. -/
def rowEls (r : Fin 1024) : Finset arg6.view.ty.Idx :=
  (Rect.unit (s := S1024x256) ![r.val, 0] S1x256.size (row_inb r)).set.map arg6.view.emb

theorem rowEls_eq (r : Fin 1024) : ((rowM arg6 r).view.set : Finset arg6.view.ty.Idx) = rowEls arg6 r := by
  unfold rowM rowEls; exact (View.set_reshape _ _).trans (View.set_slice _ _)

/-- Distinct rows share no element. -/
theorem rowEls_disjoint : ∀ r r' : Fin 1024, r ≠ r' → Disjoint (rowEls arg6 r) (rowEls arg6 r') := by
  intro r r' h
  unfold rowEls
  rw [Finset.disjoint_map]
  refine Rect.unit_disjoint 0 ?_
  have : r.val ≠ r'.val := fun e => h (Fin.ext e)
  show r.val + 1 ≤ r'.val ∨ r'.val + 1 ≤ r.val
  omega

include harg6 in
/-- The rows make up the scratch. -/
theorem rowEls_cover : Finset.univ.biUnion (rowEls arg6) = Finset.univ := by
  ext x
  simp only [Finset.mem_biUnion, Finset.mem_univ, true_and, iff_true]
  have hx : x ∈ arg6.view.set := by rw [harg6.set_eq_univ]; exact Finset.mem_univ _
  obtain ⟨y, -, rfl⟩ := Finset.mem_map.mp hx
  refine ⟨(y 0 : Fin 1024), ?_⟩
  unfold rowEls
  refine Finset.mem_map_of_mem _ (Rect.mem_set_unit.mpr fun a => ?_)
  have h1 : (y 1).val < 256 := (y 1).isLt
  fin_cases a
  · show (y 0).val ≤ (y 0).val ∧ (y 0).val < (y 0).val + 1; omega
  · show 0 ≤ (y 1).val ∧ (y 1).val < 0 + 256; omega

/-- Held by its own elements, a memref at the representative of what some contents read is the memref at those contents. -/
theorem pointsTo_rep_of_read {sp : Space} {sh : Shape} {e : EltTy} (m : Memref sig .tc sp sh e) (q : PosShare TreeShare)
    (f : Buf (Elt F) (m.view.loc (c : Thread nD τ))) (X : sh.Idx → Elt F e) (hf : m.view.read (Elt F) f = X) :
    (m.view.loc (c : Thread nD τ) ↦[m.view.set]{q} m.view.rep X : sProp 𝕄) = (m.view.loc (c : Thread nD τ) ↦[m.view.set]{q} f) := by
  subst hf
  exact (pointsTo_rep (Ix := Unit) (Name := ℕ) (U := UR sig nD τ × Counters) (Lvl := ℕ) (c : Thread nD τ) m f q).symm

/-- A row at its gathered contents is the row's elements of the scratch at the gathered scratch. -/
theorem landedRow_eq (r : Fin 1024) :
    landedRow c i arg6 tb T r
      = (arg6.view.loc (c : Thread nD τ) ↦[rowEls arg6 r]{fullShare} harg6.unread (gath i tb T) : sProp 𝕄) := by
  have hf : (rowM arg6 r).view.read (Elt F) (harg6.unread (gath i tb T)) = gathRow i tb T r :=
    funext fun x => congrFun (harg6.read_unread (gath i tb T)) (rowIdx r x)
  exact (pointsTo_rep_of_read c (rowM arg6 r) fullShare (harg6.unread (gath i tb T)) (gathRow i tb T r) hf).trans
    (congrArg (fun s => (arg6.view.loc (c : Thread nD τ) ↦[s]{fullShare} harg6.unread (gath i tb T) : sProp 𝕄)) (rowEls_eq arg6 r))

/-- The rows at their gathered contents are the scratch at the gathered scratch. -/
theorem rows_join :
    bigSep Finset.univ (landedRow c i arg6 tb T)
      = (arg6.view.loc (c : Thread nD τ) ↦{fullShare} harg6.unread (gath i tb T) : sProp 𝕄) := by
  exact (bigSep_congr fun r _ => landedRow_eq c i arg6 harg6 tb T r).trans
    (Ring.pointsTo_blocks (ℓ := arg6.view.loc (c : Thread nD τ)) (q := fullShare) (rowEls arg6) (rowEls_disjoint arg6)
      (rowEls_cover arg6 harg6) (harg6.unread (gath i tb T))).symm

/-- The 64 idle lanes are the 64 cells at zero and the 64 read tokens of the table. -/
theorem lanes_split :
    bigSep Finset.univ (idleLane c arg2 harg2 arg7 T)
      = iprop(bigSep Finset.univ (fun j : Fin 64 => semVal ((c : Thread nD τ), SemLoc.dma (cellOfLane arg7 j)) 0)
          ∗ bigSep Finset.univ (fun j : Fin 64 => (arg2.view.loc (c : Thread nD τ) ↦{Transfers.shareTok fullShare 64 j} harg2.unread T : sProp 𝕄))) := by
  unfold idleLane
  exact BI.bigSep_sep _ _ _

include harg6 in
/-- THE EXIT: after the last chunk's waits every row holds its gathered row and every lane is idle: the scratch is
    held whole at the gathered scratch, the index table and the table as at entry, the 64 cells at zero. -/
theorem St_exit (hidx : ∀ j, (tb j).toNat < 512) :
    St c i arg1 harg1 arg2 harg2 arg6 arg7 q1 tb T WB 960 64 64
      ⊢ iprop(owns (c : Thread nD τ) arg1 q1 tb ∗ owns (c : Thread nD τ) arg2 fullShare T
          ∗ owns (c : Thread nD τ) arg6 fullShare (gath i tb T)
          ∗ bigSep Finset.univ (fun j : Fin 64 => semVal ((c : Thread nD τ), SemLoc.dma (cellOfLane arg7 j)) 0)
          ∗ ∃ W' : Waits sig Unit, ⌜W' ⊆ WB⌝ ∗ owes (c : Thread nD τ) 0 W') := by
  unfold St
  rw [show (960 : ℕ) + 64 = 1024 from rfl, Ring.rangeSet_univ, Ring.rangeSet_univ,
    Ring.bigSep_rangeSet_empty (Φ := flightRow c i arg2 harg2 arg6 arg7 tb T) (le_refl 1024),
    Ring.bigSep_rangeSet_empty (Φ := ownedRow (F := F) c arg6) (le_refl 1024),
    Ring.bigSep_rangeSet_empty (Φ := idleLane c arg2 harg2 arg7 T) (le_refl 64)]
  iintro ⟨H1, Hrows, -, -, Hid, -, H2, HO⟩
  ihave Hrows' := (Entails.of_eq (rows_join c i arg6 harg6 tb T)) $$ Hrows
  ihave Hid' := (Entails.of_eq (lanes_split c arg2 harg2 arg7 T)) $$ Hid
  icases Hid' with ⟨Hcells, Htoks⟩
  isplitl [H1]
  · iapply (Entails.of_eq (owns_whole_unread c arg1 harg1 q1 tb).symm); iexact H1
  isplitl [H2 Htoks]
  · iapply (Entails.of_eq (owns_whole_unread c arg2 harg2 fullShare T).symm)
    iapply (Transfers.pointsTo_toks_join fullShare 64)
    isplitl [H2]; · iexact H2
    iexact Htoks
  isplitl [Hrows']
  · iapply (Entails.of_eq (owns_whole_unread c arg6 harg6 fullShare (gath i tb T)).symm); iexact Hrows'
  isplitl [Hcells]; · iexact Hcells
  iexact HO

end Exit

end Cert.KernelIdeal.Hand
end
-- ==== Proof.KI.Body.lean ====
import proofs.«406790_j29661044146287_2_alg».proof.Proof.KI.Parts
import proofs.«406790_j29661044146287_2_alg».proof.Proof.KI.ConvExit

/-! # The kernel function at a grid point

The kernel function is its three printed parts (loops 1 to 29 of the gather), the loops 30, 31 and 32, then the
loads of the weights, the bias and the whole scratch, and one store of the pooled block. The gather is taken from
the family of its resources: entered from the buffers, the 64 semaphore cells at zero and the core's waits; left
with the scratch holding the gathered rows. The loads read what the buffers hold, and the store leaves the pooled
block of the gathered rows in the output block. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-! ## The loads and the store after the gather -/

/-- A load of everything (a unit-stride rectangle at offset zero of the full sizes) through a whole memref held at
    the contents that read `X` reads `X`. -/
theorem readAt_unit0_unread {sp : Space} {s : Shape} {e : EltTy} {m : Memref sig .tc sp s e} (h : m.IsWhole)
    (X : s.Idx → Elt F e) (off : Fin s.rank → ℕ) (hoff : ∀ a, off a = 0) (inb : ∀ a, off a + s.size a ≤ s.size a) :
    View.readAt (Elt F) m.view (Rect.unit (s := s) off s.size inb).toLoadRect (h.unread X) = X := by
  funext x
  rw [Memref.IsWhole.readAt_unread]
  congr 1
  funext a
  apply Fin.ext
  show off a + 1 * (x a : ℕ) = x a
  rw [hoff a]; omega

/-- What a piece covering everything reads back: its payload. -/
theorem read_writes_unit0 {κ : Kind} {sp : Space} {s : Shape} {e : EltTy} (v : View sig κ sp s e) (f : v.ty.Contents (Elt F))
    (off : Fin s.rank → ℕ) (hoff : ∀ a, off a = 0) (inb : ∀ a, off a + s.size a ≤ s.size a) (P : s.Idx → Elt F e) :
    v.read (Elt F) (v.writes (Elt F) f [⟨Rect.unit (s := s) off s.size inb, P⟩]) = P := by
  funext y
  have h := View.read_writes_cons_emb v f (Rect.unit (s := s) off s.size inb) P [] y
  have e' : (Rect.unit (s := s) off s.size inb).emb y = y := by
    funext a
    apply Fin.ext
    show off a + 1 * (y a : ℕ) = y a
    rw [hoff a]; omega
  rwa [e'] at h

theorem vec2_zero : ∀ a : Fin 2, (![0, 0] : Fin 2 → ℕ) a = 0 := by decide
theorem vec1_zero : ∀ a : Fin 1, (![0] : Fin 1 → ℕ) a = 0 := by decide

/-- The program after the last loop: four whole loads and the store of the pooled block. -/
def tailProg (arg3 : Memref sig .tc .vmem S256x256 .f32) (arg4 : Memref sig .tc .vmem S256 .f32)
    (arg5 : Memref sig .tc .vmem S16x256 .f32) (arg6 : Memref sig .tc .vmem S1024x256 .f32) :
    Prog (TpuEff nD τ sig (Elt F) Λ₀ .tc) PUnit := do
  let v33 : Vec F S256x256 .f32 ← Prog.lift (.load arg3 (Rect.unit (s := S256x256) ![0, 0] S256x256.size inb_S256x256_S256x256_0_0).toLoadRect (View.loadsAt_vmem h_S256x256))
  let v34 : Vec F S256 .f32 ← Prog.lift (.load arg4 (Rect.unit (s := S256) ![0] S256.size inb_S256_S256_0).toLoadRect (View.loadsAt_vmem h_S256))
  let v35 : Vec F S1024x256 .f32 ← Prog.lift (.load arg6 (Rect.unit (s := S1024x256) ![0, 0] S1024x256.size inb_S1024x256_S1024x256_0_0).toLoadRect (View.loadsAt_vmem h_S1024x256))
  let v45 : Vec F S16x256 .f32 ← Prog.lift (.load arg5 (Rect.unit (s := S16x256) ![0, 0] S16x256.size inb_S16x256_S16x256_0_0).toLoadRect (View.loadsAt_vmem h_S16x256))
  Prog.lift (.store arg5 (Rect.unit (s := S16x256) ![0, 0] S16x256.size inb_S16x256_S16x256_0_0) (k0_pay1 v33 v34 v35) Finset.univ (View.stores_vmem_bits_univ h_S16x256 rfl) (.inl rfl))
  pure ⟨⟩

set_option maxHeartbeats 1600000 in
/-- The loads read the contents held; the store leaves the pooled block of what was loaded. -/
theorem tail_triple (c : Dev nD)
    (arg3 : Memref sig .tc .vmem S256x256 .f32) (harg3 : arg3.IsWhole)
    (arg4 : Memref sig .tc .vmem S256 .f32) (harg4 : arg4.IsWhole)
    (arg5 : Memref sig .tc .vmem S16x256 .f32) (harg5 : arg5.IsWhole)
    (arg6 : Memref sig .tc .vmem S1024x256 .f32) (harg6 : arg6.IsWhole)
    (Wb : S256x256.Idx → Elt F .f32) (bb : S256.Idx → Elt F .f32) (G : S1024x256.Idx → Elt F .f32) :
    (iprop(owns (c : Thread nD τ) arg3 fullShare Wb ∗ owns (c : Thread nD τ) arg4 fullShare bb
        ∗ owns (c : Thread nD τ) arg6 fullShare G ∗ (∃ o, owns (c : Thread nD τ) arg5 fullShare o)) : sProp 𝕄)
      ⊢ wp frame (wpE defs₀ Variants.none (c : Thread nD τ) none) Set.univ
          (tailProg (F := F) arg3 arg4 arg5 arg6)
          (fun _ => iprop(owns (c : Thread nD τ) arg3 fullShare Wb ∗ owns (c : Thread nD τ) arg4 fullShare bb
            ∗ owns (c : Thread nD τ) arg6 fullShare G
            ∗ owns (c : Thread nD τ) arg5 fullShare (k0_pay1 Wb bb G))) := by
  unfold owns
  iintro ⟨⟨%f3, %h3, H3⟩, ⟨%f4, %h4, H4⟩, ⟨%f6, %h6, H6⟩, ⟨%o, %f5, %h5, H5⟩⟩
  unfold tailProg
  obtain rfl := harg3.eq_unread h3
  obtain rfl := harg4.eq_unread h4
  obtain rfl := harg6.eq_unread h6
  sl_exec
  rw [wp_ret]
  imodintro
  isplitl [H3]
  · iexists _; isplitr
    · ipureintro; exact harg3.read_unread _
    · iexact H3
  isplitl [H4]
  · iexists _; isplitr
    · ipureintro; exact harg4.read_unread _
    · iexact H4
  isplitl [H6]
  · iexists _; isplitr
    · ipureintro; exact harg6.read_unread _
    · iexact H6
  iexists _; isplitr
  on_goal 2 => iexact H5
  ipureintro
  rw [read_writes_unit0 _ _ _ vec2_zero, readAt_unit0_unread harg3 Wb _ vec2_zero, readAt_unit0_unread harg4 bb _ vec1_zero,
    readAt_unit0_unread harg6 G _ vec2_zero]

/-! ## The kernel function -/

section
variable (c : Dev nD) (i : grid0.Coords)
  (arg1 : Memref sig .tc .smem S65536 .i32) (harg1 : arg1.IsWhole)
  (arg2 : Memref sig .tc .hbm S1024x512x256 .f32) (harg2 : arg2.IsWhole)
  (arg3 : Memref sig .tc .vmem S256x256 .f32) (harg3 : arg3.IsWhole)
  (arg4 : Memref sig .tc .vmem S256 .f32) (harg4 : arg4.IsWhole)
  (arg5 : Memref sig .tc .vmem S16x256 .f32) (harg5 : arg5.IsWhole)
  (arg6 : Memref sig .tc .vmem S1024x256 .f32) (harg6 : arg6.IsWhole)
  (arg7 : DmaSems sig S64)
  (q1 : PosShare TreeShare) (tb : S65536.Idx → BitVec 32) (T : S1024x512x256.Idx → Elt F .f32)
  (WB : Waits sig Unit)
  (hidx : ∀ j, (tb j).toNat < 512) (hWB : ∀ j : Fin 64, (SemLoc.dma (cellOfLane arg7 j), ()) ∈ WB)
include hidx hWB

local notation "ST" => St c i arg1 harg1 arg2 harg2 arg6 arg7 q1 tb T WB
local notation "WP" => wp frame (wpE defs₀ Variants.none (c : Thread nD τ) none) Set.univ

set_option maxHeartbeats 1000000 in
/-- The kernel function at a grid point, over a bound `WB` on the waits it may record: the gather fills the scratch,
    the weights, the bias and the scratch are loaded whole and the pooled block is stored whole. -/
theorem body_inner (Wb : S256x256.Idx → Elt F .f32) (bb : S256.Idx → Elt F .f32) (Wt : Waits sig Unit) (hWt : Wt ⊆ WB) :
    (iprop(owns (c : Thread nD τ) arg1 q1 tb ∗ owns (c : Thread nD τ) arg2 fullShare T
        ∗ owns (c : Thread nD τ) arg3 fullShare Wb ∗ owns (c : Thread nD τ) arg4 fullShare bb
        ∗ (∃ o, owns (c : Thread nD τ) arg5 fullShare o) ∗ (∃ s, owns (c : Thread nD τ) arg6 fullShare s)
        ∗ (bigSep Finset.univ fun j : Fin 64 => semVal ((c : Thread nD τ), SemLoc.dma (cellOfLane arg7 j)) 0)
        ∗ owes (c : Thread nD τ) 0 Wt) : sProp 𝕄)
      ⊢ WP (cc0__gather_linear_tanh_pool_kernel i arg1 harg1 arg2 harg2 arg3 harg3 arg4 harg4 arg5 harg5 arg6 harg6 arg7)
          (fun _ => iprop(owns (c : Thread nD τ) arg1 q1 tb ∗ owns (c : Thread nD τ) arg2 fullShare T
            ∗ owns (c : Thread nD τ) arg3 fullShare Wb ∗ owns (c : Thread nD τ) arg4 fullShare bb
            ∗ owns (c : Thread nD τ) arg5 fullShare (k0_pay1 Wb bb (gath i tb T))
            ∗ (∃ s, owns (c : Thread nD τ) arg6 fullShare s)
            ∗ (bigSep Finset.univ fun j : Fin 64 => semVal ((c : Thread nD τ), SemLoc.dma (cellOfLane arg7 j)) 0)
            ∗ (∃ W', ⌜W' ⊆ WB⌝ ∗ owes (c : Thread nD τ) 0 W'))) := by
  rw [cc0__gather_linear_tanh_pool_kernel_eq_skeleton]
  unfold cc0__gather_linear_tanh_pool_kernel_skel
  iintro ⟨H1, H2, H3, H4, H5, H6, Hc, Ho⟩
  ihave H := (St_entry c i arg1 harg1 arg2 harg2 arg6 harg6 arg7 q1 tb T WB Wt hWt) $$ [H1 H2 H6 Hc Ho]
  · isplitl [H1]
    · iexact H1
    isplitl [H2]
    · iexact H2
    isplitl [H6]
    · iexact H6
    isplitl [Hc]
    · iexact Hc
    iexact Ho
  rw [wp_bind]
  iapply (wp_wand_r frame (wpE defs₀ Variants.none (c : Thread nD τ) none) Set.univ)
  isplitl [H]
  · iapply (part1_triple c i arg1 harg1 arg2 harg2 arg3 harg3 arg4 harg4 arg5 harg5 arg6 harg6 arg7 q1 tb T WB hidx hWB) $$ H
  iintro %r H
  rcases r with ⟨u0, u1⟩
  dsimp only
  rw [wp_bind]
  iapply (wp_wand_r frame (wpE defs₀ Variants.none (c : Thread nD τ) none) Set.univ)
  isplitl [H]
  · iapply (part2_triple c i arg1 harg1 arg2 harg2 arg3 harg3 arg4 harg4 arg5 harg5 arg6 harg6 arg7 q1 tb T WB hidx hWB u0 u1) $$ H
  iintro %u2 H
  rw [wp_bind]
  iapply (wp_wand_r frame (wpE defs₀ Variants.none (c : Thread nD τ) none) Set.univ)
  isplitl [H]
  · iapply (part3_triple c i arg1 harg1 arg2 harg2 arg3 harg3 arg4 harg4 arg5 harg5 arg6 harg6 arg7 q1 tb T WB hidx hWB u0 u2) $$ H
  iintro %u3 H
  iapply (loop_30 c i arg1 harg1 arg2 harg2 arg3 harg3 arg4 harg4 arg5 harg5 arg6 harg6 arg7 q1 tb T WB hidx hWB) $$ [H]
  · iexact H
  iintro H
  ihave H := (Entails.of_eq (St_chunk c i arg1 harg1 arg2 harg2 arg6 harg6 arg7 q1 tb T WB 896)) $$ H
  iapply (loop_31 c i arg1 harg1 arg2 harg2 arg3 harg3 arg4 harg4 arg5 harg5 arg6 harg6 arg7 q1 tb T WB hidx hWB) $$ [H]
  · iexact H
  iintro H
  iapply (loop_32 c i arg1 harg1 arg2 harg2 arg3 harg3 arg4 harg4 arg5 harg5 arg6 harg6 arg7 q1 tb T WB hidx hWB) $$ [H]
  · iexact H
  iintro H
  ihave H := (St_exit c i arg1 harg1 arg2 harg2 arg6 harg6 arg7 q1 tb T WB hidx) $$ H
  icases H with ⟨H1, H2, H6, Hc, Ho⟩
  iapply (wp_wand_r frame (wpE defs₀ Variants.none (c : Thread nD τ) none) Set.univ)
  isplitl [H3 H4 H6 H5]
  · iapply (tail_triple c arg3 harg3 arg4 harg4 arg5 harg5 arg6 harg6 Wb bb (gath i tb T)) $$ [H3 H4 H6 H5]
    isplitl [H3]
    · iexact H3
    isplitl [H4]
    · iexact H4
    isplitl [H6]
    · iexact H6
    iexact H5
  iintro %u ⟨H3, H4, H6, H5⟩
  isplitl [H1]
  · iexact H1
  isplitl [H2]
  · iexact H2
  isplitl [H3]
  · iexact H3
  isplitl [H4]
  · iexact H4
  isplitl [H5]
  · iexact H5
  isplitl [H6]
  · iexists _
    iexact H6
  isplitl [Hc]
  · iexact Hc
  iexact Ho

end

/-- THE TRIPLE of the kernel function at grid point `i`, over memrefs known only to be whole: from the index table,
    the table, the weights, the bias, the output block and the scratch at any contents, the 64 cells at zero and the
    core's waits `Wt`, it leaves the output block at the pooled block of the gathered rows, everything else as
    it was (the scratch at some contents), the waits within `Wt` and the 64 lanes' pairs. -/
theorem body_triple (c : Dev nD) (i : grid0.Coords)
    (arg1 : Memref sig .tc .smem S65536 .i32) (harg1 : arg1.IsWhole)
    (arg2 : Memref sig .tc .hbm S1024x512x256 .f32) (harg2 : arg2.IsWhole)
    (arg3 : Memref sig .tc .vmem S256x256 .f32) (harg3 : arg3.IsWhole)
    (arg4 : Memref sig .tc .vmem S256 .f32) (harg4 : arg4.IsWhole)
    (arg5 : Memref sig .tc .vmem S16x256 .f32) (harg5 : arg5.IsWhole)
    (arg6 : Memref sig .tc .vmem S1024x256 .f32) (harg6 : arg6.IsWhole)
    (q1 : PosShare TreeShare)
    (tb : S65536.Idx → Elt F .i32) (T : S1024x512x256.Idx → Elt F .f32)
    (Wb : S256x256.Idx → Elt F .f32) (bb : S256.Idx → Elt F .f32)
    (hidx : ∀ j, (tb j).toNat < 512) (Wt : Waits sig Unit) :
    (iprop(owns (c : Thread nD τ) arg1 q1 tb ∗ owns (c : Thread nD τ) arg2 fullShare T
        ∗ owns (c : Thread nD τ) arg3 fullShare Wb ∗ owns (c : Thread nD τ) arg4 fullShare bb
        ∗ (∃ o, owns (c : Thread nD τ) arg5 fullShare o) ∗ (∃ s, owns (c : Thread nD τ) arg6 fullShare s)
        ∗ Pipeline.ownSems0 (fun j : Fin 64 => SemLoc.dma (cellOfLane cc0_scratch1 j)) c
        ∗ owes (c : Thread nD τ) 0 Wt) : sProp 𝕄)
      ⊢ wp frame (wpE defs₀ Variants.none (c : Thread nD τ) none) Set.univ
          (cc0__gather_linear_tanh_pool_kernel i arg1 harg1 arg2 harg2 arg3 harg3 arg4 harg4 arg5 harg5 arg6 harg6 cc0_scratch1)
          (fun _ => iprop(owns (c : Thread nD τ) arg1 q1 tb ∗ owns (c : Thread nD τ) arg2 fullShare T
            ∗ owns (c : Thread nD τ) arg3 fullShare Wb ∗ owns (c : Thread nD τ) arg4 fullShare bb
            ∗ owns (c : Thread nD τ) arg5 fullShare (k0_pay1 Wb bb (gath i tb T))
            ∗ (∃ s, owns (c : Thread nD τ) arg6 fullShare s)
            ∗ Pipeline.ownSems0 (fun j : Fin 64 => SemLoc.dma (cellOfLane cc0_scratch1 j)) c
            ∗ (∃ W', ⌜W' ⊆ Wt ∪ Finset.univ.image (fun j : Fin 64 => (SemLoc.dma (cellOfLane cc0_scratch1 j), ()))⌝ ∗ owes (c : Thread nD τ) 0 W'))) := by
  unfold Pipeline.ownSems0
  exact body_inner c i arg1 harg1 arg2 harg2 arg3 harg3 arg4 harg4 arg5 harg5 arg6 harg6 cc0_scratch1 q1 tb T
    (Wt ∪ Finset.univ.image (fun j : Fin 64 => (SemLoc.dma (cellOfLane cc0_scratch1 j), ()))) hidx
    (fun j => Finset.mem_union_right _ (Finset.mem_image_of_mem _ (Finset.mem_univ j))) Wb bb Wt Finset.subset_union_left

end Cert.KernelIdeal.Hand
end
-- ==== Proof.KI.Launch.lean ====
/-
  The launch: the body obligation of the pipeline from the kernel function's triple, the run of @main around the
  region by the library's launch theorem for a kernel that reads an operand by its own transfers within each point and
  whose @main goes on after the region with host operations, and the post read off.
-/
import proofs.«406790_j29661044146287_2_alg».proof.Proof.KI.Tail
import proofs.«406790_j29661044146287_2_alg».proof.Proof.KI.Body

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

variable (m : (ℓ : Loc nD τ sig) → Buf (Elt F) ℓ)

local notation "𝕄" => MT nD τ sig Unit (Elt F) ℕ (Pipeline.UD sig nD τ) ℕ

/-! ## The body obligation -/

/-- A conjunction over a one-element index type is its one conjunct. -/
theorem bigSep_fin1 {M : Type} [URA M] (Φ : Fin 1 → sProp M) : bigSep Finset.univ Φ = Φ 0 :=
  bigSep_univ_eq_bigSepL [(0 : Fin 1)] (by decide) (by decide) Φ

set_option maxHeartbeats 1000000 in
/-- At every point the kernel function, run from the invariant and the windows' current staging buffers, restores the
    invariant and leaves the buffers at the stated contents. -/
theorem body_obligation (hidx : ∀ j, (tblOf m 0 j).toNat < 512) (c : Dev nD) :
    BodyObligationLoose (dats m 0 c) defs₀ Variants.none () Set.univ := fun t => by
  rw [bigSep_W0, bigSep_W0]
  show iprop(iprop(Pipeline.ΦD osem spec0 HB (V m) c ∗ Pipeline.ΦT pre0 (tblOf m) c) ∗ (dats m 0 c).owesAt () t.castSucc
      ∗ (∃ d, owns (c : Thread nD τ) (((cfgA m).win 0).stage ((cfgA m).slots t 0)) fullShare ((dats m 0 c).before 0 t d))
      ∗ (∃ d, owns (c : Thread nD τ) (((cfgA m).win 1).stage ((cfgA m).slots t 1)) fullShare ((dats m 0 c).before 1 t d))
      ∗ (∃ d, owns (c : Thread nD τ) (((cfgA m).win 2).stage ((cfgA m).slots t 2)) fullShare ((dats m 0 c).before 2 t d)))
    ⊢ wp frame (wpE defs₀ Variants.none (c : Thread nD τ) none) Set.univ
        (cc0__gather_linear_tanh_pool_kernel (grid0.coords t) (Memref.whole main_v0) (Memref.isWhole_whole _) (Memref.whole main_arg7) (Memref.isWhole_whole _)
          (spec0_0.stage ((cfgA m).slots t 0)) (hstage0_0 (((cfgA m).slots t 0).cast nbuf0_0))
          (spec0_1.stage ((cfgA m).slots t 1)) (hstage0_1 (((cfgA m).slots t 1).cast nbuf0_1))
          (spec0_2.stage ((cfgA m).slots t 2)) (hstage0_2 (((cfgA m).slots t 2).cast nbuf0_2))
          (Memref.whole cc0_scratch0) (Memref.isWhole_whole _) cc0_scratch1)
        (fun _ => iprop(iprop(Pipeline.ΦD osem spec0 HB (V m) c ∗ Pipeline.ΦT pre0 (tblOf m) c) ∗ (dats m 0 c).owesAt () t.succ
          ∗ owns (c : Thread nD τ) (((cfgA m).win 0).stage ((cfgA m).slots t 0)) fullShare ((dats m 0 c).after 0 t)
          ∗ owns (c : Thread nD τ) (((cfgA m).win 1).stage ((cfgA m).slots t 1)) fullShare ((dats m 0 c).after 1 t)
          ∗ owns (c : Thread nD τ) (((cfgA m).win 2).stage ((cfgA m).slots t 2)) fullShare ((dats m 0 c).after 2 t)))
  have hΦT : (Pipeline.ΦT pre0 (tblOf m) c : sProp 𝕄) = (((c.tc : Thread nD τ).loc main_v0) ↦{fullShare.right} tblOf m 0) :=
    bigSep_fin1 _
  simp only [before_w0 m c, before_w1 m c]
  rw [Pipeline.ΦD_eq, scopedRest0_eq, bigSep_singleton, hΦT]
  iintro ⟨⟨⟨⟨%s, Hsc⟩, Hprng, Hsem, HT7⟩, Htb⟩, ⟨%Wt, %hW, Howes⟩, ⟨%d0, H0⟩, ⟨%d1, H1⟩, ⟨%d2, H2⟩⟩
  ihave Htb' := (Entails.of_eq (owns_whole (c.tc : Thread nD τ) main_v0 fullShare.right (tblOf m 0)).symm) $$ Htb
  ihave HT7' := (Entails.of_eq (owns_whole (c.tc : Thread nD τ) main_arg7 fullShare (V m c main_arg7)).symm) $$ HT7
  ihave Hsc' := (Entails.of_eq (owns_whole (c.tc : Thread nD τ) cc0_scratch0 fullShare s).symm) $$ Hsc
  iapply (wp_wand frame (wpE defs₀ Variants.none (c : Thread nD τ) none) Set.univ) $$ [Htb' HT7' H0 H1 H2 Hsc' Hsem Howes]
  · iapply (body_triple c (grid0.coords t) _ _ _ _ _ _ _ _ _ _ _ _ fullShare.right (tblOf m 0) (V m c main_arg7) (V m c main_arg8) (V m c main_arg9) hidx Wt)
    isplitl [Htb']; · iexact Htb'
    isplitl [HT7']; · iexact HT7'
    isplitl [H0]; · iexact H0
    isplitl [H1]; · iexact H1
    isplitl [H2]; · iexists _; iexact H2
    isplitl [Hsc']; · iexists s; iexact Hsc'
    isplitl [Hsem]; · iexact Hsem
    iexact Howes
  iintro %_ ⟨Htb', HT7', H0, H1, H2, ⟨%s', Hsc'⟩, Hsem, ⟨%W', %hW', Howes⟩⟩
  ihave Htb := (Entails.of_eq (owns_whole (c.tc : Thread nD τ) main_v0 fullShare.right (tblOf m 0))) $$ Htb'
  ihave HT7 := (Entails.of_eq (owns_whole (c.tc : Thread nD τ) main_arg7 fullShare (V m c main_arg7))) $$ HT7'
  ihave Hsc := (Entails.of_eq (owns_whole (c.tc : Thread nD τ) cc0_scratch0 fullShare s')) $$ Hsc'
  isplitl [Hsc Hprng Hsem HT7 Htb]
  · isplitr [Htb]
    · isplitl [Hsc]; · iexists s'; iexact Hsc
      isplitl [Hprng]; · iexact Hprng
      isplitl [Hsem]; · iexact Hsem
      iexact HT7
    · iexact Htb
  isplitl [Howes]
  · iexists W'; isplitr
    · ipureintro; exact fun x _ => Or.inl trivial
    · iexact Howes
  isplitl [H0]; · iexact H0
  isplitl [H1]; · iexact H1
  iexact H2

/-! ## The run -/

variable (g : Dev nD → PrngReg)

set_option maxHeartbeats 1000000 in
/-- From any launch memory whose index words are in range, every weakly fair execution of @main terminates, the
    pipeline's arrays end at what the library computes from the proof data, and every other unscoped buffer at the
    five operations' result from the region's exit contents. -/
theorem run_frame (hidx : ∀ j, (tblOf m 0 j).toNat < 512) :
    θ_run (defs (F := F)) (onTc (τ := τ) (main (F := F))) (s₀ m g)
      (Pipeline.FramePost (Pipeline.pin (pcfgs (F := F)) (adm m)) (dats m) 0
        (Pipeline.afterTail (pcfgs (F := F)) (adm m) (dats m) 0 (V₀ m) [hostOps1 (F := F)])) :=
  Pipeline.θ_run_frameP_dma_around (pcfgs (F := F)) (adm m) (dats m) 0 (launch0 (F := F)) osem defs₀ Variants.none
    ownSemFacts HB HB_sub m g main
    (hbody := body_obligation m hidx)
    (hshare := fun c => (dats m 0 c).share_full fun _ => rfl)
    (howed := fun _ _ => rfl)
    (V₀ := V₀ m) (opss := [hostOps1 (F := F)])
    (hsub := fun ops hops op hop => by
      obtain rfl := List.mem_singleton.mp hops
      exact ((List.forall_iff_forall_mem.mp tail_ok) op hop).1)
    (hfresh := fun ops hops op hop => by
      obtain rfl := List.mem_singleton.mp hops
      exact ((List.forall_iff_forall_mem.mp tail_ok) op hop).2.1)
    (hkeep := fun ops hops op hop => by
      obtain rfl := List.mem_singleton.mp hops
      exact ((List.forall_iff_forall_mem.mp tail_ok) op hop).2.2)
    (hmain := Pipeline.hmainP_around (pcfgs (F := F)) 0 defs₀ Variants.none m main [hostOps0 (F := F)] [hostOps1 (F := F)]
      (hostOps0_sub (F := F)) rfl (fun c => main_chain c))
    (hA := fun _ _ => rfl)
    (hpf := fun c k => by obtain rfl : c = 0 := Subsingleton.elim _ _; rfl)
    (hin := fun c => .rfl)
    (hout := fun c => by
      show iprop(Pipeline.ΦD osem spec0 HB (V m) c ∗ Pipeline.ΦT pre0 (tblOf m) c) ⊢ _
      iintro ⟨H, -⟩; iexact H)

/-! ## The post -/

set_option maxHeartbeats 1000000 in
/-- From any launch memory whose index words are below 512, every weakly fair execution of @main terminates; the result
    is the composed term of the passed-through arguments and the kernel's result array, and the ten arguments hold what
    they held. -/
theorem run_main (hidx : ∀ (c : Dev nD) (j : S1024x64.Idx), (m ((c.tc : Thread nD τ).loc main_arg6) j).toNat < 512) :
    θ_run (defs (F := F)) (onTc (τ := τ) (main (F := F))) ⟨m, fun _ => 0, g⟩ (fun r => ∀ c : Dev nD,
      r.2.mem ((c.tc : Thread nD τ).loc main_v6) = tailTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := F)) _ _).mono
    (fun r h c =>
      have mem : ∀ b : Ref sig .tc, b.isScoped = false → (∀ w, Pipeline.arrRef spec0 w ≠ b) →
          r.2.mem ((c.tc : Thread nD τ).loc b)
            = Pipeline.afterTail (pcfgs (F := F)) (adm m) (dats m) 0 (V₀ m) [hostOps1 (F := F)] c b := fun b hs ha =>
        (h c).2 b (Pipeline.mem_restRefs_of b hs ha)
      have keep : ∀ b : Ref sig .tc, b ∉ ([main_v2, main_v3, main_v4, main_v5, main_v6] : List (Ref sig .tc)) →
          (b.isScoped = false) → (∀ w, Pipeline.arrRef spec0 w ≠ b) → b ≠ main_v0 →
          r.2.mem ((c.tc : Thread nD τ).loc b) = m ((c.tc : Thread nD τ).loc b) := fun b hw hs ha h0 =>
        (mem b hs ha).trans (afterTail_keep m c b hw ha h0)
      ⟨(mem main_v6 rfl (by decide)).trans (afterTail_v6 m c),
       keep main_arg0 (by decide) rfl (by decide) (by decide),
       keep main_arg1 (by decide) rfl (by decide) (by decide),
       keep main_arg2 (by decide) rfl (by decide) (by decide),
       keep main_arg3 (by decide) rfl (by decide) (by decide),
       keep main_arg4 (by decide) rfl (by decide) (by decide),
       keep main_arg5 (by decide) rfl (by decide) (by decide),
       keep main_arg6 (by decide) rfl (by decide) (by decide),
       keep main_arg7 (by decide) rfl (by decide) (by decide),
       ((h c).1 0).trans (((dats m 0 c).arrAt_in 0 rfl _).trans (V_of_ne m c (b := main_arg8) (by decide))),
       ((h c).1 1).trans (((dats m 0 c).arrAt_in 1 rfl _).trans (V_of_ne m c (b := main_arg9) (by decide)))⟩)
    (run_frame m g (tbl_lt m hidx))

end Cert.KernelIdeal.Hand

end
-- ==== Proof.KI.PayValue.lean ====
/- The value of the kernel's pooled payload at one output coordinate, over the extended reals: the product with the
   weights into a zero accumulator is a sum over the contracted coordinate, the bias row is added, tanh is taken
   pointwise, the 64 neighbours of a row are summed and the sum is scaled by 2^-6. -/
import proofs.«406790_j29661044146287_2_alg».proof.Proof.Gen.KernelIdeal.Skeleton
import Idealize.ShloMosaic.Lib.ValueLayout
import Idealize.ShloMosaic.PureOps.Ideal.Laws
import proofs.«406790_j29661044146287_2_alg».proof.Proof.Spec

noncomputable section

namespace Cert.KernelIdeal.HandValue

open Idealize.ShloMosaic Idealize.SL.Sem
open Idealize.ShloMosaic.ValueIdx
open Cert.KernelIdeal Cert.KernelIdeal.Gen
open scoped BigOperators

/-- The left operand of the product reads its row from the result index … -/
theorem lhs_mm_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

/-- … and its column from the contracted coordinate. -/
theorem lhs_mm_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q

/-- The right operand reads its row from the contracted coordinate … -/
theorem rhs_mm_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q

/-- … and its column from the result index. -/
theorem rhs_mm_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The product of a [1024,256] block with the [256,256] weights into the zero accumulator, at (y, f): the sum over
    the contracted coordinate e of block (y, e) times weight (e, f). -/
theorem mm_apply (X : FVec Ideal S1024x256 .f32) (W : FVec Ideal S256x256 .f32) (y : Fin 1024) (f : Fin 256) :
    matmul dot_S1024x256_S256x256_S1024x256_1_0_0_1_n_n (some .fp32) X W (constant (F := Ideal) S1024x256 .f32 0x00000000#32) (ix2 y f)
      = ∑ e : Fin 256, X (ix2 y e) * W (ix2 e f) := by
  simp only [matmul]
  rw [Ideal.matmul_constant_zero_apply,
    ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 y f)
      ((contrEquiv1 dot_S1024x256_S256x256_S1024x256_1_0_0_1_n_n 256 rfl rfl).symm k) = ix2 y k :=
    funext fun a => Fin.ext (by
      match a with
      | ⟨0, _⟩ => exact lhs_mm_0 _ _
      | ⟨1, _⟩ => exact (lhs_mm_1 _ _).trans hk)
  have er : dot_S1024x256_S256x256_S1024x256_1_0_0_1_n_n.rhsIdx (ix2 y f)
      ((contrEquiv1 dot_S1024x256_S256x256_S1024x256_1_0_0_1_n_n 256 rfl rfl).symm k) = ix2 k f :=
    funext fun a => Fin.ext (by
      match a with
      | ⟨0, _⟩ => exact (rhs_mm_0 _ _).trans hk
      | ⟨1, _⟩ => exact rhs_mm_1 _ _)
  rw [el, er]

/-- Row 64·r + p of the [1024,256] block is row (r, p) of its [16,64,256] reading. -/
theorem row_lt {r : Fin 16} {p : Fin 64} : 64 * r.val + p.val < 1024 := by
  have := r.isLt; have := p.isLt; omega

/-- Summing the [16,64,256] reading of a [1024,256] block over its middle axis: at (r, f) the sum over p of the
    block at (64·r + p, f). -/
theorem pool_apply (Z : FVec Ideal S1024x256 .f32) (h : S1024x256.ShapeCasts S16x64x256) (hr : S16x64x256.Reduces [1] S16x256)
    (hφ : FKind.Formats .f32) (hacc : (0x00000000#32 : BitVec 32) = FKind.add.neutral .f32 hφ) (r : Fin 16) (f : Fin 256) :
    multiReduction (F := Ideal) .add [1] S16x256 (shapeCast S16x64x256 Z h) 0x00000000#32 hr hφ hacc (ix2 r f)
      = ∑ p : Fin 64, Z (ix2 (⟨64 * r.val + p.val, row_lt⟩ : Fin 1024) f) := by
  refine (Ideal.multiReduction_add_single (shapeCast S16x64x256 Z h) 0x00000000#32 hr hφ hacc (ix2 r f)).trans ?_
  refine Finset.sum_congr rfl fun p _ => ?_
  refine shapeCast_apply Z h _ _ ?_
  rw [Shape.rowMajor_val_two, Shape.rowMajor_val_three]
  show (64 * r.val + p.val) * 256 + f.val = (r.val * 64 + p.val) * 256 + f.val
  omega

/-- The bias row added to every row of the block: at (y, f) the bias at f. -/
theorem bias_apply (b : FVec Ideal S256 .f32) (h1 : S256.ShapeCasts S1x256) (h2 : S1x256.Broadcasts S1024x256) (y : Fin 1024) (f : Fin 256) :
    broadcastTo S1024x256 (shapeCast S1x256 b h1) h2 (ix2 y f) = b (ix1 f) := by
  rw [broadcastTo_1b_ab_apply, shapeCast_a_1a_apply]

/-- tanh of a block is taken entry by entry. -/
theorem tanh_apply {s : Shape} {φ : FTy} (v : FVec Ideal s φ) (i : s.Idx) : tanh v i = Ideal.tanh (v i) := rfl

/-- The kernel's payload at output coordinate (r, f) is the pooled function of the 64 gathered rows of result row r
    (rows 64·r + p of the block), the weights and the bias, at feature f. -/
theorem pay1_apply (v33 : FVec Ideal S256x256 .f32) (v34 : FVec Ideal S256 .f32) (v35 : FVec Ideal S1024x256 .f32)
    (r : Fin 16) (f : Fin 256) :
    k0_pay1 (F := Ideal) v33 v34 v35 (ix2 r f)
      = Cert.Spec.pooled (fun p e => v35 (ix2 (⟨64 * r.val + p.val, row_lt⟩ : Fin 1024) e)) (fun e f' => v33 (ix2 e f'))
          (fun f' => v34 (ix1 f')) f := by
  unfold k0_pay1 Cert.Spec.pooled Cert.Spec.image
  rw [mulf_apply, broadcast_apply]
  refine congrArg₂ (· * ·) ?_ Cert.Spec.ofBits_inv64
  refine (pool_apply _ _ _ _ _ r f).trans ?_
  refine Finset.sum_congr rfl fun p _ => ?_
  refine (tanh_apply _ _).trans ?_
  rw [addf_apply, mm_apply, bias_apply]

end Cert.KernelIdeal.HandValue

end
-- ==== Proof.KI.Value.lean ====
/- The kernel's result array over the extended reals. Each grid point t writes back rows 16·t … 16·t + 15 of the
   result; the 64 blocks tile the array, so the array after the run is, index by index, the pooled function of
   the rows the kernel gathered: for result row b the rows of the node table named by the 64 index words of b. -/
import proofs.«406790_j29661044146287_2_alg».proof.Proof.KI.PayValue
import proofs.«406790_j29661044146287_2_alg».proof.Proof.KI.Data
import Idealize.ShloMosaic.Lib.Pipeline.Value

noncomputable section

namespace Cert.KernelIdeal.HandValue

open Idealize.ShloMosaic Idealize.ShloMosaic.TcCoe Idealize.SL.Sem Idealize.SL
open Idealize.ShloMosaic.ValueIdx
open Idealize.ShloMosaic.Pipeline (Dat)
open Cert.KernelIdeal Cert.KernelIdeal.Gen
open scoped BigOperators

variable {U : Type} [RA.URA U]
variable (a : (pcfg0 (F := Ideal)).Adm) (c : Dev nD)

/-- The output's block index at grid point t is (t, 0). -/
theorem out_index : ∀ t : Fin (cfg0 a).N, ((cfg0 a).win 2).index t (0 : Fin 2) = t.val ∧ ((cfg0 a).win 2).index t (1 : Fin 2) = 0 :=
  (by decide +kernel : ∀ t : Fin grid0.N, cc0_transform_3 (grid0.coords t) (0 : Fin 2) = t.val ∧ cc0_transform_3 (grid0.coords t) (1 : Fin 2) = 0)

/-- Every grid point writes its block back: the block index moves at every step. -/
theorem out_flush (t : Fin (cfg0 a).N) : ((cfg0 a).win 2).flush t = true := by
  have hout : ((cfg0 a).win 2).isOut = true := rfl
  have hN : (cfg0 a).grid.N = 64 := N_0
  have ht : t.val < (cfg0 a).grid.N := t.isLt
  unfold Pipeline.Window.flush
  rw [hout, Bool.true_and, Bool.or_eq_true, decide_eq_true_eq, decide_eq_true_eq]
  by_cases h : t.val + 1 = (cfg0 a).grid.N
  · exact Or.inl h
  · refine Or.inr ⟨by omega, fun e => ?_⟩
    have e0 := congrFun e (0 : Fin 2)
    rw [(out_index a _).1, (out_index a t).1] at e0
    simp at e0

/-- An index of the result array lies in point t's block iff each coordinate lies in the block's range on its axis. -/
theorem mem_blk (t : Fin (cfg0 a).N) (i : S1024x256.Idx) :
    i ∈ (((cfg0 a).win 2).blk t).view.set ↔ ∀ ax : Fin 2, ((cfg0 a).win 2).index t ax * S16x256.size ax ≤ (i ax).val
      ∧ (i ax).val < ((cfg0 a).win 2).index t ax * S16x256.size ax + S16x256.size ax := by
  have h1 : (((cfg0 a).win 2).blk t).view.set = (((cfg0 a).win 2).rect t).set :=
    View.set_slice_whole main_v1 (((cfg0 a).win 2).rect t)
  exact (Finset.ext_iff.mp h1 i).trans Rect.mem_set_unit

variable (dat : Dat τ (Elt Ideal) Unit ℕ U ℕ (cfg0 a) c)

/-- Row 16·t + r of the result is a row of the result. -/
theorem brow_lt {t : Fin (cfg0 a).N} {r : Fin 16} : 16 * t.val + r.val < 1024 := by
  have ht : t.val < (cfg0 a).grid.N := t.isLt
  have hN : (cfg0 a).grid.N = 64 := N_0
  have := r.isLt; omega

/-- What point t writes back is block t of the pooled function of the gathered rows: when the scratch at point t
    holds, in row 64·r + p, the p-th gathered row R (16·t + r) p of result row 16·t + r. -/
theorem flushed_eq (Wb : FVec Ideal S256x256 .f32) (bb : FVec Ideal S256 .f32)
    (R : Fin 1024 → Fin 64 → Fin 256 → EReal)
    (buf : Fin (cfg0 a).N → FVec Ideal S1024x256 .f32)
    (hbuf : ∀ (t : Fin (cfg0 a).N) (r : Fin 16) (p : Fin 64) (e : Fin 256),
       buf t (ix2 (⟨64 * r.val + p.val, row_lt⟩ : Fin 1024) e) = R ⟨16 * t.val + r.val, brow_lt a⟩ p e)
    (hafter : ∀ t, dat.after 2 t = k0_pay1 (F := Ideal) Wb bb (buf t)) (t : Fin (cfg0 a).N) :
    dat.flushed 2 t = (((cfg0 a).win 2).blk t).view.read (Elt Ideal)
      (fun i : S1024x256.Idx => Cert.Spec.pooled (R (i 0)) (fun e f => Wb (ix2 e f)) (fun f => bb (ix1 f)) (i 1)) := by
  have e0 : dat.flushed 2 t = dat.after 2 t := rfl
  rw [e0, hafter]
  refine funext fun (j : S16x256.Idx) => ?_
  obtain ⟨r, f, rfl⟩ : ∃ (r : Fin 16) (f : Fin 256), j = ix2 r f := ⟨j 0, j 1, eq_ix2 j⟩
  rw [pay1_apply]
  show _ = Cert.Spec.pooled (R ((((cfg0 a).win 2).blk t).view.emb (ix2 r f) (0 : Fin 2))) _ _ ((((cfg0 a).win 2).blk t).view.emb (ix2 r f) (1 : Fin 2))
  have h0 : ((((cfg0 a).win 2).blk t).view.emb (ix2 r f) (0 : Fin 2)) = ⟨16 * t.val + r.val, brow_lt a⟩ := Fin.ext (by
    show ((cfg0 a).win 2).index t (0 : Fin 2) * 16 + 1 * r.val = _
    rw [(out_index a t).1]; show t.val * 16 + 1 * r.val = 16 * t.val + r.val; omega)
  have h1 : ((((cfg0 a).win 2).blk t).view.emb (ix2 r f) (1 : Fin 2)) = f := Fin.ext (by
    show ((cfg0 a).win 2).index t (1 : Fin 2) * 256 + 1 * f.val = _
    rw [(out_index a t).2]; omega)
  rw [h0, h1]
  congr 1
  funext p e
  exact hbuf t r p e

/-- Every index of the result lies in the block of point (row / 16). -/
theorem cover (i : S1024x256.Idx) :
    ∃ t : Fin (cfg0 a).N, ((cfg0 a).win 2).flush t = true ∧ i ∈ (((cfg0 a).win 2).blk t).view.set := by
  have hi0 : (i 0).val < 1024 := (i 0).isLt
  have hi1 : (i 1).val < 256 := (i 1).isLt
  have hN : (cfg0 a).grid.N = 64 := N_0
  refine ⟨⟨(i 0).val / 16, by show _ < (cfg0 a).grid.N; omega⟩, out_flush a _, ?_⟩
  rw [mem_blk]
  intro ax
  match ax with
  | ⟨0, _⟩ =>
    show ((cfg0 a).win 2).index _ (0 : Fin 2) * 16 ≤ (i 0).val ∧ (i 0).val < ((cfg0 a).win 2).index _ (0 : Fin 2) * 16 + 16
    rw [(out_index a _).1]
    show (i 0).val / 16 * 16 ≤ (i 0).val ∧ (i 0).val < (i 0).val / 16 * 16 + 16
    omega
  | ⟨1, _⟩ =>
    show ((cfg0 a).win 2).index _ (1 : Fin 2) * 256 ≤ (i 1).val ∧ (i 1).val < ((cfg0 a).win 2).index _ (1 : Fin 2) * 256 + 256
    rw [(out_index a _).2]
    omega

/-- The result array after the run is the pooled function of the gathered rows, index by index. -/
theorem arr_eq (Wb : FVec Ideal S256x256 .f32) (bb : FVec Ideal S256 .f32)
    (R : Fin 1024 → Fin 64 → Fin 256 → EReal)
    (buf : Fin (cfg0 a).N → FVec Ideal S1024x256 .f32)
    (hbuf : ∀ (t : Fin (cfg0 a).N) (r : Fin 16) (p : Fin 64) (e : Fin 256),
       buf t (ix2 (⟨64 * r.val + p.val, row_lt⟩ : Fin 1024) e) = R ⟨16 * t.val + r.val, brow_lt a⟩ p e)
    (hafter : ∀ t, dat.after 2 t = k0_pay1 (F := Ideal) Wb bb (buf t)) :
    dat.arrAt 2 (cfg0 a).N
      = (fun i : S1024x256.Idx => Cert.Spec.pooled (R (i 0)) (fun e f => Wb (ix2 e f)) (fun f => bb (ix1 f)) (i 1)) :=
  dat.arrAt_eq_of_cover 2 _ (fun t _ => flushed_eq a c dat Wb bb R buf hbuf hafter t) (cover a)

/-! ## The gathered rows, read off the arguments -/

/-- At grid point i, scratch row 64·r + p holds the node-table row of batch row 16·i + r named by the index word at
    flat position 1024·i + 64·r + p (the words being below 512, the reduction into range changes nothing). -/
theorem gath_row (i : grid0.Coords) (tb : S65536.Idx → BitVec 32) (T : S1024x512x256.Idx → EReal)
    (hw : ∀ j, (tb j).toNat < 512) (r : Fin 16) (p : Fin 64) (e : Fin 256)
    (hb : 16 * (i 0).val + r.val < 1024) (hj : 1024 * (i 0).val + (64 * r.val + p.val) < 65536) :
    Hand.gath (F := Ideal) i tb T (ix2 (⟨64 * r.val + p.val, row_lt⟩ : Fin 1024) e)
      = T (ix3 (⟨16 * (i 0).val + r.val, hb⟩ : Fin 1024)
          (⟨(tb (ix1 (⟨1024 * (i 0).val + (64 * r.val + p.val), hj⟩ : Fin 65536))).toNat, hw _⟩ : Fin 512) e) := by
  unfold Hand.gath
  refine congrArg T (funext fun ax => Fin.ext ?_)
  have hwd : Hand.wordAt i (⟨64 * r.val + p.val, row_lt⟩ : Fin 1024)
      = ix1 (⟨1024 * (i 0).val + (64 * r.val + p.val), hj⟩ : Fin 65536) :=
    funext fun b => Fin.ext (by match b with | ⟨0, _⟩ => rfl)
  match ax with
  | ⟨0, _⟩ =>
    show 16 * (i 0).val + (64 * r.val + p.val) / 64 = 16 * (i 0).val + r.val
    have := p.isLt; omega
  | ⟨1, _⟩ =>
    show (tb (Hand.wordAt i (⟨64 * r.val + p.val, row_lt⟩ : Fin 1024))).toNat % 512 = _
    rw [hwd, Nat.mod_eq_of_lt (hw _)]
  | ⟨2, _⟩ => rfl

/-- The flattened index table at position 64·b + p is the index argument at (b, p). -/
theorem word_eq (X : S1024x64.Idx → BitVec 32) (h : S1024x64.ShapeCasts S65536) (b : Fin 1024) (p : Fin 64)
    (hj : 64 * b.val + p.val < 65536) :
    shapeCast S65536 X h (ix1 (⟨64 * b.val + p.val, hj⟩ : Fin 65536)) = X (ix2 b p) :=
  shapeCast_apply X h _ _ (by
    rw [Shape.rowMajor_val_two, Shape.rowMajor_val_one]
    show b.val * 64 + p.val = 64 * b.val + p.val
    omega)

/-- The flattened index table at any position j is the index argument at (j / 64, j % 64). -/
theorem word_at (X : S1024x64.Idx → BitVec 32) (h : S1024x64.ShapeCasts S65536) (j : S65536.Idx)
    (h0 : (j 0).val / 64 < 1024) (h1 : (j 0).val % 64 < 64) :
    shapeCast S65536 X h j = X (ix2 (⟨(j 0).val / 64, h0⟩ : Fin 1024) (⟨(j 0).val % 64, h1⟩ : Fin 64)) :=
  shapeCast_apply X h _ _ (by
    rw [Shape.rowMajor_val_two, Shape.rowMajor_val_one]
    show (j 0).val / 64 * 64 + (j 0).val % 64 = (j 0).val
    omega)

/-- The one coordinate of grid point t is t. -/
theorem coords0 : ∀ t : Fin grid0.N, ((grid0.coords t) (0 : Fin 1)).val = t.val := by decide +kernel

/-- THE RESULT ARRAY: at (b, f) the pooled function of the 64 node-table rows that the index words of batch row b
    name, the weights and the bias — given that every index word is below 512. -/
theorem outArr_apply (m : (ℓ : Loc nD τ sig) → Buf (Elt Ideal) ℓ) (c : Dev nD)
    (hidx : ∀ (c : Dev nD) (j : S1024x64.Idx), (m ((c.tc : Thread nD τ).loc main_arg6) j).toNat < 512)
    (b : Fin 1024) (f : Fin 256) :
    Hand.outArr m c (ix2 b f)
      = Cert.Spec.pooled (fun p e => m ((c.tc : Thread nD τ).loc main_arg7)
            (ix3 b (⟨(m ((c.tc : Thread nD τ).loc main_arg6) (ix2 b p)).toNat, hidx c _⟩ : Fin 512) e))
          (fun e f' => m ((c.tc : Thread nD τ).loc main_arg8) (ix2 e f'))
          (fun f' => m ((c.tc : Thread nD τ).loc main_arg9) (ix1 f')) f := by
  obtain rfl : c = 0 := Subsingleton.elim _ _
  have htbl : Hand.tblOf m 0 = fun i => shapeCast S65536 (m (((0 : Dev nD).tc : Thread nD τ).loc main_arg6)) shapeCasts_S1024x64_S65536 i :=
    Hand.V_v0 m 0
  have htb : ∀ j : S65536.Idx, (Hand.tblOf m 0 j).toNat < 512 := by
    intro j
    have hj : (j 0).val < 65536 := (j 0).isLt
    rw [htbl]
    show (shapeCast S65536 (m (((0 : Dev nD).tc : Thread nD τ).loc main_arg6)) shapeCasts_S1024x64_S65536 j).toNat < 512
    rw [word_at _ _ j (by omega) (Nat.mod_lt _ (by decide))]
    exact hidx 0 _
  have hbuf : ∀ (t : Fin (cfg0 (Hand.adm m 0)).N) (r : Fin 16) (p : Fin 64) (e : Fin 256),
      Hand.gath (F := Ideal) (grid0.coords t) (Hand.tblOf m 0) (Hand.V m 0 main_arg7) (ix2 (⟨64 * r.val + p.val, row_lt⟩ : Fin 1024) e)
        = m (((0 : Dev nD).tc : Thread nD τ).loc main_arg7)
            (ix3 (⟨16 * t.val + r.val, brow_lt (Hand.adm m 0)⟩ : Fin 1024)
              (⟨(m (((0 : Dev nD).tc : Thread nD τ).loc main_arg6) (ix2 (⟨16 * t.val + r.val, brow_lt (Hand.adm m 0)⟩ : Fin 1024) p)).toNat, hidx 0 _⟩ : Fin 512) e) := by
    intro t r p e
    have ht : ((grid0.coords t) (0 : Fin 1)).val = t.val := coords0 t
    have htN : t.val < 64 := by
      have h : t.val < (cfg0 (Hand.adm m 0)).grid.N := t.isLt
      have hN : (cfg0 (Hand.adm m 0)).grid.N = 64 := N_0
      omega
    have hr := r.isLt
    have hp := p.isLt
    rw [gath_row (grid0.coords t) (Hand.tblOf m 0) _ htb r p e (by omega) (by omega), Hand.V_of_ne m 0 (b := main_arg7) (by decide)]
    have hrow : (⟨16 * ((grid0.coords t) (0 : Fin 1)).val + r.val, by omega⟩ : Fin 1024) = ⟨16 * t.val + r.val, brow_lt (Hand.adm m 0)⟩ :=
      Fin.ext (by show 16 * ((grid0.coords t) (0 : Fin 1)).val + r.val = 16 * t.val + r.val; omega)
    have hword : Hand.tblOf m 0 (ix1 (⟨1024 * ((grid0.coords t) (0 : Fin 1)).val + (64 * r.val + p.val), by omega⟩ : Fin 65536))
        = m (((0 : Dev nD).tc : Thread nD τ).loc main_arg6) (ix2 (⟨16 * t.val + r.val, brow_lt (Hand.adm m 0)⟩ : Fin 1024) p) := by
      rw [htbl]
      show shapeCast S65536 (m (((0 : Dev nD).tc : Thread nD τ).loc main_arg6)) shapeCasts_S1024x64_S65536 _ = _
      have hpos : (ix1 (⟨1024 * ((grid0.coords t) (0 : Fin 1)).val + (64 * r.val + p.val), by omega⟩ : Fin 65536))
          = ix1 (⟨64 * (16 * t.val + r.val) + p.val, by omega⟩ : Fin 65536) :=
        congrArg ix1 (Fin.ext (by show 1024 * ((grid0.coords t) (0 : Fin 1)).val + (64 * r.val + p.val) = 64 * (16 * t.val + r.val) + p.val; omega))
      rw [hpos]
      exact word_eq _ _ (⟨16 * t.val + r.val, brow_lt (Hand.adm m 0)⟩ : Fin 1024) p _
    have hcol : (⟨(Hand.tblOf m 0 (ix1 (⟨1024 * ((grid0.coords t) (0 : Fin 1)).val + (64 * r.val + p.val), by omega⟩ : Fin 65536))).toNat, htb _⟩ : Fin 512)
        = ⟨(m (((0 : Dev nD).tc : Thread nD τ).loc main_arg6) (ix2 (⟨16 * t.val + r.val, brow_lt (Hand.adm m 0)⟩ : Fin 1024) p)).toNat, hidx 0 _⟩ :=
      Fin.ext (congrArg BitVec.toNat hword)
    rw [hrow, hcol]
  have hafter : ∀ t, (Hand.dats m 0 0).after 2 t
      = k0_pay1 (F := Ideal) (Hand.V m 0 main_arg8) (Hand.V m 0 main_arg9)
          (Hand.gath (grid0.coords t) (Hand.tblOf m 0) (Hand.V m 0 main_arg7)) := fun t => rfl
  unfold Hand.outArr
  rw [arr_eq (Hand.adm m 0) 0 (Hand.dats m 0 0) (Hand.V m 0 main_arg8) (Hand.V m 0 main_arg9)
    (fun b p e => m (((0 : Dev nD).tc : Thread nD τ).loc main_arg7)
      (ix3 b (⟨(m (((0 : Dev nD).tc : Thread nD τ).loc main_arg6) (ix2 b p)).toNat, hidx 0 _⟩ : Fin 512) e))
    (fun t => Hand.gath (grid0.coords t) (Hand.tblOf m 0) (Hand.V m 0 main_arg7)) hbuf hafter,
    Hand.V_of_ne m 0 (b := main_arg8) (by decide), Hand.V_of_ne m 0 (b := main_arg9) (by decide)]

end Cert.KernelIdeal.HandValue

end
-- ==== Proof.Ref.Agg.lean ====
/- The reference's pooled stage over the extended reals. The reference wraps a negative index word by 512, tests the
   wrapped word against [0, 511], gathers the node-table rows the wrapped words name (a not-a-number row where the test
   fails), multiplies by the weights, adds the bias, takes tanh, sums the 64 neighbours of a batch row and divides by 64.
   For index words in [0, 512) the wrap does nothing and the test holds, so at (b, f) the stage is the pooled function of
   the 64 rows the words of batch row b name. -/
import proofs.«406790_j29661044146287_2_alg».proof.ReferenceIdeal
import proofs.«406790_j29661044146287_2_alg».proof.Proof.Gen.ReferenceIdeal
import proofs.«406790_j29661044146287_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

namespace Cert.ReferenceIdeal.Hand

open Cert.ReferenceIdeal Cert.ReferenceIdeal.Gen Idealize.ShloMosaic Idealize.SL.Sem
open Idealize.ShloMosaic.ValueIdx
open scoped BigOperators

variable {F : FTy → Type} [FloatOps F]

/-! ## The stage, operation by operation -/

/-- The splat of the integer 0 over [1024,64,1]. -/
def zeros : IVec S1024x64x1 32 := broadcastInDim S1024x64x1 ![] bcast_S_S1024x64x1 (constantI S_ 32 0#32)

/-- The index words with a unit axis appended. -/
def words (a6 : IVec S1024x64 32) : IVec S1024x64x1 32 :=
  broadcastInDim S1024x64x1 ![0, 1] bcast_S1024x64_S1024x64x1_0_1 a6

/-- The index words, a negative one moved up by 512. -/
def wrapped (a6 : IVec S1024x64 32) : IVec S1024x64x1 32 :=
  select (cmpi .slt (words a6) zeros)
    (addi (words a6) (broadcastInDim S1024x64x1 ![] bcast_S_S1024x64x1 (constantI S_ 32 512#32))) (words a6)

/-- Whether the wrapped word lies in [0, 511]: the conjunction over the unit axis of the two comparisons. -/
def inRange (a6 : IVec S1024x64 32) : IVec S1024x64 1 :=
  Host.reduce IntOp.andi
    (andi (cmpi .sge (wrapped a6) zeros)
      (cmpi .sle (wrapped a6) (broadcastInDim S1024x64x1 ![0, 1, 2] bcast_S1x1x1_S1024x64x1_0_1_2
        (broadcastInDim S1x1x1 ![2] bcast_S1_S1x1x1_2 (constantI S1 32 511#32)))))
    (constantI S_ 1 1#1) reducesTo_S1024x64x1_S1024x64_d2 h_S_

/-- The rows taken along the node axis: the gathered row where the word is in range, a not-a-number row elsewhere. -/
def taken (a6 : IVec S1024x64 32) (a7 : FVec F S1024x512x256 .f32) : FVec F S1024x64x256 .f32 :=
  select (broadcastInDim S1024x64x256 ![0, 1] bcast_S1024x64_S1024x64x256_0_1 (inRange a6))
    (Host.gather gather_S1024x512x256_S1024x64x1_S1024x64x256_2_1_0_0_1_2_11256 a7 (wrapped a6))
    (broadcastInDim S1024x64x256 ![] bcast_S_S1024x64x256 (constant S_ .f32 0x7FC00000#32))

/-- The reference's pooled stage as one function of the index words, the node table, the weights and the bias. -/
def aggTerm (a6 : IVec S1024x64 32) (a7 : FVec F S1024x512x256 .f32) (a8 : FVec F S256x256 .f32)
    (a9 : FVec F S256 .f32) : FVec F S1024x256 .f32 :=
  Host.divf
    (Host.reduceAdd
      (Host.tanh
        (addf (Host.dotGeneral dot_S1024x64x256_S256x256_S1024x64x256_2_0_01_1_n_n none (taken a6 a7) a8)
          (broadcastInDim S1024x64x256 ![0, 1, 2] bcast_S1x1x256_S1024x64x256_0_1_2
            (broadcastInDim S1x1x256 ![2] bcast_S256_S1x1x256_2 a9))))
      (constant S_ .f32 0x00000000#32) reducesTo_S1024x64x256_S1024x256_d1 h_S_)
    (broadcastInDim S1024x256 ![] bcast_S_S1024x256 (constant S_ .f32 0x42800000#32))

/-! ## Index words in [0, 512): the wrap does nothing and the range test holds -/

/-- The unit axis of [1024,64,1] is its last. -/
theorem unitAxis : S1024x64x1.Reduces [2] S1024x64 := by decide

section InRange
variable (a6 : IVec S1024x64 32) (hw : ∀ j, (a6 j).toNat < 512)
include hw

theorem words_lt (i : S1024x64x1.Idx) : (words a6 i).toNat < 512 := hw _

/-- A word below 512 is not negative, so it is not moved. -/
theorem wrapped_eq : wrapped a6 = words a6 := by
  funext i
  have hi := words_lt a6 hw i
  have hslt : IntOp.cmpi .slt (words a6 i) 0#32 = 0#1 :=
    eq_zero_of_ne_one fun h => by
      have h' := (StableHlo.Predicate.slt_iff_toNat (by omega) (by decide)).mp h
      simp at h'
  show Scalar.select (IntOp.cmpi .slt (words a6 i) 0#32) _ (words a6 i) = words a6 i
  rw [hslt, select_zero]

/-- Both comparisons hold of a word in [0, 512). -/
theorem both_hold (i : S1024x64x1.Idx) :
    IntOp.andi (IntOp.cmpi .sge (wrapped a6 i) 0#32) (IntOp.cmpi .sle (wrapped a6 i) 511#32) = 1#1 := by
  rw [wrapped_eq a6 hw]
  have hi := words_lt a6 hw i
  have h1 : IntOp.cmpi .sge (words a6 i) 0#32 = 1#1 :=
    (StableHlo.Predicate.sge_iff_toNat (by omega) (by decide)).mpr (by simp)
  have h2 : IntOp.cmpi .sle (words a6 i) 511#32 = 1#1 :=
    (StableHlo.Predicate.sle_iff_toNat (by omega) (by decide)).mpr (by show (words a6 i).toNat ≤ 511; omega)
  rw [h1, h2]; rfl

/-- So the range test is true at every (b, p): the conjunction over the unit axis has one term. -/
theorem inRange_eq (j : S1024x64.Idx) : inRange a6 j = 1#1 := by
  unfold inRange
  rw [Host.reduce_eq_fold_single IntOp.andi _ _ reducesTo_S1024x64x1_S1024x64_d2 unitAxis h_S_ j]
  show (Finset.univ : Finset (Fin 1)).fold IntOp.andi 1#1 _ = 1#1
  rw [Finset.univ_unique]
  refine Finset.fold_singleton.trans ?_
  exact (congrArg (IntOp.andi · 1#1) (both_hold a6 hw _)).trans (by decide)

/-- and the rows taken are the gathered rows, at the words themselves. -/
theorem taken_eq (a7 : FVec Ideal S1024x512x256 .f32) :
    taken a6 a7 = Host.gather gather_S1024x512x256_S1024x64x1_S1024x64x256_2_1_0_0_1_2_11256 a7 (words a6) := by
  have hall : inRange a6 = fun _ => 1#1 := funext (inRange_eq a6 hw)
  unfold taken
  rw [hall, wrapped_eq a6 hw]
  funext i
  rw [select_apply]
  exact select_one _ _

end InRange

/-! ## The gather, read at an index -/

/-- The gather's dimension numbers: batch axis 0 of the table paired with axis 0 of the indices, the node axis 1
    collapsed and named by the one start index, the 256 features an offset axis. -/
abbrev gd : GatherDims S1024x512x256 S1024x64x1 S1024x64x256 := gather_S1024x512x256_S1024x64x1_S1024x64x256_2_1_0_0_1_2_11256

/-- On the batch axis the gather reads the result's batch coordinate. -/
theorem gather_coord0 (j : S1024x64x256.Idx) (idx : IVec S1024x64x1 32) : (gd.operandIdx j idx 0).val = (j 0).val := by
  show gd.start j idx 0 + gd.batchCoord j 0 + gd.offCoord j 0 = (j 0).val
  have h1 : gd.start j idx 0 = 0 := rfl
  have h2 : gd.batchCoord j 0 = (j 0).val := rfl
  have h3 : gd.offCoord j 0 = 0 := rfl
  rw [h1, h2, h3]; omega

/-- On the feature axis it reads the result's feature coordinate. -/
theorem gather_coord2 (j : S1024x64x256.Idx) (idx : IVec S1024x64x1 32) : (gd.operandIdx j idx 2).val = (j 2).val := by
  show gd.start j idx 2 + gd.batchCoord j 2 + gd.offCoord j 2 = (j 2).val
  have h1 : gd.start j idx 2 = 0 := rfl
  have h2 : gd.batchCoord j 2 = 0 := rfl
  have h3 : gd.offCoord j 2 = (j 2).val := rfl
  rw [h1, h2, h3]; omega

/-- On the node axis it reads the start index at (b, p, 0), signed and clamped into [0, 511]. -/
theorem gather_coord1 (j : S1024x64x256.Idx) (idx : IVec S1024x64x1 32) :
    (gd.operandIdx j idx 1).val = min (idx (ix3 (j 0) (j 1) (0 : Fin 1))).toInt.toNat 511 := by
  show gd.start j idx 1 + gd.batchCoord j 1 + gd.offCoord j 1 = _
  have h2 : gd.batchCoord j 1 = 0 := rfl
  have h3 : gd.offCoord j 1 = 0 := rfl
  have h1 : gd.start j idx 1 = min (idx (ix3 (j 0) (j 1) (0 : Fin 1))).toInt.toNat 511 := by
    unfold GatherDims.start
    rw [dif_pos (show (1 : Fin S1024x512x256.rank) ∈ gd.startIndexMap by decide)]
    have hsi : gd.siIdx j ⟨List.idxOf (1 : Fin S1024x512x256.rank) gd.startIndexMap,
        List.idxOf_lt_length_iff.2 (by decide)⟩ = ix3 (j 0) (j 1) (0 : Fin 1) := by
      funext c; refine Fin.ext ?_
      match c with
      | ⟨0, _⟩ => rfl
      | ⟨1, _⟩ => rfl
      | ⟨2, _⟩ => rfl
    rw [hsi]
    rfl
  rw [h1, h2, h3]; omega

/-- The gather at (b, p, e), the start indices being words below 512: the node table at (b, word (b, p), e). -/
theorem gather_apply (a6 : IVec S1024x64 32) (hw : ∀ j, (a6 j).toNat < 512) (a7 : FVec Ideal S1024x512x256 .f32)
    (b : Fin 1024) (p : Fin 64) (e : Fin 256) :
    Host.gather gd a7 (words a6) (ix3 b p e) = a7 (ix3 b (⟨(a6 (ix2 b p)).toNat, hw _⟩ : Fin 512) e) := by
  unfold Host.gather
  refine congrArg a7 (funext fun ax => Fin.ext ?_)
  have hwd : words a6 (ix3 b p (0 : Fin 1)) = a6 (ix2 b p) :=
    broadcastInDim_apply _ bcast_S1024x64_S1024x64x1_0_1 a6 _ _ (fun a => match a with
      | ⟨0, _⟩ => by show b.val = if (1024 : Nat) = 1 then 0 else b.val; rw [if_neg (by decide)]
      | ⟨1, _⟩ => by show p.val = if (64 : Nat) = 1 then 0 else p.val; rw [if_neg (by decide)])
  match ax with
  | ⟨0, _⟩ => exact gather_coord0 _ _
  | ⟨1, _⟩ =>
    refine (gather_coord1 _ _).trans ?_
    show min (words a6 (ix3 b p (0 : Fin 1))).toInt.toNat 511 = (a6 (ix2 b p)).toNat
    have hlt := hw (ix2 b p)
    rw [hwd, StableHlo.Predicate.toInt_eq_toNat_of_lt (by omega), Int.toNat_natCast]
    omega
  | ⟨2, _⟩ => exact gather_coord2 _ _

/-! ## The product with the weights, the bias, and the sum over the neighbours -/

/-- The left operand of the product reads its batch row from the result index, … -/
theorem lhs_dot_0 (i : S1024x64x256.Idx) (q : dot_S1024x64x256_S256x256_S1024x64x256_2_0_01_1_n_n.contr.Idx) : (dot_S1024x64x256_S256x256_S1024x64x256_2_0_01_1_n_n.lhsIdx i q 0).val = (i 0).val := by
  unfold DotDims.lhsIdx
  rw [dif_neg (show ¬(0 : Fin S1024x64x256.rank) ∈ dot_S1024x64x256_S256x256_S1024x64x256_2_0_01_1_n_n.lhsBatch by decide),
    dif_pos (show (0 : Fin S1024x64x256.rank) ∈ dot_S1024x64x256_S256x256_S1024x64x256_2_0_01_1_n_n.lhsNonContracting by decide)]
  rfl

/-- … its neighbour from the result index, … -/
theorem lhs_dot_1 (i : S1024x64x256.Idx) (q : dot_S1024x64x256_S256x256_S1024x64x256_2_0_01_1_n_n.contr.Idx) : (dot_S1024x64x256_S256x256_S1024x64x256_2_0_01_1_n_n.lhsIdx i q 1).val = (i 1).val := by
  unfold DotDims.lhsIdx
  rw [dif_neg (show ¬(1 : Fin S1024x64x256.rank) ∈ dot_S1024x64x256_S256x256_S1024x64x256_2_0_01_1_n_n.lhsBatch by decide),
    dif_pos (show (1 : Fin S1024x64x256.rank) ∈ dot_S1024x64x256_S256x256_S1024x64x256_2_0_01_1_n_n.lhsNonContracting by decide)]
  rfl

/-- … and its feature from the contracted coordinate. -/
theorem lhs_dot_2 (i : S1024x64x256.Idx) (q : dot_S1024x64x256_S256x256_S1024x64x256_2_0_01_1_n_n.contr.Idx) : (dot_S1024x64x256_S256x256_S1024x64x256_2_0_01_1_n_n.lhsIdx i q 2).val = (q ⟨0, by decide⟩).val :=
  dot_S1024x64x256_S256x256_S1024x64x256_2_0_01_1_n_n.lhsIdx_val_of_single rfl i q

/-- The weights read their row from the contracted coordinate … -/
theorem rhs_dot_0 (i : S1024x64x256.Idx) (q : dot_S1024x64x256_S256x256_S1024x64x256_2_0_01_1_n_n.contr.Idx) : (dot_S1024x64x256_S256x256_S1024x64x256_2_0_01_1_n_n.rhsIdx i q 0).val = (q ⟨0, by decide⟩).val :=
  dot_S1024x64x256_S256x256_S1024x64x256_2_0_01_1_n_n.rhsIdx_val_of_single rfl i q

/-- … and their column from the result's feature. -/
theorem rhs_dot_1 (i : S1024x64x256.Idx) (q : dot_S1024x64x256_S256x256_S1024x64x256_2_0_01_1_n_n.contr.Idx) : (dot_S1024x64x256_S256x256_S1024x64x256_2_0_01_1_n_n.rhsIdx i q 1).val = (i 2).val := by
  unfold DotDims.rhsIdx
  rw [dif_neg (show ¬(1 : Fin S256x256.rank) ∈ dot_S1024x64x256_S256x256_S1024x64x256_2_0_01_1_n_n.rhsBatch by decide),
    dif_pos (show (1 : Fin S256x256.rank) ∈ dot_S1024x64x256_S256x256_S1024x64x256_2_0_01_1_n_n.rhsNonContracting by decide)]
  rfl

/-- The product at (b, p, f): the sum over e of row (b, p) at e times weight (e, f). -/
theorem dot_apply (X : FVec Ideal S1024x64x256 .f32) (W : FVec Ideal S256x256 .f32) (b : Fin 1024) (p : Fin 64) (f : Fin 256) :
    Host.dotGeneral dot_S1024x64x256_S256x256_S1024x64x256_2_0_01_1_n_n none X W (ix3 b p f) = ∑ e : Fin 256, X (ix3 b p e) * W (ix2 e f) := by
  simp only [Host.dotGeneral]
  rw [Ideal.dotGeneral_apply, ← Equiv.sum_comp (contrEquiv1 dot_S1024x64x256_S256x256_S1024x64x256_2_0_01_1_n_n 256 rfl rfl).symm]
  refine Finset.sum_congr rfl fun k _ => ?_
  have hk := contrEquiv1_symm_val dot_S1024x64x256_S256x256_S1024x64x256_2_0_01_1_n_n 256 rfl rfl k
  have el : dot_S1024x64x256_S256x256_S1024x64x256_2_0_01_1_n_n.lhsIdx (ix3 b p f) ((contrEquiv1 dot_S1024x64x256_S256x256_S1024x64x256_2_0_01_1_n_n 256 rfl rfl).symm k) = ix3 b p k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S1024x64x256_S256x256_S1024x64x256_2_0_01_1_n_n.rhsIdx (ix3 b p f) ((contrEquiv1 dot_S1024x64x256_S256x256_S1024x64x256_2_0_01_1_n_n 256 rfl rfl).symm k) = ix2 k f :=
    funext fun a => Fin.ext (by
      match a with
      | ⟨0, _⟩ => exact (rhs_dot_0 _ _).trans hk
      | ⟨1, _⟩ => exact rhs_dot_1 _ _)
  rw [el, er]

/-- The bias broadcast over batch rows and neighbours: at (b, p, f) the bias at f. -/
theorem bias_apply (a9 : FVec Ideal S256 .f32) (b : Fin 1024) (p : Fin 64) (f : Fin 256) :
    broadcastInDim S1024x64x256 ![0, 1, 2] bcast_S1x1x256_S1024x64x256_0_1_2
      (broadcastInDim S1x1x256 ![2] bcast_S256_S1x1x256_2 a9) (ix3 b p f) = a9 (ix1 f) := by
  refine (broadcastInDim_apply _ bcast_S1x1x256_S1024x64x256_0_1_2 _ (ix3 b p f) (ix3 (0 : Fin 1) (0 : Fin 1) f) (fun a => match a with
    | ⟨0, _⟩ => by show 0 = if (1 : Nat) = 1 then 0 else b.val; rw [if_pos rfl]
    | ⟨1, _⟩ => by show 0 = if (1 : Nat) = 1 then 0 else p.val; rw [if_pos rfl]
    | ⟨2, _⟩ => by show f.val = if (256 : Nat) = 1 then 0 else f.val; rw [if_neg (by decide)])).trans ?_
  exact broadcastInDim_apply _ bcast_S256_S1x1x256_2 a9 (ix3 (0 : Fin 1) (0 : Fin 1) f) (ix1 f) (fun a => match a with
    | ⟨0, _⟩ => by show f.val = if (256 : Nat) = 1 then 0 else f.val; rw [if_neg (by decide)])

/-- The neighbour axis of [1024,64,256] is its middle one. -/
theorem nbrAxis : S1024x64x256.Reduces [1] S1024x256 := by decide

/-- The sum over the neighbours, started from the zero word: at (b, f) zero plus the sum over p of the operand at (b, p, f). -/
theorem sum_apply (Z : FVec Ideal S1024x64x256 .f32) (b : Fin 1024) (f : Fin 256) :
    Host.reduceAdd Z (constant (F := Ideal) S_ .f32 0x00000000#32) reducesTo_S1024x64x256_S1024x256_d1 h_S_ (ix2 b f)
      = Ideal.ofBits .f32 0x00000000#32 + ∑ p : Fin 64, Z (ix3 b p f) := by
  simp only [Host.reduceAdd, Ideal.hostReduceAdd_def]
  rw [Ideal.hostReduceAdd_single reducesTo_S1024x64x256_S1024x256_d1 nbrAxis]
  refine congrArg₂ (· + ·) rfl (Finset.sum_congr rfl fun k _ => ?_)
  exact congrArg Z (funext fun a => Fin.ext (by match a with | ⟨0, _⟩ => rfl | ⟨1, _⟩ => rfl | ⟨2, _⟩ => rfl))

/-! ## The stage at an index -/

/-- The host's tanh of an array is taken entry by entry. -/
theorem hostTanh_apply {s : Shape} {φ : FTy} (x : FVec Ideal s φ) (i : s.Idx) : Host.tanh x i = Ideal.tanh (x i) := rfl

/-- The host's quotient of two arrays is taken entry by entry. -/
theorem hostDivf_apply {s : Shape} {φ : FTy} (x y : FVec Ideal s φ) (i : s.Idx) : Host.divf x y i = Ideal.div (x i) (y i) := rfl

/-- THE REFERENCE'S POOLED STAGE at (b, f), the index words being below 512: the reference's spelling of the pooled
    function of the 64 node-table rows the words of batch row b name, the weights and the bias. -/
theorem aggTerm_apply (a6 : IVec S1024x64 32) (a7 : FVec Ideal S1024x512x256 .f32) (a8 : FVec Ideal S256x256 .f32)
    (a9 : FVec Ideal S256 .f32) (hidx : ∀ j, (a6 j).toNat < 512) (b : Fin 1024) (f : Fin 256) :
    aggTerm (F := Ideal) a6 a7 a8 a9 (ix2 b f)
      = Cert.Spec.pooledRef (fun p e => a7 (ix3 b (⟨(a6 (ix2 b p)).toNat, hidx _⟩ : Fin 512) e)) (fun e f' => a8 (ix2 e f'))
          (fun f' => a9 (ix1 f')) f := by
  unfold aggTerm Cert.Spec.pooledRef Cert.Spec.image
  refine (hostDivf_apply _ _ _).trans ?_
  rw [sum_apply]
  show Ideal.div (Ideal.ofBits .f32 0x00000000#32 + _) (Ideal.ofBits .f32 0x42800000#32) = _
  rw [Cert.Spec.ofBits_64, Cert.Spec.ofBits_zero]
  refine congrArg (fun s => Ideal.div ((0 : EReal) + s) ((64 : ℝ) : EReal)) (Finset.sum_congr rfl fun p _ => ?_)
  refine (hostTanh_apply _ _).trans ?_
  rw [addf_apply, dot_apply, bias_apply, taken_eq a6 hidx]
  refine congrArg (fun s => Ideal.tanh (s + a9 (ix1 f))) (Finset.sum_congr rfl fun e _ => ?_)
  rw [gather_apply a6 hidx]

end Cert.ReferenceIdeal.Hand

end
-- ==== Proof.Ref.Value.lean ====
import proofs.«406790_j29661044146287_2_alg».proof.Defs
import proofs.«406790_j29661044146287_2_alg».proof.Proof.Gen.ReferenceIdeal
import proofs.«406790_j29661044146287_2_alg».proof.Proof.Ref.RunP
import proofs.«406790_j29661044146287_2_alg».proof.Proof.Ref.Agg
import proofs.«406790_j29661044146287_2_alg».proof.Proof.Spec
import Idealize.ShloMosaic.Lib.ValueIdx

/-! The reference program's run and the value of its pooled stage, over the extended reals.

The run leaves in the result the concatenation of six arrays that are arguments or reshaped arguments and of the
pooled array; the pooled array at `(b, f)` is the mean, over the 64 table rows the index words of batch row `b`
name, of `tanh (row · W + bias)` at feature `f`. -/

noncomputable section

namespace Cert.ReferenceIdeal.Hand

open Idealize.ShloMosaic Idealize.SL.Sem

/-- The reference's last five operations as one term of their operands: the four reshapes of arguments 1 to 4 and the
    concatenation, along axis 1, of argument 0, the four reshaped arrays, argument 5 and the pooled array. -/
def tailTermR {F : FTy → Type} [FloatOps F] (a0 : Cert.ReferenceIdeal.S1024x64.Idx → Elt F .f32) (a1 : Cert.ReferenceIdeal.S1024x64x2.Idx → Elt F .f32) (a2 a3 a4 : Cert.ReferenceIdeal.S1024x64x64.Idx → Elt F .f32)
    (a5 : Cert.ReferenceIdeal.S1024x64.Idx → Elt F .f32) (agg : Cert.ReferenceIdeal.S1024x256.Idx → Elt F .f32) : Cert.ReferenceIdeal.S1024x12800.Idx → Elt F .f32 :=
  concatenate Cert.ReferenceIdeal.S1024x12800 1
    [⟨Cert.ReferenceIdeal.S1024x64, a0⟩, ⟨Cert.ReferenceIdeal.S1024x128, shapeCast _ a1 Cert.ReferenceIdeal.Facts₀.shapeCasts_S1024x64x2_S1024x128⟩,
     ⟨Cert.ReferenceIdeal.S1024x4096, shapeCast _ a2 Cert.ReferenceIdeal.Facts₀.shapeCasts_S1024x64x64_S1024x4096⟩, ⟨Cert.ReferenceIdeal.S1024x4096, shapeCast _ a3 Cert.ReferenceIdeal.Facts₀.shapeCasts_S1024x64x64_S1024x4096⟩,
     ⟨Cert.ReferenceIdeal.S1024x4096, shapeCast _ a4 Cert.ReferenceIdeal.Facts₀.shapeCasts_S1024x64x64_S1024x4096⟩, ⟨Cert.ReferenceIdeal.S1024x64, a5⟩, ⟨Cert.ReferenceIdeal.S1024x256, agg⟩]
    Cert.ReferenceIdeal.Facts₀.concatenates_S1024x64_S1024x128_S1024x4096_S1024x4096_S1024x4096_S1024x64_S1024x256_S1024x12800_d1

/-- The reference's pooled array `%9`: the composed term of the gather, the affine map, `tanh`, the sum over the 64
    gathered rows and the division by 64, at the launch contents of arguments 6 to 9. -/
def aggR (m' : (ℓ : Loc Cert.ReferenceIdeal.nD Cert.ReferenceIdeal.τ Cert.ReferenceIdeal.sig) → Buf (Elt Ideal) ℓ) (c : Dev Cert.ReferenceIdeal.nD) : Cert.ReferenceIdeal.S1024x256.Idx → EReal :=
  aggTerm (F := Ideal) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))

/-- Every weakly fair execution of the reference terminates; its result is the tail term of arguments 0 to 5 and the
    pooled array, and the ten arguments end unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v14) = tailTermR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (aggR m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) :=
  (θ_run (Cert.ReferenceIdeal.defs (F := Ideal)) _ _).mono
    (fun _ h c => ⟨(h c).1.trans (by unfold tailTermR aggR; rfl), (h c).2⟩)
    (Cert.ReferenceIdeal.ValueP.run (F := Ideal) m' g')

/-- The pooled array at `(b, f)`, under in-range index words: the mean over the 64 gathered rows of
    `tanh (row · W + bias)` at feature `f`, in the reference's spelling. -/
theorem aggR_apply (m' : (ℓ : Loc Cert.ReferenceIdeal.nD Cert.ReferenceIdeal.τ Cert.ReferenceIdeal.sig) → Buf (Elt Ideal) ℓ) (c : Dev Cert.ReferenceIdeal.nD)
    (hidx : ∀ (c : Dev Cert.ReferenceIdeal.nD) (j : Cert.ReferenceIdeal.S1024x64.Idx), (m' ((c.tc : Thread Cert.ReferenceIdeal.nD Cert.ReferenceIdeal.τ).loc Cert.ReferenceIdeal.main_arg6) j).toNat < 512)
    (b : Fin 1024) (f : Fin 256) :
    aggR m' c (ValueIdx.ix2 b f)
      = Cert.Spec.pooledRef (fun p e => m' ((c.tc : Thread Cert.ReferenceIdeal.nD Cert.ReferenceIdeal.τ).loc Cert.ReferenceIdeal.main_arg7) (ValueIdx.ix3 b (⟨(m' ((c.tc : Thread Cert.ReferenceIdeal.nD Cert.ReferenceIdeal.τ).loc Cert.ReferenceIdeal.main_arg6) (ValueIdx.ix2 b p)).toNat, hidx c _⟩ : Fin 512) e))
          (fun e f' => m' ((c.tc : Thread Cert.ReferenceIdeal.nD Cert.ReferenceIdeal.τ).loc Cert.ReferenceIdeal.main_arg8) (ValueIdx.ix2 e f')) (fun f' => m' ((c.tc : Thread Cert.ReferenceIdeal.nD Cert.ReferenceIdeal.τ).loc Cert.ReferenceIdeal.main_arg9) (ValueIdx.ix1 f')) f := by
  unfold aggR
  exact aggTerm_apply _ _ _ _ (hidx c) b f

end Cert.ReferenceIdeal.Hand

end
-- ==== Proof.lean ====
/-
  The certificate of the gather–linear–tanh–pool kernel against its jnp reference.

  Both programs compute, for each of the 1024 batch rows, the mean over the 64 node rows its index words name of
  `tanh (row · W + bias)`, feature by feature, and write it as the last 256 columns of a [1024, 12800] array whose
  other columns are six arguments passed through unchanged (four of them reshaped).  The kernel gathers the 64·16
  rows of a grid point into a scratch by one copy each, sixty-four copies in flight at a time on sixty-four
  semaphore cells, every copy awaited before the scratch is read; the reference gathers by `take_along_axis`.

  The index words must name rows of the table: under the precondition every word is below 512 (`PreIdx.idx_lt`),
  which is what the kernel's copies assume of the words they read and where the reference's gather reads the row
  the word names.  Then: each program runs to the end with its arguments unchanged (the three frames); the ideal
  pass rewrote nothing (`preserves`); and at the extended reals the kernel's pooled array (`outArr_apply`: the sum
  of the 64 images times 1/64) and the reference's (`aggR_apply`: the sum, from zero, divided by 64) are one
  function (`Spec.pooledRef_eq`: division by 64 is multiplication by 1/64 on every extended real), so the two
  results, the same concatenation of equal pieces, are equal.
-/
import proofs.«406790_j29661044146287_2_alg».proof.Defs
import proofs.«406790_j29661044146287_2_alg».proof.Proof.Gen.Kernel
import proofs.«406790_j29661044146287_2_alg».proof.Proof.Gen.KernelIdeal
import proofs.«406790_j29661044146287_2_alg».proof.Proof.Gen.ReferenceIdeal
import proofs.«406790_j29661044146287_2_alg».proof.Proof.Gen.Pre_finite_inputs
import proofs.«406790_j29661044146287_2_alg».proof.Proof.PreIdx
import proofs.«406790_j29661044146287_2_alg».proof.Proof.Spec
import proofs.«406790_j29661044146287_2_alg».proof.Proof.K.Launch
import proofs.«406790_j29661044146287_2_alg».proof.Proof.KI.Launch
import proofs.«406790_j29661044146287_2_alg».proof.Proof.KI.Value
import proofs.«406790_j29661044146287_2_alg».proof.Proof.Ref.Value
import Idealize.ShloMosaic.Lib.ValueIdx

noncomputable section

open Idealize.ShloMosaic Idealize.ShloMosaic.TcCoe Idealize.SL.Sem

namespace Cert.Proof

/-- Under the precondition every index word names a row of the table (at the idealized kernel's memory). -/
theorem idxKI (m : (ℓ : Loc Cert.KernelIdeal.nD Cert.KernelIdeal.τ Cert.KernelIdeal.sig) → Buf (Elt Ideal) ℓ) (h : Cert.Pre_KernelIdeal m) (c : Dev Cert.KernelIdeal.nD) (j : Cert.KernelIdeal.S1024x64.Idx) :
    (m ((c.tc : Thread Cert.KernelIdeal.nD Cert.KernelIdeal.τ).loc Cert.KernelIdeal.main_arg6) j).toNat < 512 :=
  Cert.Proof.PreIdx.idx_lt _ _ _ _ _ _ _ _ _ _ (h c) j

/-- The same at the word-level kernel's memory. -/
theorem idxK (m : (ℓ : Loc Cert.Kernel.nD Cert.Kernel.τ Cert.Kernel.sig) → Buf (Elt Bits) ℓ) (h : Cert.Pre_Kernel m) (c : Dev Cert.Kernel.nD) (j : Cert.Kernel.S1024x64.Idx) :
    (m ((c.tc : Thread Cert.Kernel.nD Cert.Kernel.τ).loc Cert.Kernel.main_arg6) j).toNat < 512 :=
  Cert.Proof.PreIdx.idx_lt _ _ _ _ _ _ _ _ _ _ (h c) j

/-- The word-level kernel runs to the end and leaves its arguments as they were: its run with the result dropped. -/
theorem frame_k : Cert.frame_Kernel := fun m g h =>
  (θ_run Cert.Kernel.defs _ _).mono (fun _ hr c => (hr c).2) (Cert.Kernel.Hand.run_main (F := Bits) m g (idxK m h))

/-- The same of the idealized kernel. -/
theorem frame_ki : Cert.frame_KernelIdeal := fun m g h =>
  (θ_run Cert.KernelIdeal.defs _ _).mono (fun _ hr c => (hr c).2) (Cert.KernelIdeal.Hand.run_main (F := Ideal) m g (idxKI m h))

/-- The reference is host operations only: its run with the result dropped. -/
theorem frame_ri : Cert.frame_ReferenceIdeal := fun m g _ =>
  (θ_run Cert.ReferenceIdeal.defs _ _).mono (fun _ hr c => (hr c).2) (Cert.ReferenceIdeal.Hand.ref_run m g)

/-- The two programs end with the same five operations — four reshapes and the concatenation —: one function of the
    six passed-through arguments and the pooled array (the shapes are the same literals in both programs). -/
theorem tail_eq (a0 : Cert.KernelIdeal.S1024x64.Idx → EReal) (a1 : Cert.KernelIdeal.S1024x64x2.Idx → EReal) (a2 a3 a4 : Cert.KernelIdeal.S1024x64x64.Idx → EReal)
    (a5 : Cert.KernelIdeal.S1024x64.Idx → EReal) (agg : Cert.KernelIdeal.S1024x256.Idx → EReal) :
    Cert.ReferenceIdeal.Hand.tailTermR (F := Ideal) a0 a1 a2 a3 a4 a5 agg = Cert.KernelIdeal.Hand.tailTerm (F := Ideal) a0 a1 a2 a3 a4 a5 agg := rfl

/-- From memories that agree on the arguments both idealized programs end at the same result: the passed-through
    pieces are the arguments, and the pooled arrays agree entry by entry — the kernel's sum of the 64 images times
    `1/64` is the reference's sum, from zero, divided by `64`. -/
theorem algebraic : Cert.algebraic_KernelIdeal_ReferenceIdeal := by
  intro m g m' g' hpre hagree
  have hidx := idxKI m hpre
  have hidx' : ∀ (c : Dev Cert.ReferenceIdeal.nD) (j : Cert.ReferenceIdeal.S1024x64.Idx), (m' ((c.tc : Thread Cert.ReferenceIdeal.nD Cert.ReferenceIdeal.τ).loc Cert.ReferenceIdeal.main_arg6) j).toNat < 512 := fun c j => by
    rw [(hagree c).2.2.2.2.2.2.1]; exact hidx c j
  refine ⟨fun c => Cert.KernelIdeal.Hand.tailTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.KernelIdeal.Hand.outArr m c), Cert.KernelIdeal.Hand.run_main (F := Ideal) m g hidx, ?_⟩
  refine (θ_run Cert.ReferenceIdeal.defs _ _).mono (fun _ hr c => ⟨(hr c).1.trans ?_, (hr c).2⟩) (Cert.ReferenceIdeal.Hand.ref_run m' g')
  obtain ⟨h0, h1, h2, h3, h4, h5, h6, h7, h8, h9⟩ := hagree c
  rw [h0, h1, h2, h3, h4, h5, tail_eq]
  refine congrArg _ ?_
  funext y
  obtain ⟨b, f, rfl⟩ : ∃ (b : Fin 1024) (f : Fin 256), y = ValueIdx.ix2 b f := ⟨y 0, y 1, ValueIdx.eq_ix2 y⟩
  rw [Cert.ReferenceIdeal.Hand.aggR_apply m' c hidx', Cert.KernelIdeal.HandValue.outArr_apply m c hidx, Cert.Spec.pooledRef_eq]
  simp only [h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
